-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v185) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x1 : Shape := ⟨2, ![200000, 1]⟩
abbrev S2x2500000 : Shape := ⟨2, ![2, 2500000]⟩
abbrev S2500000 : Shape := ⟨1, ![2500000]⟩
abbrev S1x32 : Shape := ⟨2, ![1, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩
abbrev S1x2500000 : Shape := ⟨2, ![1, 2500000]⟩

class Facts : Prop where
  bcast_S_S200000x1 : S_.BroadcastsInDim S200000x1 (![] : Fin 0 → Fin S200000x1.rank)
  reducesTo_S200000x1_S_d0_1 : S200000x1.ReducesTo [0, 1] S_
  h_S_ : 0 < S_.numel
  bcast_S_S2500000 : S_.BroadcastsInDim S2500000 (![] : Fin 0 → Fin S2500000.rank)
  reducesTo_S2500000_S_d0 : S2500000.ReducesTo [0] S_
  bcast_S_S1x32 : S_.BroadcastsInDim S1x32 (![] : Fin 0 → Fin S1x32.rank)
  reducesTo_S1x32_S_d0_1 : S1x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  slices_S2x2500000_S1x2500000_0_0 : S2x2500000.Slices ![0, 0] S1x2500000
  shapeCasts_S1x2500000_S2500000 : S1x2500000.ShapeCasts S2500000

variable [Facts]

def fn_part5 {F : FTy → Type} [FloatOps F] (main_v78 : IVec S_ 1) (main_v82 : IVec S2500000 1) (main_v84 : IVec S2500000 32) (main_v85 : IVec S2500000 32) : IVec S_ 1 :=
  let main_v86 : IVec S2500000 1 := cmpi .slt main_v84 main_v85
  let main_v87 : IVec S2500000 1 := andi main_v82 main_v86
  let main_c_32 : IVec S_ 1 := constantI S_ 1 1#1
  let main_v88 : IVec S_ 1 := (fun x v => Host.reduce IntOp.andi x v reducesTo_S2500000_S_d0 h_S_) main_v87 main_c_32
  let main_v89 : IVec S_ 1 := andi main_v78 main_v88
  main_v89

def fn_part4 {F : FTy → Type} [FloatOps F] (main_arg1 : IVec S2x2500000 32) (main_arg15 : FVec F S32x1 .f32) (main_arg16 : FVec F S1 .f32) (main_v63 : IVec S_ 1) (main_v67 : IVec S_ 1) : IVec S_ 1 :=
  let main_v68 : IVec S_ 1 := andi main_v63 main_v67
  let main_v69 : FVec F S32x1 .f32 := Host.absf main_arg15
  let main_cst_26 : FVec F S_ .f32 := constant S_ .f32 0x7F800000#32
  let main_v70 : FVec F S32x1 .f32 := broadcastInDim S32x1 ![] bcast_S_S32x1 main_cst_26
  let main_v71 : IVec S32x1 1 := cmpf .olt main_v69 main_v70
  let main_c_27 : IVec S_ 1 := constantI S_ 1 1#1
  let main_v72 : IVec S_ 1 := (fun x v => Host.reduce IntOp.andi x v reducesTo_S32x1_S_d0_1 h_S_) main_v71 main_c_27
  let main_v73 : IVec S_ 1 := andi main_v68 main_v72
  let main_v74 : FVec F S1 .f32 := Host.absf main_arg16
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  let main_v79 : IVec S1x2500000 32 := (extractStridedSlice S1x2500000 ![0, 0] · slices_S2x2500000_S1x2500000_0_0) main_arg1
  let main_v80 : IVec S2500000 32 := shapeCast S2500000 main_v79 shapeCasts_S1x2500000_S2500000
  let main_c_30 : IVec S_ 32 := constantI S_ 32 0#32
  let main_v81 : IVec S2500000 32 := broadcastInDim S2500000 ![] bcast_S_S2500000 main_c_30
  let main_v82 : IVec S2500000 1 := cmpi .sge main_v80 main_v81
  let main_v83 : IVec S1x2500000 32 := (extractStridedSlice S1x2500000 ![0, 0] · slices_S2x2500000_S1x2500000_0_0) main_arg1
  let main_v84 : IVec S2500000 32 := shapeCast S2500000 main_v83 shapeCasts_S1x2500000_S2500000
  let main_c_31 : IVec S_ 32 := constantI S_ 32 200000#32
  let main_v85 : IVec S2500000 32 := broadcastInDim S2500000 ![] bcast_S_S2500000 main_c_31
  fn_part5 (F := F) main_v78 main_v82 main_v84 main_v85

def fn_part3 {F : FTy → Type} [FloatOps F] (main_arg1 : IVec S2x2500000 32) (main_arg12 : FVec F S32 .f32) (main_arg13 : FVec F S32 .f32) (main_arg14 : FVec F S32 .f32) (main_arg15 : FVec F S32x1 .f32) (main_arg16 : FVec F S1 .f32) (main_v48 : IVec S_ 1) (main_v49 : FVec F S32x32 .f32) (main_v50 : FVec F S32x32 .f32) : IVec S_ 1 :=
  let main_v51 : IVec S32x32 1 := cmpf .olt main_v49 main_v50
  let main_c_19 : IVec S_ 1 := constantI S_ 1 1#1
  let main_v52 : IVec S_ 1 := (fun x v => Host.reduce IntOp.andi x v reducesTo_S32x32_S_d0_1 h_S_) main_v51 main_c_19
  let main_v53 : IVec S_ 1 := andi main_v48 main_v52
  let main_v54 : FVec F S32 .f32 := Host.absf main_arg12
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32 .f32 := Host.absf main_arg13
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32 .f32 := Host.absf main_arg14
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg1 main_arg15 main_arg16 main_v63 main_v67

def fn_part2 {F : FTy → Type} [FloatOps F] (main_arg1 : IVec S2x2500000 32) (main_arg8 : FVec F S32 .f32) (main_arg9 : FVec F S32 .f32) (main_arg10 : FVec F S32 .f32) (main_arg11 : FVec F S32x32 .f32) (main_arg12 : FVec F S32 .f32) (main_arg13 : FVec F S32 .f32) (main_arg14 : FVec F S32 .f32) (main_arg15 : FVec F S32x1 .f32) (main_arg16 : FVec F S1 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x32 .f32 := Host.absf main_arg11
  let main_cst_18 : FVec F S_ .f32 := constant S_ .f32 0x7F800000#32
  let main_v50 : FVec F S32x32 .f32 := broadcastInDim S32x32 ![] bcast_S_S32x32 main_cst_18
  fn_part3 (F := F) main_arg1 main_arg12 main_arg13 main_arg14 main_arg15 main_arg16 main_v48 main_v49 main_v50

def fn_part1 {F : FTy → Type} [FloatOps F] (main_arg1 : IVec S2x2500000 32) (main_arg5 : FVec F S32 .f32) (main_arg6 : FVec F S32 .f32) (main_arg7 : FVec F S32x32 .f32) (main_arg8 : FVec F S32 .f32) (main_arg9 : FVec F S32 .f32) (main_arg10 : FVec F S32 .f32) (main_arg11 : FVec F S32x32 .f32) (main_arg12 : FVec F S32 .f32) (main_arg13 : FVec F S32 .f32) (main_arg14 : FVec F S32 .f32) (main_arg15 : FVec F S32x1 .f32) (main_arg16 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg7
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg1 main_arg8 main_arg9 main_arg10 main_arg11 main_arg12 main_arg13 main_arg14 main_arg15 main_arg16 main_v33

def fn {F : FTy → Type} [FloatOps F] (main_arg0 : FVec F S200000x1 .f32) (main_arg1 : IVec S2x2500000 32) (main_arg2 : FVec F S2500000 .f32) (main_arg3 : FVec F S1x32 .f32) (main_arg4 : FVec F S32 .f32) (main_arg5 : FVec F S32 .f32) (main_arg6 : FVec F S32 .f32) (main_arg7 : FVec F S32x32 .f32) (main_arg8 : FVec F S32 .f32) (main_arg9 : FVec F S32 .f32) (main_arg10 : FVec F S32 .f32) (main_arg11 : FVec F S32x32 .f32) (main_arg12 : FVec F S32 .f32) (main_arg13 : FVec F S32 .f32) (main_arg14 : FVec F S32 .f32) (main_arg15 : FVec F S32x1 .f32) (main_arg16 : FVec F S1 .f32) : IVec S_ 1 :=
  let main_v0 : FVec F S200000x1 .f32 := Host.absf main_arg0
  let main_cst : FVec F S_ .f32 := constant S_ .f32 0x7F800000#32
  let main_v1 : FVec F S200000x1 .f32 := broadcastInDim S200000x1 ![] bcast_S_S200000x1 main_cst
  let main_v2 : IVec S200000x1 1 := cmpf .olt main_v0 main_v1
  let main_c : IVec S_ 1 := constantI S_ 1 1#1
  let main_v3 : IVec S_ 1 := (fun x v => Host.reduce IntOp.andi x v reducesTo_S200000x1_S_d0_1 h_S_) main_v2 main_c
  let main_v4 : FVec F S2500000 .f32 := Host.absf main_arg2
  let main_cst_0 : FVec F S_ .f32 := constant S_ .f32 0x7F800000#32
  let main_v5 : FVec F S2500000 .f32 := broadcastInDim S2500000 ![] bcast_S_S2500000 main_cst_0
  let main_v6 : IVec S2500000 1 := cmpf .olt main_v4 main_v5
  let main_c_1 : IVec S_ 1 := constantI S_ 1 1#1
  let main_v7 : IVec S_ 1 := (fun x v => Host.reduce IntOp.andi x v reducesTo_S2500000_S_d0 h_S_) main_v6 main_c_1
  let main_v8 : IVec S_ 1 := andi main_v3 main_v7
  let main_v9 : FVec F S1x32 .f32 := Host.absf main_arg3
  let main_cst_2 : FVec F S_ .f32 := constant S_ .f32 0x7F800000#32
  let main_v10 : FVec F S1x32 .f32 := broadcastInDim S1x32 ![] bcast_S_S1x32 main_cst_2
  let main_v11 : IVec S1x32 1 := cmpf .olt main_v9 main_v10
  let main_c_3 : IVec S_ 1 := constantI S_ 1 1#1
  let main_v12 : IVec S_ 1 := (fun x v => Host.reduce IntOp.andi x v reducesTo_S1x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg1 main_arg5 main_arg6 main_arg7 main_arg8 main_arg9 main_arg10 main_arg11 main_arg12 main_arg13 main_arg14 main_arg15 main_arg16 main_v13 main_v16
-- ==== Kernel.lean ====
abbrev S200000x1 : Shape := ⟨2, ![200000, 1]⟩
abbrev S2x2500000 : Shape := ⟨2, ![2, 2500000]⟩
abbrev S2500000 : Shape := ⟨1, ![2500000]⟩
abbrev S1x32 : Shape := ⟨2, ![1, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x2500000 : Shape := ⟨2, ![1, 2500000]⟩
abbrev S_ : Shape := ⟨0, ![]⟩
abbrev S200000 : Shape := ⟨1, ![200000]⟩
abbrev S2500000x1 : Shape := ⟨2, ![2500000, 1]⟩
abbrev S200000x32 : Shape := ⟨2, ![200000, 32]⟩
abbrev S4000x1 : Shape := ⟨2, ![4000, 1]⟩
abbrev S4000x32 : Shape := ⟨2, ![4000, 32]⟩
abbrev S1x1 : Shape := ⟨2, ![1, 1]⟩
abbrev S2500000x32 : Shape := ⟨2, ![2500000, 32]⟩
abbrev S5000x32 : Shape := ⟨2, ![5000, 32]⟩
abbrev S5000x1 : Shape := ⟨2, ![5000, 1]⟩

abbrev nBuf : Space → Nat
  | .hbm => 259
  | .vmem => 63
  | .smem => 0
  | _ => 0

abbrev hbmTy0_0 (i : Nat) : BufTy := match i % 128 with
  | 0 => ⟨S200000x1, .f32⟩
  | 1 => ⟨S2x2500000, .i32⟩
  | 2 => ⟨S2500000, .f32⟩
  | 3 => ⟨S1x32, .f32⟩
  | 4 => ⟨S32, .f32⟩
  | 5 => ⟨S32, .f32⟩
  | 6 => ⟨S32, .f32⟩
  | 7 => ⟨S32x32, .f32⟩
  | 8 => ⟨S32, .f32⟩
  | 9 => ⟨S32, .f32⟩
  | 10 => ⟨S32, .f32⟩
  | 11 => ⟨S32x32, .f32⟩
  | 12 => ⟨S32, .f32⟩
  | 13 => ⟨S32, .f32⟩
  | 14 => ⟨S32, .f32⟩
  | 15 => ⟨S32x1, .f32⟩
  | 16 => ⟨S1, .f32⟩
  | 17 => ⟨S1x2500000, .i32⟩
  | 18 => ⟨S2500000, .i32⟩
  | 19 => ⟨S1x2500000, .i32⟩
  | 20 => ⟨S2500000, .i32⟩
  | 21 => ⟨S_, .f32⟩
  | 22 => ⟨S2500000, .f32⟩
  | 23 => ⟨S_, .f32⟩
  | 24 => ⟨S200000, .f32⟩
  | 25 => ⟨S2500000x1, .i32⟩
  | 26 => ⟨S200000, .f32⟩
  | 27 => ⟨S_, .f32⟩
  | 28 => ⟨S200000, .f32⟩
  | 29 => ⟨S200000, .f32⟩
  | 30 => ⟨S200000, .f32⟩
  | 31 => ⟨S_, .i32⟩
  | 32 => ⟨S2500000, .i32⟩
  | 33 => ⟨S2500000, .i1⟩
  | 34 => ⟨S_, .i32⟩
  | 35 => ⟨S2500000, .i32⟩
  | 36 => ⟨S2500000, .i32⟩
  | 37 => ⟨S2500000, .i32⟩
  | 38 => ⟨S2500000x1, .i32⟩
  | 39 => ⟨S2500000, .f32⟩
  | 40 => ⟨S_, .i32⟩
  | 41 => ⟨S2500000, .i32⟩
  | 42 => ⟨S2500000, .i1⟩
  | 43 => ⟨S_, .i32⟩
  | 44 => ⟨S2500000, .i32⟩
  | 45 => ⟨S2500000, .i32⟩
  | 46 => ⟨S2500000, .i32⟩
  | 47 => ⟨S2500000x1, .i32⟩
  | 48 => ⟨S2500000, .f32⟩
  | 49 => ⟨S2500000, .f32⟩
  | 50 => ⟨S2500000x1, .f32⟩
  | 51 => ⟨S200000, .f32⟩
  | 52 => ⟨S200000x1, .f32⟩
  | 53 => ⟨S200000x32, .f32⟩
  | 54 => ⟨S_, .i32⟩
  | 55 => ⟨S2500000, .i32⟩
  | 56 => ⟨S2500000, .i1⟩
  | 57 => ⟨S_, .i32⟩
  | 58 => ⟨S2500000, .i32⟩
  | 59 => ⟨S2500000, .i32⟩
  | 60 => ⟨S2500000, .i32⟩
  | 61 => ⟨S2500000x1, .i32⟩
  | 62 => ⟨S1, .i32⟩
  | 63 => ⟨S_, .i32⟩
  | 64 => ⟨S2500000x1, .i32⟩
  | 65 => ⟨S2500000x1, .i1⟩
  | 66 => ⟨S1x1, .i32⟩
  | 67 => ⟨S2500000x1, .i32⟩
  | 68 => ⟨S2500000x1, .i1⟩
  | 69 => ⟨S2500000x1, .i1⟩
  | 70 => ⟨S_, .i1⟩
  | 71 => ⟨S2500000, .i1⟩
  | 72 => ⟨S2500000x32, .f32⟩
  | 73 => ⟨S2500000x32, .i1⟩
  | 74 => ⟨S_, .f32⟩
  | 75 => ⟨S2500000x32, .f32⟩
  | 76 => ⟨S2500000x32, .f32⟩
  | 77 => ⟨S2500000x32, .f32⟩
  | 78 => ⟨S_, .f32⟩
  | 79 => ⟨S200000x32, .f32⟩
  | 80 => ⟨S2500000x1, .i32⟩
  | 81 => ⟨S200000x32, .f32⟩
  | 82 => ⟨S200000x32, .f32⟩
  | 83 => ⟨S200000x32, .f32⟩
  | 84 => ⟨S200000x32, .f32⟩
  | 85 => ⟨S1x32, .f32⟩
  | 86 => ⟨S200000x32, .f32⟩
  | 87 => ⟨S200000x32, .f32⟩
  | 88 => ⟨S_, .f32⟩
  | 89 => ⟨S32, .f32⟩
  | 90 => ⟨S_, .f32⟩
  | 91 => ⟨S32, .f32⟩
  | 92 => ⟨S32, .f32⟩
  | 93 => ⟨S_, .i32⟩
  | 94 => ⟨S_, .f32⟩
  | 95 => ⟨S32, .f32⟩
  | 96 => ⟨S1x32, .f32⟩
  | 97 => ⟨S_, .f32⟩
  | 98 => ⟨S1x32, .f32⟩
  | 99 => ⟨S1x32, .f32⟩
  | 100 => ⟨S200000x32, .f32⟩
  | 101 => ⟨S200000x32, .f32⟩
  | 102 => ⟨S200000x32, .f32⟩
  | 103 => ⟨S_, .f32⟩
  | 104 => ⟨S_, .f32⟩
  | 105 => ⟨S_, .f32⟩
  | 106 => ⟨S_, .f32⟩
  | 107 => ⟨S32, .f32⟩
  | 108 => ⟨S32, .f32⟩
  | 109 => ⟨S32, .f32⟩
  | 110 => ⟨S_, .f32⟩
  | 111 => ⟨S_, .i1⟩
  | 112 => ⟨S_, .f32⟩
  | 113 => ⟨S_, .f32⟩
  | 114 => ⟨S32, .f32⟩
  | 115 => ⟨S32, .f32⟩
  | 116 => ⟨S1x32, .f32⟩
  | 117 => ⟨S1x32, .f32⟩
  | 118 => ⟨S1x32, .f32⟩
  | 119 => ⟨S1x32, .f32⟩
  | 120 => ⟨S200000x32, .f32⟩
  | 121 => ⟨S200000x32, .f32⟩
  | 122 => ⟨S_, .i32⟩
  | 123 => ⟨S2500000, .i32⟩
  | 124 => ⟨S2500000, .i1⟩
  | 125 => ⟨S_, .i32⟩
  | 126 => ⟨S2500000, .i32⟩
  | 127 => ⟨S2500000, .i32⟩
  | _ => ⟨S200000x1, .f32⟩

abbrev hbmTy0_1 (i : Nat) : BufTy := match i % 128 with
  | 0 => ⟨S2500000, .i32⟩
  | 1 => ⟨S2500000x1, .i32⟩
  | 2 => ⟨S1, .i32⟩
  | 3 => ⟨S_, .i32⟩
  | 4 => ⟨S2500000x1, .i32⟩
  | 5 => ⟨S2500000x1, .i1⟩
  | 6 => ⟨S1x1, .i32⟩
  | 7 => ⟨S2500000x1, .i32⟩
  | 8 => ⟨S2500000x1, .i1⟩
  | 9 => ⟨S2500000x1, .i1⟩
  | 10 => ⟨S_, .i1⟩
  | 11 => ⟨S2500000, .i1⟩
  | 12 => ⟨S2500000x32, .f32⟩
  | 13 => ⟨S2500000x32, .i1⟩
  | 14 => ⟨S_, .f32⟩
  | 15 => ⟨S2500000x32, .f32⟩
  | 16 => ⟨S2500000x32, .f32⟩
  | 17 => ⟨S2500000x32, .f32⟩
  | 18 => ⟨S_, .f32⟩
  | 19 => ⟨S200000x32, .f32⟩
  | 20 => ⟨S2500000x1, .i32⟩
  | 21 => ⟨S200000x32, .f32⟩
  | 22 => ⟨S200000x32, .f32⟩
  | 23 => ⟨S200000x32, .f32⟩
  | 24 => ⟨S200000x32, .f32⟩
  | 25 => ⟨S1x32, .f32⟩
  | 26 => ⟨S200000x32, .f32⟩
  | 27 => ⟨S200000x32, .f32⟩
  | 28 => ⟨S_, .f32⟩
  | 29 => ⟨S32, .f32⟩
  | 30 => ⟨S_, .f32⟩
  | 31 => ⟨S32, .f32⟩
  | 32 => ⟨S32, .f32⟩
  | 33 => ⟨S_, .i32⟩
  | 34 => ⟨S_, .f32⟩
  | 35 => ⟨S32, .f32⟩
  | 36 => ⟨S1x32, .f32⟩
  | 37 => ⟨S_, .f32⟩
  | 38 => ⟨S1x32, .f32⟩
  | 39 => ⟨S1x32, .f32⟩
  | 40 => ⟨S200000x32, .f32⟩
  | 41 => ⟨S200000x32, .f32⟩
  | 42 => ⟨S200000x32, .f32⟩
  | 43 => ⟨S_, .f32⟩
  | 44 => ⟨S_, .f32⟩
  | 45 => ⟨S_, .f32⟩
  | 46 => ⟨S_, .f32⟩
  | 47 => ⟨S32, .f32⟩
  | 48 => ⟨S32, .f32⟩
  | 49 => ⟨S32, .f32⟩
  | 50 => ⟨S_, .f32⟩
  | 51 => ⟨S_, .i1⟩
  | 52 => ⟨S_, .f32⟩
  | 53 => ⟨S_, .f32⟩
  | 54 => ⟨S32, .f32⟩
  | 55 => ⟨S32, .f32⟩
  | 56 => ⟨S1x32, .f32⟩
  | 57 => ⟨S1x32, .f32⟩
  | 58 => ⟨S1x32, .f32⟩
  | 59 => ⟨S1x32, .f32⟩
  | 60 => ⟨S200000x32, .f32⟩
  | 61 => ⟨S200000x32, .f32⟩
  | 62 => ⟨S_, .i32⟩
  | 63 => ⟨S2500000, .i32⟩
  | 64 => ⟨S2500000, .i1⟩
  | 65 => ⟨S_, .i32⟩
  | 66 => ⟨S2500000, .i32⟩
  | 67 => ⟨S2500000, .i32⟩
  | 68 => ⟨S2500000, .i32⟩
  | 69 => ⟨S2500000x1, .i32⟩
  | 70 => ⟨S1, .i32⟩
  | 71 => ⟨S_, .i32⟩
  | 72 => ⟨S2500000x1, .i32⟩
  | 73 => ⟨S2500000x1, .i1⟩
  | 74 => ⟨S1x1, .i32⟩
  | 75 => ⟨S2500000x1, .i32⟩
  | 76 => ⟨S2500000x1, .i1⟩
  | 77 => ⟨S2500000x1, .i1⟩
  | 78 => ⟨S_, .i1⟩
  | 79 => ⟨S2500000, .i1⟩
  | 80 => ⟨S2500000x32, .f32⟩
  | 81 => ⟨S2500000x32, .i1⟩
  | 82 => ⟨S_, .f32⟩
  | 83 => ⟨S2500000x32, .f32⟩
  | 84 => ⟨S2500000x32, .f32⟩
  | 85 => ⟨S2500000x32, .f32⟩
  | 86 => ⟨S_, .f32⟩
  | 87 => ⟨S200000x32, .f32⟩
  | 88 => ⟨S2500000x1, .i32⟩
  | 89 => ⟨S200000x32, .f32⟩
  | 90 => ⟨S200000x32, .f32⟩
  | 91 => ⟨S200000x32, .f32⟩
  | 92 => ⟨S200000x32, .f32⟩
  | 93 => ⟨S1x32, .f32⟩
  | 94 => ⟨S200000x32, .f32⟩
  | 95 => ⟨S200000x32, .f32⟩
  | 96 => ⟨S_, .f32⟩
  | 97 => ⟨S32, .f32⟩
  | 98 => ⟨S_, .f32⟩
  | 99 => ⟨S32, .f32⟩
  | 100 => ⟨S32, .f32⟩
  | 101 => ⟨S_, .i32⟩
  | 102 => ⟨S_, .f32⟩
  | 103 => ⟨S32, .f32⟩
  | 104 => ⟨S1x32, .f32⟩
  | 105 => ⟨S_, .f32⟩
  | 106 => ⟨S1x32, .f32⟩
  | 107 => ⟨S1x32, .f32⟩
  | 108 => ⟨S200000x32, .f32⟩
  | 109 => ⟨S200000x32, .f32⟩
  | 110 => ⟨S200000x32, .f32⟩
  | 111 => ⟨S_, .f32⟩
  | 112 => ⟨S_, .f32⟩
  | 113 => ⟨S_, .f32⟩
  | 114 => ⟨S_, .f32⟩
  | 115 => ⟨S32, .f32⟩
  | 116 => ⟨S32, .f32⟩
  | 117 => ⟨S32, .f32⟩
  | 118 => ⟨S_, .f32⟩
  | 119 => ⟨S_, .i1⟩
  | 120 => ⟨S_, .f32⟩
  | 121 => ⟨S_, .f32⟩
  | 122 => ⟨S32, .f32⟩
  | 123 => ⟨S32, .f32⟩
  | 124 => ⟨S1x32, .f32⟩
  | 125 => ⟨S1x32, .f32⟩
  | 126 => ⟨S1x32, .f32⟩
  | 127 => ⟨S1x32, .f32⟩
  | _ => ⟨S200000x1, .f32⟩

abbrev hbmTy0_2 (i : Nat) : BufTy := match i % 128 with
  | 0 => ⟨S200000x32, .f32⟩
  | 1 => ⟨S1x1, .f32⟩
  | 2 => ⟨S200000x1, .f32⟩
  | _ => ⟨S200000x1, .f32⟩

abbrev hbmTy (i : Nat) : BufTy := match i / 128 with
  | 0 => hbmTy0_0 i
  | 1 => hbmTy0_1 i
  | 2 => hbmTy0_2 i
  | _ => ⟨S200000x1, .f32⟩

abbrev bufTy : (tb : Table) → Fin (tcTables nBuf tb) → BufTy
  | .hbm, ⟨i, _⟩ => hbmTy i
  | .local _ .vmem, ⟨0, _⟩ => ⟨S4000x1, .f32⟩
  | .local _ .vmem, ⟨1, _⟩ => ⟨S4000x1, .f32⟩
  | .local _ .vmem, ⟨2, _⟩ => ⟨S1x32, .f32⟩
  | .local _ .vmem, ⟨3, _⟩ => ⟨S4000x32, .f32⟩
  | .local _ .vmem, ⟨4, _⟩ => ⟨S4000x32, .f32⟩
  | .local _ .vmem, ⟨5, _⟩ => ⟨S5000x32, .f32⟩
  | .local _ .vmem, ⟨6, _⟩ => ⟨S5000x32, .f32⟩
  | .local _ .vmem, ⟨7, _⟩ => ⟨S5000x1, .f32⟩
  | .local _ .vmem, ⟨8, _⟩ => ⟨S5000x1, .f32⟩
  | .local _ .vmem, ⟨9, _⟩ => ⟨S5000x32, .f32⟩
  | .local _ .vmem, ⟨10, _⟩ => ⟨S5000x32, .f32⟩
  | .local _ .vmem, ⟨11, _⟩ => ⟨S4000x32, .f32⟩
  | .local _ .vmem, ⟨12, _⟩ => ⟨S4000x32, .f32⟩
  | .local _ .vmem, ⟨13, _⟩ => ⟨S1x32, .f32⟩
  | .local _ .vmem, ⟨14, _⟩ => ⟨S1x32, .f32⟩
  | .local _ .vmem, ⟨15, _⟩ => ⟨S1x32, .f32⟩
  | .local _ .vmem, ⟨16, _⟩ => ⟨S1x32, .f32⟩
  | .local _ .vmem, ⟨17, _⟩ => ⟨S4000x32, .f32⟩
  | .local _ .vmem, ⟨18, _⟩ => ⟨S4000x32, .f32⟩
  | .local _ .vmem, ⟨19, _⟩ => ⟨S4000x32, .f32⟩
  | .local _ .vmem, ⟨20, _⟩ => ⟨S4000x32, .f32⟩
  | .local _ .vmem, ⟨21, _⟩ => ⟨S32x32, .f32⟩
  | .local _ .vmem, ⟨22, _⟩ => ⟨S4000x32, .f32⟩
  | .local _ .vmem, ⟨23, _⟩ => ⟨S4000x32, .f32⟩
  | .local _ .vmem, ⟨24, _⟩ => ⟨S5000x32, .f32⟩
  | .local _ .vmem, ⟨25, _⟩ => ⟨S5000x32, .f32⟩
  | .local _ .vmem, ⟨26, _⟩ => ⟨S5000x1, .f32⟩
  | .local _ .vmem, ⟨27, _⟩ => ⟨S5000x1, .f32⟩
  | .local _ .vmem, ⟨28, _⟩ => ⟨S5000x32, .f32⟩
  | .local _ .vmem, ⟨29, _⟩ => ⟨S5000x32, .f32⟩
  | .local _ .vmem, ⟨30, _⟩ => ⟨S4000x32, .f32⟩
  | .local _ .vmem, ⟨31, _⟩ => ⟨S4000x32, .f32⟩
  | .local _ .vmem, ⟨32, _⟩ => ⟨S1x32, .f32⟩
  | .local _ .vmem, ⟨33, _⟩ => ⟨S1x32, .f32⟩
  | .local _ .vmem, ⟨34, _⟩ => ⟨S1x32, .f32⟩
  | .local _ .vmem, ⟨35, _⟩ => ⟨S1x32, .f32⟩
  | .local _ .vmem, ⟨36, _⟩ => ⟨S4000x32, .f32⟩
  | .local _ .vmem, ⟨37, _⟩ => ⟨S4000x32, .f32⟩
  | .local _ .vmem, ⟨38, _⟩ => ⟨S4000x32, .f32⟩
  | .local _ .vmem, ⟨39, _⟩ => ⟨S4000x32, .f32⟩
  | .local _ .vmem, ⟨40, _⟩ => ⟨S32x32, .f32⟩
  | .local _ .vmem, ⟨41, _⟩ => ⟨S4000x32, .f32⟩
  | .local _ .vmem, ⟨42, _⟩ => ⟨S4000x32, .f32⟩
  | .local _ .vmem, ⟨43, _⟩ => ⟨S5000x32, .f32⟩
  | .local _ .vmem, ⟨44, _⟩ => ⟨S5000x32, .f32⟩
  | .local _ .vmem, ⟨45, _⟩ => ⟨S5000x1, .f32⟩
  | .local _ .vmem, ⟨46, _⟩ => ⟨S5000x1, .f32⟩
  | .local _ .vmem, ⟨47, _⟩ => ⟨S5000x32, .f32⟩
  | .local _ .vmem, ⟨48, _⟩ => ⟨S5000x32, .f32⟩
  | .local _ .vmem, ⟨49, _⟩ => ⟨S4000x32, .f32⟩
  | .local _ .vmem, ⟨50, _⟩ => ⟨S4000x32, .f32⟩
  | .local _ .vmem, ⟨51, _⟩ => ⟨S1x32, .f32⟩
  | .local _ .vmem, ⟨52, _⟩ => ⟨S1x32, .f32⟩
  | .local _ .vmem, ⟨53, _⟩ => ⟨S1x32, .f32⟩
  | .local _ .vmem, ⟨54, _⟩ => ⟨S1x32, .f32⟩
  | .local _ .vmem, ⟨55, _⟩ => ⟨S4000x32, .f32⟩
  | .local _ .vmem, ⟨56, _⟩ => ⟨S4000x32, .f32⟩
  | .local _ .vmem, ⟨57, _⟩ => ⟨S4000x32, .f32⟩
  | .local _ .vmem, ⟨58, _⟩ => ⟨S4000x32, .f32⟩
  | .local _ .vmem, ⟨59, _⟩ => ⟨S32x1, .f32⟩
  | .local _ .vmem, ⟨60, _⟩ => ⟨S1x1, .f32⟩
  | .local _ .vmem, ⟨61, _⟩ => ⟨S4000x1, .f32⟩
  | .local _ .vmem, ⟨62, _⟩ => ⟨S4000x1, .f32⟩
  | _, _ => ⟨S200000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c : Ref sig .tc := ⟨.hbm, 31, rfl⟩
abbrev main_v11 : Ref sig .tc := ⟨.hbm, 32, rfl⟩
abbrev main_v12 : Ref sig .tc := ⟨.hbm, 33, rfl⟩
abbrev main_c_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c_3 : Ref sig .tc := ⟨.hbm, 40, rfl⟩
abbrev main_v18 : Ref sig .tc := ⟨.hbm, 41, rfl⟩
abbrev main_v19 : Ref sig .tc := ⟨.hbm, 42, rfl⟩
abbrev main_c_4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_call0_c : Ref sig .tc := ⟨.hbm, 54, rfl⟩
abbrev main_call0_v0 : Ref sig .tc := ⟨.hbm, 55, rfl⟩
abbrev main_call0_v1 : Ref sig .tc := ⟨.hbm, 56, rfl⟩
abbrev main_call0_c_0 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_v5 : Ref sig .tc := ⟨.hbm, 61, rfl⟩
abbrev main_call0_c_1 : Ref sig .tc := ⟨.hbm, 62, rfl⟩
abbrev main_call0_c_2 : Ref sig .tc := ⟨.hbm, 63, rfl⟩
abbrev main_call0_v6 : Ref sig .tc := ⟨.hbm, 64, rfl⟩
abbrev main_call0_v7 : Ref sig .tc := ⟨.hbm, 65, rfl⟩
abbrev main_call0_v8 : Ref sig .tc := ⟨.hbm, 66, rfl⟩
abbrev main_call0_v9 : Ref sig .tc := ⟨.hbm, 67, rfl⟩
abbrev main_call0_v10 : Ref sig .tc := ⟨.hbm, 68, rfl⟩
abbrev main_call0_v11 : Ref sig .tc := ⟨.hbm, 69, rfl⟩
abbrev main_call0_c_3 : Ref sig .tc := ⟨.hbm, 70, rfl⟩
abbrev main_call0_v12 : Ref sig .tc := ⟨.hbm, 71, rfl⟩
abbrev main_call0_v13 : Ref sig .tc := ⟨.hbm, 72, rfl⟩
abbrev main_call0_v14 : Ref sig .tc := ⟨.hbm, 73, rfl⟩
abbrev main_call0_cst : Ref sig .tc := ⟨.hbm, 74, rfl⟩
abbrev main_call0_v15 : Ref sig .tc := ⟨.hbm, 75, rfl⟩
abbrev main_v30 : Ref sig .tc := ⟨.hbm, 76, rfl⟩
abbrev main_v31 : Ref sig .tc := ⟨.hbm, 77, rfl⟩
abbrev main_cst_5 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_cst_6 : Ref sig .tc := ⟨.hbm, 88, rfl⟩
abbrev main_v41 : Ref sig .tc := ⟨.hbm, 89, rfl⟩
abbrev main_cst_7 : Ref sig .tc := ⟨.hbm, 90, rfl⟩
abbrev main_v42 : Ref sig .tc := ⟨.hbm, 91, rfl⟩
abbrev main_v43 : Ref sig .tc := ⟨.hbm, 92, rfl⟩
abbrev main_c_8 : Ref sig .tc := ⟨.hbm, 93, rfl⟩
abbrev main_call1_cst : Ref sig .tc := ⟨.hbm, 94, rfl⟩
abbrev main_call1_v0 : Ref sig .tc := ⟨.hbm, 95, rfl⟩
abbrev main_call1_v1 : Ref sig .tc := ⟨.hbm, 96, rfl⟩
abbrev main_call1_cst_0 : Ref sig .tc := ⟨.hbm, 97, rfl⟩
abbrev main_call1_v2 : Ref sig .tc := ⟨.hbm, 98, rfl⟩
abbrev main_call1_v3 : Ref sig .tc := ⟨.hbm, 99, rfl⟩
abbrev main_call1_v4 : Ref sig .tc := ⟨.hbm, 100, rfl⟩
abbrev main_call1_v5 : Ref sig .tc := ⟨.hbm, 101, rfl⟩
abbrev main_call1_v6 : Ref sig .tc := ⟨.hbm, 102, rfl⟩
abbrev main_call1_v7 : Ref sig .tc := ⟨.hbm, 103, rfl⟩
abbrev main_call1_cst_1 : Ref sig .tc := ⟨.hbm, 104, rfl⟩
abbrev main_call1_v8 : Ref sig .tc := ⟨.hbm, 105, rfl⟩
abbrev main_call1_cst_2 : Ref sig .tc := ⟨.hbm, 106, rfl⟩
abbrev main_call1_v9 : Ref sig .tc := ⟨.hbm, 107, rfl⟩
abbrev main_call1_v10 : Ref sig .tc := ⟨.hbm, 108, rfl⟩
abbrev main_call1_v11 : Ref sig .tc := ⟨.hbm, 109, rfl⟩
abbrev main_call1_cst_3 : Ref sig .tc := ⟨.hbm, 110, rfl⟩
abbrev main_call1_v12 : Ref sig .tc := ⟨.hbm, 111, rfl⟩
abbrev main_call1_cst_4 : Ref sig .tc := ⟨.hbm, 112, rfl⟩
abbrev main_call1_call0_v0 : Ref sig .tc := ⟨.hbm, 113, rfl⟩
abbrev main_call1_call0_v1 : Ref sig .tc := ⟨.hbm, 114, rfl⟩
abbrev main_v44 : Ref sig .tc := ⟨.hbm, 115, rfl⟩
abbrev main_v45 : Ref sig .tc := ⟨.hbm, 116, rfl⟩
abbrev main_v46 : Ref sig .tc := ⟨.hbm, 117, rfl⟩
abbrev main_v47 : Ref sig .tc := ⟨.hbm, 118, rfl⟩
abbrev main_v48 : Ref sig .tc := ⟨.hbm, 119, rfl⟩
abbrev main_v49 : Ref sig .tc := ⟨.hbm, 120, rfl⟩
abbrev main_v50 : Ref sig .tc := ⟨.hbm, 121, rfl⟩
abbrev main_call2_c : Ref sig .tc := ⟨.hbm, 122, rfl⟩
abbrev main_call2_v0 : Ref sig .tc := ⟨.hbm, 123, rfl⟩
abbrev main_call2_v1 : Ref sig .tc := ⟨.hbm, 124, rfl⟩
abbrev main_call2_c_0 : Ref sig .tc := ⟨.hbm, 125, rfl⟩
abbrev main_call2_v2 : Ref sig .tc := ⟨.hbm, 126, rfl⟩
abbrev main_call2_v3 : Ref sig .tc := ⟨.hbm, 127, rfl⟩
abbrev main_call2_v4 : Ref sig .tc := ⟨.hbm, 128, rfl⟩
abbrev main_call2_v5 : Ref sig .tc := ⟨.hbm, 129, rfl⟩
abbrev main_call2_c_1 : Ref sig .tc := ⟨.hbm, 130, rfl⟩
abbrev main_call2_c_2 : Ref sig .tc := ⟨.hbm, 131, rfl⟩
abbrev main_call2_v6 : Ref sig .tc := ⟨.hbm, 132, rfl⟩
abbrev main_call2_v7 : Ref sig .tc := ⟨.hbm, 133, rfl⟩
abbrev main_call2_v8 : Ref sig .tc := ⟨.hbm, 134, rfl⟩
abbrev main_call2_v9 : Ref sig .tc := ⟨.hbm, 135, rfl⟩
abbrev main_call2_v10 : Ref sig .tc := ⟨.hbm, 136, rfl⟩
abbrev main_call2_v11 : Ref sig .tc := ⟨.hbm, 137, rfl⟩
abbrev main_call2_c_3 : Ref sig .tc := ⟨.hbm, 138, rfl⟩
abbrev main_call2_v12 : Ref sig .tc := ⟨.hbm, 139, rfl⟩
abbrev main_call2_v13 : Ref sig .tc := ⟨.hbm, 140, rfl⟩
abbrev main_call2_v14 : Ref sig .tc := ⟨.hbm, 141, rfl⟩
abbrev main_call2_cst : Ref sig .tc := ⟨.hbm, 142, rfl⟩
abbrev main_call2_v15 : Ref sig .tc := ⟨.hbm, 143, rfl⟩
abbrev main_v51 : Ref sig .tc := ⟨.hbm, 144, rfl⟩
abbrev main_v52 : Ref sig .tc := ⟨.hbm, 145, rfl⟩
abbrev main_cst_9 : Ref sig .tc := ⟨.hbm, 146, rfl⟩
abbrev main_v53 : Ref sig .tc := ⟨.hbm, 147, rfl⟩
abbrev main_v54 : Ref sig .tc := ⟨.hbm, 148, rfl⟩
abbrev main_v55 : Ref sig .tc := ⟨.hbm, 149, rfl⟩
abbrev main_v56 : Ref sig .tc := ⟨.hbm, 150, rfl⟩
abbrev main_v57 : Ref sig .tc := ⟨.hbm, 151, rfl⟩
abbrev main_v58 : Ref sig .tc := ⟨.hbm, 152, rfl⟩
abbrev main_v59 : Ref sig .tc := ⟨.hbm, 153, rfl⟩
abbrev main_v60 : Ref sig .tc := ⟨.hbm, 154, rfl⟩
abbrev main_v61 : Ref sig .tc := ⟨.hbm, 155, rfl⟩
abbrev main_cst_10 : Ref sig .tc := ⟨.hbm, 156, rfl⟩
abbrev main_v62 : Ref sig .tc := ⟨.hbm, 157, rfl⟩
abbrev main_cst_11 : Ref sig .tc := ⟨.hbm, 158, rfl⟩
abbrev main_v63 : Ref sig .tc := ⟨.hbm, 159, rfl⟩
abbrev main_v64 : Ref sig .tc := ⟨.hbm, 160, rfl⟩
abbrev main_c_12 : Ref sig .tc := ⟨.hbm, 161, rfl⟩
abbrev main_call3_cst : Ref sig .tc := ⟨.hbm, 162, rfl⟩
abbrev main_call3_v0 : Ref sig .tc := ⟨.hbm, 163, rfl⟩
abbrev main_call3_v1 : Ref sig .tc := ⟨.hbm, 164, rfl⟩
abbrev main_call3_cst_0 : Ref sig .tc := ⟨.hbm, 165, rfl⟩
abbrev main_call3_v2 : Ref sig .tc := ⟨.hbm, 166, rfl⟩
abbrev main_call3_v3 : Ref sig .tc := ⟨.hbm, 167, rfl⟩
abbrev main_call3_v4 : Ref sig .tc := ⟨.hbm, 168, rfl⟩
abbrev main_call3_v5 : Ref sig .tc := ⟨.hbm, 169, rfl⟩
abbrev main_call3_v6 : Ref sig .tc := ⟨.hbm, 170, rfl⟩
abbrev main_call3_v7 : Ref sig .tc := ⟨.hbm, 171, rfl⟩
abbrev main_call3_cst_1 : Ref sig .tc := ⟨.hbm, 172, rfl⟩
abbrev main_call3_v8 : Ref sig .tc := ⟨.hbm, 173, rfl⟩
abbrev main_call3_cst_2 : Ref sig .tc := ⟨.hbm, 174, rfl⟩
abbrev main_call3_v9 : Ref sig .tc := ⟨.hbm, 175, rfl⟩
abbrev main_call3_v10 : Ref sig .tc := ⟨.hbm, 176, rfl⟩
abbrev main_call3_v11 : Ref sig .tc := ⟨.hbm, 177, rfl⟩
abbrev main_call3_cst_3 : Ref sig .tc := ⟨.hbm, 178, rfl⟩
abbrev main_call3_v12 : Ref sig .tc := ⟨.hbm, 179, rfl⟩
abbrev main_call3_cst_4 : Ref sig .tc := ⟨.hbm, 180, rfl⟩
abbrev main_call3_call0_v0 : Ref sig .tc := ⟨.hbm, 181, rfl⟩
abbrev main_call3_call0_v1 : Ref sig .tc := ⟨.hbm, 182, rfl⟩
abbrev main_v65 : Ref sig .tc := ⟨.hbm, 183, rfl⟩
abbrev main_v66 : Ref sig .tc := ⟨.hbm, 184, rfl⟩
abbrev main_v67 : Ref sig .tc := ⟨.hbm, 185, rfl⟩
abbrev main_v68 : Ref sig .tc := ⟨.hbm, 186, rfl⟩
abbrev main_v69 : Ref sig .tc := ⟨.hbm, 187, rfl⟩
abbrev main_v70 : Ref sig .tc := ⟨.hbm, 188, rfl⟩
abbrev main_v71 : Ref sig .tc := ⟨.hbm, 189, rfl⟩
abbrev main_call4_c : Ref sig .tc := ⟨.hbm, 190, rfl⟩
abbrev main_call4_v0 : Ref sig .tc := ⟨.hbm, 191, rfl⟩
abbrev main_call4_v1 : Ref sig .tc := ⟨.hbm, 192, rfl⟩
abbrev main_call4_c_0 : Ref sig .tc := ⟨.hbm, 193, rfl⟩
abbrev main_call4_v2 : Ref sig .tc := ⟨.hbm, 194, rfl⟩
abbrev main_call4_v3 : Ref sig .tc := ⟨.hbm, 195, rfl⟩
abbrev main_call4_v4 : Ref sig .tc := ⟨.hbm, 196, rfl⟩
abbrev main_call4_v5 : Ref sig .tc := ⟨.hbm, 197, rfl⟩
abbrev main_call4_c_1 : Ref sig .tc := ⟨.hbm, 198, rfl⟩
abbrev main_call4_c_2 : Ref sig .tc := ⟨.hbm, 199, rfl⟩
abbrev main_call4_v6 : Ref sig .tc := ⟨.hbm, 200, rfl⟩
abbrev main_call4_v7 : Ref sig .tc := ⟨.hbm, 201, rfl⟩
abbrev main_call4_v8 : Ref sig .tc := ⟨.hbm, 202, rfl⟩
abbrev main_call4_v9 : Ref sig .tc := ⟨.hbm, 203, rfl⟩
abbrev main_call4_v10 : Ref sig .tc := ⟨.hbm, 204, rfl⟩
abbrev main_call4_v11 : Ref sig .tc := ⟨.hbm, 205, rfl⟩
abbrev main_call4_c_3 : Ref sig .tc := ⟨.hbm, 206, rfl⟩
abbrev main_call4_v12 : Ref sig .tc := ⟨.hbm, 207, rfl⟩
abbrev main_call4_v13 : Ref sig .tc := ⟨.hbm, 208, rfl⟩
abbrev main_call4_v14 : Ref sig .tc := ⟨.hbm, 209, rfl⟩
abbrev main_call4_cst : Ref sig .tc := ⟨.hbm, 210, rfl⟩
abbrev main_call4_v15 : Ref sig .tc := ⟨.hbm, 211, rfl⟩
abbrev main_v72 : Ref sig .tc := ⟨.hbm, 212, rfl⟩
abbrev main_v73 : Ref sig .tc := ⟨.hbm, 213, rfl⟩
abbrev main_cst_13 : Ref sig .tc := ⟨.hbm, 214, rfl⟩
abbrev main_v74 : Ref sig .tc := ⟨.hbm, 215, rfl⟩
abbrev main_v75 : Ref sig .tc := ⟨.hbm, 216, rfl⟩
abbrev main_v76 : Ref sig .tc := ⟨.hbm, 217, rfl⟩
abbrev main_v77 : Ref sig .tc := ⟨.hbm, 218, rfl⟩
abbrev main_v78 : Ref sig .tc := ⟨.hbm, 219, rfl⟩
abbrev main_v79 : Ref sig .tc := ⟨.hbm, 220, rfl⟩
abbrev main_v80 : Ref sig .tc := ⟨.hbm, 221, rfl⟩
abbrev main_v81 : Ref sig .tc := ⟨.hbm, 222, rfl⟩
abbrev main_v82 : Ref sig .tc := ⟨.hbm, 223, rfl⟩
abbrev main_cst_14 : Ref sig .tc := ⟨.hbm, 224, rfl⟩
abbrev main_v83 : Ref sig .tc := ⟨.hbm, 225, rfl⟩
abbrev main_cst_15 : Ref sig .tc := ⟨.hbm, 226, rfl⟩
abbrev main_v84 : Ref sig .tc := ⟨.hbm, 227, rfl⟩
abbrev main_v85 : Ref sig .tc := ⟨.hbm, 228, rfl⟩
abbrev main_c_16 : Ref sig .tc := ⟨.hbm, 229, rfl⟩
abbrev main_call5_cst : Ref sig .tc := ⟨.hbm, 230, rfl⟩
abbrev main_call5_v0 : Ref sig .tc := ⟨.hbm, 231, rfl⟩
abbrev main_call5_v1 : Ref sig .tc := ⟨.hbm, 232, rfl⟩
abbrev main_call5_cst_0 : Ref sig .tc := ⟨.hbm, 233, rfl⟩
abbrev main_call5_v2 : Ref sig .tc := ⟨.hbm, 234, rfl⟩
abbrev main_call5_v3 : Ref sig .tc := ⟨.hbm, 235, rfl⟩
abbrev main_call5_v4 : Ref sig .tc := ⟨.hbm, 236, rfl⟩
abbrev main_call5_v5 : Ref sig .tc := ⟨.hbm, 237, rfl⟩
abbrev main_call5_v6 : Ref sig .tc := ⟨.hbm, 238, rfl⟩
abbrev main_call5_v7 : Ref sig .tc := ⟨.hbm, 239, rfl⟩
abbrev main_call5_cst_1 : Ref sig .tc := ⟨.hbm, 240, rfl⟩
abbrev main_call5_v8 : Ref sig .tc := ⟨.hbm, 241, rfl⟩
abbrev main_call5_cst_2 : Ref sig .tc := ⟨.hbm, 242, rfl⟩
abbrev main_call5_v9 : Ref sig .tc := ⟨.hbm, 243, rfl⟩
abbrev main_call5_v10 : Ref sig .tc := ⟨.hbm, 244, rfl⟩
abbrev main_call5_v11 : Ref sig .tc := ⟨.hbm, 245, rfl⟩
abbrev main_call5_cst_3 : Ref sig .tc := ⟨.hbm, 246, rfl⟩
abbrev main_call5_v12 : Ref sig .tc := ⟨.hbm, 247, rfl⟩
abbrev main_call5_cst_4 : Ref sig .tc := ⟨.hbm, 248, rfl⟩
abbrev main_call5_call0_v0 : Ref sig .tc := ⟨.hbm, 249, rfl⟩
abbrev main_call5_call0_v1 : Ref sig .tc := ⟨.hbm, 250, rfl⟩
abbrev main_v86 : Ref sig .tc := ⟨.hbm, 251, rfl⟩
abbrev main_v87 : Ref sig .tc := ⟨.hbm, 252, rfl⟩
abbrev main_v88 : Ref sig .tc := ⟨.hbm, 253, rfl⟩
abbrev main_v89 : Ref sig .tc := ⟨.hbm, 254, rfl⟩
abbrev main_v90 : Ref sig .tc := ⟨.hbm, 255, rfl⟩
abbrev main_v91 : Ref sig .tc := ⟨.hbm, 256, rfl⟩
abbrev main_v92 : Ref sig .tc := ⟨.hbm, 257, rfl⟩
abbrev main_v93 : Ref sig .tc := ⟨.hbm, 258, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg5_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg4_0 : Ref sig .tc := ⟨.vmem, 35, rfl⟩
abbrev cc5_stg5_0 : Ref sig .tc := ⟨.vmem, 36, rfl⟩
abbrev cc5_stg5_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg2_0 : Ref sig .tc := ⟨.vmem, 41, rfl⟩
abbrev cc6_stg2_1 : Ref sig .tc := ⟨.vmem, 42, rfl⟩
abbrev cc7_stg0_0 : Ref sig .tc := ⟨.vmem, 43, rfl⟩
abbrev cc7_stg0_1 : Ref sig .tc := ⟨.vmem, 44, rfl⟩
abbrev cc7_stg1_0 : Ref sig .tc := ⟨.vmem, 45, rfl⟩
abbrev cc7_stg1_1 : Ref sig .tc := ⟨.vmem, 46, rfl⟩
abbrev cc7_stg2_0 : Ref sig .tc := ⟨.vmem, 47, rfl⟩
abbrev cc7_stg2_1 : Ref sig .tc := ⟨.vmem, 48, rfl⟩
abbrev cc8_stg0_0 : Ref sig .tc := ⟨.vmem, 49, rfl⟩
abbrev cc8_stg0_1 : Ref sig .tc := ⟨.vmem, 50, rfl⟩
abbrev cc8_stg1_0 : Ref sig .tc := ⟨.vmem, 51, rfl⟩
abbrev cc8_stg2_0 : Ref sig .tc := ⟨.vmem, 52, rfl⟩
abbrev cc8_stg3_0 : Ref sig .tc := ⟨.vmem, 53, rfl⟩
abbrev cc8_stg4_0 : Ref sig .tc := ⟨.vmem, 54, rfl⟩
abbrev cc8_stg5_0 : Ref sig .tc := ⟨.vmem, 55, rfl⟩
abbrev cc8_stg5_1 : Ref sig .tc := ⟨.vmem, 56, rfl⟩
abbrev cc9_stg0_0 : Ref sig .tc := ⟨.vmem, 57, rfl⟩
abbrev cc9_stg0_1 : Ref sig .tc := ⟨.vmem, 58, rfl⟩
abbrev cc9_stg1_0 : Ref sig .tc := ⟨.vmem, 59, rfl⟩
abbrev cc9_stg2_0 : Ref sig .tc := ⟨.vmem, 60, rfl⟩
abbrev cc9_stg3_0 : Ref sig .tc := ⟨.vmem, 61, rfl⟩
abbrev cc9_stg3_1 : Ref sig .tc := ⟨.vmem, 62, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem5_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem4_0 : DmaSem sig := 35
abbrev cc5_sem5_0 : DmaSem sig := 36
abbrev cc5_sem5_1 : DmaSem sig := 37
abbrev cc6_sem0_0 : DmaSem sig := 38
abbrev cc6_sem0_1 : DmaSem sig := 39
abbrev cc6_sem1_0 : DmaSem sig := 40
abbrev cc6_sem2_0 : DmaSem sig := 41
abbrev cc6_sem2_1 : DmaSem sig := 42
abbrev cc7_sem0_0 : DmaSem sig := 43
abbrev cc7_sem0_1 : DmaSem sig := 44
abbrev cc7_sem1_0 : DmaSem sig := 45
abbrev cc7_sem1_1 : DmaSem sig := 46
abbrev cc7_sem2_0 : DmaSem sig := 47
abbrev cc7_sem2_1 : DmaSem sig := 48
abbrev cc8_sem0_0 : DmaSem sig := 49
abbrev cc8_sem0_1 : DmaSem sig := 50
abbrev cc8_sem1_0 : DmaSem sig := 51
abbrev cc8_sem2_0 : DmaSem sig := 52
abbrev cc8_sem3_0 : DmaSem sig := 53
abbrev cc8_sem4_0 : DmaSem sig := 54
abbrev cc8_sem5_0 : DmaSem sig := 55
abbrev cc8_sem5_1 : DmaSem sig := 56
abbrev cc9_sem0_0 : DmaSem sig := 57
abbrev cc9_sem0_1 : DmaSem sig := 58
abbrev cc9_sem1_0 : DmaSem sig := 59
abbrev cc9_sem2_0 : DmaSem sig := 60
abbrev cc9_sem3_0 : DmaSem sig := 61
abbrev cc9_sem3_1 : DmaSem sig := 62

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![500], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![500], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x32 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S4000x32 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S32x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S4000x32 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![500], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x32 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![50], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S4000x32 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x32 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x32 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x32 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x32 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S4000x32 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![50], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S4000x32 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S32x1 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x1 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S4000x1 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

class Facts₀ : Prop where
  slices_S2x2500000_S1x2500000_0_0 : S2x2500000.Slices ![0, 0] S1x2500000
  shapeCasts_S1x2500000_S2500000 : S1x2500000.ShapeCasts S2500000
  slices_S2x2500000_S1x2500000_1_0 : S2x2500000.Slices ![1, 0] S1x2500000
  bcast_S_S2500000 : S_.BroadcastsInDim S2500000 (![] : Fin 0 → Fin S2500000.rank)
  bcast_S_S200000 : S_.BroadcastsInDim S200000 (![] : Fin 0 → Fin S200000.rank)
  bcast_S2500000_S2500000x1_0 : S2500000.BroadcastsInDim S2500000x1 (![0] : Fin 1 → Fin S2500000x1.rank)
  shapeCasts_S2500000_S2500000x1 : S2500000.ShapeCasts S2500000x1
  shapeCasts_S200000_S200000x1 : S200000.ShapeCasts S200000x1
  inb_S4000x1_S4000x1_0_0 : ∀ a, (![0, 0] : Fin 2 → Nat) a + S4000x1.size a ≤ S4000x1.size a
  h_S4000x1 : 0 < S4000x1.numel
  bitsLt_bf16_f32 : FTy.bits .bf16 < FTy.bits .f32
  inb_S1x32_S1x32_0_0 : ∀ a, (![0, 0] : Fin 2 → Nat) a + S1x32.size a ≤ S1x32.size a
  h_S1x32 : 0 < S1x32.numel
  inb_S4000x32_S4000x32_0_0 : ∀ a, (![0, 0] : Fin 2 → Nat) a + S4000x32.size a ≤ S4000x32.size a
  h_S4000x32 : 0 < S4000x32.numel
  bcast_S_S2500000x1 : S_.BroadcastsInDim S2500000x1 (![] : Fin 0 → Fin S2500000x1.rank)
  bcast_S1_S1x1_1 : S1.BroadcastsInDim S1x1 (![1] : Fin 1 → Fin S1x1.rank)
  bcast_S1x1_S2500000x1_0_1 : S1x1.BroadcastsInDim S2500000x1 (![0, 1] : Fin 2 → Fin S2500000x1.rank)
  reducesTo_S2500000x1_S2500000_d1 : S2500000x1.ReducesTo [1] S2500000
  h_S_ : 0 < S_.numel
  bcast_S2500000_S2500000x32_0 : S2500000.BroadcastsInDim S2500000x32 (![0] : Fin 1 → Fin S2500000x32.rank)
  bcast_S_S2500000x32 : S_.BroadcastsInDim S2500000x32 (![] : Fin 0 → Fin S2500000x32.rank)
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x32 : S5000x1.Broadcasts S5000x32
  bcast_S_S200000x32 : S_.BroadcastsInDim S200000x32 (![] : Fin 0 → Fin S200000x32.rank)
  bcast_S200000x1_S200000x32_0_1 : S200000x1.BroadcastsInDim S200000x32 (![0, 1] : Fin 2 → Fin S200000x32.rank)
  shapeCasts_S32_S1x32 : S32.ShapeCasts S1x32
  bcast_S1x32_S200000x32_0_1 : S1x32.BroadcastsInDim S200000x32 (![0, 1] : Fin 2 → Fin S200000x32.rank)
  reducesTo_S200000x32_S32_d0 : S200000x32.ReducesTo [0] S32
  bcast_S_S32 : S_.BroadcastsInDim S32 (![] : Fin 0 → Fin S32.rank)
  bcast_S32_S1x32_1 : S32.BroadcastsInDim S1x32 (![1] : Fin 1 → Fin S1x32.rank)
  bcast_S_S1x32 : S_.BroadcastsInDim S1x32 (![] : Fin 0 → Fin S1x32.rank)
  shapeCasts_S4000x32_S4000x32 : S4000x32.ShapeCasts S4000x32
  shapeCasts_S1x32_S1x32 : S1x32.ShapeCasts S1x32
  broadcasts_S1x32_S4000x32 : S1x32.Broadcasts S4000x32
  inb_S32x32_S32x32_0_0 : ∀ a, (![0, 0] : Fin 2 → Nat) a + S32x32.size a ≤ S32x32.size a
  h_S32x32 : 0 < S32x32.numel
  shapeCasts_S1_S1x1 : S1.ShapeCasts S1x1
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  scatter_S200000_S2500000x1_S2500000_n_0_0_1_wf : ScatterDims.WF S200000 S2500000x1 S2500000 [] [0] [0] 1
  gather_S200000_S2500000x1_S2500000_n_0_n_n_0_1_1_wf : GatherDims.WF S200000 S2500000x1 S2500000 [] [0] [] [0] [] 1 ![1]
  dot_S4000x1_S1x32_S4000x32_1_0_0_1_n_n_wf : DotDims.WF S4000x1 S1x32 S4000x32 [1] [0] [0] [1] [] []
  gather_S200000x32_S2500000x1_S2500000x32_1_0_n_n_0_1_132_wf : GatherDims.WF S200000x32 S2500000x1 S2500000x32 [1] [0] [] [0] [] 1 ![1, 32]
  scatter_S200000x32_S2500000x1_S2500000x32_1_0_0_1_wf : ScatterDims.WF S200000x32 S2500000x1 S2500000x32 [1] [0] [0] 1
  dot_S4000x32_S32x32_S4000x32_1_0_0_1_n_n_wf : DotDims.WF S4000x32 S32x32 S4000x32 [1] [0] [0] [1] [] []
  dot_S4000x32_S32x1_S4000x1_1_0_0_1_n_n_wf : DotDims.WF S4000x32 S32x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x1.size a ≤ S200000x1.size a
  hwx0_0 : ∀ i : grid0.Coords, EltTy.bits .f32 = 32 ∨ (Rect.block (s := S200000x1) S4000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x32.size a ≤ S1x32.size a
  hwx0_1 : ∀ i : grid0.Coords, EltTy.bits .f32 = 32 ∨ (Rect.block (s := S1x32) S1x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x32.size a ≤ S200000x32.size a
  hwx0_2 : ∀ i : grid0.Coords, EltTy.bits .f32 = 32 ∨ (Rect.block (s := S200000x32) S4000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S2500000x32.size a
  hwx1_0 : ∀ i : grid1.Coords, EltTy.bits .f32 = 32 ∨ (Rect.block (s := S2500000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S2500000x1.size a
  hwx1_1 : ∀ i : grid1.Coords, EltTy.bits .f32 = 32 ∨ (Rect.block (s := S2500000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S2500000x32.size a
  hwx1_2 : ∀ i : grid1.Coords, EltTy.bits .f32 = 32 ∨ (Rect.block (s := S2500000x32) S5000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x32.size a ≤ S200000x32.size a
  hwx2_0 : ∀ i : grid2.Coords, EltTy.bits .f32 = 32 ∨ (Rect.block (s := S200000x32) S4000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x32.size a ≤ S200000x32.size a
  hwx2_5 : ∀ i : grid2.Coords, EltTy.bits .f32 = 32 ∨ (Rect.block (s := S200000x32) S4000x32.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x32.size a ≤ S200000x32.size a
  hwx3_0 : ∀ i : grid3.Coords, EltTy.bits .f32 = 32 ∨ (Rect.block (s := S200000x32) S4000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32x32.size a ≤ S32x32.size a
  hwx3_1 : ∀ i : grid3.Coords, EltTy.bits .f32 = 32 ∨ (Rect.block (s := S32x32) S32x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x32.size a ≤ S200000x32.size a
  hwx3_2 : ∀ i : grid3.Coords, EltTy.bits .f32 = 32 ∨ (Rect.block (s := S200000x32) S4000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x32.size a ≤ S2500000x32.size a
  hwx4_0 : ∀ i : grid4.Coords, EltTy.bits .f32 = 32 ∨ (Rect.block (s := S2500000x32) S5000x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S2500000x1.size a
  hwx4_1 : ∀ i : grid4.Coords, EltTy.bits .f32 = 32 ∨ (Rect.block (s := S2500000x1) S5000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x32.size a ≤ S2500000x32.size a
  hwx4_2 : ∀ i : grid4.Coords, EltTy.bits .f32 = 32 ∨ (Rect.block (s := S2500000x32) S5000x32.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x32.size a ≤ S200000x32.size a
  hwx5_0 : ∀ i : grid5.Coords, EltTy.bits .f32 = 32 ∨ (Rect.block (s := S200000x32) S4000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x32.size a ≤ S1x32.size a
  hwx5_1 : ∀ i : grid5.Coords, EltTy.bits .f32 = 32 ∨ (Rect.block (s := S1x32) S1x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x32.size a ≤ S1x32.size a
  hwx5_2 : ∀ i : grid5.Coords, EltTy.bits .f32 = 32 ∨ (Rect.block (s := S1x32) S1x32.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x32.size a ≤ S1x32.size a
  hwx5_3 : ∀ i : grid5.Coords, EltTy.bits .f32 = 32 ∨ (Rect.block (s := S1x32) S1x32.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x32.size a ≤ S1x32.size a
  hwx5_4 : ∀ i : grid5.Coords, EltTy.bits .f32 = 32 ∨ (Rect.block (s := S1x32) S1x32.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S4000x32.size a ≤ S200000x32.size a
  hwx5_5 : ∀ i : grid5.Coords, EltTy.bits .f32 = 32 ∨ (Rect.block (s := S200000x32) S4000x32.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x32.size a ≤ S200000x32.size a
  hwx6_0 : ∀ i : grid6.Coords, EltTy.bits .f32 = 32 ∨ (Rect.block (s := S200000x32) S4000x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S32x32.size a ≤ S32x32.size a
  hwx6_1 : ∀ i : grid6.Coords, EltTy.bits .f32 = 32 ∨ (Rect.block (s := S32x32) S32x32.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S4000x32.size a ≤ S200000x32.size a
  hwx6_2 : ∀ i : grid6.Coords, EltTy.bits .f32 = 32 ∨ (Rect.block (s := S200000x32) S4000x32.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x32.size a ≤ S2500000x32.size a
  hwx7_0 : ∀ i : grid7.Coords, EltTy.bits .f32 = 32 ∨ (Rect.block (s := S2500000x32) S5000x32.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x1.size a ≤ S2500000x1.size a
  hwx7_1 : ∀ i : grid7.Coords, EltTy.bits .f32 = 32 ∨ (Rect.block (s := S2500000x1) S5000x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x32.size a ≤ S2500000x32.size a
  hwx7_2 : ∀ i : grid7.Coords, EltTy.bits .f32 = 32 ∨ (Rect.block (s := S2500000x32) S5000x32.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4000x32.size a ≤ S200000x32.size a
  hwx8_0 : ∀ i : grid8.Coords, EltTy.bits .f32 = 32 ∨ (Rect.block (s := S200000x32) S4000x32.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x32.size a ≤ S1x32.size a
  hwx8_1 : ∀ i : grid8.Coords, EltTy.bits .f32 = 32 ∨ (Rect.block (s := S1x32) S1x32.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x32.size a ≤ S1x32.size a
  hwx8_2 : ∀ i : grid8.Coords, EltTy.bits .f32 = 32 ∨ (Rect.block (s := S1x32) S1x32.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x32.size a ≤ S1x32.size a
  hwx8_3 : ∀ i : grid8.Coords, EltTy.bits .f32 = 32 ∨ (Rect.block (s := S1x32) S1x32.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x32.size a ≤ S1x32.size a
  hwx8_4 : ∀ i : grid8.Coords, EltTy.bits .f32 = 32 ∨ (Rect.block (s := S1x32) S1x32.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S4000x32.size a ≤ S200000x32.size a
  hwx8_5 : ∀ i : grid8.Coords, EltTy.bits .f32 = 32 ∨ (Rect.block (s := S200000x32) S4000x32.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S4000x32.size a ≤ S200000x32.size a
  hwx9_0 : ∀ i : grid9.Coords, EltTy.bits .f32 = 32 ∨ (Rect.block (s := S200000x32) S4000x32.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S32x1.size a ≤ S32x1.size a
  hwx9_1 : ∀ i : grid9.Coords, EltTy.bits .f32 = 32 ∨ (Rect.block (s := S32x1) S32x1.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x1.size a ≤ S1x1.size a
  hwx9_2 : ∀ i : grid9.Coords, EltTy.bits .f32 = 32 ∨ (Rect.block (s := S1x1) S1x1.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S4000x1.size a ≤ S200000x1.size a
  hwx9_3 : ∀ i : grid9.Coords, EltTy.bits .f32 = 32 ∨ (Rect.block (s := S200000x1) S4000x1.size (cc9_transform_3 i) (hinb9_3 i)).WholeWords (EltTy.packing .f32)

variable [Facts₀]

def scatter_S200000_S2500000x1_S2500000_n_0_0_1 : ScatterDims S200000 S2500000x1 S2500000 where
  updateWindowDims := []
  insertedWindowDims := [0]
  scatterDimsToOperandDims := [0]
  indexVectorDim := 1
  wf := scatter_S200000_S2500000x1_S2500000_n_0_0_1_wf
def gather_S200000_S2500000x1_S2500000_n_0_n_n_0_1_1 : GatherDims S200000 S2500000x1 S2500000 where
  offsetDims := []
  collapsedSliceDims := [0]
  operandBatchingDims := []
  startIndicesBatchingDims := []
  startIndexMap := [0]
  indexVectorDim := 1
  sliceSizes := ![1]
  wf := gather_S200000_S2500000x1_S2500000_n_0_n_n_0_1_1_wf
def dot_S4000x1_S1x32_S4000x32_1_0_0_1_n_n : DotDims S4000x1 S1x32 S4000x32 where
  lhsContracting := [1]
  rhsContracting := [0]
  lhsNonContracting := [0]
  rhsNonContracting := [1]
  lhsBatch := []
  rhsBatch := []
  wf := dot_S4000x1_S1x32_S4000x32_1_0_0_1_n_n_wf
def gather_S200000x32_S2500000x1_S2500000x32_1_0_n_n_0_1_132 : GatherDims S200000x32 S2500000x1 S2500000x32 where
  offsetDims := [1]
  collapsedSliceDims := [0]
  operandBatchingDims := []
  startIndicesBatchingDims := []
  startIndexMap := [0]
  indexVectorDim := 1
  sliceSizes := ![1, 32]
  wf := gather_S200000x32_S2500000x1_S2500000x32_1_0_n_n_0_1_132_wf
def scatter_S200000x32_S2500000x1_S2500000x32_1_0_0_1 : ScatterDims S200000x32 S2500000x1 S2500000x32 where
  updateWindowDims := [1]
  insertedWindowDims := [0]
  scatterDimsToOperandDims := [0]
  indexVectorDim := 1
  wf := scatter_S200000x32_S2500000x1_S2500000x32_1_0_0_1_wf
def dot_S4000x32_S32x32_S4000x32_1_0_0_1_n_n : DotDims S4000x32 S32x32 S4000x32 where
  lhsContracting := [1]
  rhsContracting := [0]
  lhsNonContracting := [0]
  rhsNonContracting := [1]
  lhsBatch := []
  rhsBatch := []
  wf := dot_S4000x32_S32x32_S4000x32_1_0_0_1_n_n_wf
def dot_S4000x32_S32x1_S4000x1_1_0_0_1_n_n : DotDims S4000x32 S32x1 S4000x1 where
  lhsContracting := [1]
  rhsContracting := [0]
  lhsNonContracting := [0]
  rhsNonContracting := [1]
  lhsBatch := []
  rhsBatch := []
  wf := dot_S4000x32_S32x1_S4000x1_1_0_0_1_n_n_wf

abbrev win0_0 : Pipeline.Window sig grid0 :=
  Pipeline.Window.ofSpec (Memref.whole main_arg0) S4000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S4000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v30) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S5000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v40) S4000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v48) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v49) S4000x32.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v49) S4000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S32x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v50) S4000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v51) S5000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v26) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v52) S5000x32.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v61) S4000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v66) S1x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v67) S1x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v68) S1x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v69) S1x32.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v70) S4000x32.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v70) S4000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg11) S32x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v71) S4000x32.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v72) S5000x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v26) S5000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v73) S5000x32.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v82) S4000x32.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v87) S1x32.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v88) S1x32.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v89) S1x32.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v90) S1x32.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v91) S4000x32.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v91) S4000x32.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg15) S32x1.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v92) S1x1.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v93) S4000x1.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S200000x1 : Shape := ⟨2, ![200000, 1]⟩
abbrev S2x2500000 : Shape := ⟨2, ![2, 2500000]⟩
abbrev S2500000 : Shape := ⟨1, ![2500000]⟩
abbrev S1x32 : Shape := ⟨2, ![1, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x2500000 : Shape := ⟨2, ![1, 2500000]⟩
abbrev S_ : Shape := ⟨0, ![]⟩
abbrev S200000 : Shape := ⟨1, ![200000]⟩
abbrev S2500000x1 : Shape := ⟨2, ![2500000, 1]⟩
abbrev S200000x32 : Shape := ⟨2, ![200000, 32]⟩
abbrev S2500000x32 : Shape := ⟨2, ![2500000, 32]⟩
abbrev S1x1 : Shape := ⟨2, ![1, 1]⟩

abbrev nBuf : Space → Nat
  | .hbm => 308
  | .vmem => 0
  | .smem => 0
  | _ => 0

abbrev hbmTy0_0 (i : Nat) : BufTy := match i % 128 with
  | 0 => ⟨S200000x1, .f32⟩
  | 1 => ⟨S2x2500000, .i32⟩
  | 2 => ⟨S2500000, .f32⟩
  | 3 => ⟨S1x32, .f32⟩
  | 4 => ⟨S32, .f32⟩
  | 5 => ⟨S32, .f32⟩
  | 6 => ⟨S32, .f32⟩
  | 7 => ⟨S32x32, .f32⟩
  | 8 => ⟨S32, .f32⟩
  | 9 => ⟨S32, .f32⟩
  | 10 => ⟨S32, .f32⟩
  | 11 => ⟨S32x32, .f32⟩
  | 12 => ⟨S32, .f32⟩
  | 13 => ⟨S32, .f32⟩
  | 14 => ⟨S32, .f32⟩
  | 15 => ⟨S32x1, .f32⟩
  | 16 => ⟨S1, .f32⟩
  | 17 => ⟨S1x2500000, .i32⟩
  | 18 => ⟨S2500000, .i32⟩
  | 19 => ⟨S1x2500000, .i32⟩
  | 20 => ⟨S2500000, .i32⟩
  | 21 => ⟨S_, .f32⟩
  | 22 => ⟨S2500000, .f32⟩
  | 23 => ⟨S_, .f32⟩
  | 24 => ⟨S200000, .f32⟩
  | 25 => ⟨S2500000x1, .i32⟩
  | 26 => ⟨S200000, .f32⟩
  | 27 => ⟨S_, .f32⟩
  | 28 => ⟨S200000, .f32⟩
  | 29 => ⟨S200000, .f32⟩
  | 30 => ⟨S200000, .f32⟩
  | 31 => ⟨S200000x32, .f32⟩
  | 32 => ⟨S_, .i32⟩
  | 33 => ⟨S2500000, .i32⟩
  | 34 => ⟨S2500000, .i1⟩
  | 35 => ⟨S_, .i32⟩
  | 36 => ⟨S2500000, .i32⟩
  | 37 => ⟨S2500000, .i32⟩
  | 38 => ⟨S2500000, .i32⟩
  | 39 => ⟨S2500000x1, .i32⟩
  | 40 => ⟨S2500000, .f32⟩
  | 41 => ⟨S_, .i32⟩
  | 42 => ⟨S2500000, .i32⟩
  | 43 => ⟨S2500000, .i1⟩
  | 44 => ⟨S_, .i32⟩
  | 45 => ⟨S2500000, .i32⟩
  | 46 => ⟨S2500000, .i32⟩
  | 47 => ⟨S2500000, .i32⟩
  | 48 => ⟨S2500000x1, .i32⟩
  | 49 => ⟨S2500000, .f32⟩
  | 50 => ⟨S2500000, .f32⟩
  | 51 => ⟨S_, .i32⟩
  | 52 => ⟨S2500000, .i32⟩
  | 53 => ⟨S2500000, .i1⟩
  | 54 => ⟨S_, .i32⟩
  | 55 => ⟨S2500000, .i32⟩
  | 56 => ⟨S2500000, .i32⟩
  | 57 => ⟨S2500000, .i32⟩
  | 58 => ⟨S2500000x1, .i32⟩
  | 59 => ⟨S2500000x32, .f32⟩
  | 60 => ⟨S2500000x1, .f32⟩
  | 61 => ⟨S2500000x32, .f32⟩
  | 62 => ⟨S2500000x32, .f32⟩
  | 63 => ⟨S_, .f32⟩
  | 64 => ⟨S200000x32, .f32⟩
  | 65 => ⟨S2500000x1, .i32⟩
  | 66 => ⟨S200000x32, .f32⟩
  | 67 => ⟨S200000, .f32⟩
  | 68 => ⟨S200000x1, .f32⟩
  | 69 => ⟨S200000x32, .f32⟩
  | 70 => ⟨S200000x32, .f32⟩
  | 71 => ⟨S200000x32, .f32⟩
  | 72 => ⟨S1x32, .f32⟩
  | 73 => ⟨S200000x32, .f32⟩
  | 74 => ⟨S200000x32, .f32⟩
  | 75 => ⟨S_, .f32⟩
  | 76 => ⟨S32, .f32⟩
  | 77 => ⟨S_, .f32⟩
  | 78 => ⟨S32, .f32⟩
  | 79 => ⟨S32, .f32⟩
  | 80 => ⟨S_, .i32⟩
  | 81 => ⟨S_, .f32⟩
  | 82 => ⟨S32, .f32⟩
  | 83 => ⟨S1x32, .f32⟩
  | 84 => ⟨S_, .f32⟩
  | 85 => ⟨S1x32, .f32⟩
  | 86 => ⟨S1x32, .f32⟩
  | 87 => ⟨S200000x32, .f32⟩
  | 88 => ⟨S200000x32, .f32⟩
  | 89 => ⟨S200000x32, .f32⟩
  | 90 => ⟨S_, .f32⟩
  | 91 => ⟨S_, .f32⟩
  | 92 => ⟨S_, .f32⟩
  | 93 => ⟨S_, .f32⟩
  | 94 => ⟨S32, .f32⟩
  | 95 => ⟨S32, .f32⟩
  | 96 => ⟨S32, .f32⟩
  | 97 => ⟨S_, .f32⟩
  | 98 => ⟨S_, .i1⟩
  | 99 => ⟨S_, .f32⟩
  | 100 => ⟨S_, .f32⟩
  | 101 => ⟨S32, .f32⟩
  | 102 => ⟨S32, .f32⟩
  | 103 => ⟨S1x32, .f32⟩
  | 104 => ⟨S200000x32, .f32⟩
  | 105 => ⟨S200000x32, .f32⟩
  | 106 => ⟨S1x32, .f32⟩
  | 107 => ⟨S200000x32, .f32⟩
  | 108 => ⟨S200000x32, .f32⟩
  | 109 => ⟨S_, .f32⟩
  | 110 => ⟨S32, .f32⟩
  | 111 => ⟨S32, .f32⟩
  | 112 => ⟨S32, .f32⟩
  | 113 => ⟨S1x32, .f32⟩
  | 114 => ⟨S200000x32, .f32⟩
  | 115 => ⟨S200000x32, .f32⟩
  | 116 => ⟨S1x32, .f32⟩
  | 117 => ⟨S200000x32, .f32⟩
  | 118 => ⟨S200000x32, .f32⟩
  | 119 => ⟨S_, .f32⟩
  | 120 => ⟨S200000x32, .f32⟩
  | 121 => ⟨S200000x32, .f32⟩
  | 122 => ⟨S200000x32, .f32⟩
  | 123 => ⟨S_, .i32⟩
  | 124 => ⟨S2500000, .i32⟩
  | 125 => ⟨S2500000, .i1⟩
  | 126 => ⟨S_, .i32⟩
  | 127 => ⟨S2500000, .i32⟩
  | _ => ⟨S200000x1, .f32⟩

abbrev hbmTy0_1 (i : Nat) : BufTy := match i % 128 with
  | 0 => ⟨S2500000, .i32⟩
  | 1 => ⟨S2500000, .i32⟩
  | 2 => ⟨S2500000x1, .i32⟩
  | 3 => ⟨S2500000, .f32⟩
  | 4 => ⟨S_, .i32⟩
  | 5 => ⟨S2500000, .i32⟩
  | 6 => ⟨S2500000, .i1⟩
  | 7 => ⟨S_, .i32⟩
  | 8 => ⟨S2500000, .i32⟩
  | 9 => ⟨S2500000, .i32⟩
  | 10 => ⟨S2500000, .i32⟩
  | 11 => ⟨S2500000x1, .i32⟩
  | 12 => ⟨S2500000, .f32⟩
  | 13 => ⟨S2500000, .f32⟩
  | 14 => ⟨S_, .i32⟩
  | 15 => ⟨S2500000, .i32⟩
  | 16 => ⟨S2500000, .i1⟩
  | 17 => ⟨S_, .i32⟩
  | 18 => ⟨S2500000, .i32⟩
  | 19 => ⟨S2500000, .i32⟩
  | 20 => ⟨S2500000, .i32⟩
  | 21 => ⟨S2500000x1, .i32⟩
  | 22 => ⟨S2500000x32, .f32⟩
  | 23 => ⟨S2500000x1, .f32⟩
  | 24 => ⟨S2500000x32, .f32⟩
  | 25 => ⟨S2500000x32, .f32⟩
  | 26 => ⟨S_, .f32⟩
  | 27 => ⟨S200000x32, .f32⟩
  | 28 => ⟨S2500000x1, .i32⟩
  | 29 => ⟨S200000x32, .f32⟩
  | 30 => ⟨S200000, .f32⟩
  | 31 => ⟨S200000x1, .f32⟩
  | 32 => ⟨S200000x32, .f32⟩
  | 33 => ⟨S200000x32, .f32⟩
  | 34 => ⟨S200000x32, .f32⟩
  | 35 => ⟨S1x32, .f32⟩
  | 36 => ⟨S200000x32, .f32⟩
  | 37 => ⟨S200000x32, .f32⟩
  | 38 => ⟨S_, .f32⟩
  | 39 => ⟨S32, .f32⟩
  | 40 => ⟨S_, .f32⟩
  | 41 => ⟨S32, .f32⟩
  | 42 => ⟨S32, .f32⟩
  | 43 => ⟨S_, .i32⟩
  | 44 => ⟨S_, .f32⟩
  | 45 => ⟨S32, .f32⟩
  | 46 => ⟨S1x32, .f32⟩
  | 47 => ⟨S_, .f32⟩
  | 48 => ⟨S1x32, .f32⟩
  | 49 => ⟨S1x32, .f32⟩
  | 50 => ⟨S200000x32, .f32⟩
  | 51 => ⟨S200000x32, .f32⟩
  | 52 => ⟨S200000x32, .f32⟩
  | 53 => ⟨S_, .f32⟩
  | 54 => ⟨S_, .f32⟩
  | 55 => ⟨S_, .f32⟩
  | 56 => ⟨S_, .f32⟩
  | 57 => ⟨S32, .f32⟩
  | 58 => ⟨S32, .f32⟩
  | 59 => ⟨S32, .f32⟩
  | 60 => ⟨S_, .f32⟩
  | 61 => ⟨S_, .i1⟩
  | 62 => ⟨S_, .f32⟩
  | 63 => ⟨S_, .f32⟩
  | 64 => ⟨S32, .f32⟩
  | 65 => ⟨S32, .f32⟩
  | 66 => ⟨S1x32, .f32⟩
  | 67 => ⟨S200000x32, .f32⟩
  | 68 => ⟨S200000x32, .f32⟩
  | 69 => ⟨S1x32, .f32⟩
  | 70 => ⟨S200000x32, .f32⟩
  | 71 => ⟨S200000x32, .f32⟩
  | 72 => ⟨S_, .f32⟩
  | 73 => ⟨S32, .f32⟩
  | 74 => ⟨S32, .f32⟩
  | 75 => ⟨S32, .f32⟩
  | 76 => ⟨S1x32, .f32⟩
  | 77 => ⟨S200000x32, .f32⟩
  | 78 => ⟨S200000x32, .f32⟩
  | 79 => ⟨S1x32, .f32⟩
  | 80 => ⟨S200000x32, .f32⟩
  | 81 => ⟨S200000x32, .f32⟩
  | 82 => ⟨S_, .f32⟩
  | 83 => ⟨S200000x32, .f32⟩
  | 84 => ⟨S200000x32, .f32⟩
  | 85 => ⟨S200000x32, .f32⟩
  | 86 => ⟨S_, .i32⟩
  | 87 => ⟨S2500000, .i32⟩
  | 88 => ⟨S2500000, .i1⟩
  | 89 => ⟨S_, .i32⟩
  | 90 => ⟨S2500000, .i32⟩
  | 91 => ⟨S2500000, .i32⟩
  | 92 => ⟨S2500000, .i32⟩
  | 93 => ⟨S2500000x1, .i32⟩
  | 94 => ⟨S2500000, .f32⟩
  | 95 => ⟨S_, .i32⟩
  | 96 => ⟨S2500000, .i32⟩
  | 97 => ⟨S2500000, .i1⟩
  | 98 => ⟨S_, .i32⟩
  | 99 => ⟨S2500000, .i32⟩
  | 100 => ⟨S2500000, .i32⟩
  | 101 => ⟨S2500000, .i32⟩
  | 102 => ⟨S2500000x1, .i32⟩
  | 103 => ⟨S2500000, .f32⟩
  | 104 => ⟨S2500000, .f32⟩
  | 105 => ⟨S_, .i32⟩
  | 106 => ⟨S2500000, .i32⟩
  | 107 => ⟨S2500000, .i1⟩
  | 108 => ⟨S_, .i32⟩
  | 109 => ⟨S2500000, .i32⟩
  | 110 => ⟨S2500000, .i32⟩
  | 111 => ⟨S2500000, .i32⟩
  | 112 => ⟨S2500000x1, .i32⟩
  | 113 => ⟨S2500000x32, .f32⟩
  | 114 => ⟨S2500000x1, .f32⟩
  | 115 => ⟨S2500000x32, .f32⟩
  | 116 => ⟨S2500000x32, .f32⟩
  | 117 => ⟨S_, .f32⟩
  | 118 => ⟨S200000x32, .f32⟩
  | 119 => ⟨S2500000x1, .i32⟩
  | 120 => ⟨S200000x32, .f32⟩
  | 121 => ⟨S200000, .f32⟩
  | 122 => ⟨S200000x1, .f32⟩
  | 123 => ⟨S200000x32, .f32⟩
  | 124 => ⟨S200000x32, .f32⟩
  | 125 => ⟨S200000x32, .f32⟩
  | 126 => ⟨S1x32, .f32⟩
  | 127 => ⟨S200000x32, .f32⟩
  | _ => ⟨S200000x1, .f32⟩

abbrev hbmTy0_2 (i : Nat) : BufTy := match i % 128 with
  | 0 => ⟨S200000x32, .f32⟩
  | 1 => ⟨S_, .f32⟩
  | 2 => ⟨S32, .f32⟩
  | 3 => ⟨S_, .f32⟩
  | 4 => ⟨S32, .f32⟩
  | 5 => ⟨S32, .f32⟩
  | 6 => ⟨S_, .i32⟩
  | 7 => ⟨S_, .f32⟩
  | 8 => ⟨S32, .f32⟩
  | 9 => ⟨S1x32, .f32⟩
  | 10 => ⟨S_, .f32⟩
  | 11 => ⟨S1x32, .f32⟩
  | 12 => ⟨S1x32, .f32⟩
  | 13 => ⟨S200000x32, .f32⟩
  | 14 => ⟨S200000x32, .f32⟩
  | 15 => ⟨S200000x32, .f32⟩
  | 16 => ⟨S_, .f32⟩
  | 17 => ⟨S_, .f32⟩
  | 18 => ⟨S_, .f32⟩
  | 19 => ⟨S_, .f32⟩
  | 20 => ⟨S32, .f32⟩
  | 21 => ⟨S32, .f32⟩
  | 22 => ⟨S32, .f32⟩
  | 23 => ⟨S_, .f32⟩
  | 24 => ⟨S_, .i1⟩
  | 25 => ⟨S_, .f32⟩
  | 26 => ⟨S_, .f32⟩
  | 27 => ⟨S32, .f32⟩
  | 28 => ⟨S32, .f32⟩
  | 29 => ⟨S1x32, .f32⟩
  | 30 => ⟨S200000x32, .f32⟩
  | 31 => ⟨S200000x32, .f32⟩
  | 32 => ⟨S1x32, .f32⟩
  | 33 => ⟨S200000x32, .f32⟩
  | 34 => ⟨S200000x32, .f32⟩
  | 35 => ⟨S_, .f32⟩
  | 36 => ⟨S32, .f32⟩
  | 37 => ⟨S32, .f32⟩
  | 38 => ⟨S32, .f32⟩
  | 39 => ⟨S1x32, .f32⟩
  | 40 => ⟨S200000x32, .f32⟩
  | 41 => ⟨S200000x32, .f32⟩
  | 42 => ⟨S1x32, .f32⟩
  | 43 => ⟨S200000x32, .f32⟩
  | 44 => ⟨S200000x32, .f32⟩
  | 45 => ⟨S_, .f32⟩
  | 46 => ⟨S200000x32, .f32⟩
  | 47 => ⟨S200000x32, .f32⟩
  | 48 => ⟨S200000x1, .f32⟩
  | 49 => ⟨S1x1, .f32⟩
  | 50 => ⟨S200000x1, .f32⟩
  | 51 => ⟨S200000x1, .f32⟩
  | _ => ⟨S200000x1, .f32⟩

abbrev hbmTy (i : Nat) : BufTy := match i / 128 with
  | 0 => hbmTy0_0 i
  | 1 => hbmTy0_1 i
  | 2 => hbmTy0_2 i
  | _ => ⟨S200000x1, .f32⟩

abbrev bufTy : (tb : Table) → Fin (tcTables nBuf tb) → BufTy
  | .hbm, ⟨i, _⟩ => hbmTy i
  | _, _ => ⟨S200000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_c : Ref sig .tc := ⟨.hbm, 32, rfl⟩
abbrev main_v12 : Ref sig .tc := ⟨.hbm, 33, rfl⟩
abbrev main_v13 : Ref sig .tc := ⟨.hbm, 34, rfl⟩
abbrev main_c_2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_3 : Ref sig .tc := ⟨.hbm, 41, rfl⟩
abbrev main_v19 : Ref sig .tc := ⟨.hbm, 42, rfl⟩
abbrev main_v20 : Ref sig .tc := ⟨.hbm, 43, rfl⟩
abbrev main_c_4 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_5 : Ref sig .tc := ⟨.hbm, 51, rfl⟩
abbrev main_v27 : Ref sig .tc := ⟨.hbm, 52, rfl⟩
abbrev main_v28 : Ref sig .tc := ⟨.hbm, 53, rfl⟩
abbrev main_c_6 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_7 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_8 : Ref sig .tc := ⟨.hbm, 75, rfl⟩
abbrev main_v48 : Ref sig .tc := ⟨.hbm, 76, rfl⟩
abbrev main_cst_9 : Ref sig .tc := ⟨.hbm, 77, rfl⟩
abbrev main_v49 : Ref sig .tc := ⟨.hbm, 78, rfl⟩
abbrev main_v50 : Ref sig .tc := ⟨.hbm, 79, rfl⟩
abbrev main_c_10 : Ref sig .tc := ⟨.hbm, 80, rfl⟩
abbrev main_call0_cst : Ref sig .tc := ⟨.hbm, 81, rfl⟩
abbrev main_call0_v0 : Ref sig .tc := ⟨.hbm, 82, rfl⟩
abbrev main_call0_v1 : Ref sig .tc := ⟨.hbm, 83, rfl⟩
abbrev main_call0_cst_0 : Ref sig .tc := ⟨.hbm, 84, rfl⟩
abbrev main_call0_v2 : Ref sig .tc := ⟨.hbm, 85, rfl⟩
abbrev main_call0_v3 : Ref sig .tc := ⟨.hbm, 86, rfl⟩
abbrev main_call0_v4 : Ref sig .tc := ⟨.hbm, 87, rfl⟩
abbrev main_call0_v5 : Ref sig .tc := ⟨.hbm, 88, rfl⟩
abbrev main_call0_v6 : Ref sig .tc := ⟨.hbm, 89, rfl⟩
abbrev main_call0_v7 : Ref sig .tc := ⟨.hbm, 90, rfl⟩
abbrev main_call0_cst_1 : Ref sig .tc := ⟨.hbm, 91, rfl⟩
abbrev main_call0_v8 : Ref sig .tc := ⟨.hbm, 92, rfl⟩
abbrev main_call0_cst_2 : Ref sig .tc := ⟨.hbm, 93, rfl⟩
abbrev main_call0_v9 : Ref sig .tc := ⟨.hbm, 94, rfl⟩
abbrev main_call0_v10 : Ref sig .tc := ⟨.hbm, 95, rfl⟩
abbrev main_call0_v11 : Ref sig .tc := ⟨.hbm, 96, rfl⟩
abbrev main_call0_cst_3 : Ref sig .tc := ⟨.hbm, 97, rfl⟩
abbrev main_call0_v12 : Ref sig .tc := ⟨.hbm, 98, rfl⟩
abbrev main_call0_cst_4 : Ref sig .tc := ⟨.hbm, 99, rfl⟩
abbrev main_call0_call0_v0 : Ref sig .tc := ⟨.hbm, 100, rfl⟩
abbrev main_call0_call0_v1 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_cst_11 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_call1_cst : Ref sig .tc := ⟨.hbm, 119, rfl⟩
abbrev main_call1_v0 : Ref sig .tc := ⟨.hbm, 120, rfl⟩
abbrev main_v67 : Ref sig .tc := ⟨.hbm, 121, rfl⟩
abbrev main_v68 : Ref sig .tc := ⟨.hbm, 122, rfl⟩
abbrev main_c_12 : Ref sig .tc := ⟨.hbm, 123, rfl⟩
abbrev main_v69 : Ref sig .tc := ⟨.hbm, 124, rfl⟩
abbrev main_v70 : Ref sig .tc := ⟨.hbm, 125, rfl⟩
abbrev main_c_13 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_c_14 : Ref sig .tc := ⟨.hbm, 132, rfl⟩
abbrev main_v76 : Ref sig .tc := ⟨.hbm, 133, rfl⟩
abbrev main_v77 : Ref sig .tc := ⟨.hbm, 134, rfl⟩
abbrev main_c_15 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_c_16 : Ref sig .tc := ⟨.hbm, 142, rfl⟩
abbrev main_v84 : Ref sig .tc := ⟨.hbm, 143, rfl⟩
abbrev main_v85 : Ref sig .tc := ⟨.hbm, 144, rfl⟩
abbrev main_c_17 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_cst_18 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_cst_19 : Ref sig .tc := ⟨.hbm, 166, rfl⟩
abbrev main_v105 : Ref sig .tc := ⟨.hbm, 167, rfl⟩
abbrev main_cst_20 : Ref sig .tc := ⟨.hbm, 168, rfl⟩
abbrev main_v106 : Ref sig .tc := ⟨.hbm, 169, rfl⟩
abbrev main_v107 : Ref sig .tc := ⟨.hbm, 170, rfl⟩
abbrev main_c_21 : Ref sig .tc := ⟨.hbm, 171, rfl⟩
abbrev main_call2_cst : Ref sig .tc := ⟨.hbm, 172, rfl⟩
abbrev main_call2_v0 : Ref sig .tc := ⟨.hbm, 173, rfl⟩
abbrev main_call2_v1 : Ref sig .tc := ⟨.hbm, 174, rfl⟩
abbrev main_call2_cst_0 : Ref sig .tc := ⟨.hbm, 175, rfl⟩
abbrev main_call2_v2 : Ref sig .tc := ⟨.hbm, 176, rfl⟩
abbrev main_call2_v3 : Ref sig .tc := ⟨.hbm, 177, rfl⟩
abbrev main_call2_v4 : Ref sig .tc := ⟨.hbm, 178, rfl⟩
abbrev main_call2_v5 : Ref sig .tc := ⟨.hbm, 179, rfl⟩
abbrev main_call2_v6 : Ref sig .tc := ⟨.hbm, 180, rfl⟩
abbrev main_call2_v7 : Ref sig .tc := ⟨.hbm, 181, rfl⟩
abbrev main_call2_cst_1 : Ref sig .tc := ⟨.hbm, 182, rfl⟩
abbrev main_call2_v8 : Ref sig .tc := ⟨.hbm, 183, rfl⟩
abbrev main_call2_cst_2 : Ref sig .tc := ⟨.hbm, 184, rfl⟩
abbrev main_call2_v9 : Ref sig .tc := ⟨.hbm, 185, rfl⟩
abbrev main_call2_v10 : Ref sig .tc := ⟨.hbm, 186, rfl⟩
abbrev main_call2_v11 : Ref sig .tc := ⟨.hbm, 187, rfl⟩
abbrev main_call2_cst_3 : Ref sig .tc := ⟨.hbm, 188, rfl⟩
abbrev main_call2_v12 : Ref sig .tc := ⟨.hbm, 189, rfl⟩
abbrev main_call2_cst_4 : Ref sig .tc := ⟨.hbm, 190, rfl⟩
abbrev main_call2_call0_v0 : Ref sig .tc := ⟨.hbm, 191, rfl⟩
abbrev main_call2_call0_v1 : Ref sig .tc := ⟨.hbm, 192, rfl⟩
abbrev main_v108 : Ref sig .tc := ⟨.hbm, 193, rfl⟩
abbrev main_v109 : Ref sig .tc := ⟨.hbm, 194, rfl⟩
abbrev main_v110 : Ref sig .tc := ⟨.hbm, 195, rfl⟩
abbrev main_v111 : Ref sig .tc := ⟨.hbm, 196, rfl⟩
abbrev main_v112 : Ref sig .tc := ⟨.hbm, 197, rfl⟩
abbrev main_v113 : Ref sig .tc := ⟨.hbm, 198, rfl⟩
abbrev main_v114 : Ref sig .tc := ⟨.hbm, 199, rfl⟩
abbrev main_cst_22 : Ref sig .tc := ⟨.hbm, 200, rfl⟩
abbrev main_v115 : Ref sig .tc := ⟨.hbm, 201, rfl⟩
abbrev main_v116 : Ref sig .tc := ⟨.hbm, 202, rfl⟩
abbrev main_v117 : Ref sig .tc := ⟨.hbm, 203, rfl⟩
abbrev main_v118 : Ref sig .tc := ⟨.hbm, 204, rfl⟩
abbrev main_v119 : Ref sig .tc := ⟨.hbm, 205, rfl⟩
abbrev main_v120 : Ref sig .tc := ⟨.hbm, 206, rfl⟩
abbrev main_v121 : Ref sig .tc := ⟨.hbm, 207, rfl⟩
abbrev main_v122 : Ref sig .tc := ⟨.hbm, 208, rfl⟩
abbrev main_v123 : Ref sig .tc := ⟨.hbm, 209, rfl⟩
abbrev main_call3_cst : Ref sig .tc := ⟨.hbm, 210, rfl⟩
abbrev main_call3_v0 : Ref sig .tc := ⟨.hbm, 211, rfl⟩
abbrev main_v124 : Ref sig .tc := ⟨.hbm, 212, rfl⟩
abbrev main_v125 : Ref sig .tc := ⟨.hbm, 213, rfl⟩
abbrev main_c_23 : Ref sig .tc := ⟨.hbm, 214, rfl⟩
abbrev main_v126 : Ref sig .tc := ⟨.hbm, 215, rfl⟩
abbrev main_v127 : Ref sig .tc := ⟨.hbm, 216, rfl⟩
abbrev main_c_24 : Ref sig .tc := ⟨.hbm, 217, rfl⟩
abbrev main_v128 : Ref sig .tc := ⟨.hbm, 218, rfl⟩
abbrev main_v129 : Ref sig .tc := ⟨.hbm, 219, rfl⟩
abbrev main_v130 : Ref sig .tc := ⟨.hbm, 220, rfl⟩
abbrev main_v131 : Ref sig .tc := ⟨.hbm, 221, rfl⟩
abbrev main_v132 : Ref sig .tc := ⟨.hbm, 222, rfl⟩
abbrev main_c_25 : Ref sig .tc := ⟨.hbm, 223, rfl⟩
abbrev main_v133 : Ref sig .tc := ⟨.hbm, 224, rfl⟩
abbrev main_v134 : Ref sig .tc := ⟨.hbm, 225, rfl⟩
abbrev main_c_26 : Ref sig .tc := ⟨.hbm, 226, rfl⟩
abbrev main_v135 : Ref sig .tc := ⟨.hbm, 227, rfl⟩
abbrev main_v136 : Ref sig .tc := ⟨.hbm, 228, rfl⟩
abbrev main_v137 : Ref sig .tc := ⟨.hbm, 229, rfl⟩
abbrev main_v138 : Ref sig .tc := ⟨.hbm, 230, rfl⟩
abbrev main_v139 : Ref sig .tc := ⟨.hbm, 231, rfl⟩
abbrev main_v140 : Ref sig .tc := ⟨.hbm, 232, rfl⟩
abbrev main_c_27 : Ref sig .tc := ⟨.hbm, 233, rfl⟩
abbrev main_v141 : Ref sig .tc := ⟨.hbm, 234, rfl⟩
abbrev main_v142 : Ref sig .tc := ⟨.hbm, 235, rfl⟩
abbrev main_c_28 : Ref sig .tc := ⟨.hbm, 236, rfl⟩
abbrev main_v143 : Ref sig .tc := ⟨.hbm, 237, rfl⟩
abbrev main_v144 : Ref sig .tc := ⟨.hbm, 238, rfl⟩
abbrev main_v145 : Ref sig .tc := ⟨.hbm, 239, rfl⟩
abbrev main_v146 : Ref sig .tc := ⟨.hbm, 240, rfl⟩
abbrev main_v147 : Ref sig .tc := ⟨.hbm, 241, rfl⟩
abbrev main_v148 : Ref sig .tc := ⟨.hbm, 242, rfl⟩
abbrev main_v149 : Ref sig .tc := ⟨.hbm, 243, rfl⟩
abbrev main_v150 : Ref sig .tc := ⟨.hbm, 244, rfl⟩
abbrev main_cst_29 : Ref sig .tc := ⟨.hbm, 245, rfl⟩
abbrev main_v151 : Ref sig .tc := ⟨.hbm, 246, rfl⟩
abbrev main_v152 : Ref sig .tc := ⟨.hbm, 247, rfl⟩
abbrev main_v153 : Ref sig .tc := ⟨.hbm, 248, rfl⟩
abbrev main_v154 : Ref sig .tc := ⟨.hbm, 249, rfl⟩
abbrev main_v155 : Ref sig .tc := ⟨.hbm, 250, rfl⟩
abbrev main_v156 : Ref sig .tc := ⟨.hbm, 251, rfl⟩
abbrev main_v157 : Ref sig .tc := ⟨.hbm, 252, rfl⟩
abbrev main_v158 : Ref sig .tc := ⟨.hbm, 253, rfl⟩
abbrev main_v159 : Ref sig .tc := ⟨.hbm, 254, rfl⟩
abbrev main_v160 : Ref sig .tc := ⟨.hbm, 255, rfl⟩
abbrev main_v161 : Ref sig .tc := ⟨.hbm, 256, rfl⟩
abbrev main_cst_30 : Ref sig .tc := ⟨.hbm, 257, rfl⟩
abbrev main_v162 : Ref sig .tc := ⟨.hbm, 258, rfl⟩
abbrev main_cst_31 : Ref sig .tc := ⟨.hbm, 259, rfl⟩
abbrev main_v163 : Ref sig .tc := ⟨.hbm, 260, rfl⟩
abbrev main_v164 : Ref sig .tc := ⟨.hbm, 261, rfl⟩
abbrev main_c_32 : Ref sig .tc := ⟨.hbm, 262, rfl⟩
abbrev main_call4_cst : Ref sig .tc := ⟨.hbm, 263, rfl⟩
abbrev main_call4_v0 : Ref sig .tc := ⟨.hbm, 264, rfl⟩
abbrev main_call4_v1 : Ref sig .tc := ⟨.hbm, 265, rfl⟩
abbrev main_call4_cst_0 : Ref sig .tc := ⟨.hbm, 266, rfl⟩
abbrev main_call4_v2 : Ref sig .tc := ⟨.hbm, 267, rfl⟩
abbrev main_call4_v3 : Ref sig .tc := ⟨.hbm, 268, rfl⟩
abbrev main_call4_v4 : Ref sig .tc := ⟨.hbm, 269, rfl⟩
abbrev main_call4_v5 : Ref sig .tc := ⟨.hbm, 270, rfl⟩
abbrev main_call4_v6 : Ref sig .tc := ⟨.hbm, 271, rfl⟩
abbrev main_call4_v7 : Ref sig .tc := ⟨.hbm, 272, rfl⟩
abbrev main_call4_cst_1 : Ref sig .tc := ⟨.hbm, 273, rfl⟩
abbrev main_call4_v8 : Ref sig .tc := ⟨.hbm, 274, rfl⟩
abbrev main_call4_cst_2 : Ref sig .tc := ⟨.hbm, 275, rfl⟩
abbrev main_call4_v9 : Ref sig .tc := ⟨.hbm, 276, rfl⟩
abbrev main_call4_v10 : Ref sig .tc := ⟨.hbm, 277, rfl⟩
abbrev main_call4_v11 : Ref sig .tc := ⟨.hbm, 278, rfl⟩
abbrev main_call4_cst_3 : Ref sig .tc := ⟨.hbm, 279, rfl⟩
abbrev main_call4_v12 : Ref sig .tc := ⟨.hbm, 280, rfl⟩
abbrev main_call4_cst_4 : Ref sig .tc := ⟨.hbm, 281, rfl⟩
abbrev main_call4_call0_v0 : Ref sig .tc := ⟨.hbm, 282, rfl⟩
abbrev main_call4_call0_v1 : Ref sig .tc := ⟨.hbm, 283, rfl⟩
abbrev main_v165 : Ref sig .tc := ⟨.hbm, 284, rfl⟩
abbrev main_v166 : Ref sig .tc := ⟨.hbm, 285, rfl⟩
abbrev main_v167 : Ref sig .tc := ⟨.hbm, 286, rfl⟩
abbrev main_v168 : Ref sig .tc := ⟨.hbm, 287, rfl⟩
abbrev main_v169 : Ref sig .tc := ⟨.hbm, 288, rfl⟩
abbrev main_v170 : Ref sig .tc := ⟨.hbm, 289, rfl⟩
abbrev main_v171 : Ref sig .tc := ⟨.hbm, 290, rfl⟩
abbrev main_cst_33 : Ref sig .tc := ⟨.hbm, 291, rfl⟩
abbrev main_v172 : Ref sig .tc := ⟨.hbm, 292, rfl⟩
abbrev main_v173 : Ref sig .tc := ⟨.hbm, 293, rfl⟩
abbrev main_v174 : Ref sig .tc := ⟨.hbm, 294, rfl⟩
abbrev main_v175 : Ref sig .tc := ⟨.hbm, 295, rfl⟩
abbrev main_v176 : Ref sig .tc := ⟨.hbm, 296, rfl⟩
abbrev main_v177 : Ref sig .tc := ⟨.hbm, 297, rfl⟩
abbrev main_v178 : Ref sig .tc := ⟨.hbm, 298, rfl⟩
abbrev main_v179 : Ref sig .tc := ⟨.hbm, 299, rfl⟩
abbrev main_v180 : Ref sig .tc := ⟨.hbm, 300, rfl⟩
abbrev main_call5_cst : Ref sig .tc := ⟨.hbm, 301, rfl⟩
abbrev main_call5_v0 : Ref sig .tc := ⟨.hbm, 302, rfl⟩
abbrev main_v181 : Ref sig .tc := ⟨.hbm, 303, rfl⟩
abbrev main_v182 : Ref sig .tc := ⟨.hbm, 304, rfl⟩
abbrev main_v183 : Ref sig .tc := ⟨.hbm, 305, rfl⟩
abbrev main_v184 : Ref sig .tc := ⟨.hbm, 306, rfl⟩
abbrev main_v185 : Ref sig .tc := ⟨.hbm, 307, rfl⟩

abbrev nD : Nat := 1
abbrev τ : Topo := Topo.v7x

variable {F : FTy → Type} [FloatOps F]

class Facts₀ : Prop where
  slices_S2x2500000_S1x2500000_0_0 : S2x2500000.Slices ![0, 0] S1x2500000
  shapeCasts_S1x2500000_S2500000 : S1x2500000.ShapeCasts S2500000
  slices_S2x2500000_S1x2500000_1_0 : S2x2500000.Slices ![1, 0] S1x2500000
  bcast_S_S2500000 : S_.BroadcastsInDim S2500000 (![] : Fin 0 → Fin S2500000.rank)
  bcast_S_S200000 : S_.BroadcastsInDim S200000 (![] : Fin 0 → Fin S200000.rank)
  bcast_S2500000_S2500000x1_0 : S2500000.BroadcastsInDim S2500000x1 (![0] : Fin 1 → Fin S2500000x1.rank)
  bcast_S2500000x1_S2500000x32_0_1 : S2500000x1.BroadcastsInDim S2500000x32 (![0, 1] : Fin 2 → Fin S2500000x32.rank)
  bcast_S_S200000x32 : S_.BroadcastsInDim S200000x32 (![] : Fin 0 → Fin S200000x32.rank)
  bcast_S200000_S200000x1_0 : S200000.BroadcastsInDim S200000x1 (![0] : Fin 1 → Fin S200000x1.rank)
  bcast_S200000x1_S200000x32_0_1 : S200000x1.BroadcastsInDim S200000x32 (![0, 1] : Fin 2 → Fin S200000x32.rank)
  bcast_S32_S1x32_1 : S32.BroadcastsInDim S1x32 (![1] : Fin 1 → Fin S1x32.rank)
  bcast_S1x32_S200000x32_0_1 : S1x32.BroadcastsInDim S200000x32 (![0, 1] : Fin 2 → Fin S200000x32.rank)
  reducesTo_S200000x32_S32_d0 : S200000x32.ReducesTo [0] S32
  h_S_ : 0 < S_.numel
  bcast_S_S32 : S_.BroadcastsInDim S32 (![] : Fin 0 → Fin S32.rank)
  bcast_S_S1x32 : S_.BroadcastsInDim S1x32 (![] : Fin 0 → Fin S1x32.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  scatter_S200000_S2500000x1_S2500000_n_0_0_1_wf : ScatterDims.WF S200000 S2500000x1 S2500000 [] [0] [0] 1
  dot_S200000x1_S1x32_S200000x32_1_0_0_1_n_n_wf : DotDims.WF S200000x1 S1x32 S200000x32 [1] [0] [0] [1] [] []
  gather_S200000_S2500000x1_S2500000_n_0_n_n_0_1_1_wf : GatherDims.WF S200000 S2500000x1 S2500000 [] [0] [] [0] [] 1 ![1]
  gather_S200000x32_S2500000x1_S2500000x32_1_0_n_n_0_1_132_wf : GatherDims.WF S200000x32 S2500000x1 S2500000x32 [1] [0] [] [0] [] 1 ![1, 32]
  scatter_S200000x32_S2500000x1_S2500000x32_1_0_0_1_wf : ScatterDims.WF S200000x32 S2500000x1 S2500000x32 [1] [0] [0] 1
  dot_S200000x32_S32x32_S200000x32_1_0_0_1_n_n_wf : DotDims.WF S200000x32 S32x32 S200000x32 [1] [0] [0] [1] [] []
  dot_S200000x32_S32x1_S200000x1_1_0_0_1_n_n_wf : DotDims.WF S200000x32 S32x1 S200000x1 [1] [0] [0] [1] [] []

variable [Facts₀]

def scatter_S200000_S2500000x1_S2500000_n_0_0_1 : ScatterDims S200000 S2500000x1 S2500000 where
  updateWindowDims := []
  insertedWindowDims := [0]
  scatterDimsToOperandDims := [0]
  indexVectorDim := 1
  wf := scatter_S200000_S2500000x1_S2500000_n_0_0_1_wf
def dot_S200000x1_S1x32_S200000x32_1_0_0_1_n_n : DotDims S200000x1 S1x32 S200000x32 where
  lhsContracting := [1]
  rhsContracting := [0]
  lhsNonContracting := [0]
  rhsNonContracting := [1]
  lhsBatch := []
  rhsBatch := []
  wf := dot_S200000x1_S1x32_S200000x32_1_0_0_1_n_n_wf
def gather_S200000_S2500000x1_S2500000_n_0_n_n_0_1_1 : GatherDims S200000 S2500000x1 S2500000 where
  offsetDims := []
  collapsedSliceDims := [0]
  operandBatchingDims := []
  startIndicesBatchingDims := []
  startIndexMap := [0]
  indexVectorDim := 1
  sliceSizes := ![1]
  wf := gather_S200000_S2500000x1_S2500000_n_0_n_n_0_1_1_wf
def gather_S200000x32_S2500000x1_S2500000x32_1_0_n_n_0_1_132 : GatherDims S200000x32 S2500000x1 S2500000x32 where
  offsetDims := [1]
  collapsedSliceDims := [0]
  operandBatchingDims := []
  startIndicesBatchingDims := []
  startIndexMap := [0]
  indexVectorDim := 1
  sliceSizes := ![1, 32]
  wf := gather_S200000x32_S2500000x1_S2500000x32_1_0_n_n_0_1_132_wf
def scatter_S200000x32_S2500000x1_S2500000x32_1_0_0_1 : ScatterDims S200000x32 S2500000x1 S2500000x32 where
  updateWindowDims := [1]
  insertedWindowDims := [0]
  scatterDimsToOperandDims := [0]
  indexVectorDim := 1
  wf := scatter_S200000x32_S2500000x1_S2500000x32_1_0_0_1_wf
def dot_S200000x32_S32x32_S200000x32_1_0_0_1_n_n : DotDims S200000x32 S32x32 S200000x32 where
  lhsContracting := [1]
  rhsContracting := [0]
  lhsNonContracting := [0]
  rhsNonContracting := [1]
  lhsBatch := []
  rhsBatch := []
  wf := dot_S200000x32_S32x32_S200000x32_1_0_0_1_n_n_wf
def dot_S200000x32_S32x1_S200000x1_1_0_0_1_n_n : DotDims S200000x32 S32x1 S200000x1 where
  lhsContracting := [1]
  rhsContracting := [0]
  lhsNonContracting := [0]
  rhsNonContracting := [1]
  lhsBatch := []
  rhsBatch := []
  wf := dot_S200000x32_S32x1_S200000x1_1_0_0_1_n_n_wf

class Facts : Prop extends Facts₀ where

variable [Facts]
-- ==== Proof.Keeps.lean ====
/- What a step of the kernel program's @main leaves alone. @main is 24 steps between 25 boundary contents W0 … W24:
   a host stretch rewrites the buffers its operations write and a region its windows' arrays; every other buffer
   holds after the step what it held before it. One lemma per step, over the list of what the step may change. -/
import proofs.«417560_j33346126086480_1_alg».proof.Proof.Gen.KernelIdeal.Frame

set_option maxRecDepth 16384

noncomputable section

namespace Cert.KernelIdeal.Keeps

open Cert.KernelIdeal Cert.KernelIdeal.Gen Idealize.ShloMosaic Idealize.ShloMosaic.TcCoe

variable {F : FTy → Type} [FloatOps F]

/-! ## Host stretches: the buffers a stretch writes, and that it leaves every other buffer alone -/

/-- The buffers `hostOps0` writes, in order. -/
def wr_hostOps0 : List (Ref sig .tc) := [main_v0, main_v1, main_v2, main_v3, main_cst, main_v4, main_cst_0, main_v5, main_v6, main_v7, main_cst_1, main_v8, main_v9, main_v10, main_c, main_v11, main_v12, main_c_2, main_v13, main_v14, main_v15, main_v16, main_v17, main_c_3, main_v18, main_v19, main_c_4, main_v20, main_v21, main_v22, main_v23, main_v24, main_v25, main_v26, main_v27, main_v28]
/-- A buffer `hostOps0` does not write keeps its contents, from any contents `V`. -/
theorem keep_hostOps0 (V : Valuation τ sig (Elt F)) (b : Ref sig .tc) (hb : b ∉ wr_hostOps0) :
    StableHlo.after hostOps0 V (Proc.devRef .tc b) = V (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- The buffers `hostOps1` writes, in order. -/
def wr_hostOps1 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v30]
/-- A buffer `hostOps1` does not write keeps its contents, from any contents `V`. -/
theorem keep_hostOps1 (V : Valuation τ sig (Elt F)) (b : Ref sig .tc) (hb : b ∉ wr_hostOps1) :
    StableHlo.after hostOps1 V (Proc.devRef .tc b) = V (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- The buffers `hostOps2` writes, in order. -/
def wr_hostOps2 : List (Ref sig .tc) := [main_cst_5, main_v32, main_v33, main_v34, main_v35, main_v36, main_v37, main_v38, main_v39, main_v40, main_cst_6, main_v41, main_cst_7, main_v42, main_v43, main_c_8]
/-- A buffer `hostOps2` does not write keeps its contents, from any contents `V`. -/
theorem keep_hostOps2 (V : Valuation τ sig (Elt F)) (b : Ref sig .tc) (hb : b ∉ wr_hostOps2) :
    StableHlo.after hostOps2 V (Proc.devRef .tc b) = V (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- The buffers `hostOps2_1` writes, in order. -/
def wr_hostOps2_1 : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v44]
/-- A buffer `hostOps2_1` does not write keeps its contents, from any contents `V`. -/
theorem keep_hostOps2_1 (V : Valuation τ sig (Elt F)) (b : Ref sig .tc) (hb : b ∉ wr_hostOps2_1) :
    StableHlo.after hostOps2_1 V (Proc.devRef .tc b) = V (Proc.devRef .tc b) :=
  StableHlo.after_of_forall_not_mem (b := Proc.devRef .tc b) _ _ (List.forall_iff_forall_mem.mp (by
    simp only [hostOps2_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- The buffers `hostOps2_2` writes, in order. -/
def wr_hostOps2_2 : List (Ref sig .tc) := [main_v45, main_v46, main_v47, main_v48]
/-- A buffer `hostOps2_2` does not write keeps its contents, from any contents `V`. -/
theorem keep_hostOps2_2 (V : Valuation τ sig (Elt F)) (b : Ref sig .tc) (hb : b ∉ wr_hostOps2_2) :
    StableHlo.after hostOps2_2 V (Proc.devRef .tc b) = V (Proc.devRef .tc b) :=
  StableHlo.after_of_forall_not_mem (b := Proc.devRef .tc b) _ _ (List.forall_iff_forall_mem.mp (by
    simp only [hostOps2_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- The buffers `hostOps4` writes, in order. -/
def wr_hostOps4 : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v51]
/-- A buffer `hostOps4` does not write keeps its contents, from any contents `V`. -/
theorem keep_hostOps4 (V : Valuation τ sig (Elt F)) (b : Ref sig .tc) (hb : b ∉ wr_hostOps4) :
    StableHlo.after hostOps4 V (Proc.devRef .tc b) = V (Proc.devRef .tc b) :=
  StableHlo.after_of_forall_not_mem (b := Proc.devRef .tc b) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- The buffers `hostOps5` writes, in order. -/
def wr_hostOps5 : List (Ref sig .tc) := [main_cst_9, main_v53, main_v54, main_v55, main_v56, main_v57, main_v58, main_v59, main_v60, main_v61, main_cst_10, main_v62, main_cst_11, main_v63, main_v64, main_c_12]
/-- A buffer `hostOps5` does not write keeps its contents, from any contents `V`. -/
theorem keep_hostOps5 (V : Valuation τ sig (Elt F)) (b : Ref sig .tc) (hb : b ∉ wr_hostOps5) :
    StableHlo.after hostOps5 V (Proc.devRef .tc b) = V (Proc.devRef .tc b) :=
  StableHlo.after_of_forall_not_mem (b := Proc.devRef .tc b) _ _ (List.forall_iff_forall_mem.mp (by
    simp only [hostOps5, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- The buffers `hostOps5_1` writes, in order. -/
def wr_hostOps5_1 : List (Ref sig .tc) := [main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v65]
/-- A buffer `hostOps5_1` does not write keeps its contents, from any contents `V`. -/
theorem keep_hostOps5_1 (V : Valuation τ sig (Elt F)) (b : Ref sig .tc) (hb : b ∉ wr_hostOps5_1) :
    StableHlo.after hostOps5_1 V (Proc.devRef .tc b) = V (Proc.devRef .tc b) :=
  StableHlo.after_of_forall_not_mem (b := Proc.devRef .tc b) _ _ (List.forall_iff_forall_mem.mp (by
    simp only [hostOps5_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- The buffers `hostOps5_2` writes, in order. -/
def wr_hostOps5_2 : List (Ref sig .tc) := [main_v66, main_v67, main_v68, main_v69]
/-- A buffer `hostOps5_2` does not write keeps its contents, from any contents `V`. -/
theorem keep_hostOps5_2 (V : Valuation τ sig (Elt F)) (b : Ref sig .tc) (hb : b ∉ wr_hostOps5_2) :
    StableHlo.after hostOps5_2 V (Proc.devRef .tc b) = V (Proc.devRef .tc b) :=
  StableHlo.after_of_forall_not_mem (b := Proc.devRef .tc b) _ _ (List.forall_iff_forall_mem.mp (by
    simp only [hostOps5_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- The buffers `hostOps7` writes, in order. -/
def wr_hostOps7 : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v72]
/-- A buffer `hostOps7` does not write keeps its contents, from any contents `V`. -/
theorem keep_hostOps7 (V : Valuation τ sig (Elt F)) (b : Ref sig .tc) (hb : b ∉ wr_hostOps7) :
    StableHlo.after hostOps7 V (Proc.devRef .tc b) = V (Proc.devRef .tc b) :=
  StableHlo.after_of_forall_not_mem (b := Proc.devRef .tc b) _ _ (List.forall_iff_forall_mem.mp (by
    simp only [hostOps7, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- The buffers `hostOps8` writes, in order. -/
def wr_hostOps8 : List (Ref sig .tc) := [main_cst_13, main_v74, main_v75, main_v76, main_v77, main_v78, main_v79, main_v80, main_v81, main_v82, main_cst_14, main_v83, main_cst_15, main_v84, main_v85, main_c_16]
/-- A buffer `hostOps8` does not write keeps its contents, from any contents `V`. -/
theorem keep_hostOps8 (V : Valuation τ sig (Elt F)) (b : Ref sig .tc) (hb : b ∉ wr_hostOps8) :
    StableHlo.after hostOps8 V (Proc.devRef .tc b) = V (Proc.devRef .tc b) :=
  StableHlo.after_of_forall_not_mem (b := Proc.devRef .tc b) _ _ (List.forall_iff_forall_mem.mp (by
    simp only [hostOps8, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- The buffers `hostOps8_1` writes, in order. -/
def wr_hostOps8_1 : List (Ref sig .tc) := [main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v86]
/-- A buffer `hostOps8_1` does not write keeps its contents, from any contents `V`. -/
theorem keep_hostOps8_1 (V : Valuation τ sig (Elt F)) (b : Ref sig .tc) (hb : b ∉ wr_hostOps8_1) :
    StableHlo.after hostOps8_1 V (Proc.devRef .tc b) = V (Proc.devRef .tc b) :=
  StableHlo.after_of_forall_not_mem (b := Proc.devRef .tc b) _ _ (List.forall_iff_forall_mem.mp (by
    simp only [hostOps8_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- The buffers `hostOps8_2` writes, in order. -/
def wr_hostOps8_2 : List (Ref sig .tc) := [main_v87, main_v88, main_v89, main_v90]
/-- A buffer `hostOps8_2` does not write keeps its contents, from any contents `V`. -/
theorem keep_hostOps8_2 (V : Valuation τ sig (Elt F)) (b : Ref sig .tc) (hb : b ∉ wr_hostOps8_2) :
    StableHlo.after hostOps8_2 V (Proc.devRef .tc b) = V (Proc.devRef .tc b) :=
  StableHlo.after_of_forall_not_mem (b := Proc.devRef .tc b) _ _ (List.forall_iff_forall_mem.mp (by
    simp only [hostOps8_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- The buffers `hostOps9` writes, in order. -/
def wr_hostOps9 : List (Ref sig .tc) := [main_v92]
/-- A buffer `hostOps9` does not write keeps its contents, from any contents `V`. -/
theorem keep_hostOps9 (V : Valuation τ sig (Elt F)) (b : Ref sig .tc) (hb : b ∉ wr_hostOps9) :
    StableHlo.after hostOps9 V (Proc.devRef .tc b) = V (Proc.devRef .tc b) :=
  StableHlo.after_of_forall_not_mem (b := Proc.devRef .tc b) _ _ (List.forall_iff_forall_mem.mp (by
    simp only [hostOps9, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

variable (m : (ℓ : Loc nD τ sig) → Buf (Elt F) ℓ) (ρ : Dev nD → PrngReg) (c : Dev nD)

/-! ## The steps between the boundary contents -/

/-- Step 1 (`hostOps0`): a buffer it does not write is as at the boundary before. -/
theorem step1 (b : Ref sig .tc) (hb : b ∉ wr_hostOps0) : W1 m ρ c (Proc.devRef .tc b) = W0 m ρ c (Proc.devRef .tc b) :=
  keep_hostOps0 (W0 m ρ c) b hb

/-- The arrays of region 0's windows. -/
def wr_region0 : List (Ref sig .tc) := [main_arg0, main_arg3, main_v29]
/-- Step 2 (region 0): a buffer that is none of its windows' arrays is as at the boundary before. -/
theorem step2 (b : Ref sig .tc) (hb : b ∉ wr_region0) : W2 m ρ c (Proc.devRef .tc b) = W1 m ρ c (Proc.devRef .tc b) :=
  W2_of_ne m ρ c b (fun w e => hb (by subst e; revert w; decide))

/-- Step 3 (`hostOps1`): a buffer it does not write is as at the boundary before. -/
theorem step3 (b : Ref sig .tc) (hb : b ∉ wr_hostOps1) : W3 m ρ c (Proc.devRef .tc b) = W2 m ρ c (Proc.devRef .tc b) :=
  keep_hostOps1 (W2 m ρ c) b hb

/-- The arrays of region 1's windows. -/
def wr_region1 : List (Ref sig .tc) := [main_v30, main_v26, main_v31]
/-- Step 4 (region 1): a buffer that is none of its windows' arrays is as at the boundary before. -/
theorem step4 (b : Ref sig .tc) (hb : b ∉ wr_region1) : W4 m ρ c (Proc.devRef .tc b) = W3 m ρ c (Proc.devRef .tc b) :=
  W4_of_ne m ρ c b (fun w e => hb (by subst e; revert w; decide))

/-- Step 5 (`hostOps2`): a buffer it does not write is as at the boundary before. -/
theorem step5 (b : Ref sig .tc) (hb : b ∉ wr_hostOps2) : W5 m ρ c (Proc.devRef .tc b) = W4 m ρ c (Proc.devRef .tc b) :=
  keep_hostOps2 (W4 m ρ c) b hb

/-- Step 6 (`hostOps2_1`): a buffer it does not write is as at the boundary before. -/
theorem step6 (b : Ref sig .tc) (hb : b ∉ wr_hostOps2_1) : W6 m ρ c (Proc.devRef .tc b) = W5 m ρ c (Proc.devRef .tc b) :=
  keep_hostOps2_1 (W5 m ρ c) b hb

/-- Step 7 (`hostOps2_2`): a buffer it does not write is as at the boundary before. -/
theorem step7 (b : Ref sig .tc) (hb : b ∉ wr_hostOps2_2) : W7 m ρ c (Proc.devRef .tc b) = W6 m ρ c (Proc.devRef .tc b) :=
  keep_hostOps2_2 (W6 m ρ c) b hb

/-- The arrays of region 2's windows. -/
def wr_region2 : List (Ref sig .tc) := [main_v40, main_v45, main_v46, main_v47, main_v48, main_v49]
/-- Step 8 (region 2): a buffer that is none of its windows' arrays is as at the boundary before. -/
theorem step8 (b : Ref sig .tc) (hb : b ∉ wr_region2) : W8 m ρ c (Proc.devRef .tc b) = W7 m ρ c (Proc.devRef .tc b) :=
  W8_of_ne m ρ c b (fun w e => hb (by subst e; revert w; decide))

/-- The arrays of region 3's windows. -/
def wr_region3 : List (Ref sig .tc) := [main_v49, main_arg7, main_v50]
/-- Step 9 (region 3): a buffer that is none of its windows' arrays is as at the boundary before. -/
theorem step9 (b : Ref sig .tc) (hb : b ∉ wr_region3) : W9 m ρ c (Proc.devRef .tc b) = W8 m ρ c (Proc.devRef .tc b) :=
  W9_of_ne m ρ c b (fun w e => hb (by subst e; revert w; decide))

/-- Step 10 (`hostOps4`): a buffer it does not write is as at the boundary before. -/
theorem step10 (b : Ref sig .tc) (hb : b ∉ wr_hostOps4) : W10 m ρ c (Proc.devRef .tc b) = W9 m ρ c (Proc.devRef .tc b) :=
  keep_hostOps4 (W9 m ρ c) b hb

/-- The arrays of region 4's windows. -/
def wr_region4 : List (Ref sig .tc) := [main_v51, main_v26, main_v52]
/-- Step 11 (region 4): a buffer that is none of its windows' arrays is as at the boundary before. -/
theorem step11 (b : Ref sig .tc) (hb : b ∉ wr_region4) : W11 m ρ c (Proc.devRef .tc b) = W10 m ρ c (Proc.devRef .tc b) :=
  W11_of_ne m ρ c b (fun w e => hb (by subst e; revert w; decide))

/-- Step 12 (`hostOps5`): a buffer it does not write is as at the boundary before. -/
theorem step12 (b : Ref sig .tc) (hb : b ∉ wr_hostOps5) : W12 m ρ c (Proc.devRef .tc b) = W11 m ρ c (Proc.devRef .tc b) :=
  keep_hostOps5 (W11 m ρ c) b hb

/-- Step 13 (`hostOps5_1`): a buffer it does not write is as at the boundary before. -/
theorem step13 (b : Ref sig .tc) (hb : b ∉ wr_hostOps5_1) : W13 m ρ c (Proc.devRef .tc b) = W12 m ρ c (Proc.devRef .tc b) :=
  keep_hostOps5_1 (W12 m ρ c) b hb

/-- Step 14 (`hostOps5_2`): a buffer it does not write is as at the boundary before. -/
theorem step14 (b : Ref sig .tc) (hb : b ∉ wr_hostOps5_2) : W14 m ρ c (Proc.devRef .tc b) = W13 m ρ c (Proc.devRef .tc b) :=
  keep_hostOps5_2 (W13 m ρ c) b hb

/-- The arrays of region 5's windows. -/
def wr_region5 : List (Ref sig .tc) := [main_v61, main_v66, main_v67, main_v68, main_v69, main_v70]
/-- Step 15 (region 5): a buffer that is none of its windows' arrays is as at the boundary before. -/
theorem step15 (b : Ref sig .tc) (hb : b ∉ wr_region5) : W15 m ρ c (Proc.devRef .tc b) = W14 m ρ c (Proc.devRef .tc b) :=
  W15_of_ne m ρ c b (fun w e => hb (by subst e; revert w; decide))

/-- The arrays of region 6's windows. -/
def wr_region6 : List (Ref sig .tc) := [main_v70, main_arg11, main_v71]
/-- Step 16 (region 6): a buffer that is none of its windows' arrays is as at the boundary before. -/
theorem step16 (b : Ref sig .tc) (hb : b ∉ wr_region6) : W16 m ρ c (Proc.devRef .tc b) = W15 m ρ c (Proc.devRef .tc b) :=
  W16_of_ne m ρ c b (fun w e => hb (by subst e; revert w; decide))

/-- Step 17 (`hostOps7`): a buffer it does not write is as at the boundary before. -/
theorem step17 (b : Ref sig .tc) (hb : b ∉ wr_hostOps7) : W17 m ρ c (Proc.devRef .tc b) = W16 m ρ c (Proc.devRef .tc b) :=
  keep_hostOps7 (W16 m ρ c) b hb

/-- The arrays of region 7's windows. -/
def wr_region7 : List (Ref sig .tc) := [main_v72, main_v26, main_v73]
/-- Step 18 (region 7): a buffer that is none of its windows' arrays is as at the boundary before. -/
theorem step18 (b : Ref sig .tc) (hb : b ∉ wr_region7) : W18 m ρ c (Proc.devRef .tc b) = W17 m ρ c (Proc.devRef .tc b) :=
  W18_of_ne m ρ c b (fun w e => hb (by subst e; revert w; decide))

/-- Step 19 (`hostOps8`): a buffer it does not write is as at the boundary before. -/
theorem step19 (b : Ref sig .tc) (hb : b ∉ wr_hostOps8) : W19 m ρ c (Proc.devRef .tc b) = W18 m ρ c (Proc.devRef .tc b) :=
  keep_hostOps8 (W18 m ρ c) b hb

/-- Step 20 (`hostOps8_1`): a buffer it does not write is as at the boundary before. -/
theorem step20 (b : Ref sig .tc) (hb : b ∉ wr_hostOps8_1) : W20 m ρ c (Proc.devRef .tc b) = W19 m ρ c (Proc.devRef .tc b) :=
  keep_hostOps8_1 (W19 m ρ c) b hb

/-- Step 21 (`hostOps8_2`): a buffer it does not write is as at the boundary before. -/
theorem step21 (b : Ref sig .tc) (hb : b ∉ wr_hostOps8_2) : W21 m ρ c (Proc.devRef .tc b) = W20 m ρ c (Proc.devRef .tc b) :=
  keep_hostOps8_2 (W20 m ρ c) b hb

/-- The arrays of region 8's windows. -/
def wr_region8 : List (Ref sig .tc) := [main_v82, main_v87, main_v88, main_v89, main_v90, main_v91]
/-- Step 22 (region 8): a buffer that is none of its windows' arrays is as at the boundary before. -/
theorem step22 (b : Ref sig .tc) (hb : b ∉ wr_region8) : W22 m ρ c (Proc.devRef .tc b) = W21 m ρ c (Proc.devRef .tc b) :=
  W22_of_ne m ρ c b (fun w e => hb (by subst e; revert w; decide))

/-- Step 23 (`hostOps9`): a buffer it does not write is as at the boundary before. -/
theorem step23 (b : Ref sig .tc) (hb : b ∉ wr_hostOps9) : W23 m ρ c (Proc.devRef .tc b) = W22 m ρ c (Proc.devRef .tc b) :=
  keep_hostOps9 (W22 m ρ c) b hb

/-- The arrays of region 9's windows. -/
def wr_region9 : List (Ref sig .tc) := [main_v91, main_arg15, main_v92, main_v93]
/-- Step 24 (region 9): a buffer that is none of its windows' arrays is as at the boundary before. -/
theorem step24 (b : Ref sig .tc) (hb : b ∉ wr_region9) : W24 m ρ c (Proc.devRef .tc b) = W23 m ρ c (Proc.devRef .tc b) :=
  W24_of_ne m ρ c b (fun w e => hb (by subst e; revert w; decide))

end Cert.KernelIdeal.Keeps

end
-- ==== Proof.AsmKeep.lean ====
/-
  The arguments and the edge data carried through the steps of the kernel program's @main.

  An argument that no step so far has had among its windows' arrays or written buffers is, at every boundary up to
  the region that reads it, what the launch memory held; the edges' sources, targets and the nodes' weights, written by
  the first stretch and never again, are at every later boundary what they were after it. The edges' weights column
  is an input window of regions 1, 4 and 7: a region leaves an input window's array as it found it.
-/
import proofs.«417560_j33346126086480_1_alg».proof.Proof.Keeps

set_option maxRecDepth 16384

noncomputable section

namespace Cert.KernelIdeal.KVal

open Cert.KernelIdeal Cert.KernelIdeal.Gen Cert.KernelIdeal.Keeps Idealize.ShloMosaic Idealize.ShloMosaic.TcCoe

variable {F : FTy → Type} [FloatOps F]
variable (m : (ℓ : Loc nD τ sig) → Buf (Elt F) ℓ) (ρ : Dev nD → PrngReg) (c : Dev nD)

/-- The arguments read after region 0. -/
def argsA : List (Ref sig .tc) := [main_arg4, main_arg5, main_arg6, main_arg7, main_arg8, main_arg9, main_arg10, main_arg11, main_arg12, main_arg13, main_arg14, main_arg15, main_arg16]
/-- The arguments read after region 3. -/
def argsB : List (Ref sig .tc) := [main_arg8, main_arg9, main_arg10, main_arg11, main_arg12, main_arg13, main_arg14, main_arg15, main_arg16]
/-- The arguments read after region 6. -/
def argsC : List (Ref sig .tc) := [main_arg12, main_arg13, main_arg14, main_arg15, main_arg16]
/-- The edge data every layer reads: sources, targets, the nodes' weights as a column. -/
def edgeBufs : List (Ref sig .tc) := [main_v1, main_v3, main_v28]

/-! ## The arguments at each boundary -/

theorem args1 : ∀ b ∈ main_arg0 :: main_arg3 :: argsA, W1 m ρ c (Proc.devRef .tc b) = (m ((c : Thread nD τ).loc b)) :=
  fun b hb => (step1 m ρ c b (by revert b; decide)).trans rfl
theorem args2 : ∀ b ∈ argsA, W2 m ρ c (Proc.devRef .tc b) = (m ((c : Thread nD τ).loc b)) :=
  fun b hb => (step2 m ρ c b (by revert b; decide)).trans (args1 m ρ c b (by revert b; decide))
theorem args3 : ∀ b ∈ argsA, W3 m ρ c (Proc.devRef .tc b) = (m ((c : Thread nD τ).loc b)) :=
  fun b hb => (step3 m ρ c b (by revert b; decide)).trans (args2 m ρ c b hb)
theorem args4 : ∀ b ∈ argsA, W4 m ρ c (Proc.devRef .tc b) = (m ((c : Thread nD τ).loc b)) :=
  fun b hb => (step4 m ρ c b (by revert b; decide)).trans (args3 m ρ c b hb)
theorem args5 : ∀ b ∈ argsA, W5 m ρ c (Proc.devRef .tc b) = (m ((c : Thread nD τ).loc b)) :=
  fun b hb => (step5 m ρ c b (by revert b; decide)).trans (args4 m ρ c b hb)
theorem args6 : ∀ b ∈ argsA, W6 m ρ c (Proc.devRef .tc b) = (m ((c : Thread nD τ).loc b)) :=
  fun b hb => (step6 m ρ c b (by revert b; decide)).trans (args5 m ρ c b hb)
theorem args7 : ∀ b ∈ argsA, W7 m ρ c (Proc.devRef .tc b) = (m ((c : Thread nD τ).loc b)) :=
  fun b hb => (step7 m ρ c b (by revert b; decide)).trans (args6 m ρ c b hb)
theorem args8 : ∀ b ∈ argsA, W8 m ρ c (Proc.devRef .tc b) = (m ((c : Thread nD τ).loc b)) :=
  fun b hb => (step8 m ρ c b (by revert b; decide)).trans (args7 m ρ c b hb)
theorem args9 : ∀ b ∈ argsB, W9 m ρ c (Proc.devRef .tc b) = (m ((c : Thread nD τ).loc b)) :=
  fun b hb => (step9 m ρ c b (by revert b; decide)).trans (args8 m ρ c b (by revert b; decide))
theorem args10 : ∀ b ∈ argsB, W10 m ρ c (Proc.devRef .tc b) = (m ((c : Thread nD τ).loc b)) :=
  fun b hb => (step10 m ρ c b (by revert b; decide)).trans (args9 m ρ c b hb)
theorem args11 : ∀ b ∈ argsB, W11 m ρ c (Proc.devRef .tc b) = (m ((c : Thread nD τ).loc b)) :=
  fun b hb => (step11 m ρ c b (by revert b; decide)).trans (args10 m ρ c b hb)
theorem args12 : ∀ b ∈ argsB, W12 m ρ c (Proc.devRef .tc b) = (m ((c : Thread nD τ).loc b)) :=
  fun b hb => (step12 m ρ c b (by revert b; decide)).trans (args11 m ρ c b hb)
theorem args13 : ∀ b ∈ argsB, W13 m ρ c (Proc.devRef .tc b) = (m ((c : Thread nD τ).loc b)) :=
  fun b hb => (step13 m ρ c b (by revert b; decide)).trans (args12 m ρ c b hb)
theorem args14 : ∀ b ∈ argsB, W14 m ρ c (Proc.devRef .tc b) = (m ((c : Thread nD τ).loc b)) :=
  fun b hb => (step14 m ρ c b (by revert b; decide)).trans (args13 m ρ c b hb)
theorem args15 : ∀ b ∈ argsB, W15 m ρ c (Proc.devRef .tc b) = (m ((c : Thread nD τ).loc b)) :=
  fun b hb => (step15 m ρ c b (by revert b; decide)).trans (args14 m ρ c b hb)
theorem args16 : ∀ b ∈ argsC, W16 m ρ c (Proc.devRef .tc b) = (m ((c : Thread nD τ).loc b)) :=
  fun b hb => (step16 m ρ c b (by revert b; decide)).trans (args15 m ρ c b (by revert b; decide))
theorem args17 : ∀ b ∈ argsC, W17 m ρ c (Proc.devRef .tc b) = (m ((c : Thread nD τ).loc b)) :=
  fun b hb => (step17 m ρ c b (by revert b; decide)).trans (args16 m ρ c b hb)
theorem args18 : ∀ b ∈ argsC, W18 m ρ c (Proc.devRef .tc b) = (m ((c : Thread nD τ).loc b)) :=
  fun b hb => (step18 m ρ c b (by revert b; decide)).trans (args17 m ρ c b hb)
theorem args19 : ∀ b ∈ argsC, W19 m ρ c (Proc.devRef .tc b) = (m ((c : Thread nD τ).loc b)) :=
  fun b hb => (step19 m ρ c b (by revert b; decide)).trans (args18 m ρ c b hb)
theorem args20 : ∀ b ∈ argsC, W20 m ρ c (Proc.devRef .tc b) = (m ((c : Thread nD τ).loc b)) :=
  fun b hb => (step20 m ρ c b (by revert b; decide)).trans (args19 m ρ c b hb)
theorem args21 : ∀ b ∈ argsC, W21 m ρ c (Proc.devRef .tc b) = (m ((c : Thread nD τ).loc b)) :=
  fun b hb => (step21 m ρ c b (by revert b; decide)).trans (args20 m ρ c b hb)
theorem args22 : ∀ b ∈ argsC, W22 m ρ c (Proc.devRef .tc b) = (m ((c : Thread nD τ).loc b)) :=
  fun b hb => (step22 m ρ c b (by revert b; decide)).trans (args21 m ρ c b hb)
theorem args23 : ∀ b ∈ argsC, W23 m ρ c (Proc.devRef .tc b) = (m ((c : Thread nD τ).loc b)) :=
  fun b hb => (step23 m ρ c b (by revert b; decide)).trans (args22 m ρ c b hb)

/-! ## The edge data at each boundary -/

theorem edge1 : ∀ b ∈ edgeBufs, W1 m ρ c (Proc.devRef .tc b) = W1 m ρ c (Proc.devRef .tc b) := fun _ _ => rfl
theorem edge2 : ∀ b ∈ edgeBufs, W2 m ρ c (Proc.devRef .tc b) = W1 m ρ c (Proc.devRef .tc b) :=
  fun b hb => (step2 m ρ c b (by revert b; decide)).trans (edge1 m ρ c b hb)
theorem edge3 : ∀ b ∈ edgeBufs, W3 m ρ c (Proc.devRef .tc b) = W1 m ρ c (Proc.devRef .tc b) :=
  fun b hb => (step3 m ρ c b (by revert b; decide)).trans (edge2 m ρ c b hb)
theorem edge4 : ∀ b ∈ edgeBufs, W4 m ρ c (Proc.devRef .tc b) = W1 m ρ c (Proc.devRef .tc b) :=
  fun b hb => (step4 m ρ c b (by revert b; decide)).trans (edge3 m ρ c b hb)
theorem edge5 : ∀ b ∈ edgeBufs, W5 m ρ c (Proc.devRef .tc b) = W1 m ρ c (Proc.devRef .tc b) :=
  fun b hb => (step5 m ρ c b (by revert b; decide)).trans (edge4 m ρ c b hb)
theorem edge6 : ∀ b ∈ edgeBufs, W6 m ρ c (Proc.devRef .tc b) = W1 m ρ c (Proc.devRef .tc b) :=
  fun b hb => (step6 m ρ c b (by revert b; decide)).trans (edge5 m ρ c b hb)
theorem edge7 : ∀ b ∈ edgeBufs, W7 m ρ c (Proc.devRef .tc b) = W1 m ρ c (Proc.devRef .tc b) :=
  fun b hb => (step7 m ρ c b (by revert b; decide)).trans (edge6 m ρ c b hb)
theorem edge8 : ∀ b ∈ edgeBufs, W8 m ρ c (Proc.devRef .tc b) = W1 m ρ c (Proc.devRef .tc b) :=
  fun b hb => (step8 m ρ c b (by revert b; decide)).trans (edge7 m ρ c b hb)
theorem edge9 : ∀ b ∈ edgeBufs, W9 m ρ c (Proc.devRef .tc b) = W1 m ρ c (Proc.devRef .tc b) :=
  fun b hb => (step9 m ρ c b (by revert b; decide)).trans (edge8 m ρ c b hb)
theorem edge10 : ∀ b ∈ edgeBufs, W10 m ρ c (Proc.devRef .tc b) = W1 m ρ c (Proc.devRef .tc b) :=
  fun b hb => (step10 m ρ c b (by revert b; decide)).trans (edge9 m ρ c b hb)
theorem edge11 : ∀ b ∈ edgeBufs, W11 m ρ c (Proc.devRef .tc b) = W1 m ρ c (Proc.devRef .tc b) :=
  fun b hb => (step11 m ρ c b (by revert b; decide)).trans (edge10 m ρ c b hb)
theorem edge12 : ∀ b ∈ edgeBufs, W12 m ρ c (Proc.devRef .tc b) = W1 m ρ c (Proc.devRef .tc b) :=
  fun b hb => (step12 m ρ c b (by revert b; decide)).trans (edge11 m ρ c b hb)
theorem edge13 : ∀ b ∈ edgeBufs, W13 m ρ c (Proc.devRef .tc b) = W1 m ρ c (Proc.devRef .tc b) :=
  fun b hb => (step13 m ρ c b (by revert b; decide)).trans (edge12 m ρ c b hb)
theorem edge14 : ∀ b ∈ edgeBufs, W14 m ρ c (Proc.devRef .tc b) = W1 m ρ c (Proc.devRef .tc b) :=
  fun b hb => (step14 m ρ c b (by revert b; decide)).trans (edge13 m ρ c b hb)
theorem edge15 : ∀ b ∈ edgeBufs, W15 m ρ c (Proc.devRef .tc b) = W1 m ρ c (Proc.devRef .tc b) :=
  fun b hb => (step15 m ρ c b (by revert b; decide)).trans (edge14 m ρ c b hb)
theorem edge16 : ∀ b ∈ edgeBufs, W16 m ρ c (Proc.devRef .tc b) = W1 m ρ c (Proc.devRef .tc b) :=
  fun b hb => (step16 m ρ c b (by revert b; decide)).trans (edge15 m ρ c b hb)
theorem edge17 : ∀ b ∈ edgeBufs, W17 m ρ c (Proc.devRef .tc b) = W1 m ρ c (Proc.devRef .tc b) :=
  fun b hb => (step17 m ρ c b (by revert b; decide)).trans (edge16 m ρ c b hb)
theorem edge18 : ∀ b ∈ edgeBufs, W18 m ρ c (Proc.devRef .tc b) = W1 m ρ c (Proc.devRef .tc b) :=
  fun b hb => (step18 m ρ c b (by revert b; decide)).trans (edge17 m ρ c b hb)

/-! ## The weights column through the regions that read it -/

theorem v26_4 : W4 m ρ c (Proc.devRef .tc main_v26) = W3 m ρ c (Proc.devRef .tc main_v26) :=
  (W4_arr m ρ c 1).trans (((dat1 (V3 m ρ) c).arrAt_in 1 rfl _).trans (A_eq1 (V3 m ρ) c 1))
theorem v26_11 : W11 m ρ c (Proc.devRef .tc main_v26) = W10 m ρ c (Proc.devRef .tc main_v26) :=
  (W11_arr m ρ c 1).trans (((dat4 (V10 m ρ) c).arrAt_in 1 rfl _).trans (A_eq4 (V10 m ρ) c 1))
theorem v26_3' : W3 m ρ c (Proc.devRef .tc main_v26) = W1 m ρ c (Proc.devRef .tc main_v26) :=
  (step3 m ρ c main_v26 (by decide)).trans (step2 m ρ c main_v26 (by decide))
theorem v26_10' : W10 m ρ c (Proc.devRef .tc main_v26) = W1 m ρ c (Proc.devRef .tc main_v26) :=
  (step10 m ρ c main_v26 (by decide)).trans ((step9 m ρ c main_v26 (by decide)).trans ((step8 m ρ c main_v26 (by decide)).trans
    ((step7 m ρ c main_v26 (by decide)).trans ((step6 m ρ c main_v26 (by decide)).trans ((step5 m ρ c main_v26 (by decide)).trans
      ((v26_4 m ρ c).trans (v26_3' m ρ c)))))))
theorem v26_17' : W17 m ρ c (Proc.devRef .tc main_v26) = W1 m ρ c (Proc.devRef .tc main_v26) :=
  (step17 m ρ c main_v26 (by decide)).trans ((step16 m ρ c main_v26 (by decide)).trans ((step15 m ρ c main_v26 (by decide)).trans
    ((step14 m ρ c main_v26 (by decide)).trans ((step13 m ρ c main_v26 (by decide)).trans ((step12 m ρ c main_v26 (by decide)).trans
      ((v26_11 m ρ c).trans (v26_10' m ρ c)))))))

end Cert.KernelIdeal.KVal

end
-- ==== Proof.Stages.lean ====
/-
  The stages of the network, as functions of whole arrays.

  Both programs compute, for a graph on N = 200000 nodes with E = 2500000 directed edges (sources `src`, targets
  `dst`, the two rows of the edge table):
    deg  = 1 + (number of edges into each node)            norm = deg^(-1/2)
    coef = norm[src] · norm[dst]                            (one number per edge)
  and three times, from node features X (one column, then 32):
    h    = X · W
    msg  = h[src] · coef                                    (one row of 32 per edge)
    conv = (Σ over the edges into a node of msg) + h · norm² + b
    out  = max(0, g · (conv − mean) · (var + ε)^(-1/2) + be)  with mean, var the column statistics of conv
  and at the end out · fcW + fcb.  Each definition below is one of these stages written with the host
  operations of the reference program, so that the reference's run lands on them operation by operation; the
  kernel's run is brought to the same functions stage by stage.
-/
import proofs.«417560_j33346126086480_1_alg».proof.ReferenceIdeal
import proofs.«417560_j33346126086480_1_alg».proof.KernelIdeal
import proofs.«417560_j33346126086480_1_alg».proof.Proof.Gen.ReferenceIdeal
import proofs.«417560_j33346126086480_1_alg».proof.Proof.Gen.KernelIdeal

noncomputable section

namespace Cert.Stages

open Idealize.ShloMosaic Cert.ReferenceIdeal Cert.ReferenceIdeal.Facts₀

variable {F : FTy → Type} [FloatOps F]

/-! ## The edge table -/

/-- Row 0 of the edge table: each edge's source node. -/
def srcOf (ei : IVec S2x2500000 32) : IVec S2500000 32 :=
  shapeCast S2500000 (extractStridedSlice S1x2500000 ![0, 0] ei slices_S2x2500000_S1x2500000_0_0) shapeCasts_S1x2500000_S2500000

/-- Row 1 of the edge table: each edge's target node. -/
def dstOf (ei : IVec S2x2500000 32) : IVec S2500000 32 :=
  shapeCast S2500000 (extractStridedSlice S1x2500000 ![1, 0] ei slices_S2x2500000_S1x2500000_1_0) shapeCasts_S1x2500000_S2500000

/-- A vector of node numbers as a column of one-word index vectors. -/
def idxCol (v : IVec S2500000 32) : IVec S2500000x1 32 :=
  broadcastInDim S2500000x1 ![0] bcast_S2500000_S2500000x1_0 v

/-- Python's reading of a negative index: N is added to it. -/
def wrap (v : IVec S2500000 32) : IVec S2500000 32 :=
  select (cmpi .slt v (broadcastInDim S2500000 ![] bcast_S_S2500000 (constantI S_ 32 0#32)))
    (addi v (broadcastInDim S2500000 ![] bcast_S_S2500000 (constantI S_ 32 200000#32))) v

/-! ## The normalisation -/

/-- deg^(-1/2), where deg counts the edges into a node and the node itself. -/
def norm (dst : IVec S2500000 32) : FVec F S200000 .f32 :=
  Host.rsqrt (addf
    (Host.scatterAdd scatter_S200000_S2500000x1_S2500000_n_0_0_1
      (broadcastInDim S200000 ![] bcast_S_S200000 (constant S_ .f32 0x00000000#32)) (idxCol dst)
      (broadcastInDim S2500000 ![] bcast_S_S2500000 (constant S_ .f32 0x3F800000#32)))
    (broadcastInDim S200000 ![] bcast_S_S200000 (constant S_ .f32 0x3F800000#32)))

/-- The weight of an edge from a given per-node normalisation: the product of its two ends' values. -/
def coefN (nrm : FVec F S200000 .f32) (src dst : IVec S2500000 32) : FVec F S2500000 .f32 :=
  mulf (Host.gather gather_S200000_S2500000x1_S2500000_n_0_n_n_0_1_1 nrm (idxCol (wrap src)))
    (Host.gather gather_S200000_S2500000x1_S2500000_n_0_n_n_0_1_1 nrm (idxCol (wrap dst)))

/-- The weight of an edge: the product of its two ends' normalisations. -/
def coef (src dst : IVec S2500000 32) : FVec F S2500000 .f32 := coefN (norm (F := F) dst) src dst

/-- The square of a per-node normalisation: the weight of a node's own features. -/
def nsqN (nrm : FVec F S200000 .f32) : FVec F S200000 .f32 := mulf nrm nrm

/-- norm², the weight of a node's own features. -/
def nsq (dst : IVec S2500000 32) : FVec F S200000 .f32 := nsqN (norm (F := F) dst)

/-! ## Vectors as columns and rows -/

/-- A per-edge vector as an E × 1 column. -/
def colE (v : FVec F S2500000 .f32) : FVec F S2500000x1 .f32 := broadcastInDim S2500000x1 ![0] bcast_S2500000_S2500000x1_0 v
/-- A per-node vector as an N × 1 column. -/
def colN (v : FVec F S200000 .f32) : FVec F S200000x1 .f32 := broadcastInDim S200000x1 ![0] bcast_S200000_S200000x1_0 v
/-- A per-feature vector as a 1 × 32 row. -/
def rowOf (v : FVec F S32 .f32) : FVec F S1x32 .f32 := broadcastInDim S1x32 ![1] bcast_S32_S1x32_1 v
/-- A 1 × 32 row repeated over the N nodes. -/
def bcRows (r : FVec F S1x32 .f32) : FVec F S200000x32 .f32 := broadcastInDim S200000x32 ![0, 1] bcast_S1x32_S200000x32_0_1 r
/-- An N × 1 column repeated over the 32 features. -/
def bcColsN (c : FVec F S200000x1 .f32) : FVec F S200000x32 .f32 := broadcastInDim S200000x32 ![0, 1] bcast_S200000x1_S200000x32_0_1 c
/-- An E × 1 column repeated over the 32 features. -/
def bcColsE (c : FVec F S2500000x1 .f32) : FVec F S2500000x32 .f32 := broadcastInDim S2500000x32 ![0, 1] bcast_S2500000x1_S2500000x32_0_1 c

/-! ## One graph-convolution layer -/

/-- The rows of `h` at the edges' sources. -/
def gatherRows (h : FVec F S200000x32 .f32) (idx : IVec S2500000x1 32) : FVec F S2500000x32 .f32 :=
  Host.gather gather_S200000x32_S2500000x1_S2500000x32_1_0_n_n_0_1_132 h idx

/-- The messages: a gathered row times its edge's weight. -/
def msgOf (g : FVec F S2500000x32 .f32) (c : FVec F S2500000x1 .f32) : FVec F S2500000x32 .f32 := mulf g (bcColsE c)

/-- The convolution's result from its parts: messages summed into their targets, the node's own features, the bias. -/
def convOf (h : FVec F S200000x32 .f32) (msg : FVec F S2500000x32 .f32) (dstcol : IVec S2500000x1 32)
    (nsqcol : FVec F S200000x1 .f32) (brow : FVec F S1x32 .f32) : FVec F S200000x32 .f32 :=
  addf (addf
    (Host.scatterAdd scatter_S200000x32_S2500000x1_S2500000x32_1_0_0_1
      (broadcastInDim S200000x32 ![] bcast_S_S200000x32 (constant S_ .f32 0x00000000#32)) dstcol msg)
    (mulf h (bcColsN nsqcol))) (bcRows brow)

/-- The layer's convolution as a function of `h = X · W`, a given per-node normalisation, the edges and the bias. -/
def convN (h : FVec F S200000x32 .f32) (nrm : FVec F S200000 .f32) (src dst : IVec S2500000 32) (b : FVec F S32 .f32) :
    FVec F S200000x32 .f32 :=
  convOf h (msgOf (gatherRows h (idxCol (wrap src))) (colE (coefN nrm src dst))) (idxCol dst) (colN (nsqN nrm)) (rowOf b)

/-- The layer's convolution as a function of `h = X · W`, the edges and the bias. -/
def conv (h : FVec F S200000x32 .f32) (src dst : IVec S2500000 32) (b : FVec F S32 .f32) : FVec F S200000x32 .f32 :=
  convN h (norm (F := F) dst) src dst b

/-! ## Batch statistics and the normalisation by them -/

/-- The column sums. -/
def colSum (a : FVec F S200000x32 .f32) : FVec F S32 .f32 :=
  Host.reduceAdd a (constant S_ .f32 0x00000000#32) reducesTo_S200000x32_S32_d0 h_S_

/-- The column means. -/
def meanOf (a : FVec F S200000x32 .f32) : FVec F S32 .f32 :=
  Host.divf (colSum a) (broadcastInDim S32 ![] bcast_S_S32 (constant S_ .f32 0x48435000#32))

/-- The number the squared deviations' sum is divided by: N − 0. -/
def varDen : FVec F S_ .f32 := subf (constant S_ .f32 0x48435000#32) (sitofp .f32 (constantI S_ 32 0#32))

/-- The column variances (population variance; jnp's guard on the divisor kept as it is printed). -/
def varOf (a : FVec F S200000x32 .f32) : FVec F S32 .f32 :=
  select (broadcastInDim S32 ![] bcast_S_S32 (cmpf .ogt (varDen (F := F)) (constant S_ .f32 0x00000000#32)))
    (Host.divf
      (colSum (mulf
        (subf a (bcRows (Host.divf (rowOf (colSum a)) (broadcastInDim S1x32 ![] bcast_S_S1x32 (constant S_ .f32 0x48435000#32)))))
        (subf a (bcRows (Host.divf (rowOf (colSum a)) (broadcastInDim S1x32 ![] bcast_S_S1x32 (constant S_ .f32 0x48435000#32)))))))
      (broadcastInDim S32 ![] bcast_S_S32 (varDen (F := F))))
    (broadcastInDim S32 ![] bcast_S_S32 (id (constant S_ .f32 0x7FC00000#32)))

/-- Normalise by given statistics, scale, shift and clip at zero (the statistics as vectors over the features). -/
def bnWith (a : FVec F S200000x32 .f32) (mean var g be : FVec F S32 .f32) : FVec F S200000x32 .f32 :=
  maximumf
    (addf (mulf (mulf (bcRows (rowOf g)) (subf a (bcRows (rowOf mean))))
        (bcRows (rowOf (Host.rsqrt (addf var (broadcastInDim S32 ![] bcast_S_S32 (constant S_ .f32 0x3727C5AC#32)))))))
      (bcRows (rowOf be)))
    (broadcastInDim S200000x32 ![] bcast_S_S200000x32 (constant S_ .f32 0x00000000#32))

/-- The same with the statistics given as 1 × 32 rows (the form a tiled kernel receives them in). -/
def bnRows (a : FVec F S200000x32 .f32) (mean2 var2 g2 be2 : FVec F S1x32 .f32) : FVec F S200000x32 .f32 :=
  maximumf
    (addf (mulf (mulf (bcRows g2) (subf a (bcRows mean2)))
        (bcRows (Host.rsqrt (addf var2 (broadcastInDim S1x32 ![] bcast_S_S1x32 (constant S_ .f32 0x3727C5AC#32))))))
      (bcRows be2))
    (broadcastInDim S200000x32 ![] bcast_S_S200000x32 (constant S_ .f32 0x00000000#32))

/-- Batch normalisation followed by the clip at zero. -/
def bnrelu (a : FVec F S200000x32 .f32) (g be : FVec F S32 .f32) : FVec F S200000x32 .f32 :=
  bnWith a (meanOf a) (varOf a) g be

/-! ## The linear maps -/

/-- The first layer's X · W (one input feature). -/
def lin1 (x : FVec F S200000x1 .f32) (w : FVec F S1x32 .f32) : FVec F S200000x32 .f32 :=
  Host.dotGeneral dot_S200000x1_S1x32_S200000x32_1_0_0_1_n_n none x w

/-- A later layer's X · W (32 input features). -/
def lin32 (x : FVec F S200000x32 .f32) (w : FVec F S32x32 .f32) : FVec F S200000x32 .f32 :=
  Host.dotGeneral dot_S200000x32_S32x32_S200000x32_1_0_0_1_n_n none x w

/-- The output layer with its bias given as a 1 × 1 block. -/
def outWith (x : FVec F S200000x32 .f32) (w : FVec F S32x1 .f32) (b11 : FVec F S1x1 .f32) : FVec F S200000x1 .f32 :=
  addf (Host.dotGeneral dot_S200000x32_S32x1_S200000x1_1_0_0_1_n_n none x w)
    (broadcastInDim S200000x1 ![0, 1] bcast_S1x1_S200000x1_0_1 b11)

/-- The output layer X · fcW + fcb. -/
def outOf (x : FVec F S200000x32 .f32) (w : FVec F S32x1 .f32) (b : FVec F S1 .f32) : FVec F S200000x1 .f32 :=
  outWith x w (broadcastInDim S1x1 ![1] bcast_S1_S1x1_1 b)

/-! ## The network -/

/-- One layer after its linear map, from a given per-node normalisation: convolution, batch normalisation, clip. -/
def layerN (h : FVec F S200000x32 .f32) (nrm : FVec F S200000 .f32) (src dst : IVec S2500000 32) (b g be : FVec F S32 .f32) :
    FVec F S200000x32 .f32 :=
  bnrelu (convN h nrm src dst b) g be

/-- One layer after its linear map: convolution, batch normalisation, clip. -/
def layer (h : FVec F S200000x32 .f32) (src dst : IVec S2500000 32) (b g be : FVec F S32 .f32) : FVec F S200000x32 .f32 :=
  layerN h (norm (F := F) dst) src dst b g be

/-- The whole network as a function of the seventeen argument arrays (the edge attributes are not used). -/
def net (x : FVec F S200000x1 .f32) (ei : IVec S2x2500000 32) (W1 : FVec F S1x32 .f32) (b1 g1 be1 : FVec F S32 .f32)
    (W2 : FVec F S32x32 .f32) (b2 g2 be2 : FVec F S32 .f32) (W3 : FVec F S32x32 .f32) (b3 g3 be3 : FVec F S32 .f32)
    (fcW : FVec F S32x1 .f32) (fcb : FVec F S1 .f32) : FVec F S200000x1 .f32 :=
  outOf (layer (lin32 (layer (lin32 (layer (lin1 x W1) (srcOf ei) (dstOf ei) b1 g1 be1) W2) (srcOf ei) (dstOf ei) b2 g2 be2) W3)
    (srcOf ei) (dstOf ei) b3 g3 be3) fcW fcb

/-- Every source index names a node: 0 ≤ src < N, read as signed words. -/
def SrcInRange (src : IVec S2500000 32) : Prop := ∀ e, 0 ≤ (src e).toInt ∧ (src e).toInt < 200000

end Cert.Stages

end
-- ==== Proof.KStages.lean ====
/-
  The kernel program's own spellings of a few stages: a vector turned into a column or a row by a reshape (where
  the reference broadcasts it along a new unit axis), and `jnp.take` in its default mode, which reads the rows of
  `h` at the wrapped indices and then replaces by a fill value every row whose wrapped index falls outside
  0 … N − 1.
-/
import proofs.«417560_j33346126086480_1_alg».proof.Proof.Stages

noncomputable section

namespace Cert.KStages

open Idealize.ShloMosaic Cert.KernelIdeal Cert.KernelIdeal.Facts₀

variable {F : FTy → Type} [FloatOps F]

/-- A per-edge vector reshaped to an E × 1 column. -/
def kColE (v : FVec F S2500000 .f32) : FVec F S2500000x1 .f32 := shapeCast S2500000x1 v shapeCasts_S2500000_S2500000x1
/-- A per-node vector reshaped to an N × 1 column. -/
def kColN (v : FVec F S200000 .f32) : FVec F S200000x1 .f32 := shapeCast S200000x1 v shapeCasts_S200000_S200000x1
/-- A per-feature vector reshaped to a 1 × 32 row. -/
def kRow (v : FVec F S32 .f32) : FVec F S1x32 .f32 := shapeCast S1x32 v shapeCasts_S32_S1x32
/-- The output bias reshaped to a 1 × 1 block. -/
def kOne (v : FVec F S1 .f32) : FVec F S1x1 .f32 := shapeCast S1x1 v shapeCasts_S1_S1x1

/-- For each edge, whether its wrapped source index lies in 0 … N − 1. -/
def inBounds (src : IVec S2500000 32) : IVec S2500000 1 :=
  Host.reduce IntOp.andi
    (andi
      (cmpi .sge (Cert.Stages.idxCol (Cert.Stages.wrap src)) (broadcastInDim S2500000x1 ![] bcast_S_S2500000x1 (constantI S_ 32 0#32)))
      (cmpi .sle (Cert.Stages.idxCol (Cert.Stages.wrap src))
        (broadcastInDim S2500000x1 ![0, 1] bcast_S1x1_S2500000x1_0_1 (broadcastInDim S1x1 ![1] bcast_S1_S1x1_1 (constantI S1 32 199999#32)))))
    (constantI S_ 1 1#1) reducesTo_S2500000x1_S2500000_d1 h_S_

/-- `jnp.take(h, src, axis=0)` in its default mode: the gathered rows, a fill value where the index is out of range. -/
def takeFill (h : FVec F S200000x32 .f32) (src : IVec S2500000 32) : FVec F S2500000x32 .f32 :=
  select (broadcastInDim S2500000x32 ![0] bcast_S2500000_S2500000x32_0 (inBounds src))
    (Cert.Stages.gatherRows h (Cert.Stages.idxCol (Cert.Stages.wrap src)))
    (broadcastInDim S2500000x32 ![] bcast_S_S2500000x32 (constant S_ .f32 0x7FC00000#32))

end Cert.KStages

end
-- ==== Proof.Bridges.lean ====
/-
  Bridges between two spellings of one array.

  (1) A reshape that adds a unit axis to a vector reads the same entry as the broadcast of the vector along the
      new axis: both results have, at (i, 0) or at (0, i), the vector's entry i.
  (2) A gather followed by "replace the rows whose index is out of range by a fill value" is the gather alone, when
      every index is a node number: the range mask is then all ones.
  (3) Batch normalisation with its statistics given as 1 × 32 rows is the form with the statistics as vectors:
      the reciprocal square root acts entry by entry, so it commutes with turning a vector into a row.
  (4) The precondition's last conjunct says that every entry of row 0 of the edge table is a node number.
-/
import proofs.«417560_j33346126086480_1_alg».proof.Proof.KStages
import Idealize.ShloMosaic.Lib.ValueIdx
import Idealize.ShloMosaic.Lib.ValueLayout
import Idealize.ShloMosaic.Lib.Pipeline.Value
import Idealize.ShloMosaic.Lib.ReduceAll
import proofs.«417560_j33346126086480_1_alg».proof.Pre_finite_inputs
import proofs.«417560_j33346126086480_1_alg».proof.Proof.Gen.Pre_finite_inputs
import proofs.«417560_j33346126086480_1_alg».proof.Defs

noncomputable section

namespace Cert.Bridges

open Idealize.ShloMosaic Idealize.ShloMosaic.ValueIdx Cert.ReferenceIdeal

variable {F : FTy → Type} [FloatOps F]

/-! ## A vector as a column, a row or a 1 × 1 block: the reshape is the broadcast along the new axis -/

section Generic
variable {α : Type}

/-- An n-vector reshaped to 1 × n and the vector broadcast along axis 1 both have the entry c at (0, c). -/
theorem shapeCast_row_eq_broadcastInDim {n : ℕ} (v : (⟨1, ![n]⟩ : Shape).Idx → α)
    (h₁ : (⟨1, ![n]⟩ : Shape).ShapeCasts ⟨2, ![1, n]⟩) (h₂ : (⟨1, ![n]⟩ : Shape).BroadcastsInDim ⟨2, ![1, n]⟩ ![1]) :
    shapeCast ⟨2, ![1, n]⟩ v h₁ = broadcastInDim ⟨2, ![1, n]⟩ ![1] h₂ v := by
  funext j
  obtain ⟨u, c, rfl⟩ : ∃ (u : Fin 1) (c : Fin n), j = ix2 u c := ⟨j 0, j 1, eq_ix2 j⟩
  rw [shapeCast_a_1a_apply]
  refine (broadcastInDim_apply _ _ _ _ (ix1 c) (fun a => match a with | ⟨0, _⟩ => ?_)).symm
  show c.val = if n = 1 then 0 else c.val
  split
  · have := c.isLt; omega
  · rfl

/-- An n-vector reshaped to n × 1 and the vector broadcast along axis 0 both have the entry p at (p, 0). -/
theorem shapeCast_col_eq_broadcastInDim {n : ℕ} (v : (⟨1, ![n]⟩ : Shape).Idx → α)
    (h₁ : (⟨1, ![n]⟩ : Shape).ShapeCasts ⟨2, ![n, 1]⟩) (h₂ : (⟨1, ![n]⟩ : Shape).BroadcastsInDim ⟨2, ![n, 1]⟩ ![0]) :
    shapeCast ⟨2, ![n, 1]⟩ v h₁ = broadcastInDim ⟨2, ![n, 1]⟩ ![0] h₂ v := by
  funext j
  obtain ⟨p, u, rfl⟩ : ∃ (p : Fin n) (u : Fin 1), j = ix2 p u := ⟨j 0, j 1, eq_ix2 j⟩
  have hs : shapeCast ⟨2, ![n, 1]⟩ v h₁ (ix2 p u) = v (ix1 p) :=
    shapeCast_apply v h₁ _ _ (by
      have hu : u.val = 0 := by omega
      rw [Shape.rowMajor_val_two, Shape.rowMajor_val_one]
      show p.val = p.val * 1 + u.val
      omega)
  rw [hs]
  refine (broadcastInDim_apply _ _ _ _ (ix1 p) (fun a => match a with | ⟨0, _⟩ => ?_)).symm
  show p.val = if n = 1 then 0 else p.val
  split
  · have := p.isLt; omega
  · rfl

end Generic

theorem kRow_eq (v : FVec F S32 .f32) : Cert.KStages.kRow v = Cert.Stages.rowOf v :=
  shapeCast_row_eq_broadcastInDim v _ _

theorem kColE_eq (v : FVec F S2500000 .f32) : Cert.KStages.kColE v = Cert.Stages.colE v :=
  shapeCast_col_eq_broadcastInDim v _ _

theorem kColN_eq (v : FVec F S200000 .f32) : Cert.KStages.kColN v = Cert.Stages.colN v :=
  shapeCast_col_eq_broadcastInDim v _ _

theorem kOne_eq (v : FVec F S1 .f32) :
    Cert.KStages.kOne v = broadcastInDim S1x1 ![1] Cert.ReferenceIdeal.Facts₀.bcast_S1_S1x1_1 v :=
  shapeCast_row_eq_broadcastInDim v _ _

/-- The output layer fed the reshaped bias is the output layer. -/
theorem outWith_kOne (x : FVec F S200000x32 .f32) (w : FVec F S32x1 .f32) (b : FVec F S1 .f32) :
    Cert.Stages.outWith x w (Cert.KStages.kOne b) = Cert.Stages.outOf x w b := by
  rw [kOne_eq]; rfl

/-! ## The range mask of a gather is all ones when every index is a node number -/

/-- A fold by `and` over one-bit words that are all 1, started at 1, is 1. -/
theorem foldl_andi_of_all_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_of_all_one f hf l

/-- A reduction by `and` from 1 of an array of ones is 1 at every result index. -/
theorem reduce_andi_of_all_one {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl, hinit]
  exact foldl_andi_of_all_one x hx _

/-- An entry of the column of a vector of node numbers is an entry of the vector. -/
theorem idxCol_apply_eq (v : IVec S2500000 32) (i : S2500000x1.Idx) : ∃ k, Cert.Stages.idxCol v i = v k := ⟨_, rfl⟩

/-- A nonnegative index is not moved by the reading of negative indices. -/
theorem wrap_eq (src : IVec S2500000 32) (hr : Cert.Stages.SrcInRange src) : Cert.Stages.wrap src = src := by
  funext k
  show Scalar.select (IntOp.cmpi .slt (src k) 0#32) (IntOp.addi (src k) 200000#32) (src k) = src k
  have h0 : ¬ IntOp.cmpi .slt (src k) 0#32 = 1#1 := by
    rw [IntOp.cmpi_slt, show (0#32 : BitVec 32).toInt = 0 from by decide]
    have := (hr k).1
    omega
  rw [eq_zero_of_ne_one h0, select_zero]

/-- Every edge's wrapped source index lies in 0 … N − 1. -/
theorem inBounds_eq_one (src : IVec S2500000 32) (hr : Cert.Stages.SrcInRange src) (k : S2500000.Idx) :
    Cert.KStages.inBounds src k = 1#1 := by
  unfold Cert.KStages.inBounds
  refine reduce_andi_of_all_one _ _ _ _ (fun _ => rfl) (fun i => ?_) k
  rw [wrap_eq src hr]
  obtain ⟨e, he⟩ := idxCol_apply_eq src i
  show IntOp.andi (IntOp.cmpi .sge (Cert.Stages.idxCol src i) 0#32) (IntOp.cmpi .sle (Cert.Stages.idxCol src i) 199999#32) = 1#1
  rw [he]
  refine IntOp.andi_eq_one.2 ⟨?_, ?_⟩
  · rw [IntOp.cmpi_sge, show (0#32 : BitVec 32).toInt = 0 from by decide]
    exact (hr e).1
  · rw [IntOp.cmpi_sle, show (199999#32 : BitVec 32).toInt = 199999 from by decide]
    have := (hr e).2
    omega

/-- A choice by a mask that is a broadcast of an array of ones is its first branch. -/
theorem select_broadcastInDim_of_all_one {α : Type} {s t : Shape} (dims : Fin s.rank → Fin t.rank) (hb : s.BroadcastsInDim t dims)
    (c : IVec s 1) (hc : ∀ k, c k = 1#1) (a b : t.Idx → α) : select (broadcastInDim t dims hb c) a b = a := by
  funext j
  show Scalar.select (c _) (a j) (b j) = a j
  rw [hc, select_one]

/-- The fill of out-of-range rows never fires: the gather with a fill is the gather. -/
theorem takeFill_eq (h : FVec F S200000x32 .f32) (src : IVec S2500000 32) (hr : Cert.Stages.SrcInRange src) :
    Cert.KStages.takeFill h src = Cert.Stages.gatherRows h (Cert.Stages.idxCol (Cert.Stages.wrap src)) := by
  unfold Cert.KStages.takeFill
  exact select_broadcastInDim_of_all_one _ _ _ (inBounds_eq_one src hr) _ _

/-! ## Batch normalisation with the statistics as rows -/

/-- The reciprocal square root of (a row + ε) is the row of the reciprocal square roots of (the vector + ε): both are
    computed entry by entry. -/
theorem rsqrt_rowOf (var : FVec F S32 .f32) :
    Host.rsqrt (addf (Cert.Stages.rowOf var) (broadcastInDim S1x32 ![] Facts₀.bcast_S_S1x32 (constant S_ .f32 0x3727C5AC#32)))
      = Cert.Stages.rowOf (Host.rsqrt (addf var (broadcastInDim S32 ![] Facts₀.bcast_S_S32 (constant S_ .f32 0x3727C5AC#32)))) :=
  funext fun _ => rfl

theorem bnRows_eq (a : FVec F S200000x32 .f32) (mean var g be : FVec F S32 .f32) :
    Cert.Stages.bnRows a (Cert.Stages.rowOf mean) (Cert.Stages.rowOf var) (Cert.Stages.rowOf g) (Cert.Stages.rowOf be)
      = Cert.Stages.bnWith a mean var g be := by
  unfold Cert.Stages.bnRows Cert.Stages.bnWith
  rw [rsqrt_rowOf]

/-! ## The precondition gives the range -/

section Pre
/-- The printed precondition ends in the conjunction of everything before with "every entry of row 0 of the edge table
    is at least 0 and below N": the chain of parts, followed to its last part, at the edge table's row 0. -/
theorem fn_eq_last (a0 : FVec Ideal S200000x1 .f32) (a1 : IVec S2x2500000 32) (a2 : FVec Ideal S2500000 .f32)
    (a3 : FVec Ideal S1x32 .f32) (a4 a5 a6 : FVec Ideal S32 .f32) (a7 : FVec Ideal S32x32 .f32) (a8 a9 a10 : FVec Ideal S32 .f32)
    (a11 : FVec Ideal S32x32 .f32) (a12 a13 a14 : FVec Ideal S32 .f32) (a15 : FVec Ideal S32x1 .f32) (a16 : FVec Ideal S1 .f32) :
    ∃ rest : IVec S_ 1, Cert.Pre_finite_inputs.fn (F := Ideal) a0 a1 a2 a3 a4 a5 a6 a7 a8 a9 a10 a11 a12 a13 a14 a15 a16
      = Cert.Pre_finite_inputs.fn_part5 (F := Ideal) rest
          (cmpi .sge (Cert.Stages.srcOf a1) (broadcastInDim S2500000 ![] Cert.Pre_finite_inputs.Facts.bcast_S_S2500000 (constantI S_ 32 0#32)))
          (Cert.Stages.srcOf a1) (broadcastInDim S2500000 ![] Cert.Pre_finite_inputs.Facts.bcast_S_S2500000 (constantI S_ 32 200000#32)) :=
  ⟨_, rfl⟩

/-- What the last part says: when the whole conjunction is 1, every entry of the compared vector is at least 0 and below N. -/
theorem srcInRange_of_part5 (rest : IVec S_ 1) (src : IVec S2500000 32)
    (e : Cert.Pre_finite_inputs.fn_part5 (F := Ideal) rest
          (cmpi .sge src (broadcastInDim S2500000 ![] Cert.Pre_finite_inputs.Facts.bcast_S_S2500000 (constantI S_ 32 0#32)))
          src (broadcastInDim S2500000 ![] Cert.Pre_finite_inputs.Facts.bcast_S_S2500000 (constantI S_ 32 200000#32)) ix0 = 1#1) :
    Cert.Stages.SrcInRange src := by
  intro k
  haveI : Subsingleton S_.Idx := ⟨fun a b => funext fun d => d.elim0⟩
  have e1 : IntOp.andi (rest ix0)
      (Host.reduce IntOp.andi
        (andi (cmpi .sge src (broadcastInDim S2500000 ![] Cert.Pre_finite_inputs.Facts.bcast_S_S2500000 (constantI S_ 32 0#32)))
          (cmpi .slt src (broadcastInDim S2500000 ![] Cert.Pre_finite_inputs.Facts.bcast_S_S2500000 (constantI S_ 32 200000#32))))
        (constantI S_ 1 1#1) Cert.Pre_finite_inputs.Facts.reducesTo_S2500000_S_d0 Cert.Pre_finite_inputs.Facts.h_S_ ix0) = 1#1 := e
  have e2 := Host.reduce_andi_all _ _ _ _ _ (IntOp.andi_eq_one.1 e1).2 k
  have e3 : IntOp.andi (IntOp.cmpi .sge (src k) 0#32) (IntOp.cmpi .slt (src k) 200000#32) = 1#1 := e2
  obtain ⟨h0, h1⟩ := IntOp.andi_eq_one.1 e3
  rw [IntOp.cmpi_sge, show (0#32 : BitVec 32).toInt = 0 from by decide] at h0
  rw [IntOp.cmpi_slt, show (200000#32 : BitVec 32).toInt = 200000 from by decide] at h1
  exact ⟨h0, h1⟩

/-- The same from the whole printed precondition being all ones. -/
theorem srcInRange_of_fn (a0 : FVec Ideal S200000x1 .f32) (a1 : IVec S2x2500000 32) (a2 : FVec Ideal S2500000 .f32)
    (a3 : FVec Ideal S1x32 .f32) (a4 a5 a6 : FVec Ideal S32 .f32) (a7 : FVec Ideal S32x32 .f32) (a8 a9 a10 : FVec Ideal S32 .f32)
    (a11 : FVec Ideal S32x32 .f32) (a12 a13 a14 : FVec Ideal S32 .f32) (a15 : FVec Ideal S32x1 .f32) (a16 : FVec Ideal S1 .f32)
    (e : Cert.Pre_finite_inputs.fn (F := Ideal) a0 a1 a2 a3 a4 a5 a6 a7 a8 a9 a10 a11 a12 a13 a14 a15 a16 = fun _ => 1#1) :
    Cert.Stages.SrcInRange (Cert.Stages.srcOf a1) := by
  obtain ⟨rest, hr⟩ := fn_eq_last a0 a1 a2 a3 a4 a5 a6 a7 a8 a9 a10 a11 a12 a13 a14 a15 a16
  rw [hr] at e
  exact srcInRange_of_part5 rest _ (congrFun e ix0)

/-- Under the precondition every source index of the edge table a device holds names a node. -/
theorem srcInRange_of_pre (m : (ℓ : Loc Cert.KernelIdeal.nD Cert.KernelIdeal.τ Cert.KernelIdeal.sig) → Buf (Elt Ideal) ℓ)
    (h : Cert.Pre_KernelIdeal m) (c : Dev Cert.KernelIdeal.nD) :
    Cert.Stages.SrcInRange (Cert.Stages.srcOf (m ((c.tc : Thread Cert.KernelIdeal.nD Cert.KernelIdeal.τ).loc Cert.KernelIdeal.main_arg1))) :=
  srcInRange_of_fn _ _ _ _ _ _ _ _ _ _ _ _ _ _ _ _ _ (h c)

end Pre

end Cert.Bridges

end
-- ==== Proof.AsmBase.lean ====
/-
  One layer as the kernel program spells it is the reference's layer, and the names of the intermediate features.

  The kernel program takes the rows of `h` at the edges' sources with a gather that would fill a row whose index is no
  node number, reshapes the edges' weights and the nodes' weights to columns and the bias and the statistics to rows,
  and normalises with the statistics given as rows. Under the range of the sources the fill never fires; a reshape to a
  column or a row is the broadcast along the new unit axis; normalising by rows of statistics is normalising by the
  vectors. So the kernel program's spelling is `Cert.Stages.layer`.
-/
import proofs.«417560_j33346126086480_1_alg».proof.Proof.Bridges

noncomputable section

namespace Cert.KernelIdeal.KVal

open Cert.KernelIdeal Idealize.ShloMosaic Idealize.ShloMosaic.TcCoe
open Cert.Stages Cert.KStages Cert.Bridges

/-- The kernel program's spelling of a layer from `h = X · W` is the reference's layer, when every source is a node number. -/
theorem layer_eq {F : FTy → Type} [FloatOps F] (h : FVec F Cert.ReferenceIdeal.S200000x32 .f32) (src dst : IVec Cert.ReferenceIdeal.S2500000 32)
    (b g be : FVec F Cert.ReferenceIdeal.S32 .f32) (hr : SrcInRange src) :
    bnRows (convOf h (msgOf (takeFill h src) (kColE (coef src dst))) (idxCol dst) (kColN (nsq dst)) (kRow b))
      (kRow (meanOf (convOf h (msgOf (takeFill h src) (kColE (coef src dst))) (idxCol dst) (kColN (nsq dst)) (kRow b))))
      (kRow (varOf (convOf h (msgOf (takeFill h src) (kColE (coef src dst))) (idxCol dst) (kColN (nsq dst)) (kRow b))))
      (kRow g) (kRow be) = layer h src dst b g be := by
  rw [takeFill_eq h src hr, kColE_eq, kColN_eq, kRow_eq b, kRow_eq g, kRow_eq be, kRow_eq (meanOf _), kRow_eq (varOf _), bnRows_eq]
  rfl

variable (m : (ℓ : Loc nD τ sig) → Buf (Elt Ideal) ℓ) (c : Dev nD)

/-- The first layer's X · W. -/
def h1 : FVec Ideal Cert.ReferenceIdeal.S200000x32 .f32 := lin1 (m ((c : Thread nD τ).loc main_arg0)) (m ((c : Thread nD τ).loc main_arg3))
/-- The first layer's output. -/
def x2 : FVec Ideal Cert.ReferenceIdeal.S200000x32 .f32 :=
  layer (h1 m c) (srcOf (m ((c : Thread nD τ).loc main_arg1))) (dstOf (m ((c : Thread nD τ).loc main_arg1))) (m ((c : Thread nD τ).loc main_arg4)) (m ((c : Thread nD τ).loc main_arg5)) (m ((c : Thread nD τ).loc main_arg6))
/-- The second layer's X · W. -/
def h2 : FVec Ideal Cert.ReferenceIdeal.S200000x32 .f32 := lin32 (x2 m c) (m ((c : Thread nD τ).loc main_arg7))
/-- The second layer's output. -/
def x3 : FVec Ideal Cert.ReferenceIdeal.S200000x32 .f32 :=
  layer (h2 m c) (srcOf (m ((c : Thread nD τ).loc main_arg1))) (dstOf (m ((c : Thread nD τ).loc main_arg1))) (m ((c : Thread nD τ).loc main_arg8)) (m ((c : Thread nD τ).loc main_arg9)) (m ((c : Thread nD τ).loc main_arg10))
/-- The third layer's X · W. -/
def h3 : FVec Ideal Cert.ReferenceIdeal.S200000x32 .f32 := lin32 (x3 m c) (m ((c : Thread nD τ).loc main_arg11))
/-- The third layer's output. -/
def x4 : FVec Ideal Cert.ReferenceIdeal.S200000x32 .f32 :=
  layer (h3 m c) (srcOf (m ((c : Thread nD τ).loc main_arg1))) (dstOf (m ((c : Thread nD τ).loc main_arg1))) (m ((c : Thread nD τ).loc main_arg12)) (m ((c : Thread nD τ).loc main_arg13)) (m ((c : Thread nD τ).loc main_arg14))

/-- The network function of the launch memory's arguments is the output layer applied to the third layer's output. -/
theorem net_eq : net (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))
    = outOf (x4 m c) (m ((c : Thread nD τ).loc main_arg15)) (m ((c : Thread nD τ).loc main_arg16)) := rfl

end Cert.KernelIdeal.KVal

end
-- ==== Proof.KHost0.lean ====
/-
  The first stretch of host operations of the kernel program, read as stage functions of the edge table: the two rows
  of the table (sources and targets), the normalisation deg^(-1/2) from the targets' counts, the edge weights (the
  product of the normalisation at the wrapped source and at the wrapped target) reshaped to a column, and the squared
  normalisation reshaped to a column. Each buffer the stretch leaves is the composition of the operations that wrote
  it, which is the stage function's own definition.
-/
import proofs.«417560_j33346126086480_1_alg».proof.Proof.Gen.KernelIdeal.Launch
import proofs.«417560_j33346126086480_1_alg».proof.Proof.KStages
import Idealize.ShloMosaic.Lib.StableHlo.Run

set_option maxRecDepth 4096

noncomputable section

namespace Cert.KernelIdeal.HostVal

open Cert.KernelIdeal Cert.KernelIdeal.Facts₀ Cert.KernelIdeal.Gen Idealize.ShloMosaic Idealize.SL.Sem
open Idealize.ShloMosaic.StableHlo

variable {F : FTy → Type} [FloatOps F]

/-- The sources: row 0 of the edge table. -/
theorem h0_v1 (V : Valuation τ sig (Elt F)) :
    after hostOps0 V (Proc.devRef .tc main_v1) = Cert.Stages.srcOf (V (Proc.devRef .tc main_arg1)) := by
  after_results_simp
  rfl

/-- The targets: row 1 of the edge table. -/
theorem h0_v3 (V : Valuation τ sig (Elt F)) :
    after hostOps0 V (Proc.devRef .tc main_v3) = Cert.Stages.dstOf (V (Proc.devRef .tc main_arg1)) := by
  after_results_simp
  rfl

/-- The normalisation deg^(-1/2) of the targets. -/
theorem h0_v10 (V : Valuation τ sig (Elt F)) :
    after hostOps0 V (Proc.devRef .tc main_v10) = Cert.Stages.norm (Cert.Stages.dstOf (V (Proc.devRef .tc main_arg1))) := by
  after_results_simp
  rfl

/-- The edge weights as an E × 1 column. -/
theorem h0_v26 (V : Valuation τ sig (Elt F)) :
    after hostOps0 V (Proc.devRef .tc main_v26)
      = Cert.KStages.kColE (Cert.Stages.coef (Cert.Stages.srcOf (V (Proc.devRef .tc main_arg1))) (Cert.Stages.dstOf (V (Proc.devRef .tc main_arg1)))) := by
  after_results_simp
  rfl

/-- The squared normalisation as an N × 1 column. -/
theorem h0_v28 (V : Valuation τ sig (Elt F)) :
    after hostOps0 V (Proc.devRef .tc main_v28)
      = Cert.KStages.kColN (Cert.Stages.nsq (Cert.Stages.dstOf (V (Proc.devRef .tc main_arg1)))) := by
  after_results_simp
  rfl

end Cert.KernelIdeal.HostVal

end
-- ==== Proof.LibMatmul.lean ====
/-
  Two facts every tiled matrix product here rests on, for any sizes.

  A plain product of an M × K by a K × N matrix accumulated into zeros, read at entry (a, b) at the ideal values, is
  Σ_c A(a, c) · B(c, b): the contraction index of the dimension numbers has one coordinate, which runs over the K
  columns of A and rows of B. And the offsets (0, 0) of a whole-buffer access are the zero offsets.
-/
import Idealize.ShloMosaic.Lib.ValueIdx
import Idealize.ShloMosaic.PureOps.Ideal.Laws

noncomputable section

namespace Cert.KernelIdeal.RegVal.Matmul

open Idealize.ShloMosaic Idealize.ShloMosaic.ValueIdx

/-- The offsets of an access to a whole rank-2 buffer are zero on both axes. -/
theorem zero_offsets : (![0, 0] : Fin 2 → Nat) = fun _ => 0 := funext fun a => by fin_cases a <;> rfl

/-- A plain product into a zero accumulator, read at an entry: the sum over the contracted coordinate of the products
    of the two operands' entries. -/
theorem matmul_plain_zero_apply {M K N : Nat} {φ₁ φ₂ : FTy} (prec : Option ContractPrecision)
    (A : FVec Ideal ⟨2, ![M, K]⟩ φ₁) (B : FVec Ideal ⟨2, ![K, N]⟩ φ₂) (a : Fin M) (b : Fin N) :
    matmul (F := Ideal) (DotDims.plain M K N) prec A B (constant ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.KernelIdeal.RegVal.Matmul

end
-- ==== Proof.RegMatmul0.lean ====
/-
  The first layer's linear map X · W, with one input feature, as the tiled product kernel computes it.

  X is an N × 1 column (N = 200000) and W a 1 × 32 row. The kernel walks the rows of X in 50 blocks of 4000 rows; at
  each block it multiplies the 4000 × 1 block of X by the whole row W and writes the 4000 × 32 product back as the same
  block of rows of the result. At the ideal values the casts to the narrow type are the identity and the product into a
  zero accumulator is the plain sum over the contracted coordinate (here a sum of one term), so entry (r, q) of the
  result is  Σ_c X(r, c) · W(c, q),  which is what the host's dot_general is at that entry: the result array is the
  whole-array product.
-/
import proofs.«417560_j33346126086480_1_alg».proof.Proof.Gen.KernelIdeal.Frame
import proofs.«417560_j33346126086480_1_alg».proof.Proof.Stages
import proofs.«417560_j33346126086480_1_alg».proof.Proof.LibMatmul
import Idealize.ShloMosaic.Lib.Pipeline.Value
import Idealize.ShloMosaic.Lib.ValueIdx
import Idealize.ShloMosaic.Lib.StackMember
import Idealize.ShloMosaic.PureOps.Ideal.Laws

set_option maxRecDepth 16384

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

namespace Matmul

/-! ## The product of a block, entry by entry -/

/-- The kernel's dimension numbers are the plain ones: rows × contraction times contraction × columns. -/
theorem dims_r0 : dot_S4000x1_S1x32_S4000x32_1_0_0_1_n_n = DotDims.plain 4000 1 32 := rfl

/-- The reference's too, over all the rows. -/
theorem dimsRef_r0 : Cert.ReferenceIdeal.dot_S200000x1_S1x32_S200000x32_1_0_0_1_n_n = DotDims.plain 200000 1 32 := rfl

/-- The kernel's payload at an entry of the block: row p of the X block against column q of W. -/
theorem pay_r0 (x0 : Vec Ideal S4000x1 .f32) (x1 : Vec Ideal S1x32 .f32) (p : Fin 4000) (q : Fin 32) :
    k0_pay1 x0 x1 (ix2 p q) = ∑ c : Fin 1, x0 (ix2 p c) * x1 (ix2 c q) := by
  unfold k0_pay1
  rw [dims_r0]
  exact matmul_plain_zero_apply none _ _ p q

/-- The whole-array product at an entry. -/
theorem lin_r0 (x : FVec Ideal S200000x1 .f32) (w : FVec Ideal S1x32 .f32) (r : Fin 200000) (q : Fin 32) :
    Cert.Stages.lin1 (F := Ideal) x w (ix2 r q) = ∑ c : Fin 1, x (ix2 r c) * w (ix2 c q) := by
  unfold Cert.Stages.lin1
  rw [dimsRef_r0]
  exact StackMember.dotGeneral_plain_apply none x w r q

/-- Entry (p, q) of the product of a block of rows of X, the block starting at row 4000 b, by W is entry
    (4000 b + p, q) of the whole product: the same sum over the contracted coordinate. -/
theorem block_entry_r0 (x : FVec Ideal S200000x1 .f32) (w : FVec Ideal S1x32 .f32)
    (x0 : Vec Ideal S4000x1 .f32) (x1 : Vec Ideal S1x32 .f32) (b : Nat)
    (hx0 : ∀ (y : S4000x1.Idx) (k : S200000x1.Idx), (k 0).val = b * 4000 + (y 0).val → (k 1).val = (y 1).val → x0 y = x k)
    (hx1 : x1 = w) (j : S4000x32.Idx) (i : S200000x32.Idx)
    (hi0 : (i 0).val = b * 4000 + (j 0).val) (hi1 : (i 1).val = (j 1).val) :
    k0_pay1 x0 x1 j = Cert.Stages.lin1 (F := Ideal) x w i := by
  obtain ⟨p, q, rfl⟩ : ∃ (p : Fin 4000) (q : Fin 32), j = ix2 p q := ⟨j 0, j 1, eq_ix2 j⟩
  obtain ⟨r, q', rfl⟩ : ∃ (r : Fin 200000) (q' : Fin 32), i = ix2 r q' := ⟨i 0, i 1, eq_ix2 i⟩
  have hq : q' = q := Fin.ext hi1
  subst hq
  rw [pay_r0, lin_r0, hx1]
  refine Finset.sum_congr rfl fun c _ => ?_
  rw [hx0 (ix2 p c) (ix2 r c) hi0 rfl]

/-! ## From the blocks to the array -/

variable (V : (c : Dev nD) → (b : Ref sig .tc) → Buf (Elt Ideal) ((c : Thread nD τ).loc b))

/-- The grid has 50 points. -/
theorem points_r0 : cfg0.N = 50 := by decide +kernel

/-- The printed index maps, decided over the grid: at point t the X window and the result window sit at block row t,
    the W window at its one block. -/
theorem idx_facts_r0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The X window's block at point t is rows 4000 t … 4000 t + 3999 of X. -/
theorem xblk_r0 (c : Dev nD) (t : Fin cfg0.N) (y : S4000x1.Idx) (k : S200000x1.Idx)
    (hk0 : (k 0).val = t.val * 4000 + (y 0).val) (hk1 : (k 1).val = (y 1).val) :
    (iblk0 V c 0 t : Vec Ideal S4000x1 .f32) y = (V c main_arg0 : S200000x1.Idx → Elt Ideal .f32) k := by
  obtain ⟨e0, e1, -, -, -, -⟩ := idx_facts_r0 t
  unfold iblk0
  rw [View.read_apply]
  show V c main_arg0 _ = V c main_arg0 _
  congr 1
  funext a
  apply Fin.ext
  match a with
  | ⟨0, _⟩ => show win0_0.index t 0 * 4000 + 1 * (y 0).val = (k 0).val; rw [e0, hk0]; omega
  | ⟨1, _⟩ => show win0_0.index t 1 * 1 + 1 * (y 1).val = (k 1).val; rw [e1, hk1]; omega

/-- The W window's block at every point is the whole of W. -/
theorem wblk_r0 (c : Dev nD) (t : Fin cfg0.N) :
    (iblk0 V c 1 t : Vec Ideal S1x32 .f32) = (V c main_arg3 : S1x32.Idx → Elt Ideal .f32) := by
  obtain ⟨-, -, e2, e3, -, -⟩ := idx_facts_r0 t
  funext y
  unfold iblk0
  rw [View.read_apply]
  show V c main_arg3 _ = V c main_arg3 _
  congr 1
  funext a
  apply Fin.ext
  match a with
  | ⟨0, _⟩ => show win0_1.index t 0 * 1 + 1 * (y 0).val = (y 0).val; rw [e2]; omega
  | ⟨1, _⟩ => show win0_1.index t 1 * 32 + 1 * (y 1).val = (y 1).val; rw [e3]; omega

/-- What point t writes back is block t of the whole-array product of the arrays the region finds. -/
theorem flushed_r0 (c : Dev nD) (t : Fin cfg0.N) :
    (dat0 V c).flushed 2 t = ((cfg0.win 2).blk t).view.read (Elt Ideal)
      (Cert.Stages.lin1 (F := Ideal) (V c main_arg0) (V c main_arg3)) := by
  show (cfg0.win 2).cut (grid0.coords t) ((dat0 V c).after 2 t) = _
  rw [after0_2]
  unfold out0_2
  rw [View.canon_unit_zero zero_offsets]
  simp only [View.ld_unit_zero (S := S4000x1) zero_offsets, View.ld_unit_zero (S := S1x32) zero_offsets]
  obtain ⟨-, -, -, -, e4, e5⟩ := idx_facts_r0 t
  funext j
  show k0_pay1 (iblk0 V c 0 t) (iblk0 V c 1 t) j
    = Cert.Stages.lin1 (F := Ideal) (V c main_arg0) (V c main_arg3) (((cfg0.win 2).blk t).view.emb j)
  refine block_entry_r0 _ _ _ _ t.val (fun y k h0 h1 => xblk_r0 V c t y k h0 h1) (wblk_r0 V c t) j _ ?_ ?_
  · show win0_2.index t 0 * 4000 + 1 * (j 0).val = t.val * 4000 + (j 0).val; rw [e4]; omega
  · show win0_2.index t 1 * 32 + 1 * (j 1).val = (j 1).val; rw [e5]; omega

/-- An index of the result is in point t's block iff each coordinate is in the block's range on its axis. -/
theorem mem_blk_r0 (t : Fin cfg0.N) (i : S200000x32.Idx) :
    i ∈ ((cfg0.win 2).blk t).view.set ↔ ∀ a : Fin 2, win0_2.index t a * S4000x32.size a ≤ (i a).val
      ∧ (i a).val < win0_2.index t a * S4000x32.size a + S4000x32.size a := by
  show i ∈ ((View.whole main_v29).slice (win0_2.rect t)).set ↔ _
  rw [View.set_slice_whole, Rect.mem_set_unit]
  exact Iff.rfl

/-- Every row r of the result is in the block of point r / 4000. -/
theorem cover_r0 (i : S200000x32.Idx) :
    ∃ t : Fin cfg0.N, (cfg0.win 2).flush t = true ∧ i ∈ ((cfg0.win 2).blk t).view.set := by
  have hi0 : (i 0).val < 200000 := (i 0).isLt
  have hi1 : (i 1).val < 32 := (i 1).isLt
  have ht : (i 0).val / 4000 < cfg0.N := by rw [points_r0]; omega
  obtain ⟨-, -, -, -, e4, e5⟩ := idx_facts_r0 ⟨(i 0).val / 4000, ht⟩
  refine ⟨⟨(i 0).val / 4000, ht⟩, flush0_2 _, ?_⟩
  rw [mem_blk_r0]
  intro a
  match a with
  | ⟨0, _⟩ =>
    show win0_2.index ⟨(i 0).val / 4000, ht⟩ 0 * 4000 ≤ (i 0).val ∧ (i 0).val < win0_2.index ⟨(i 0).val / 4000, ht⟩ 0 * 4000 + 4000
    rw [e4]; dsimp only; omega
  | ⟨1, _⟩ =>
    show win0_2.index ⟨(i 0).val / 4000, ht⟩ 1 * 32 ≤ (i 1).val ∧ (i 1).val < win0_2.index ⟨(i 0).val / 4000, ht⟩ 1 * 32 + 32
    rw [e5]; omega

end Matmul

open Matmul

variable (V : (c : Dev nD) → (b : Ref sig .tc) → Buf (Elt Ideal) ((c : Thread nD τ).loc b))

/-- THE RESULT ARRAY after the region: the whole-array product X · W of the arrays at entry. -/
theorem reg0_out (c : Dev nD) :
    (dat0 V c).arrAt 2 cfg0.N = Cert.Stages.lin1 (F := Ideal) (V c main_arg0) (V c main_arg3) :=
  (dat0 V c).arrAt_eq_of_cover 2 _ (fun t _ => flushed_r0 V c t) cover_r0

/-! ## At the run's boundary contents -/

variable (m : (ℓ : Loc nD τ sig) → Buf (Elt Ideal) ℓ) (ρ : Dev nD → PrngReg)

/-- The result buffer at the region's exit is the product of the two operand buffers at its entry. -/
theorem reg0_val (c : Dev nD) :
    W2 (F := Ideal) m ρ c (Proc.devRef .tc main_v29)
      = Cert.Stages.lin1 (F := Ideal) (W1 m ρ c (Proc.devRef .tc main_arg0)) (W1 m ρ c (Proc.devRef .tc main_arg3)) :=
  (W2_arr m ρ c 2).trans (reg0_out (V1 m ρ) c)

end Cert.KernelIdeal.RegVal

end
-- ==== Proof.AsmEdge.lean ====
/-
  What the first stretch and region 0 leave: the edges' sources and targets (the two rows of the edge table), the edges'
  weights and the nodes' weights as columns, and the first layer's X · W.
-/
import proofs.«417560_j33346126086480_1_alg».proof.Proof.AsmKeep
import proofs.«417560_j33346126086480_1_alg».proof.Proof.AsmBase
import proofs.«417560_j33346126086480_1_alg».proof.Proof.KHost0
import proofs.«417560_j33346126086480_1_alg».proof.Proof.RegMatmul0

set_option maxRecDepth 16384

noncomputable section

namespace Cert.KernelIdeal.KVal

open Cert.KernelIdeal Cert.KernelIdeal.Gen Cert.KernelIdeal.Keeps Idealize.ShloMosaic Idealize.ShloMosaic.TcCoe
open Cert.Stages Cert.KStages Cert.Bridges Cert.KernelIdeal.RegVal Cert.KernelIdeal.HostVal

variable (m : (ℓ : Loc nD τ sig) → Buf (Elt Ideal) ℓ) (ρ : Dev nD → PrngReg) (c : Dev nD)

theorem w1_v1 : W1 m ρ c (Proc.devRef .tc main_v1) = srcOf (m ((c : Thread nD τ).loc main_arg1)) := h0_v1 (W0 m ρ c)
theorem w1_v3 : W1 m ρ c (Proc.devRef .tc main_v3) = dstOf (m ((c : Thread nD τ).loc main_arg1)) := h0_v3 (W0 m ρ c)
theorem w1_v26 : W1 m ρ c (Proc.devRef .tc main_v26) = kColE (coef (F := Ideal) (srcOf (m ((c : Thread nD τ).loc main_arg1))) (dstOf (m ((c : Thread nD τ).loc main_arg1)))) := h0_v26 (W0 m ρ c)
theorem w1_v28 : W1 m ρ c (Proc.devRef .tc main_v28) = kColN (nsq (F := Ideal) (dstOf (m ((c : Thread nD τ).loc main_arg1)))) := h0_v28 (W0 m ρ c)

theorem v26_3 : W3 m ρ c (Proc.devRef .tc main_v26) = kColE (coef (F := Ideal) (srcOf (m ((c : Thread nD τ).loc main_arg1))) (dstOf (m ((c : Thread nD τ).loc main_arg1)))) := (v26_3' m ρ c).trans (w1_v26 m ρ c)
theorem v26_10 : W10 m ρ c (Proc.devRef .tc main_v26) = kColE (coef (F := Ideal) (srcOf (m ((c : Thread nD τ).loc main_arg1))) (dstOf (m ((c : Thread nD τ).loc main_arg1)))) := (v26_10' m ρ c).trans (w1_v26 m ρ c)
theorem v26_17 : W17 m ρ c (Proc.devRef .tc main_v26) = kColE (coef (F := Ideal) (srcOf (m ((c : Thread nD τ).loc main_arg1))) (dstOf (m ((c : Thread nD τ).loc main_arg1)))) := (v26_17' m ρ c).trans (w1_v26 m ρ c)

/-- Region 0 leaves the first layer's X · W. -/
theorem w2_v29 (hr : SrcInRange (srcOf (m ((c : Thread nD τ).loc main_arg1)))) : W2 m ρ c (Proc.devRef .tc main_v29) = h1 m c := by
  rw [reg0_val m ρ c, args1 m ρ c main_arg0 (by decide), args1 m ρ c main_arg3 (by decide)]
  rfl

end Cert.KernelIdeal.KVal

end
-- ==== Proof.KHost1.lean ====
/-
  The kernel program's host stretches of the first layer, read as values: what each straight line of host
  operations leaves in the buffers later stages read, as the stage functions applied to what the buffers held
  when the line began.  Every statement is over an arbitrary valuation of the buffers.
-/
import proofs.«417560_j33346126086480_1_alg».proof.Proof.Gen.KernelIdeal.Launch
import proofs.«417560_j33346126086480_1_alg».proof.Proof.KStages
import Idealize.ShloMosaic.Lib.StableHlo.Run

set_option maxRecDepth 16384

noncomputable section

namespace Cert.KernelIdeal.HostVal

open Cert.KernelIdeal Cert.KernelIdeal.Gen Idealize.ShloMosaic Idealize.ShloMosaic.StableHlo

variable {F : FTy → Type} [FloatOps F]

/-- A TensorCore reference as the device buffer it names. -/
local notation "d" => Proc.devRef (τ := τ) (sig := sig) Proc.tc

/-! ## Typed references: the two transports cancel -/

section Typed
variable {sg : RefSig} {Val : EltTy → Type} {T : BufTy}

/-- Contents moved to a typed reference's buffer type and back are the contents. -/
private theorem ofBuf_toBuf (x : TRef sg T) (v : T.Contents Val) : x.ofBuf (x.toBuf v) = v := by
  obtain ⟨r, h, h2, h3⟩ := x
  subst h
  rfl

end Typed

variable (V : Valuation τ sig (Elt F))

/-! ## The gather of the rows at the sources (the callee's operations inline) -/

set_option maxHeartbeats 2000000 in
/-- The same, every buffer read at its value's type: the fold's results one by one, the transports cancelled,
    and what is left is the stage function's own text. -/
private theorem h1_v30_typed :
    (TRef.of main_v30 : TRef sig ⟨S2500000x32, .f32⟩).ofBuf (after hostOps1 V (d main_v30))
      = Cert.KStages.takeFill ((TRef.of main_v29 : TRef sig ⟨S200000x32, .f32⟩).ofBuf (V (d main_v29)))
          ((TRef.of main_v1 : TRef sig ⟨S2500000, .i32⟩).ofBuf (V (d main_v1))) := by
  after_results_simp
  simp only [ofBuf_toBuf]
  unfold Cert.KStages.takeFill Cert.KStages.inBounds Cert.Stages.gatherRows Cert.Stages.idxCol Cert.Stages.wrap
  rfl

/-- The rows of `h` at the sources, the fill value where a wrapped index is out of range. -/
theorem h1_v30 :
    after hostOps1 V (d main_v30) = Cert.KStages.takeFill (V (d main_v29)) (V (d main_v1)) := by
  have h := h1_v30_typed V
  generalize after hostOps1 V (d main_v30) = a at h ⊢
  exact h

/-! ## The scatter-add of the messages, the node's own features, the bias; the column means -/

set_option maxHeartbeats 2000000 in
/-- The convolution's result from the messages, the features, the targets, norm² as a column and the bias as a row. -/
theorem h2_v40 :
    after hostOps2 V (d main_v40)
      = Cert.Stages.convOf (V (d main_v29)) (V (d main_v31)) (Cert.Stages.idxCol (V (d main_v3))) (V (d main_v28))
          (Cert.KStages.kRow (V (d main_arg4))) := by
  after_results_simp
  unfold Cert.Stages.convOf Cert.Stages.bcColsN Cert.Stages.bcRows Cert.Stages.idxCol Cert.KStages.kRow
  rfl

set_option maxHeartbeats 2000000 in
/-- The column means of the convolution's result. -/
theorem h2_v43 :
    after hostOps2 V (d main_v43) = Cert.Stages.meanOf (after hostOps2 V (d main_v40)) := by
  after_results_simp
  unfold Cert.Stages.meanOf Cert.Stages.colSum
  rfl

/-- The integer zero the variance's divisor is computed from. -/
theorem h2_c8 : after hostOps2 V (d main_c_8) = constantI S_ 32 0#32 := by
  after_results_simp

/-! ## The column variances (the callee's operations inline) -/

set_option maxHeartbeats 2000000 in
/-- The same, every buffer read at its value's type. -/
private theorem h21_v44_typed
    (hc : (TRef.of main_c_8 : TRef sig ⟨S_, .i32⟩).ofBuf (V (d main_c_8)) = constantI S_ 32 0#32) :
    (TRef.of main_v44 : TRef sig ⟨S32, .f32⟩).ofBuf (after hostOps2_1 V (d main_v44))
      = Cert.Stages.varOf ((TRef.of main_v40 : TRef sig ⟨S200000x32, .f32⟩).ofBuf (V (d main_v40))) := by
  after_results_simp
  simp only [ofBuf_toBuf, hc]
  unfold Cert.Stages.varOf Cert.Stages.varDen Cert.Stages.colSum Cert.Stages.bcRows Cert.Stages.rowOf
  rfl

/-- The column variances of the convolution's result, the integer zero being in its buffer. -/
theorem h21_v44 (hc : V (d main_c_8) = constantI S_ 32 0#32) :
    after hostOps2_1 V (d main_v44) = Cert.Stages.varOf (V (d main_v40)) := by
  have h := h21_v44_typed V (by rw [hc]; rfl)
  generalize after hostOps2_1 V (d main_v44) = a at h ⊢
  exact h

/-! ## The statistics and the affine parameters as rows -/

/-- The means as a row. -/
theorem h22_v45 : after hostOps2_2 V (d main_v45) = Cert.KStages.kRow (V (d main_v43)) := by
  after_results_simp
  unfold Cert.KStages.kRow
  rfl

/-- The variances as a row. -/
theorem h22_v46 : after hostOps2_2 V (d main_v46) = Cert.KStages.kRow (V (d main_v44)) := by
  after_results_simp
  unfold Cert.KStages.kRow
  rfl

/-- The scale as a row. -/
theorem h22_v47 : after hostOps2_2 V (d main_v47) = Cert.KStages.kRow (V (d main_arg5)) := by
  after_results_simp
  unfold Cert.KStages.kRow
  rfl

/-- The shift as a row. -/
theorem h22_v48 : after hostOps2_2 V (d main_v48) = Cert.KStages.kRow (V (d main_arg6)) := by
  after_results_simp
  unfold Cert.KStages.kRow
  rfl

end Cert.KernelIdeal.HostVal

end
-- ==== Proof.RegScale1.lean ====
/-
  The scaling of the gathered rows by the edge weights, first layer: the region multiplies each of the E = 2500000 gathered
  rows (32 features) by its edge's weight, 5000 rows at a point over 500 points. Each point's block of the product is
  the block of ONE whole-array function of the two input arrays, the messages `msg = g · coef` with the weight column
  repeated over the features; the 500 blocks tile the rows, so after the region the output array is that function.
-/
import proofs.«417560_j33346126086480_1_alg».proof.Proof.Gen.KernelIdeal.Frame
import proofs.«417560_j33346126086480_1_alg».proof.Proof.Stages
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.RegVal

open Cert.KernelIdeal Cert.KernelIdeal.Gen

/-- The zero offsets of a block's one load and one store. -/
theorem hz1 : (![0, 0] : Fin 2 → Nat) = fun _ => 0 := funext fun a => by fin_cases a <;> rfl

/-- The three index maps send point `t` to block row `t`, block column 0. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The body's product read at an entry: the gathered entry times its row's weight. -/
theorem pay1_apply (x0 : Vec Ideal S5000x32 .f32) (x1 : Vec Ideal S5000x1 .f32) (j : S5000x32.Idx) (k : S5000x1.Idx)
    (hk0 : (k 0).val = (j 0).val) (hk1 : (k 1).val = 0) :
    k1_pay1 x0 x1 j = x0 j * x1 k := by
  unfold k1_pay1
  rw [mulf_apply, shapeCast_self, shapeCast_self]
  congr 1
  refine broadcastTo_apply _ _ j k fun a => ?_
  match a with
  | ⟨0, _⟩ => exact hk0
  | ⟨1, _⟩ => exact hk1

/-- The messages read at an entry: the gathered entry times its edge's weight. -/
theorem msgOf_apply1 (g : FVec Ideal S2500000x32 .f32) (w : FVec Ideal S2500000x1 .f32) (i : S2500000x32.Idx) (k : S2500000x1.Idx)
    (hk0 : (k 0).val = (i 0).val) (hk1 : (k 1).val = 0) :
    Cert.Stages.msgOf (F := Ideal) g w i = g i * w k := by
  unfold Cert.Stages.msgOf Cert.Stages.bcColsE
  rw [mulf_apply]
  congr 1
  refine broadcastInDim_apply _ _ _ i k fun a => ?_
  match a with
  | ⟨0, _⟩ => exact hk0
  | ⟨1, _⟩ => exact hk1

variable (V : (c : Dev nD) → (b : Ref sig .tc) → Buf (Elt Ideal) ((c : Thread nD τ).loc b))

/-- What point `t` writes back is block `t` of the messages of the two arrays as the region finds them. -/
theorem flushed1_eq (c : Dev nD) (t : Fin cfg1.N) :
    (dat1 (F := Ideal) V c).flushed 2 t = ((cfg1.win 2).blk t).view.read (Elt Ideal) (Cert.Stages.msgOf (F := Ideal) (V c main_v30) (V c main_v26)) := by
  show (cfg1.win 2).cut (grid1.coords t) ((dat1 V c).after 2 t) = _
  rw [after1_2]
  unfold out1_2
  rw [View.canon_unit_zero hz1]
  simp only [View.ld_unit_zero (S := S5000x32) hz1, View.ld_unit_zero (S := S5000x1) hz1]
  obtain ⟨e0, e1, e2, e3, e4, e5⟩ := idx1 t
  funext j
  show k1_pay1 (iblk1 V c 0 t : Vec Ideal S5000x32 .f32) (iblk1 V c 1 t : Vec Ideal S5000x1 .f32) j = Cert.Stages.msgOf (F := Ideal) (V c main_v30) (V c main_v26) (((cfg1.win 2).blk t).view.emb j)
  rw [pay1_apply (iblk1 V c 0 t : Vec Ideal S5000x32 .f32) (iblk1 V c 1 t : Vec Ideal S5000x1 .f32) j (ix2 (j 0) (0 : Fin 1)) rfl rfl]
  rw [msgOf_apply1 (V c main_v30) (V c main_v26) (((cfg1.win 2).blk t).view.emb j) (((cfg1.win 1).blk t).view.emb (ix2 (j 0) (0 : Fin 1)))
    (by show win1_1.index t (0 : Fin 2) * 5000 + 1 * (j 0).val = win1_2.index t (0 : Fin 2) * 5000 + 1 * (j 0).val; omega)
    (by show win1_1.index t (1 : Fin 2) * 1 + 1 * 0 = 0; omega)]
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 32 + 1 * (j 1).val = win1_2.index t (1 : Fin 2) * 32 + 1 * (j 1).val; omega
  exact congrArg₂ (fun (a b : Ideal .f32) => a * b) (congrArg (V c main_v30) h0) rfl

/-- An entry of the array is in point `t`'s block iff each coordinate is in the block's range on its axis. -/
theorem mem_blk1 (t : Fin cfg1.N) (i : S2500000x32.Idx) :
    i ∈ ((cfg1.win 2).blk t).view.set ↔ ∀ a : Fin 2, win1_2.index t a * S5000x32.size a ≤ (i a).val ∧ (i a).val < win1_2.index t a * S5000x32.size a + S5000x32.size a := by
  show i ∈ ((View.whole main_v31).slice (win1_2.rect t)).set ↔ _
  rw [View.set_slice_whole, Rect.mem_set_unit]
  exact Iff.rfl

/-- Row `r` of the array is written back by point `r / 5000`. -/
theorem cover1 (i : S2500000x32.Idx) : ∃ t : Fin cfg1.N, (cfg1.win 2).flush t = true ∧ i ∈ ((cfg1.win 2).blk t).view.set := by
  have hi0 : (i 0).val < 2500000 := (i 0).isLt
  have hi1 : (i 1).val < 32 := (i 1).isLt
  obtain ⟨t, ht⟩ : ∃ t : Fin cfg1.N, t.val = (i 0).val / 5000 := ⟨⟨(i 0).val / 5000, by rw [show cfg1.N = 500 from N_1]; omega⟩, rfl⟩
  obtain ⟨-, -, -, -, e4, e5⟩ := idx1 t
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 32 ≤ (i 1).val ∧ (i 1).val < win1_2.index t (1 : Fin 2) * 32 + 32; omega

/-- The output array after the region: the messages of the gathered rows and the edge weights as the region finds them. -/
theorem reg1_out (c : Dev nD) :
    (dat1 (F := Ideal) V c).arrAt 2 cfg1.N = Cert.Stages.msgOf (F := Ideal) (V c main_v30) (V c main_v26) :=
  (dat1 (F := Ideal) V c).arrAt_eq_of_cover 2 (Cert.Stages.msgOf (F := Ideal) (V c main_v30) (V c main_v26))
    (fun t _ => flushed1_eq V c t) cover1

/-- The same between the run's contents at the region's entry and at its exit. -/
theorem reg1_val (m : (ℓ : Loc nD τ sig) → Buf (Elt Ideal) ℓ) (ρ : Dev nD → PrngReg) (c : Dev nD) :
    W4 (F := Ideal) m ρ c (Proc.devRef .tc main_v31)
      = Cert.Stages.msgOf (F := Ideal) (W3 m ρ c (Proc.devRef .tc main_v30)) (W3 m ρ c (Proc.devRef .tc main_v26)) :=
  (W4_arr (F := Ideal) m ρ c 2).trans (reg1_out (V3 m ρ) c)

end Cert.KernelIdeal.RegVal

end
-- ==== Proof.RegBn2.lean ====
/-
  Batch normalisation with the clip at zero, first layer: the region takes the N = 200000 node rows (32 features), 4000
  rows at a point over 50 points, and the four statistics rows (mean, variance, scale, shift; 1 × 32 each, the same block
  at every point), and writes max(0, g · (a − mean) · (var + ε)^(-1/2) + be). Each point's block of the result is the
  block of ONE whole-array function of the five input arrays, the normalisation with the rows repeated over the nodes;
  the 50 blocks tile the rows, so after the region the output array is that function. The products are grouped on both
  sides as (g · (a − mean)) · (var + ε)^(-1/2), so the two expressions agree entry by entry with no law of arithmetic.
-/
import proofs.«417560_j33346126086480_1_alg».proof.Proof.Gen.KernelIdeal.Frame
import proofs.«417560_j33346126086480_1_alg».proof.Proof.Stages
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.RegVal

open Cert.KernelIdeal Cert.KernelIdeal.Gen

/-- The zero offsets of a block's loads and one store. -/
theorem hz2 : (![0, 0] : Fin 2 → Nat) = fun _ => 0 := funext fun a => by fin_cases a <;> rfl

/-- The index maps: the node rows and the output move with the point, block row `t`; the four statistics rows stay at block (0, 0). -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- A 1 × 32 row repeated over a block's 4000 rows, read at an entry: the row's entry in that column. -/
theorem rowBlk2_apply (v : FVec Ideal S1x32 .f32) (j : S4000x32.Idx) (k : S1x32.Idx)
    (hk0 : (k 0).val = 0) (hk1 : (k 1).val = (j 1).val) :
    broadcastTo S4000x32 v broadcasts_S1x32_S4000x32 j = v k := by
  refine broadcastTo_apply _ _ j k fun a => ?_
  match a with
  | ⟨0, _⟩ => exact hk0
  | ⟨1, _⟩ => exact hk1

/-- A 1 × 32 row repeated over the N nodes, read at an entry: the row's entry in that column. -/
theorem bcRows2_apply (v : FVec Ideal S1x32 .f32) (i : S200000x32.Idx) (k : S1x32.Idx)
    (hk0 : (k 0).val = 0) (hk1 : (k 1).val = (i 1).val) :
    Cert.Stages.bcRows (F := Ideal) v i = v k := by
  unfold Cert.Stages.bcRows
  refine broadcastInDim_apply _ _ _ i k fun a => ?_
  match a with
  | ⟨0, _⟩ => exact hk0
  | ⟨1, _⟩ => exact hk1

/-- The body's normalisation read at an entry: max(0, g · (a − mean) · (var + ε)^(-1/2) + be) with the statistics' entries in the entry's column. -/
theorem pay2_apply (x0 : Vec Ideal S4000x32 .f32) (x1 x2 x3 x4 : Vec Ideal S1x32 .f32) (j : S4000x32.Idx) (k : S1x32.Idx)
    (hk0 : (k 0).val = 0) (hk1 : (k 1).val = (j 1).val) :
    k2_pay1 x0 x1 x2 x3 x4 j
      = max (x3 k * (x0 j - x1 k) * Ideal.rsqrt (x2 k + Ideal.ofBits .f32 0x3727C5AC#32) + x4 k) (Ideal.ofBits .f32 0x00000000#32) := by
  unfold k2_pay1
  simp only [shapeCast_self]
  rw [maximumf_apply, addf_apply, mulf_apply, mulf_apply, subf_apply,
    rowBlk2_apply x3 j k hk0 hk1, rowBlk2_apply x1 j k hk0 hk1, rowBlk2_apply x4 j k hk0 hk1, rowBlk2_apply _ j k hk0 hk1]
  rfl

/-- The whole-array normalisation read at an entry: the same expression of the arrays' entries. -/
theorem bnRows2_apply (a : FVec Ideal S200000x32 .f32) (mean2 var2 g2 be2 : FVec Ideal S1x32 .f32) (i : S200000x32.Idx) (k : S1x32.Idx)
    (hk0 : (k 0).val = 0) (hk1 : (k 1).val = (i 1).val) :
    Cert.Stages.bnRows (F := Ideal) a mean2 var2 g2 be2 i
      = max (g2 k * (a i - mean2 k) * Ideal.rsqrt (var2 k + Ideal.ofBits .f32 0x3727C5AC#32) + be2 k) (Ideal.ofBits .f32 0x00000000#32) := by
  unfold Cert.Stages.bnRows
  rw [maximumf_apply, addf_apply, mulf_apply, mulf_apply, subf_apply,
    bcRows2_apply g2 i k hk0 hk1, bcRows2_apply mean2 i k hk0 hk1, bcRows2_apply be2 i k hk0 hk1, bcRows2_apply _ i k hk0 hk1]
  rfl

variable (V : (c : Dev nD) → (b : Ref sig .tc) → Buf (Elt Ideal) ((c : Thread nD τ).loc b))

/-- What point `t` writes back is block `t` of the normalisation of the five arrays as the region finds them. -/
theorem flushed2_eq (c : Dev nD) (t : Fin cfg2.N) :
    (dat2 (F := Ideal) V c).flushed 5 t = ((cfg2.win 5).blk t).view.read (Elt Ideal)
      (Cert.Stages.bnRows (F := Ideal) (V c main_v40) (V c main_v45) (V c main_v46) (V c main_v47) (V c main_v48)) := by
  show (cfg2.win 5).cut (grid2.coords t) ((dat2 V c).after 5 t) = _
  rw [after2_5]
  unfold out2_5
  rw [View.canon_unit_zero hz2]
  simp only [View.ld_unit_zero (S := S4000x32) hz2, View.ld_unit_zero (S := S1x32) hz2]
  obtain ⟨e0, e1, e2, e3, e4, e5, e6, e7, e8, e9, e10, e11⟩ := idx2 t
  funext j
  show k2_pay1 (iblk2 V c 0 t : Vec Ideal S4000x32 .f32) (iblk2 V c 1 t : Vec Ideal S1x32 .f32) (iblk2 V c 2 t : Vec Ideal S1x32 .f32)
      (iblk2 V c 3 t : Vec Ideal S1x32 .f32) (iblk2 V c 4 t : Vec Ideal S1x32 .f32) j
    = Cert.Stages.bnRows (F := Ideal) (V c main_v40) (V c main_v45) (V c main_v46) (V c main_v47) (V c main_v48) (((cfg2.win 5).blk t).view.emb j)
  rw [pay2_apply (iblk2 V c 0 t : Vec Ideal S4000x32 .f32) (iblk2 V c 1 t : Vec Ideal S1x32 .f32) (iblk2 V c 2 t : Vec Ideal S1x32 .f32)
      (iblk2 V c 3 t : Vec Ideal S1x32 .f32) (iblk2 V c 4 t : Vec Ideal S1x32 .f32) j (ix2 (0 : Fin 1) (j 1)) rfl rfl]
  rw [bnRows2_apply (V c main_v40) (V c main_v45) (V c main_v46) (V c main_v47) (V c main_v48) (((cfg2.win 5).blk t).view.emb j) (ix2 (0 : Fin 1) (j 1)) rfl
    (by show (j 1).val = win2_5.index t (1 : Fin 2) * 32 + 1 * (j 1).val; omega)]
  have h0 : ((cfg2.win 0).blk t).view.emb j = ((cfg2.win 5).blk t).view.emb j := by
    funext a; apply Fin.ext
    match a with
    | ⟨0, _⟩ => show win2_0.index t (0 : Fin 2) * 4000 + 1 * (j 0).val = win2_5.index t (0 : Fin 2) * 4000 + 1 * (j 0).val; omega
    | ⟨1, _⟩ => show win2_0.index t (1 : Fin 2) * 32 + 1 * (j 1).val = win2_5.index t (1 : Fin 2) * 32 + 1 * (j 1).val; omega
  have h1 : ((cfg2.win 1).blk t).view.emb (ix2 (0 : Fin 1) (j 1)) = ix2 (0 : Fin 1) (j 1) := by
    funext a; apply Fin.ext
    match a with
    | ⟨0, _⟩ => show win2_1.index t (0 : Fin 2) * 1 + 1 * 0 = 0; omega
    | ⟨1, _⟩ => show win2_1.index t (1 : Fin 2) * 32 + 1 * (j 1).val = (j 1).val; omega
  have h2 : ((cfg2.win 2).blk t).view.emb (ix2 (0 : Fin 1) (j 1)) = ix2 (0 : Fin 1) (j 1) := by
    funext a; apply Fin.ext
    match a with
    | ⟨0, _⟩ => show win2_2.index t (0 : Fin 2) * 1 + 1 * 0 = 0; omega
    | ⟨1, _⟩ => show win2_2.index t (1 : Fin 2) * 32 + 1 * (j 1).val = (j 1).val; omega
  have h3 : ((cfg2.win 3).blk t).view.emb (ix2 (0 : Fin 1) (j 1)) = ix2 (0 : Fin 1) (j 1) := by
    funext a; apply Fin.ext
    match a with
    | ⟨0, _⟩ => show win2_3.index t (0 : Fin 2) * 1 + 1 * 0 = 0; omega
    | ⟨1, _⟩ => show win2_3.index t (1 : Fin 2) * 32 + 1 * (j 1).val = (j 1).val; omega
  have h4 : ((cfg2.win 4).blk t).view.emb (ix2 (0 : Fin 1) (j 1)) = ix2 (0 : Fin 1) (j 1) := by
    funext a; apply Fin.ext
    match a with
    | ⟨0, _⟩ => show win2_4.index t (0 : Fin 2) * 1 + 1 * 0 = 0; omega
    | ⟨1, _⟩ => show win2_4.index t (1 : Fin 2) * 32 + 1 * (j 1).val = (j 1).val; omega
  have a0 : iblk2 V c 0 t j = V c main_v40 (((cfg2.win 5).blk t).view.emb j) := congrArg (V c main_v40) h0
  have a1 : iblk2 V c 1 t (ix2 (0 : Fin 1) (j 1)) = V c main_v45 (ix2 (0 : Fin 1) (j 1)) := congrArg (V c main_v45) h1
  have a2 : iblk2 V c 2 t (ix2 (0 : Fin 1) (j 1)) = V c main_v46 (ix2 (0 : Fin 1) (j 1)) := congrArg (V c main_v46) h2
  have a3 : iblk2 V c 3 t (ix2 (0 : Fin 1) (j 1)) = V c main_v47 (ix2 (0 : Fin 1) (j 1)) := congrArg (V c main_v47) h3
  have a4 : iblk2 V c 4 t (ix2 (0 : Fin 1) (j 1)) = V c main_v48 (ix2 (0 : Fin 1) (j 1)) := congrArg (V c main_v48) h4
  rw [a0, a1, a2, a3, a4]

/-- An entry of the array is in point `t`'s block iff each coordinate is in the block's range on its axis. -/
theorem mem_blk2 (t : Fin cfg2.N) (i : S200000x32.Idx) :
    i ∈ ((cfg2.win 5).blk t).view.set ↔ ∀ a : Fin 2, win2_5.index t a * S4000x32.size a ≤ (i a).val ∧ (i a).val < win2_5.index t a * S4000x32.size a + S4000x32.size a := by
  show i ∈ ((View.whole main_v49).slice (win2_5.rect t)).set ↔ _
  rw [View.set_slice_whole, Rect.mem_set_unit]
  exact Iff.rfl

/-- Row `r` of the array is written back by point `r / 4000`. -/
theorem cover2 (i : S200000x32.Idx) : ∃ t : Fin cfg2.N, (cfg2.win 5).flush t = true ∧ i ∈ ((cfg2.win 5).blk t).view.set := by
  have hi0 : (i 0).val < 200000 := (i 0).isLt
  have hi1 : (i 1).val < 32 := (i 1).isLt
  obtain ⟨t, ht⟩ : ∃ t : Fin cfg2.N, t.val = (i 0).val / 4000 := ⟨⟨(i 0).val / 4000, by rw [show cfg2.N = 50 from N_2]; omega⟩, rfl⟩
  obtain ⟨-, -, -, -, -, -, -, -, -, -, e10, e11⟩ := idx2 t
  refine ⟨t, flush2_5 t, ?_⟩
  rw [mem_blk2]
  intro a
  match a with
  | ⟨0, _⟩ => show win2_5.index t (0 : Fin 2) * 4000 ≤ (i 0).val ∧ (i 0).val < win2_5.index t (0 : Fin 2) * 4000 + 4000; omega
  | ⟨1, _⟩ => show win2_5.index t (1 : Fin 2) * 32 ≤ (i 1).val ∧ (i 1).val < win2_5.index t (1 : Fin 2) * 32 + 32; omega

/-- The output array after the region: the normalisation, scale, shift and clip of the node rows by the four statistics rows as the region finds them. -/
theorem reg2_out (c : Dev nD) :
    (dat2 (F := Ideal) V c).arrAt 5 cfg2.N
      = Cert.Stages.bnRows (F := Ideal) (V c main_v40) (V c main_v45) (V c main_v46) (V c main_v47) (V c main_v48) :=
  (dat2 (F := Ideal) V c).arrAt_eq_of_cover 5
    (Cert.Stages.bnRows (F := Ideal) (V c main_v40) (V c main_v45) (V c main_v46) (V c main_v47) (V c main_v48))
    (fun t _ => flushed2_eq V c t) cover2

/-- The same between the run's contents at the region's entry and at its exit. -/
theorem reg2_val (m : (ℓ : Loc nD τ sig) → Buf (Elt Ideal) ℓ) (ρ : Dev nD → PrngReg) (c : Dev nD) :
    W8 (F := Ideal) m ρ c (Proc.devRef .tc main_v49)
      = Cert.Stages.bnRows (F := Ideal) (W7 m ρ c (Proc.devRef .tc main_v40)) (W7 m ρ c (Proc.devRef .tc main_v45))
          (W7 m ρ c (Proc.devRef .tc main_v46)) (W7 m ρ c (Proc.devRef .tc main_v47)) (W7 m ρ c (Proc.devRef .tc main_v48)) :=
  (W8_arr (F := Ideal) m ρ c 5).trans (reg2_out (V7 m ρ) c)

end Cert.KernelIdeal.RegVal

end
-- ==== Proof.AsmLayer1.lean ====
/-
  Layer 1 of the kernel program, read off the boundary contents: the rows of X · W taken at the edges' sources, the
  messages (region 1), their sum into the targets with the node's own features and the bias, the column statistics,
  and the normalised, clipped features (region 2): the reference's layer of X · W.
-/
import proofs.«417560_j33346126086480_1_alg».proof.Proof.AsmEdge
import proofs.«417560_j33346126086480_1_alg».proof.Proof.KHost1
import proofs.«417560_j33346126086480_1_alg».proof.Proof.RegScale1
import proofs.«417560_j33346126086480_1_alg».proof.Proof.RegBn2

set_option maxRecDepth 16384

noncomputable section

namespace Cert.KernelIdeal.KVal

open Cert.KernelIdeal Cert.KernelIdeal.Gen Cert.KernelIdeal.Keeps Idealize.ShloMosaic Idealize.ShloMosaic.TcCoe
open Cert.Stages Cert.KStages Cert.Bridges Cert.KernelIdeal.RegVal Cert.KernelIdeal.HostVal

variable (m : (ℓ : Loc nD τ sig) → Buf (Elt Ideal) ℓ) (ρ : Dev nD → PrngReg) (c : Dev nD)

/-! ## Layer 1 -/

/-- Layer 1's convolution as the kernel program spells it. -/
def conv1 : FVec Ideal Cert.ReferenceIdeal.S200000x32 .f32 := (convOf (h1 m c) (msgOf (takeFill (h1 m c) (srcOf (m ((c : Thread nD τ).loc main_arg1)))) (kColE (coef (F := Ideal) (srcOf (m ((c : Thread nD τ).loc main_arg1))) (dstOf (m ((c : Thread nD τ).loc main_arg1)))))) (idxCol (dstOf (m ((c : Thread nD τ).loc main_arg1)))) (kColN (nsq (F := Ideal) (dstOf (m ((c : Thread nD τ).loc main_arg1))))) (kRow (m ((c : Thread nD τ).loc main_arg4))))

/-- The stretch after the matrix product takes its rows at the edges' sources. -/
theorem w3_v30 (hr : SrcInRange (srcOf (m ((c : Thread nD τ).loc main_arg1)))) : W3 m ρ c (Proc.devRef .tc main_v30) = takeFill (h1 m c) (srcOf (m ((c : Thread nD τ).loc main_arg1))) := by
  have e : W3 m ρ c (Proc.devRef .tc main_v30) = takeFill (F := Ideal) (W2 m ρ c (Proc.devRef .tc main_v29)) (W2 m ρ c (Proc.devRef .tc main_v1)) := h1_v30 (W2 m ρ c)
  rw [e, w2_v29 m ρ c hr, edge2 m ρ c main_v1 (by decide), w1_v1 m ρ c]

/-- The scale region multiplies each taken row by its edge's weight. -/
theorem w4_v31 (hr : SrcInRange (srcOf (m ((c : Thread nD τ).loc main_arg1)))) : W4 m ρ c (Proc.devRef .tc main_v31) = msgOf (takeFill (h1 m c) (srcOf (m ((c : Thread nD τ).loc main_arg1)))) (kColE (coef (F := Ideal) (srcOf (m ((c : Thread nD τ).loc main_arg1))) (dstOf (m ((c : Thread nD τ).loc main_arg1))))) := by
  rw [reg1_val m ρ c, w3_v30 m ρ c hr, v26_3 m ρ c]

/-- The next stretch sums the messages into their targets and adds the node's own features and the bias. -/
theorem w5_v40 (hr : SrcInRange (srcOf (m ((c : Thread nD τ).loc main_arg1)))) : W5 m ρ c (Proc.devRef .tc main_v40) = conv1 m c := by
  have e : W5 m ρ c (Proc.devRef .tc main_v40) = convOf (F := Ideal) (W4 m ρ c (Proc.devRef .tc main_v29)) (W4 m ρ c (Proc.devRef .tc main_v31)) (idxCol (W4 m ρ c (Proc.devRef .tc main_v3))) (W4 m ρ c (Proc.devRef .tc main_v28)) (kRow (W4 m ρ c (Proc.devRef .tc main_arg4))) := h2_v40 (W4 m ρ c)
  rw [e, ((step4 m ρ c main_v29 (by decide)).trans (step3 m ρ c main_v29 (by decide))), w2_v29 m ρ c hr, w4_v31 m ρ c hr, edge4 m ρ c main_v3 (by decide), w1_v3 m ρ c,
    edge4 m ρ c main_v28 (by decide), w1_v28 m ρ c, args4 m ρ c main_arg4 (by decide)]
  rfl

/-- The same stretch leaves the column means of the convolution. -/
theorem w5_v43 (hr : SrcInRange (srcOf (m ((c : Thread nD τ).loc main_arg1)))) : W5 m ρ c (Proc.devRef .tc main_v43) = meanOf (conv1 m c) := by
  have e : W5 m ρ c (Proc.devRef .tc main_v43) = meanOf (F := Ideal) (W5 m ρ c (Proc.devRef .tc main_v40)) := h2_v43 (W4 m ρ c)
  rw [e, w5_v40 m ρ c hr]

/-- The variance call leaves the column variances of the convolution. -/
theorem w6_v44 (hr : SrcInRange (srcOf (m ((c : Thread nD τ).loc main_arg1)))) : W6 m ρ c (Proc.devRef .tc main_v44) = varOf (conv1 m c) := by
  have e : W6 m ρ c (Proc.devRef .tc main_v44) = varOf (F := Ideal) (W5 m ρ c (Proc.devRef .tc main_v40)) := h21_v44 (W5 m ρ c) (h2_c8 (W4 m ρ c))
  rw [e, w5_v40 m ρ c hr]

/-- The normalisation region, fed the statistics and the scale and shift as rows, leaves the layer's output. -/
theorem w8_v49 (hr : SrcInRange (srcOf (m ((c : Thread nD τ).loc main_arg1)))) : W8 m ρ c (Proc.devRef .tc main_v49) = x2 m c := by
  have e45 : W7 m ρ c (Proc.devRef .tc main_v45) = kRow (F := Ideal) (W6 m ρ c (Proc.devRef .tc main_v43)) := h22_v45 (W6 m ρ c)
  have e46 : W7 m ρ c (Proc.devRef .tc main_v46) = kRow (F := Ideal) (W6 m ρ c (Proc.devRef .tc main_v44)) := h22_v46 (W6 m ρ c)
  have e47 : W7 m ρ c (Proc.devRef .tc main_v47) = kRow (F := Ideal) (W6 m ρ c (Proc.devRef .tc main_arg5)) := h22_v47 (W6 m ρ c)
  have e48 : W7 m ρ c (Proc.devRef .tc main_v48) = kRow (F := Ideal) (W6 m ρ c (Proc.devRef .tc main_arg6)) := h22_v48 (W6 m ρ c)
  rw [reg2_val m ρ c, ((step7 m ρ c main_v40 (by decide)).trans (step6 m ρ c main_v40 (by decide))), w5_v40 m ρ c hr,
    e45, step6 m ρ c main_v43 (by decide), w5_v43 m ρ c hr,
    e46, w6_v44 m ρ c hr,
    e47, args6 m ρ c main_arg5 (by decide),
    e48, args6 m ρ c main_arg6 (by decide)]
  exact layer_eq _ _ _ _ _ _ hr

end Cert.KernelIdeal.KVal

end
-- ==== Proof.RegMatmul3.lean ====
/-
  A later layer's linear map X · W, as the tiled product kernel computes it.

  The kernel walks the N = 200000 rows of X in 50 blocks of 4000 rows. At each block it multiplies the 4000 × 32 block
  of X by the whole 32 × 32 matrix W and writes the 4000 × 32 product back as the same block of rows of the result.
  At the ideal values the casts to the narrow type are the identity and the product into a zero accumulator is the
  plain sum over the contracted coordinate, so entry (r, q) of the result is  Σ_c X(r, c) · W(c, q),  which is what the
  host's dot_general is at that entry: the result array is the whole-array product.
-/
import proofs.«417560_j33346126086480_1_alg».proof.Proof.Gen.KernelIdeal.Frame
import proofs.«417560_j33346126086480_1_alg».proof.Proof.Stages
import proofs.«417560_j33346126086480_1_alg».proof.Proof.LibMatmul
import Idealize.ShloMosaic.Lib.Pipeline.Value
import Idealize.ShloMosaic.Lib.ValueIdx
import Idealize.ShloMosaic.Lib.StackMember
import Idealize.ShloMosaic.PureOps.Ideal.Laws

set_option maxRecDepth 16384

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

namespace Matmul

/-! ## The product of a block, entry by entry -/

/-- The kernel's dimension numbers are the plain ones: rows × contraction times contraction × columns. -/
theorem dims_r3 : dot_S4000x32_S32x32_S4000x32_1_0_0_1_n_n = DotDims.plain 4000 32 32 := rfl

/-- The reference's too, over all the rows. -/
theorem dimsRef_r3 : Cert.ReferenceIdeal.dot_S200000x32_S32x32_S200000x32_1_0_0_1_n_n = DotDims.plain 200000 32 32 := rfl

/-- The kernel's payload at an entry of the block: row p of the X block against column q of W. -/
theorem pay_r3 (x0 : Vec Ideal S4000x32 .f32) (x1 : Vec Ideal S32x32 .f32) (p : Fin 4000) (q : Fin 32) :
    k3_pay1 x0 x1 (ix2 p q) = ∑ c : Fin 32, x0 (ix2 p c) * x1 (ix2 c q) := by
  unfold k3_pay1
  rw [dims_r3]
  simp only [shapeCast_self]
  exact matmul_plain_zero_apply none _ _ p q

/-- The whole-array product at an entry. -/
theorem lin_r3 (x : FVec Ideal S200000x32 .f32) (w : FVec Ideal S32x32 .f32) (r : Fin 200000) (q : Fin 32) :
    Cert.Stages.lin32 (F := Ideal) x w (ix2 r q) = ∑ c : Fin 32, x (ix2 r c) * w (ix2 c q) := by
  unfold Cert.Stages.lin32
  rw [dimsRef_r3]
  exact StackMember.dotGeneral_plain_apply none x w r q

/-- Entry (p, q) of the product of a block of rows of X, the block starting at row 4000 b, by W is entry
    (4000 b + p, q) of the whole product: the same sum over the contracted coordinate. -/
theorem block_entry_r3 (x : FVec Ideal S200000x32 .f32) (w : FVec Ideal S32x32 .f32)
    (x0 : Vec Ideal S4000x32 .f32) (x1 : Vec Ideal S32x32 .f32) (b : Nat)
    (hx0 : ∀ (y : S4000x32.Idx) (k : S200000x32.Idx), (k 0).val = b * 4000 + (y 0).val → (k 1).val = (y 1).val → x0 y = x k)
    (hx1 : x1 = w) (j : S4000x32.Idx) (i : S200000x32.Idx)
    (hi0 : (i 0).val = b * 4000 + (j 0).val) (hi1 : (i 1).val = (j 1).val) :
    k3_pay1 x0 x1 j = Cert.Stages.lin32 (F := Ideal) x w i := by
  obtain ⟨p, q, rfl⟩ : ∃ (p : Fin 4000) (q : Fin 32), j = ix2 p q := ⟨j 0, j 1, eq_ix2 j⟩
  obtain ⟨r, q', rfl⟩ : ∃ (r : Fin 200000) (q' : Fin 32), i = ix2 r q' := ⟨i 0, i 1, eq_ix2 i⟩
  have hq : q' = q := Fin.ext hi1
  subst hq
  rw [pay_r3, lin_r3, hx1]
  refine Finset.sum_congr rfl fun c _ => ?_
  rw [hx0 (ix2 p c) (ix2 r c) hi0 rfl]

/-! ## From the blocks to the array -/

variable (V : (c : Dev nD) → (b : Ref sig .tc) → Buf (Elt Ideal) ((c : Thread nD τ).loc b))

/-- The grid has 50 points. -/
theorem points_r3 : cfg3.N = 50 := by decide +kernel

/-- The printed index maps, decided over the grid: at point t the X window and the result window sit at block row t,
    the W window at its one block. -/
theorem idx_facts_r3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The X window's block at point t is rows 4000 t … 4000 t + 3999 of X. -/
theorem xblk_r3 (c : Dev nD) (t : Fin cfg3.N) (y : S4000x32.Idx) (k : S200000x32.Idx)
    (hk0 : (k 0).val = t.val * 4000 + (y 0).val) (hk1 : (k 1).val = (y 1).val) :
    (iblk3 V c 0 t : Vec Ideal S4000x32 .f32) y = (V c main_v49 : S200000x32.Idx → Elt Ideal .f32) k := by
  obtain ⟨e0, e1, -, -, -, -⟩ := idx_facts_r3 t
  unfold iblk3
  rw [View.read_apply]
  show V c main_v49 _ = V c main_v49 _
  congr 1
  funext a
  apply Fin.ext
  match a with
  | ⟨0, _⟩ => show win3_0.index t 0 * 4000 + 1 * (y 0).val = (k 0).val; rw [e0, hk0]; omega
  | ⟨1, _⟩ => show win3_0.index t 1 * 32 + 1 * (y 1).val = (k 1).val; rw [e1, hk1]; omega

/-- The W window's block at every point is the whole of W. -/
theorem wblk_r3 (c : Dev nD) (t : Fin cfg3.N) :
    (iblk3 V c 1 t : Vec Ideal S32x32 .f32) = (V c main_arg7 : S32x32.Idx → Elt Ideal .f32) := by
  obtain ⟨-, -, e2, e3, -, -⟩ := idx_facts_r3 t
  funext y
  unfold iblk3
  rw [View.read_apply]
  show V c main_arg7 _ = V c main_arg7 _
  congr 1
  funext a
  apply Fin.ext
  match a with
  | ⟨0, _⟩ => show win3_1.index t 0 * 32 + 1 * (y 0).val = (y 0).val; rw [e2]; omega
  | ⟨1, _⟩ => show win3_1.index t 1 * 32 + 1 * (y 1).val = (y 1).val; rw [e3]; omega

/-- What point t writes back is block t of the whole-array product of the arrays the region finds. -/
theorem flushed_r3 (c : Dev nD) (t : Fin cfg3.N) :
    (dat3 V c).flushed 2 t = ((cfg3.win 2).blk t).view.read (Elt Ideal)
      (Cert.Stages.lin32 (F := Ideal) (V c main_v49) (V c main_arg7)) := by
  show (cfg3.win 2).cut (grid3.coords t) ((dat3 V c).after 2 t) = _
  rw [after3_2]
  unfold out3_2
  rw [View.canon_unit_zero zero_offsets]
  simp only [View.ld_unit_zero (S := S4000x32) zero_offsets, View.ld_unit_zero (S := S32x32) zero_offsets]
  obtain ⟨-, -, -, -, e4, e5⟩ := idx_facts_r3 t
  funext j
  show k3_pay1 (iblk3 V c 0 t) (iblk3 V c 1 t) j
    = Cert.Stages.lin32 (F := Ideal) (V c main_v49) (V c main_arg7) (((cfg3.win 2).blk t).view.emb j)
  refine block_entry_r3 _ _ _ _ t.val (fun y k h0 h1 => xblk_r3 V c t y k h0 h1) (wblk_r3 V c t) j _ ?_ ?_
  · show win3_2.index t 0 * 4000 + 1 * (j 0).val = t.val * 4000 + (j 0).val; rw [e4]; omega
  · show win3_2.index t 1 * 32 + 1 * (j 1).val = (j 1).val; rw [e5]; omega

/-- An index of the result is in point t's block iff each coordinate is in the block's range on its axis. -/
theorem mem_blk_r3 (t : Fin cfg3.N) (i : S200000x32.Idx) :
    i ∈ ((cfg3.win 2).blk t).view.set ↔ ∀ a : Fin 2, win3_2.index t a * S4000x32.size a ≤ (i a).val
      ∧ (i a).val < win3_2.index t a * S4000x32.size a + S4000x32.size a := by
  show i ∈ ((View.whole main_v50).slice (win3_2.rect t)).set ↔ _
  rw [View.set_slice_whole, Rect.mem_set_unit]
  exact Iff.rfl

/-- Every row r of the result is in the block of point r / 4000. -/
theorem cover_r3 (i : S200000x32.Idx) :
    ∃ t : Fin cfg3.N, (cfg3.win 2).flush t = true ∧ i ∈ ((cfg3.win 2).blk t).view.set := by
  have hi0 : (i 0).val < 200000 := (i 0).isLt
  have hi1 : (i 1).val < 32 := (i 1).isLt
  have ht : (i 0).val / 4000 < cfg3.N := by rw [points_r3]; omega
  obtain ⟨-, -, -, -, e4, e5⟩ := idx_facts_r3 ⟨(i 0).val / 4000, ht⟩
  refine ⟨⟨(i 0).val / 4000, ht⟩, flush3_2 _, ?_⟩
  rw [mem_blk_r3]
  intro a
  match a with
  | ⟨0, _⟩ =>
    show win3_2.index ⟨(i 0).val / 4000, ht⟩ 0 * 4000 ≤ (i 0).val ∧ (i 0).val < win3_2.index ⟨(i 0).val / 4000, ht⟩ 0 * 4000 + 4000
    rw [e4]; dsimp only; omega
  | ⟨1, _⟩ =>
    show win3_2.index ⟨(i 0).val / 4000, ht⟩ 1 * 32 ≤ (i 1).val ∧ (i 1).val < win3_2.index ⟨(i 0).val / 4000, ht⟩ 1 * 32 + 32
    rw [e5]; omega

end Matmul

open Matmul

variable (V : (c : Dev nD) → (b : Ref sig .tc) → Buf (Elt Ideal) ((c : Thread nD τ).loc b))

/-- THE RESULT ARRAY after the region: the whole-array product X · W of the arrays at entry. -/
theorem reg3_out (c : Dev nD) :
    (dat3 V c).arrAt 2 cfg3.N = Cert.Stages.lin32 (F := Ideal) (V c main_v49) (V c main_arg7) :=
  (dat3 V c).arrAt_eq_of_cover 2 _ (fun t _ => flushed_r3 V c t) cover_r3

/-! ## At the run's boundary contents -/

variable (m : (ℓ : Loc nD τ sig) → Buf (Elt Ideal) ℓ) (ρ : Dev nD → PrngReg)

/-- The result buffer at the region's exit is the product of the two operand buffers at its entry. -/
theorem reg3_val (c : Dev nD) :
    W9 (F := Ideal) m ρ c (Proc.devRef .tc main_v50)
      = Cert.Stages.lin32 (F := Ideal) (W8 m ρ c (Proc.devRef .tc main_v49)) (W8 m ρ c (Proc.devRef .tc main_arg7)) :=
  (W9_arr m ρ c 2).trans (reg3_out (V8 m ρ) c)

end Cert.KernelIdeal.RegVal

end
-- ==== Proof.AsmHead2.lean ====
/-
  Region 3 multiplies the first layer's output by the second layer's weights.
-/
import proofs.«417560_j33346126086480_1_alg».proof.Proof.AsmLayer1
import proofs.«417560_j33346126086480_1_alg».proof.Proof.RegMatmul3

set_option maxRecDepth 16384

noncomputable section

namespace Cert.KernelIdeal.KVal

open Cert.KernelIdeal Cert.KernelIdeal.Gen Cert.KernelIdeal.Keeps Idealize.ShloMosaic Idealize.ShloMosaic.TcCoe
open Cert.Stages Cert.KStages Cert.Bridges Cert.KernelIdeal.RegVal Cert.KernelIdeal.HostVal

variable (m : (ℓ : Loc nD τ sig) → Buf (Elt Ideal) ℓ) (ρ : Dev nD → PrngReg) (c : Dev nD)

/-- Region 3 leaves the second layer's X · W. -/
theorem w9_v50 (hr : SrcInRange (srcOf (m ((c : Thread nD τ).loc main_arg1)))) : W9 m ρ c (Proc.devRef .tc main_v50) = h2 m c := by
  rw [reg3_val m ρ c, w8_v49 m ρ c hr, args8 m ρ c main_arg7 (by decide)]
  rfl

end Cert.KernelIdeal.KVal

end
-- ==== Proof.KHost23.lean ====
/-
  The kernel program's host stretches of the second layer, read as values.

  Between two tiled regions the program runs plain array operations.  For an arbitrary assignment `V` of
  contents to the buffers, each theorem below says what one such stretch leaves in a buffer a later stage
  reads, as a stage function (`Cert.Stages`, `Cert.KStages`) of what `V` holds:
    * the rows of the layer's linear map at the edges' sources (`jnp.take`: gathered rows, a fill value where
      the wrapped index is out of range);
    * the convolution  Σ_{edges into a node} msg + h · norm² + b,  and its column means;
    * the column variances;
    * the statistics and the scale and shift, each reshaped from a vector over the features to a 1 × 32 row.
  Each equation holds by unfolding: the operations' composed term is, literally, the stage function's body.
-/
import proofs.«417560_j33346126086480_1_alg».proof.Proof.Gen.KernelIdeal.Launch
import proofs.«417560_j33346126086480_1_alg».proof.Proof.KStages
import Idealize.ShloMosaic.Lib.StableHlo.Run

noncomputable section

namespace Cert.KernelIdeal.HostVal23

open Cert.KernelIdeal Cert.KernelIdeal.Gen Idealize.ShloMosaic Idealize.ShloMosaic.StableHlo

variable {F : FTy → Type} [FloatOps F]

/-! ## Typed references: the transport between a value's type and its buffer's type is the identity -/

/-- Moving a value to a typed reference's buffer type and back gives the value. -/
private theorem ofBuf_toBuf {Val : EltTy → Type} {T : BufTy} (x : TRef sig T) (v : T.Contents Val) :
    x.ofBuf (x.toBuf v) = v := by
  obtain ⟨r, rfl, _, _⟩ := x; rfl

/-- At a literal reference whose type is the value's, the transport is the identity. -/
private theorem ofBuf_v1 (s : IVec S2500000 32) :
    (.of main_v1 : StableHlo.TRef sig ⟨S2500000, .i32⟩).ofBuf (Val := Elt F) s = s := rfl
private theorem ofBuf_v50 (s : FVec F S200000x32 .f32) :
    (.of main_v50 : StableHlo.TRef sig ⟨S200000x32, .f32⟩).ofBuf (Val := Elt F) s = s := rfl
private theorem toBuf_v51 (s : FVec F S2500000x32 .f32) :
    (.of main_v51 : StableHlo.TRef sig ⟨S2500000x32, .f32⟩).toBuf (Val := Elt F) s = s := rfl
private theorem ofBuf_v61 (s : FVec F S200000x32 .f32) :
    (.of main_v61 : StableHlo.TRef sig ⟨S200000x32, .f32⟩).ofBuf (Val := Elt F) s = s := rfl
private theorem ofBuf_c12 (s : IVec S_ 32) :
    (.of main_c_12 : StableHlo.TRef sig ⟨S_, .i32⟩).ofBuf (Val := Elt F) s = s := rfl
private theorem toBuf_v65 (s : FVec F S32 .f32) :
    (.of main_v65 : StableHlo.TRef sig ⟨S32, .f32⟩).toBuf (Val := Elt F) s = s := rfl

/-! ## The rows of h at the edges' sources -/

set_option maxHeartbeats 1000000 in
/-- `jnp.take` of the layer's linear map at the sources: wrap the negative indices, gather the rows, and put the
    fill value where the wrapped index is outside 0 … N − 1. -/
theorem h4_v51 (V : Valuation τ sig (Elt F)) :
    after hostOps4 V (Proc.devRef .tc main_v51)
      = Cert.KStages.takeFill (V (Proc.devRef .tc main_v50) : FVec F S200000x32 .f32)
          (V (Proc.devRef .tc main_v1) : IVec S2500000 32) := by
  after_results_simp
  simp only [ofBuf_toBuf]
  rw [ofBuf_v1, ofBuf_v50, toBuf_v51]
  rfl

/-! ## The convolution and its column means -/

/-- The messages summed into their targets, plus the node's own features weighted by norm², plus the bias row. -/
theorem h5_v61 (V : Valuation τ sig (Elt F)) :
    after hostOps5 V (Proc.devRef .tc main_v61)
      = Cert.Stages.convOf (V (Proc.devRef .tc main_v50) : FVec F S200000x32 .f32)
          (V (Proc.devRef .tc main_v52) : FVec F S2500000x32 .f32)
          (Cert.Stages.idxCol (V (Proc.devRef .tc main_v3) : IVec S2500000 32))
          (V (Proc.devRef .tc main_v28) : FVec F S200000x1 .f32)
          (Cert.KStages.kRow (V (Proc.devRef .tc main_arg8) : FVec F S32 .f32)) := by
  after_results
  rfl

/-- The column means of the convolution: its column sums divided by N. -/
theorem h5_v64 (V : Valuation τ sig (Elt F)) :
    after hostOps5 V (Proc.devRef .tc main_v64)
      = Cert.Stages.meanOf (after hostOps5 V (Proc.devRef .tc main_v61) : FVec F S200000x32 .f32) := by
  rw [h5_v61]
  after_results
  rfl

/-- The integer zero the variance's divisor N − 0 is formed from. -/
theorem h5_c12 (V : Valuation τ sig (Elt F)) :
    after hostOps5 V (Proc.devRef .tc main_c_12) = (constantI S_ 32 0#32 : IVec S_ 32) := by
  after_results

/-! ## The column variances -/

set_option maxHeartbeats 1000000 in
/-- `jnp.var` of the convolution over the nodes: the mean of the squared deviations from the column means, kept
    under the guard on the divisor as it is printed. -/
theorem h51_v65 (V : Valuation τ sig (Elt F))
    (hc : V (Proc.devRef .tc main_c_12) = (constantI S_ 32 0#32 : IVec S_ 32)) :
    after hostOps5_1 V (Proc.devRef .tc main_v65)
      = Cert.Stages.varOf (V (Proc.devRef .tc main_v61) : FVec F S200000x32 .f32) := by
  after_results_simp
  simp only [ofBuf_toBuf]
  rw [ofBuf_v61, ofBuf_c12, toBuf_v65, hc]
  rfl

/-! ## The statistics and the scale and shift as 1 × 32 rows -/

/-- The column means as a row. -/
theorem h52_v66 (V : Valuation τ sig (Elt F)) :
    after hostOps5_2 V (Proc.devRef .tc main_v66) = Cert.KStages.kRow (V (Proc.devRef .tc main_v64) : FVec F S32 .f32) := by
  after_results
  rfl

/-- The column variances as a row. -/
theorem h52_v67 (V : Valuation τ sig (Elt F)) :
    after hostOps5_2 V (Proc.devRef .tc main_v67) = Cert.KStages.kRow (V (Proc.devRef .tc main_v65) : FVec F S32 .f32) := by
  after_results
  rfl

/-- The scale as a row. -/
theorem h52_v68 (V : Valuation τ sig (Elt F)) :
    after hostOps5_2 V (Proc.devRef .tc main_v68) = Cert.KStages.kRow (V (Proc.devRef .tc main_arg9) : FVec F S32 .f32) := by
  after_results
  rfl

/-- The shift as a row. -/
theorem h52_v69 (V : Valuation τ sig (Elt F)) :
    after hostOps5_2 V (Proc.devRef .tc main_v69) = Cert.KStages.kRow (V (Proc.devRef .tc main_arg10) : FVec F S32 .f32) := by
  after_results
  rfl

end Cert.KernelIdeal.HostVal23

end
-- ==== Proof.RegScale4.lean ====
/-
  The scaling of the gathered rows by the edge weights, second layer: the region multiplies each of the E = 2500000 gathered
  rows (32 features) by its edge's weight, 5000 rows at a point over 500 points. Each point's block of the product is
  the block of ONE whole-array function of the two input arrays, the messages `msg = g · coef` with the weight column
  repeated over the features; the 500 blocks tile the rows, so after the region the output array is that function.
-/
import proofs.«417560_j33346126086480_1_alg».proof.Proof.Gen.KernelIdeal.Frame
import proofs.«417560_j33346126086480_1_alg».proof.Proof.Stages
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.RegVal

open Cert.KernelIdeal Cert.KernelIdeal.Gen

/-- The zero offsets of a block's one load and one store. -/
theorem hz4 : (![0, 0] : Fin 2 → Nat) = fun _ => 0 := funext fun a => by fin_cases a <;> rfl

/-- The three index maps send point `t` to block row `t`, block column 0. -/
theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- The body's product read at an entry: the gathered entry times its row's weight. -/
theorem pay4_apply (x0 : Vec Ideal S5000x32 .f32) (x1 : Vec Ideal S5000x1 .f32) (j : S5000x32.Idx) (k : S5000x1.Idx)
    (hk0 : (k 0).val = (j 0).val) (hk1 : (k 1).val = 0) :
    k4_pay1 x0 x1 j = x0 j * x1 k := by
  unfold k4_pay1
  rw [mulf_apply, shapeCast_self, shapeCast_self]
  congr 1
  refine broadcastTo_apply _ _ j k fun a => ?_
  match a with
  | ⟨0, _⟩ => exact hk0
  | ⟨1, _⟩ => exact hk1

/-- The messages read at an entry: the gathered entry times its edge's weight. -/
theorem msgOf_apply4 (g : FVec Ideal S2500000x32 .f32) (w : FVec Ideal S2500000x1 .f32) (i : S2500000x32.Idx) (k : S2500000x1.Idx)
    (hk0 : (k 0).val = (i 0).val) (hk1 : (k 1).val = 0) :
    Cert.Stages.msgOf (F := Ideal) g w i = g i * w k := by
  unfold Cert.Stages.msgOf Cert.Stages.bcColsE
  rw [mulf_apply]
  congr 1
  refine broadcastInDim_apply _ _ _ i k fun a => ?_
  match a with
  | ⟨0, _⟩ => exact hk0
  | ⟨1, _⟩ => exact hk1

variable (V : (c : Dev nD) → (b : Ref sig .tc) → Buf (Elt Ideal) ((c : Thread nD τ).loc b))

/-- What point `t` writes back is block `t` of the messages of the two arrays as the region finds them. -/
theorem flushed4_eq (c : Dev nD) (t : Fin cfg4.N) :
    (dat4 (F := Ideal) V c).flushed 2 t = ((cfg4.win 2).blk t).view.read (Elt Ideal) (Cert.Stages.msgOf (F := Ideal) (V c main_v51) (V c main_v26)) := by
  show (cfg4.win 2).cut (grid4.coords t) ((dat4 V c).after 2 t) = _
  rw [after4_2]
  unfold out4_2
  rw [View.canon_unit_zero hz4]
  simp only [View.ld_unit_zero (S := S5000x32) hz4, View.ld_unit_zero (S := S5000x1) hz4]
  obtain ⟨e0, e1, e2, e3, e4, e5⟩ := idx4 t
  funext j
  show k4_pay1 (iblk4 V c 0 t : Vec Ideal S5000x32 .f32) (iblk4 V c 1 t : Vec Ideal S5000x1 .f32) j = Cert.Stages.msgOf (F := Ideal) (V c main_v51) (V c main_v26) (((cfg4.win 2).blk t).view.emb j)
  rw [pay4_apply (iblk4 V c 0 t : Vec Ideal S5000x32 .f32) (iblk4 V c 1 t : Vec Ideal S5000x1 .f32) j (ix2 (j 0) (0 : Fin 1)) rfl rfl]
  rw [msgOf_apply4 (V c main_v51) (V c main_v26) (((cfg4.win 2).blk t).view.emb j) (((cfg4.win 1).blk t).view.emb (ix2 (j 0) (0 : Fin 1)))
    (by show win4_1.index t (0 : Fin 2) * 5000 + 1 * (j 0).val = win4_2.index t (0 : Fin 2) * 5000 + 1 * (j 0).val; omega)
    (by show win4_1.index t (1 : Fin 2) * 1 + 1 * 0 = 0; omega)]
  have h0 : ((cfg4.win 0).blk t).view.emb j = ((cfg4.win 2).blk t).view.emb j := by
    funext a; apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 32 + 1 * (j 1).val = win4_2.index t (1 : Fin 2) * 32 + 1 * (j 1).val; omega
  exact congrArg₂ (fun (a b : Ideal .f32) => a * b) (congrArg (V c main_v51) h0) rfl

/-- An entry of the array is in point `t`'s block iff each coordinate is in the block's range on its axis. -/
theorem mem_blk4 (t : Fin cfg4.N) (i : S2500000x32.Idx) :
    i ∈ ((cfg4.win 2).blk t).view.set ↔ ∀ a : Fin 2, win4_2.index t a * S5000x32.size a ≤ (i a).val ∧ (i a).val < win4_2.index t a * S5000x32.size a + S5000x32.size a := by
  show i ∈ ((View.whole main_v52).slice (win4_2.rect t)).set ↔ _
  rw [View.set_slice_whole, Rect.mem_set_unit]
  exact Iff.rfl

/-- Row `r` of the array is written back by point `r / 5000`. -/
theorem cover4 (i : S2500000x32.Idx) : ∃ t : Fin cfg4.N, (cfg4.win 2).flush t = true ∧ i ∈ ((cfg4.win 2).blk t).view.set := by
  have hi0 : (i 0).val < 2500000 := (i 0).isLt
  have hi1 : (i 1).val < 32 := (i 1).isLt
  obtain ⟨t, ht⟩ : ∃ t : Fin cfg4.N, t.val = (i 0).val / 5000 := ⟨⟨(i 0).val / 5000, by rw [show cfg4.N = 500 from N_4]; omega⟩, rfl⟩
  obtain ⟨-, -, -, -, e4, e5⟩ := idx4 t
  refine ⟨t, flush4_2 t, ?_⟩
  rw [mem_blk4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 32 ≤ (i 1).val ∧ (i 1).val < win4_2.index t (1 : Fin 2) * 32 + 32; omega

/-- The output array after the region: the messages of the gathered rows and the edge weights as the region finds them. -/
theorem reg4_out (c : Dev nD) :
    (dat4 (F := Ideal) V c).arrAt 2 cfg4.N = Cert.Stages.msgOf (F := Ideal) (V c main_v51) (V c main_v26) :=
  (dat4 (F := Ideal) V c).arrAt_eq_of_cover 2 (Cert.Stages.msgOf (F := Ideal) (V c main_v51) (V c main_v26))
    (fun t _ => flushed4_eq V c t) cover4

/-- The same between the run's contents at the region's entry and at its exit. -/
theorem reg4_val (m : (ℓ : Loc nD τ sig) → Buf (Elt Ideal) ℓ) (ρ : Dev nD → PrngReg) (c : Dev nD) :
    W11 (F := Ideal) m ρ c (Proc.devRef .tc main_v52)
      = Cert.Stages.msgOf (F := Ideal) (W10 m ρ c (Proc.devRef .tc main_v51)) (W10 m ρ c (Proc.devRef .tc main_v26)) :=
  (W11_arr (F := Ideal) m ρ c 2).trans (reg4_out (V10 m ρ) c)

end Cert.KernelIdeal.RegVal

end
-- ==== Proof.RegBn5.lean ====
/-
  Batch normalisation with the clip at zero, second layer: the region takes the N = 200000 node rows (32 features), 4000
  rows at a point over 50 points, and the four statistics rows (mean, variance, scale, shift; 1 × 32 each, the same block
  at every point), and writes max(0, g · (a − mean) · (var + ε)^(-1/2) + be). Each point's block of the result is the
  block of ONE whole-array function of the five input arrays, the normalisation with the rows repeated over the nodes;
  the 50 blocks tile the rows, so after the region the output array is that function. The products are grouped on both
  sides as (g · (a − mean)) · (var + ε)^(-1/2), so the two expressions agree entry by entry with no law of arithmetic.
-/
import proofs.«417560_j33346126086480_1_alg».proof.Proof.Gen.KernelIdeal.Frame
import proofs.«417560_j33346126086480_1_alg».proof.Proof.Stages
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.RegVal

open Cert.KernelIdeal Cert.KernelIdeal.Gen

/-- The zero offsets of a block's loads and one store. -/
theorem hz5 : (![0, 0] : Fin 2 → Nat) = fun _ => 0 := funext fun a => by fin_cases a <;> rfl

/-- The index maps: the node rows and the output move with the point, block row `t`; the four statistics rows stay at block (0, 0). -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- A 1 × 32 row repeated over a block's 4000 rows, read at an entry: the row's entry in that column. -/
theorem rowBlk5_apply (v : FVec Ideal S1x32 .f32) (j : S4000x32.Idx) (k : S1x32.Idx)
    (hk0 : (k 0).val = 0) (hk1 : (k 1).val = (j 1).val) :
    broadcastTo S4000x32 v broadcasts_S1x32_S4000x32 j = v k := by
  refine broadcastTo_apply _ _ j k fun a => ?_
  match a with
  | ⟨0, _⟩ => exact hk0
  | ⟨1, _⟩ => exact hk1

/-- A 1 × 32 row repeated over the N nodes, read at an entry: the row's entry in that column. -/
theorem bcRows5_apply (v : FVec Ideal S1x32 .f32) (i : S200000x32.Idx) (k : S1x32.Idx)
    (hk0 : (k 0).val = 0) (hk1 : (k 1).val = (i 1).val) :
    Cert.Stages.bcRows (F := Ideal) v i = v k := by
  unfold Cert.Stages.bcRows
  refine broadcastInDim_apply _ _ _ i k fun a => ?_
  match a with
  | ⟨0, _⟩ => exact hk0
  | ⟨1, _⟩ => exact hk1

/-- The body's normalisation read at an entry: max(0, g · (a − mean) · (var + ε)^(-1/2) + be) with the statistics' entries in the entry's column. -/
theorem pay5_apply (x0 : Vec Ideal S4000x32 .f32) (x1 x2 x3 x4 : Vec Ideal S1x32 .f32) (j : S4000x32.Idx) (k : S1x32.Idx)
    (hk0 : (k 0).val = 0) (hk1 : (k 1).val = (j 1).val) :
    k5_pay1 x0 x1 x2 x3 x4 j
      = max (x3 k * (x0 j - x1 k) * Ideal.rsqrt (x2 k + Ideal.ofBits .f32 0x3727C5AC#32) + x4 k) (Ideal.ofBits .f32 0x00000000#32) := by
  unfold k5_pay1
  simp only [shapeCast_self]
  rw [maximumf_apply, addf_apply, mulf_apply, mulf_apply, subf_apply,
    rowBlk5_apply x3 j k hk0 hk1, rowBlk5_apply x1 j k hk0 hk1, rowBlk5_apply x4 j k hk0 hk1, rowBlk5_apply _ j k hk0 hk1]
  rfl

/-- The whole-array normalisation read at an entry: the same expression of the arrays' entries. -/
theorem bnRows5_apply (a : FVec Ideal S200000x32 .f32) (mean2 var2 g2 be2 : FVec Ideal S1x32 .f32) (i : S200000x32.Idx) (k : S1x32.Idx)
    (hk0 : (k 0).val = 0) (hk1 : (k 1).val = (i 1).val) :
    Cert.Stages.bnRows (F := Ideal) a mean2 var2 g2 be2 i
      = max (g2 k * (a i - mean2 k) * Ideal.rsqrt (var2 k + Ideal.ofBits .f32 0x3727C5AC#32) + be2 k) (Ideal.ofBits .f32 0x00000000#32) := by
  unfold Cert.Stages.bnRows
  rw [maximumf_apply, addf_apply, mulf_apply, mulf_apply, subf_apply,
    bcRows5_apply g2 i k hk0 hk1, bcRows5_apply mean2 i k hk0 hk1, bcRows5_apply be2 i k hk0 hk1, bcRows5_apply _ i k hk0 hk1]
  rfl

variable (V : (c : Dev nD) → (b : Ref sig .tc) → Buf (Elt Ideal) ((c : Thread nD τ).loc b))

/-- What point `t` writes back is block `t` of the normalisation of the five arrays as the region finds them. -/
theorem flushed5_eq (c : Dev nD) (t : Fin cfg5.N) :
    (dat5 (F := Ideal) V c).flushed 5 t = ((cfg5.win 5).blk t).view.read (Elt Ideal)
      (Cert.Stages.bnRows (F := Ideal) (V c main_v61) (V c main_v66) (V c main_v67) (V c main_v68) (V c main_v69)) := by
  show (cfg5.win 5).cut (grid5.coords t) ((dat5 V c).after 5 t) = _
  rw [after5_5]
  unfold out5_5
  rw [View.canon_unit_zero hz5]
  simp only [View.ld_unit_zero (S := S4000x32) hz5, View.ld_unit_zero (S := S1x32) hz5]
  obtain ⟨e0, e1, e2, e3, e4, e5, e6, e7, e8, e9, e10, e11⟩ := idx5 t
  funext j
  show k5_pay1 (iblk5 V c 0 t : Vec Ideal S4000x32 .f32) (iblk5 V c 1 t : Vec Ideal S1x32 .f32) (iblk5 V c 2 t : Vec Ideal S1x32 .f32)
      (iblk5 V c 3 t : Vec Ideal S1x32 .f32) (iblk5 V c 4 t : Vec Ideal S1x32 .f32) j
    = Cert.Stages.bnRows (F := Ideal) (V c main_v61) (V c main_v66) (V c main_v67) (V c main_v68) (V c main_v69) (((cfg5.win 5).blk t).view.emb j)
  rw [pay5_apply (iblk5 V c 0 t : Vec Ideal S4000x32 .f32) (iblk5 V c 1 t : Vec Ideal S1x32 .f32) (iblk5 V c 2 t : Vec Ideal S1x32 .f32)
      (iblk5 V c 3 t : Vec Ideal S1x32 .f32) (iblk5 V c 4 t : Vec Ideal S1x32 .f32) j (ix2 (0 : Fin 1) (j 1)) rfl rfl]
  rw [bnRows5_apply (V c main_v61) (V c main_v66) (V c main_v67) (V c main_v68) (V c main_v69) (((cfg5.win 5).blk t).view.emb j) (ix2 (0 : Fin 1) (j 1)) rfl
    (by show (j 1).val = win5_5.index t (1 : Fin 2) * 32 + 1 * (j 1).val; omega)]
  have h0 : ((cfg5.win 0).blk t).view.emb j = ((cfg5.win 5).blk t).view.emb j := by
    funext a; apply Fin.ext
    match a with
    | ⟨0, _⟩ => show win5_0.index t (0 : Fin 2) * 4000 + 1 * (j 0).val = win5_5.index t (0 : Fin 2) * 4000 + 1 * (j 0).val; omega
    | ⟨1, _⟩ => show win5_0.index t (1 : Fin 2) * 32 + 1 * (j 1).val = win5_5.index t (1 : Fin 2) * 32 + 1 * (j 1).val; omega
  have h1 : ((cfg5.win 1).blk t).view.emb (ix2 (0 : Fin 1) (j 1)) = ix2 (0 : Fin 1) (j 1) := by
    funext a; apply Fin.ext
    match a with
    | ⟨0, _⟩ => show win5_1.index t (0 : Fin 2) * 1 + 1 * 0 = 0; omega
    | ⟨1, _⟩ => show win5_1.index t (1 : Fin 2) * 32 + 1 * (j 1).val = (j 1).val; omega
  have h2 : ((cfg5.win 2).blk t).view.emb (ix2 (0 : Fin 1) (j 1)) = ix2 (0 : Fin 1) (j 1) := by
    funext a; apply Fin.ext
    match a with
    | ⟨0, _⟩ => show win5_2.index t (0 : Fin 2) * 1 + 1 * 0 = 0; omega
    | ⟨1, _⟩ => show win5_2.index t (1 : Fin 2) * 32 + 1 * (j 1).val = (j 1).val; omega
  have h3 : ((cfg5.win 3).blk t).view.emb (ix2 (0 : Fin 1) (j 1)) = ix2 (0 : Fin 1) (j 1) := by
    funext a; apply Fin.ext
    match a with
    | ⟨0, _⟩ => show win5_3.index t (0 : Fin 2) * 1 + 1 * 0 = 0; omega
    | ⟨1, _⟩ => show win5_3.index t (1 : Fin 2) * 32 + 1 * (j 1).val = (j 1).val; omega
  have h4 : ((cfg5.win 4).blk t).view.emb (ix2 (0 : Fin 1) (j 1)) = ix2 (0 : Fin 1) (j 1) := by
    funext a; apply Fin.ext
    match a with
    | ⟨0, _⟩ => show win5_4.index t (0 : Fin 2) * 1 + 1 * 0 = 0; omega
    | ⟨1, _⟩ => show win5_4.index t (1 : Fin 2) * 32 + 1 * (j 1).val = (j 1).val; omega
  have a0 : iblk5 V c 0 t j = V c main_v61 (((cfg5.win 5).blk t).view.emb j) := congrArg (V c main_v61) h0
  have a1 : iblk5 V c 1 t (ix2 (0 : Fin 1) (j 1)) = V c main_v66 (ix2 (0 : Fin 1) (j 1)) := congrArg (V c main_v66) h1
  have a2 : iblk5 V c 2 t (ix2 (0 : Fin 1) (j 1)) = V c main_v67 (ix2 (0 : Fin 1) (j 1)) := congrArg (V c main_v67) h2
  have a3 : iblk5 V c 3 t (ix2 (0 : Fin 1) (j 1)) = V c main_v68 (ix2 (0 : Fin 1) (j 1)) := congrArg (V c main_v68) h3
  have a4 : iblk5 V c 4 t (ix2 (0 : Fin 1) (j 1)) = V c main_v69 (ix2 (0 : Fin 1) (j 1)) := congrArg (V c main_v69) h4
  rw [a0, a1, a2, a3, a4]

/-- An entry of the array is in point `t`'s block iff each coordinate is in the block's range on its axis. -/
theorem mem_blk5 (t : Fin cfg5.N) (i : S200000x32.Idx) :
    i ∈ ((cfg5.win 5).blk t).view.set ↔ ∀ a : Fin 2, win5_5.index t a * S4000x32.size a ≤ (i a).val ∧ (i a).val < win5_5.index t a * S4000x32.size a + S4000x32.size a := by
  show i ∈ ((View.whole main_v70).slice (win5_5.rect t)).set ↔ _
  rw [View.set_slice_whole, Rect.mem_set_unit]
  exact Iff.rfl

/-- Row `r` of the array is written back by point `r / 4000`. -/
theorem cover5 (i : S200000x32.Idx) : ∃ t : Fin cfg5.N, (cfg5.win 5).flush t = true ∧ i ∈ ((cfg5.win 5).blk t).view.set := by
  have hi0 : (i 0).val < 200000 := (i 0).isLt
  have hi1 : (i 1).val < 32 := (i 1).isLt
  obtain ⟨t, ht⟩ : ∃ t : Fin cfg5.N, t.val = (i 0).val / 4000 := ⟨⟨(i 0).val / 4000, by rw [show cfg5.N = 50 from N_5]; omega⟩, rfl⟩
  obtain ⟨-, -, -, -, -, -, -, -, -, -, e10, e11⟩ := idx5 t
  refine ⟨t, flush5_5 t, ?_⟩
  rw [mem_blk5]
  intro a
  match a with
  | ⟨0, _⟩ => show win5_5.index t (0 : Fin 2) * 4000 ≤ (i 0).val ∧ (i 0).val < win5_5.index t (0 : Fin 2) * 4000 + 4000; omega
  | ⟨1, _⟩ => show win5_5.index t (1 : Fin 2) * 32 ≤ (i 1).val ∧ (i 1).val < win5_5.index t (1 : Fin 2) * 32 + 32; omega

/-- The output array after the region: the normalisation, scale, shift and clip of the node rows by the four statistics rows as the region finds them. -/
theorem reg5_out (c : Dev nD) :
    (dat5 (F := Ideal) V c).arrAt 5 cfg5.N
      = Cert.Stages.bnRows (F := Ideal) (V c main_v61) (V c main_v66) (V c main_v67) (V c main_v68) (V c main_v69) :=
  (dat5 (F := Ideal) V c).arrAt_eq_of_cover 5
    (Cert.Stages.bnRows (F := Ideal) (V c main_v61) (V c main_v66) (V c main_v67) (V c main_v68) (V c main_v69))
    (fun t _ => flushed5_eq V c t) cover5

/-- The same between the run's contents at the region's entry and at its exit. -/
theorem reg5_val (m : (ℓ : Loc nD τ sig) → Buf (Elt Ideal) ℓ) (ρ : Dev nD → PrngReg) (c : Dev nD) :
    W15 (F := Ideal) m ρ c (Proc.devRef .tc main_v70)
      = Cert.Stages.bnRows (F := Ideal) (W14 m ρ c (Proc.devRef .tc main_v61)) (W14 m ρ c (Proc.devRef .tc main_v66))
          (W14 m ρ c (Proc.devRef .tc main_v67)) (W14 m ρ c (Proc.devRef .tc main_v68)) (W14 m ρ c (Proc.devRef .tc main_v69)) :=
  (W15_arr (F := Ideal) m ρ c 5).trans (reg5_out (V14 m ρ) c)

end Cert.KernelIdeal.RegVal

end
-- ==== Proof.AsmLayer2.lean ====
/- Layer 2 of the kernel program, read off the boundary contents: the rows of X · W taken at the edges' sources, the
  messages (region 4), their sum into the targets with the node's own features and the bias, the column statistics,
  and the normalised, clipped features (region 5): the reference's layer of X · W.
-/
import proofs.«417560_j33346126086480_1_alg».proof.Proof.AsmHead2
import proofs.«417560_j33346126086480_1_alg».proof.Proof.KHost23
import proofs.«417560_j33346126086480_1_alg».proof.Proof.RegScale4
import proofs.«417560_j33346126086480_1_alg».proof.Proof.RegBn5

set_option maxRecDepth 16384

noncomputable section

namespace Cert.KernelIdeal.KVal

open Cert.KernelIdeal Cert.KernelIdeal.Gen Cert.KernelIdeal.Keeps Idealize.ShloMosaic Idealize.ShloMosaic.TcCoe
open Cert.Stages Cert.KStages Cert.Bridges Cert.KernelIdeal.RegVal Cert.KernelIdeal.HostVal Cert.KernelIdeal.HostVal23

variable (m : (ℓ : Loc nD τ sig) → Buf (Elt Ideal) ℓ) (ρ : Dev nD → PrngReg) (c : Dev nD)

/-! ## Layer 2 -/

/-- Layer 2's convolution as the kernel program spells it. -/
def conv2 : FVec Ideal Cert.ReferenceIdeal.S200000x32 .f32 := (convOf (h2 m c) (msgOf (takeFill (h2 m c) (srcOf (m ((c : Thread nD τ).loc main_arg1)))) (kColE (coef (F := Ideal) (srcOf (m ((c : Thread nD τ).loc main_arg1))) (dstOf (m ((c : Thread nD τ).loc main_arg1)))))) (idxCol (dstOf (m ((c : Thread nD τ).loc main_arg1)))) (kColN (nsq (F := Ideal) (dstOf (m ((c : Thread nD τ).loc main_arg1))))) (kRow (m ((c : Thread nD τ).loc main_arg8))))

/-- The stretch after the matrix product takes its rows at the edges' sources. -/
theorem w10_v51 (hr : SrcInRange (srcOf (m ((c : Thread nD τ).loc main_arg1)))) : W10 m ρ c (Proc.devRef .tc main_v51) = takeFill (h2 m c) (srcOf (m ((c : Thread nD τ).loc main_arg1))) := by
  have e : W10 m ρ c (Proc.devRef .tc main_v51) = takeFill (F := Ideal) (W9 m ρ c (Proc.devRef .tc main_v50)) (W9 m ρ c (Proc.devRef .tc main_v1)) := h4_v51 (W9 m ρ c)
  rw [e, w9_v50 m ρ c hr, edge9 m ρ c main_v1 (by decide), w1_v1 m ρ c]

/-- The scale region multiplies each taken row by its edge's weight. -/
theorem w11_v52 (hr : SrcInRange (srcOf (m ((c : Thread nD τ).loc main_arg1)))) : W11 m ρ c (Proc.devRef .tc main_v52) = msgOf (takeFill (h2 m c) (srcOf (m ((c : Thread nD τ).loc main_arg1)))) (kColE (coef (F := Ideal) (srcOf (m ((c : Thread nD τ).loc main_arg1))) (dstOf (m ((c : Thread nD τ).loc main_arg1))))) := by
  rw [reg4_val m ρ c, w10_v51 m ρ c hr, v26_10 m ρ c]

/-- The next stretch sums the messages into their targets and adds the node's own features and the bias. -/
theorem w12_v61 (hr : SrcInRange (srcOf (m ((c : Thread nD τ).loc main_arg1)))) : W12 m ρ c (Proc.devRef .tc main_v61) = conv2 m c := by
  have e : W12 m ρ c (Proc.devRef .tc main_v61) = convOf (F := Ideal) (W11 m ρ c (Proc.devRef .tc main_v50)) (W11 m ρ c (Proc.devRef .tc main_v52)) (idxCol (W11 m ρ c (Proc.devRef .tc main_v3))) (W11 m ρ c (Proc.devRef .tc main_v28)) (kRow (W11 m ρ c (Proc.devRef .tc main_arg8))) := h5_v61 (W11 m ρ c)
  rw [e, ((step11 m ρ c main_v50 (by decide)).trans (step10 m ρ c main_v50 (by decide))), w9_v50 m ρ c hr, w11_v52 m ρ c hr, edge11 m ρ c main_v3 (by decide), w1_v3 m ρ c,
    edge11 m ρ c main_v28 (by decide), w1_v28 m ρ c, args11 m ρ c main_arg8 (by decide)]
  rfl

/-- The same stretch leaves the column means of the convolution. -/
theorem w12_v64 (hr : SrcInRange (srcOf (m ((c : Thread nD τ).loc main_arg1)))) : W12 m ρ c (Proc.devRef .tc main_v64) = meanOf (conv2 m c) := by
  have e : W12 m ρ c (Proc.devRef .tc main_v64) = meanOf (F := Ideal) (W12 m ρ c (Proc.devRef .tc main_v61)) := h5_v64 (W11 m ρ c)
  rw [e, w12_v61 m ρ c hr]

/-- The variance call leaves the column variances of the convolution. -/
theorem w13_v65 (hr : SrcInRange (srcOf (m ((c : Thread nD τ).loc main_arg1)))) : W13 m ρ c (Proc.devRef .tc main_v65) = varOf (conv2 m c) := by
  have e : W13 m ρ c (Proc.devRef .tc main_v65) = varOf (F := Ideal) (W12 m ρ c (Proc.devRef .tc main_v61)) := h51_v65 (W12 m ρ c) (h5_c12 (W11 m ρ c))
  rw [e, w12_v61 m ρ c hr]

/-- The normalisation region, fed the statistics and the scale and shift as rows, leaves the layer's output. -/
theorem w15_v70 (hr : SrcInRange (srcOf (m ((c : Thread nD τ).loc main_arg1)))) : W15 m ρ c (Proc.devRef .tc main_v70) = x3 m c := by
  have e45 : W14 m ρ c (Proc.devRef .tc main_v66) = kRow (F := Ideal) (W13 m ρ c (Proc.devRef .tc main_v64)) := h52_v66 (W13 m ρ c)
  have e46 : W14 m ρ c (Proc.devRef .tc main_v67) = kRow (F := Ideal) (W13 m ρ c (Proc.devRef .tc main_v65)) := h52_v67 (W13 m ρ c)
  have e47 : W14 m ρ c (Proc.devRef .tc main_v68) = kRow (F := Ideal) (W13 m ρ c (Proc.devRef .tc main_arg9)) := h52_v68 (W13 m ρ c)
  have e48 : W14 m ρ c (Proc.devRef .tc main_v69) = kRow (F := Ideal) (W13 m ρ c (Proc.devRef .tc main_arg10)) := h52_v69 (W13 m ρ c)
  rw [reg5_val m ρ c, ((step14 m ρ c main_v61 (by decide)).trans (step13 m ρ c main_v61 (by decide))), w12_v61 m ρ c hr,
    e45, step13 m ρ c main_v64 (by decide), w12_v64 m ρ c hr,
    e46, w13_v65 m ρ c hr,
    e47, args13 m ρ c main_arg9 (by decide),
    e48, args13 m ρ c main_arg10 (by decide)]
  exact layer_eq _ _ _ _ _ _ hr

end Cert.KernelIdeal.KVal

end
-- ==== Proof.RegMatmul6.lean ====
/-
  A later layer's linear map X · W, as the tiled product kernel computes it.

  The kernel walks the N = 200000 rows of X in 50 blocks of 4000 rows. At each block it multiplies the 4000 × 32 block
  of X by the whole 32 × 32 matrix W and writes the 4000 × 32 product back as the same block of rows of the result.
  At the ideal values the casts to the narrow type are the identity and the product into a zero accumulator is the
  plain sum over the contracted coordinate, so entry (r, q) of the result is  Σ_c X(r, c) · W(c, q),  which is what the
  host's dot_general is at that entry: the result array is the whole-array product.
-/
import proofs.«417560_j33346126086480_1_alg».proof.Proof.Gen.KernelIdeal.Frame
import proofs.«417560_j33346126086480_1_alg».proof.Proof.Stages
import proofs.«417560_j33346126086480_1_alg».proof.Proof.LibMatmul
import Idealize.ShloMosaic.Lib.Pipeline.Value
import Idealize.ShloMosaic.Lib.ValueIdx
import Idealize.ShloMosaic.Lib.StackMember
import Idealize.ShloMosaic.PureOps.Ideal.Laws

set_option maxRecDepth 16384

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

namespace Matmul

/-! ## The product of a block, entry by entry -/

/-- The kernel's dimension numbers are the plain ones: rows × contraction times contraction × columns. -/
theorem dims_r6 : dot_S4000x32_S32x32_S4000x32_1_0_0_1_n_n = DotDims.plain 4000 32 32 := rfl

/-- The reference's too, over all the rows. -/
theorem dimsRef_r6 : Cert.ReferenceIdeal.dot_S200000x32_S32x32_S200000x32_1_0_0_1_n_n = DotDims.plain 200000 32 32 := rfl

/-- The kernel's payload at an entry of the block: row p of the X block against column q of W. -/
theorem pay_r6 (x0 : Vec Ideal S4000x32 .f32) (x1 : Vec Ideal S32x32 .f32) (p : Fin 4000) (q : Fin 32) :
    k6_pay1 x0 x1 (ix2 p q) = ∑ c : Fin 32, x0 (ix2 p c) * x1 (ix2 c q) := by
  unfold k6_pay1
  rw [dims_r6]
  simp only [shapeCast_self]
  exact matmul_plain_zero_apply none _ _ p q

/-- The whole-array product at an entry. -/
theorem lin_r6 (x : FVec Ideal S200000x32 .f32) (w : FVec Ideal S32x32 .f32) (r : Fin 200000) (q : Fin 32) :
    Cert.Stages.lin32 (F := Ideal) x w (ix2 r q) = ∑ c : Fin 32, x (ix2 r c) * w (ix2 c q) := by
  unfold Cert.Stages.lin32
  rw [dimsRef_r6]
  exact StackMember.dotGeneral_plain_apply none x w r q

/-- Entry (p, q) of the product of a block of rows of X, the block starting at row 4000 b, by W is entry
    (4000 b + p, q) of the whole product: the same sum over the contracted coordinate. -/
theorem block_entry_r6 (x : FVec Ideal S200000x32 .f32) (w : FVec Ideal S32x32 .f32)
    (x0 : Vec Ideal S4000x32 .f32) (x1 : Vec Ideal S32x32 .f32) (b : Nat)
    (hx0 : ∀ (y : S4000x32.Idx) (k : S200000x32.Idx), (k 0).val = b * 4000 + (y 0).val → (k 1).val = (y 1).val → x0 y = x k)
    (hx1 : x1 = w) (j : S4000x32.Idx) (i : S200000x32.Idx)
    (hi0 : (i 0).val = b * 4000 + (j 0).val) (hi1 : (i 1).val = (j 1).val) :
    k6_pay1 x0 x1 j = Cert.Stages.lin32 (F := Ideal) x w i := by
  obtain ⟨p, q, rfl⟩ : ∃ (p : Fin 4000) (q : Fin 32), j = ix2 p q := ⟨j 0, j 1, eq_ix2 j⟩
  obtain ⟨r, q', rfl⟩ : ∃ (r : Fin 200000) (q' : Fin 32), i = ix2 r q' := ⟨i 0, i 1, eq_ix2 i⟩
  have hq : q' = q := Fin.ext hi1
  subst hq
  rw [pay_r6, lin_r6, hx1]
  refine Finset.sum_congr rfl fun c _ => ?_
  rw [hx0 (ix2 p c) (ix2 r c) hi0 rfl]

/-! ## From the blocks to the array -/

variable (V : (c : Dev nD) → (b : Ref sig .tc) → Buf (Elt Ideal) ((c : Thread nD τ).loc b))

/-- The grid has 50 points. -/
theorem points_r6 : cfg6.N = 50 := by decide +kernel

/-- The printed index maps, decided over the grid: at point t the X window and the result window sit at block row t,
    the W window at its one block. -/
theorem idx_facts_r6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- The X window's block at point t is rows 4000 t … 4000 t + 3999 of X. -/
theorem xblk_r6 (c : Dev nD) (t : Fin cfg6.N) (y : S4000x32.Idx) (k : S200000x32.Idx)
    (hk0 : (k 0).val = t.val * 4000 + (y 0).val) (hk1 : (k 1).val = (y 1).val) :
    (iblk6 V c 0 t : Vec Ideal S4000x32 .f32) y = (V c main_v70 : S200000x32.Idx → Elt Ideal .f32) k := by
  obtain ⟨e0, e1, -, -, -, -⟩ := idx_facts_r6 t
  unfold iblk6
  rw [View.read_apply]
  show V c main_v70 _ = V c main_v70 _
  congr 1
  funext a
  apply Fin.ext
  match a with
  | ⟨0, _⟩ => show win6_0.index t 0 * 4000 + 1 * (y 0).val = (k 0).val; rw [e0, hk0]; omega
  | ⟨1, _⟩ => show win6_0.index t 1 * 32 + 1 * (y 1).val = (k 1).val; rw [e1, hk1]; omega

/-- The W window's block at every point is the whole of W. -/
theorem wblk_r6 (c : Dev nD) (t : Fin cfg6.N) :
    (iblk6 V c 1 t : Vec Ideal S32x32 .f32) = (V c main_arg11 : S32x32.Idx → Elt Ideal .f32) := by
  obtain ⟨-, -, e2, e3, -, -⟩ := idx_facts_r6 t
  funext y
  unfold iblk6
  rw [View.read_apply]
  show V c main_arg11 _ = V c main_arg11 _
  congr 1
  funext a
  apply Fin.ext
  match a with
  | ⟨0, _⟩ => show win6_1.index t 0 * 32 + 1 * (y 0).val = (y 0).val; rw [e2]; omega
  | ⟨1, _⟩ => show win6_1.index t 1 * 32 + 1 * (y 1).val = (y 1).val; rw [e3]; omega

/-- What point t writes back is block t of the whole-array product of the arrays the region finds. -/
theorem flushed_r6 (c : Dev nD) (t : Fin cfg6.N) :
    (dat6 V c).flushed 2 t = ((cfg6.win 2).blk t).view.read (Elt Ideal)
      (Cert.Stages.lin32 (F := Ideal) (V c main_v70) (V c main_arg11)) := by
  show (cfg6.win 2).cut (grid6.coords t) ((dat6 V c).after 2 t) = _
  rw [after6_2]
  unfold out6_2
  rw [View.canon_unit_zero zero_offsets]
  simp only [View.ld_unit_zero (S := S4000x32) zero_offsets, View.ld_unit_zero (S := S32x32) zero_offsets]
  obtain ⟨-, -, -, -, e4, e5⟩ := idx_facts_r6 t
  funext j
  show k6_pay1 (iblk6 V c 0 t) (iblk6 V c 1 t) j
    = Cert.Stages.lin32 (F := Ideal) (V c main_v70) (V c main_arg11) (((cfg6.win 2).blk t).view.emb j)
  refine block_entry_r6 _ _ _ _ t.val (fun y k h0 h1 => xblk_r6 V c t y k h0 h1) (wblk_r6 V c t) j _ ?_ ?_
  · show win6_2.index t 0 * 4000 + 1 * (j 0).val = t.val * 4000 + (j 0).val; rw [e4]; omega
  · show win6_2.index t 1 * 32 + 1 * (j 1).val = (j 1).val; rw [e5]; omega

/-- An index of the result is in point t's block iff each coordinate is in the block's range on its axis. -/
theorem mem_blk_r6 (t : Fin cfg6.N) (i : S200000x32.Idx) :
    i ∈ ((cfg6.win 2).blk t).view.set ↔ ∀ a : Fin 2, win6_2.index t a * S4000x32.size a ≤ (i a).val
      ∧ (i a).val < win6_2.index t a * S4000x32.size a + S4000x32.size a := by
  show i ∈ ((View.whole main_v71).slice (win6_2.rect t)).set ↔ _
  rw [View.set_slice_whole, Rect.mem_set_unit]
  exact Iff.rfl

/-- Every row r of the result is in the block of point r / 4000. -/
theorem cover_r6 (i : S200000x32.Idx) :
    ∃ t : Fin cfg6.N, (cfg6.win 2).flush t = true ∧ i ∈ ((cfg6.win 2).blk t).view.set := by
  have hi0 : (i 0).val < 200000 := (i 0).isLt
  have hi1 : (i 1).val < 32 := (i 1).isLt
  have ht : (i 0).val / 4000 < cfg6.N := by rw [points_r6]; omega
  obtain ⟨-, -, -, -, e4, e5⟩ := idx_facts_r6 ⟨(i 0).val / 4000, ht⟩
  refine ⟨⟨(i 0).val / 4000, ht⟩, flush6_2 _, ?_⟩
  rw [mem_blk_r6]
  intro a
  match a with
  | ⟨0, _⟩ =>
    show win6_2.index ⟨(i 0).val / 4000, ht⟩ 0 * 4000 ≤ (i 0).val ∧ (i 0).val < win6_2.index ⟨(i 0).val / 4000, ht⟩ 0 * 4000 + 4000
    rw [e4]; dsimp only; omega
  | ⟨1, _⟩ =>
    show win6_2.index ⟨(i 0).val / 4000, ht⟩ 1 * 32 ≤ (i 1).val ∧ (i 1).val < win6_2.index ⟨(i 0).val / 4000, ht⟩ 1 * 32 + 32
    rw [e5]; omega

end Matmul

open Matmul

variable (V : (c : Dev nD) → (b : Ref sig .tc) → Buf (Elt Ideal) ((c : Thread nD τ).loc b))

/-- THE RESULT ARRAY after the region: the whole-array product X · W of the arrays at entry. -/
theorem reg6_out (c : Dev nD) :
    (dat6 V c).arrAt 2 cfg6.N = Cert.Stages.lin32 (F := Ideal) (V c main_v70) (V c main_arg11) :=
  (dat6 V c).arrAt_eq_of_cover 2 _ (fun t _ => flushed_r6 V c t) cover_r6

/-! ## At the run's boundary contents -/

variable (m : (ℓ : Loc nD τ sig) → Buf (Elt Ideal) ℓ) (ρ : Dev nD → PrngReg)

/-- The result buffer at the region's exit is the product of the two operand buffers at its entry. -/
theorem reg6_val (c : Dev nD) :
    W16 (F := Ideal) m ρ c (Proc.devRef .tc main_v71)
      = Cert.Stages.lin32 (F := Ideal) (W15 m ρ c (Proc.devRef .tc main_v70)) (W15 m ρ c (Proc.devRef .tc main_arg11)) :=
  (W16_arr m ρ c 2).trans (reg6_out (V15 m ρ) c)

end Cert.KernelIdeal.RegVal

end
-- ==== Proof.AsmHead3.lean ====
/-
  Region 6 multiplies the second layer's output by the third layer's weights.
-/
import proofs.«417560_j33346126086480_1_alg».proof.Proof.AsmLayer2
import proofs.«417560_j33346126086480_1_alg».proof.Proof.RegMatmul6

set_option maxRecDepth 16384

noncomputable section

namespace Cert.KernelIdeal.KVal

open Cert.KernelIdeal Cert.KernelIdeal.Gen Cert.KernelIdeal.Keeps Idealize.ShloMosaic Idealize.ShloMosaic.TcCoe
open Cert.Stages Cert.KStages Cert.Bridges Cert.KernelIdeal.RegVal Cert.KernelIdeal.HostVal

variable (m : (ℓ : Loc nD τ sig) → Buf (Elt Ideal) ℓ) (ρ : Dev nD → PrngReg) (c : Dev nD)

/-- Region 6 leaves the third layer's X · W. -/
theorem w16_v71 (hr : SrcInRange (srcOf (m ((c : Thread nD τ).loc main_arg1)))) : W16 m ρ c (Proc.devRef .tc main_v71) = h3 m c := by
  rw [reg6_val m ρ c, w15_v70 m ρ c hr, args15 m ρ c main_arg11 (by decide)]
  rfl

end Cert.KernelIdeal.KVal

end
-- ==== Proof.KHost3.lean ====
/-
  The kernel program's host stretches of the third layer and of the output layer, read as values: what each
  straight line of host operations leaves in the buffers later stages read, as the stage functions applied to what
  the buffers held when the line began.  Every statement is over an arbitrary valuation of the buffers.

  The lines are: the rows of the layer's linear map taken at the edges' sources (with the fill value where a wrapped
  index is out of range); the convolution assembled from the scattered messages, the node's own features and the bias,
  followed by its column means; the column variances; the four per-feature vectors reshaped to rows; and the output
  bias reshaped to a 1 × 1 block.
-/
import proofs.«417560_j33346126086480_1_alg».proof.Proof.Gen.KernelIdeal.Launch
import proofs.«417560_j33346126086480_1_alg».proof.Proof.KStages
import Idealize.ShloMosaic.Lib.StableHlo.Run

set_option maxRecDepth 16384

noncomputable section

namespace Cert.KernelIdeal.HostVal23

open Cert.KernelIdeal Cert.KernelIdeal.Gen Idealize.ShloMosaic Idealize.ShloMosaic.StableHlo

variable {F : FTy → Type} [FloatOps F]

/-- A TensorCore reference as the device buffer it names. -/
local notation "d" => Proc.devRef (τ := τ) (sig := sig) Proc.tc

/-- Contents moved to a typed reference's buffer type and back are the contents. -/
private theorem ofBuf_toBuf_l3 {sg : RefSig} {Val : EltTy → Type} {T : BufTy} (x : TRef sg T) (v : T.Contents Val) :
    x.ofBuf (x.toBuf v) = v := by
  obtain ⟨r, h, h2, h3⟩ := x
  subst h
  rfl

variable (V : Valuation τ sig (Elt F))

/-! ## The output bias as a 1 × 1 block -/

theorem h9_v92 : after hostOps9 V (d main_v92) = Cert.KStages.kOne (V (d main_arg16)) := by
  after_results
  rfl

/-! ## The per-feature vectors as rows -/

theorem h82_v87 : after hostOps8_2 V (d main_v87) = Cert.KStages.kRow (V (d main_v85)) := by
  after_results
  rfl

theorem h82_v88 : after hostOps8_2 V (d main_v88) = Cert.KStages.kRow (V (d main_v86)) := by
  after_results
  rfl

theorem h82_v89 : after hostOps8_2 V (d main_v89) = Cert.KStages.kRow (V (d main_arg13)) := by
  after_results
  rfl

theorem h82_v90 : after hostOps8_2 V (d main_v90) = Cert.KStages.kRow (V (d main_arg14)) := by
  after_results
  rfl

/-! ## The convolution assembled, and its column means -/

set_option maxHeartbeats 1000000 in
theorem h8_v82 : after hostOps8 V (d main_v82)
    = Cert.Stages.convOf (V (d main_v71)) (V (d main_v73)) (Cert.Stages.idxCol (V (d main_v3))) (V (d main_v28))
        (Cert.KStages.kRow (V (d main_arg12))) := by
  after_results_simp
  unfold Cert.Stages.convOf Cert.Stages.idxCol Cert.Stages.bcColsN Cert.Stages.bcRows Cert.KStages.kRow
  rfl

set_option maxHeartbeats 1000000 in
theorem h8_v85 : after hostOps8 V (d main_v85) = Cert.Stages.meanOf (after hostOps8 V (d main_v82)) := by
  after_results_simp
  unfold Cert.Stages.meanOf Cert.Stages.colSum
  rfl

theorem h8_c16 : after hostOps8 V (d main_c_16) = constantI S_ 32 0#32 := by
  after_results_simp

/-! ## The rows of the linear map at the edges' sources -/

set_option maxHeartbeats 2000000 in
private theorem h7_v72_typed :
    (TRef.of main_v72 : TRef sig ⟨S2500000x32, .f32⟩).ofBuf (after hostOps7 V (d main_v72))
      = Cert.KStages.takeFill ((TRef.of main_v71 : TRef sig ⟨S200000x32, .f32⟩).ofBuf (V (d main_v71)))
          ((TRef.of main_v1 : TRef sig ⟨S2500000, .i32⟩).ofBuf (V (d main_v1))) := by
  after_results_simp
  simp only [ofBuf_toBuf_l3]
  unfold Cert.KStages.takeFill Cert.KStages.inBounds Cert.Stages.gatherRows Cert.Stages.idxCol Cert.Stages.wrap
  rfl

/-- The rows of the layer's linear map at the sources, the fill value where a wrapped index is out of range. -/
theorem h7_v72 : after hostOps7 V (d main_v72) = Cert.KStages.takeFill (V (d main_v71)) (V (d main_v1)) := by
  have h := h7_v72_typed V
  generalize after hostOps7 V (d main_v72) = a at h ⊢
  exact h

/-! ## The column variances -/

set_option maxHeartbeats 2000000 in
private theorem h81_v86_typed
    (hc : (TRef.of main_c_16 : TRef sig ⟨S_, .i32⟩).ofBuf (V (d main_c_16)) = constantI S_ 32 0#32) :
    (TRef.of main_v86 : TRef sig ⟨S32, .f32⟩).ofBuf (after hostOps8_1 V (d main_v86))
      = Cert.Stages.varOf ((TRef.of main_v82 : TRef sig ⟨S200000x32, .f32⟩).ofBuf (V (d main_v82))) := by
  after_results_simp
  simp only [ofBuf_toBuf_l3, hc]
  unfold Cert.Stages.varOf Cert.Stages.varDen Cert.Stages.colSum Cert.Stages.bcRows Cert.Stages.rowOf
  rfl

/-- The column variances of the convolution, given that the divisor's offset is the constant 0. -/
theorem h81_v86 (hc : V (d main_c_16) = constantI S_ 32 0#32) :
    after hostOps8_1 V (d main_v86) = Cert.Stages.varOf (V (d main_v82)) := by
  have h := h81_v86_typed V (by rw [hc]; rfl)
  generalize after hostOps8_1 V (d main_v86) = a at h ⊢
  exact h

end Cert.KernelIdeal.HostVal23

end
-- ==== Proof.RegScale7.lean ====
/-
  The scaling of the gathered rows by the edge weights, third layer: the region multiplies each of the E = 2500000 gathered
  rows (32 features) by its edge's weight, 5000 rows at a point over 500 points. Each point's block of the product is
  the block of ONE whole-array function of the two input arrays, the messages `msg = g · coef` with the weight column
  repeated over the features; the 500 blocks tile the rows, so after the region the output array is that function.
-/
import proofs.«417560_j33346126086480_1_alg».proof.Proof.Gen.KernelIdeal.Frame
import proofs.«417560_j33346126086480_1_alg».proof.Proof.Stages
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.RegVal

open Cert.KernelIdeal Cert.KernelIdeal.Gen

/-- The zero offsets of a block's one load and one store. -/
theorem hz7 : (![0, 0] : Fin 2 → Nat) = fun _ => 0 := funext fun a => by fin_cases a <;> rfl

/-- The three index maps send point `t` to block row `t`, block column 0. -/
theorem idx7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0 :=
  (by decide +kernel : ∀ t : Fin grid7.N, _)

/-- The body's product read at an entry: the gathered entry times its row's weight. -/
theorem pay7_apply (x0 : Vec Ideal S5000x32 .f32) (x1 : Vec Ideal S5000x1 .f32) (j : S5000x32.Idx) (k : S5000x1.Idx)
    (hk0 : (k 0).val = (j 0).val) (hk1 : (k 1).val = 0) :
    k7_pay1 x0 x1 j = x0 j * x1 k := by
  unfold k7_pay1
  rw [mulf_apply, shapeCast_self, shapeCast_self]
  congr 1
  refine broadcastTo_apply _ _ j k fun a => ?_
  match a with
  | ⟨0, _⟩ => exact hk0
  | ⟨1, _⟩ => exact hk1

/-- The messages read at an entry: the gathered entry times its edge's weight. -/
theorem msgOf_apply7 (g : FVec Ideal S2500000x32 .f32) (w : FVec Ideal S2500000x1 .f32) (i : S2500000x32.Idx) (k : S2500000x1.Idx)
    (hk0 : (k 0).val = (i 0).val) (hk1 : (k 1).val = 0) :
    Cert.Stages.msgOf (F := Ideal) g w i = g i * w k := by
  unfold Cert.Stages.msgOf Cert.Stages.bcColsE
  rw [mulf_apply]
  congr 1
  refine broadcastInDim_apply _ _ _ i k fun a => ?_
  match a with
  | ⟨0, _⟩ => exact hk0
  | ⟨1, _⟩ => exact hk1

variable (V : (c : Dev nD) → (b : Ref sig .tc) → Buf (Elt Ideal) ((c : Thread nD τ).loc b))

/-- What point `t` writes back is block `t` of the messages of the two arrays as the region finds them. -/
theorem flushed7_eq (c : Dev nD) (t : Fin cfg7.N) :
    (dat7 (F := Ideal) V c).flushed 2 t = ((cfg7.win 2).blk t).view.read (Elt Ideal) (Cert.Stages.msgOf (F := Ideal) (V c main_v72) (V c main_v26)) := by
  show (cfg7.win 2).cut (grid7.coords t) ((dat7 V c).after 2 t) = _
  rw [after7_2]
  unfold out7_2
  rw [View.canon_unit_zero hz7]
  simp only [View.ld_unit_zero (S := S5000x32) hz7, View.ld_unit_zero (S := S5000x1) hz7]
  obtain ⟨e0, e1, e2, e3, e4, e5⟩ := idx7 t
  funext j
  show k7_pay1 (iblk7 V c 0 t : Vec Ideal S5000x32 .f32) (iblk7 V c 1 t : Vec Ideal S5000x1 .f32) j = Cert.Stages.msgOf (F := Ideal) (V c main_v72) (V c main_v26) (((cfg7.win 2).blk t).view.emb j)
  rw [pay7_apply (iblk7 V c 0 t : Vec Ideal S5000x32 .f32) (iblk7 V c 1 t : Vec Ideal S5000x1 .f32) j (ix2 (j 0) (0 : Fin 1)) rfl rfl]
  rw [msgOf_apply7 (V c main_v72) (V c main_v26) (((cfg7.win 2).blk t).view.emb j) (((cfg7.win 1).blk t).view.emb (ix2 (j 0) (0 : Fin 1)))
    (by show win7_1.index t (0 : Fin 2) * 5000 + 1 * (j 0).val = win7_2.index t (0 : Fin 2) * 5000 + 1 * (j 0).val; omega)
    (by show win7_1.index t (1 : Fin 2) * 1 + 1 * 0 = 0; omega)]
  have h0 : ((cfg7.win 0).blk t).view.emb j = ((cfg7.win 2).blk t).view.emb j := by
    funext a; apply Fin.ext
    match a with
    | ⟨0, _⟩ => show win7_0.index t (0 : Fin 2) * 5000 + 1 * (j 0).val = win7_2.index t (0 : Fin 2) * 5000 + 1 * (j 0).val; omega
    | ⟨1, _⟩ => show win7_0.index t (1 : Fin 2) * 32 + 1 * (j 1).val = win7_2.index t (1 : Fin 2) * 32 + 1 * (j 1).val; omega
  exact congrArg₂ (fun (a b : Ideal .f32) => a * b) (congrArg (V c main_v72) h0) rfl

/-- An entry of the array is in point `t`'s block iff each coordinate is in the block's range on its axis. -/
theorem mem_blk7 (t : Fin cfg7.N) (i : S2500000x32.Idx) :
    i ∈ ((cfg7.win 2).blk t).view.set ↔ ∀ a : Fin 2, win7_2.index t a * S5000x32.size a ≤ (i a).val ∧ (i a).val < win7_2.index t a * S5000x32.size a + S5000x32.size a := by
  show i ∈ ((View.whole main_v73).slice (win7_2.rect t)).set ↔ _
  rw [View.set_slice_whole, Rect.mem_set_unit]
  exact Iff.rfl

/-- Row `r` of the array is written back by point `r / 5000`. -/
theorem cover7 (i : S2500000x32.Idx) : ∃ t : Fin cfg7.N, (cfg7.win 2).flush t = true ∧ i ∈ ((cfg7.win 2).blk t).view.set := by
  have hi0 : (i 0).val < 2500000 := (i 0).isLt
  have hi1 : (i 1).val < 32 := (i 1).isLt
  obtain ⟨t, ht⟩ : ∃ t : Fin cfg7.N, t.val = (i 0).val / 5000 := ⟨⟨(i 0).val / 5000, by rw [show cfg7.N = 500 from N_7]; omega⟩, rfl⟩
  obtain ⟨-, -, -, -, e4, e5⟩ := idx7 t
  refine ⟨t, flush7_2 t, ?_⟩
  rw [mem_blk7]
  intro a
  match a with
  | ⟨0, _⟩ => show win7_2.index t (0 : Fin 2) * 5000 ≤ (i 0).val ∧ (i 0).val < win7_2.index t (0 : Fin 2) * 5000 + 5000; omega
  | ⟨1, _⟩ => show win7_2.index t (1 : Fin 2) * 32 ≤ (i 1).val ∧ (i 1).val < win7_2.index t (1 : Fin 2) * 32 + 32; omega

/-- The output array after the region: the messages of the gathered rows and the edge weights as the region finds them. -/
theorem reg7_out (c : Dev nD) :
    (dat7 (F := Ideal) V c).arrAt 2 cfg7.N = Cert.Stages.msgOf (F := Ideal) (V c main_v72) (V c main_v26) :=
  (dat7 (F := Ideal) V c).arrAt_eq_of_cover 2 (Cert.Stages.msgOf (F := Ideal) (V c main_v72) (V c main_v26))
    (fun t _ => flushed7_eq V c t) cover7

/-- The same between the run's contents at the region's entry and at its exit. -/
theorem reg7_val (m : (ℓ : Loc nD τ sig) → Buf (Elt Ideal) ℓ) (ρ : Dev nD → PrngReg) (c : Dev nD) :
    W18 (F := Ideal) m ρ c (Proc.devRef .tc main_v73)
      = Cert.Stages.msgOf (F := Ideal) (W17 m ρ c (Proc.devRef .tc main_v72)) (W17 m ρ c (Proc.devRef .tc main_v26)) :=
  (W18_arr (F := Ideal) m ρ c 2).trans (reg7_out (V17 m ρ) c)

end Cert.KernelIdeal.RegVal

end
-- ==== Proof.RegBn8.lean ====
/-
  Batch normalisation with the clip at zero, third layer: the region takes the N = 200000 node rows (32 features), 4000
  rows at a point over 50 points, and the four statistics rows (mean, variance, scale, shift; 1 × 32 each, the same block
  at every point), and writes max(0, g · (a − mean) · (var + ε)^(-1/2) + be). Each point's block of the result is the
  block of ONE whole-array function of the five input arrays, the normalisation with the rows repeated over the nodes;
  the 50 blocks tile the rows, so after the region the output array is that function. The products are grouped on both
  sides as (g · (a − mean)) · (var + ε)^(-1/2), so the two expressions agree entry by entry with no law of arithmetic.
-/
import proofs.«417560_j33346126086480_1_alg».proof.Proof.Gen.KernelIdeal.Frame
import proofs.«417560_j33346126086480_1_alg».proof.Proof.Stages
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.RegVal

open Cert.KernelIdeal Cert.KernelIdeal.Gen

/-- The zero offsets of a block's loads and one store. -/
theorem hz8 : (![0, 0] : Fin 2 → Nat) = fun _ => 0 := funext fun a => by fin_cases a <;> rfl

/-- The index maps: the node rows and the output move with the point, block row `t`; the four statistics rows stay at block (0, 0). -/
theorem idx8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

/-- A 1 × 32 row repeated over a block's 4000 rows, read at an entry: the row's entry in that column. -/
theorem rowBlk8_apply (v : FVec Ideal S1x32 .f32) (j : S4000x32.Idx) (k : S1x32.Idx)
    (hk0 : (k 0).val = 0) (hk1 : (k 1).val = (j 1).val) :
    broadcastTo S4000x32 v broadcasts_S1x32_S4000x32 j = v k := by
  refine broadcastTo_apply _ _ j k fun a => ?_
  match a with
  | ⟨0, _⟩ => exact hk0
  | ⟨1, _⟩ => exact hk1

/-- A 1 × 32 row repeated over the N nodes, read at an entry: the row's entry in that column. -/
theorem bcRows8_apply (v : FVec Ideal S1x32 .f32) (i : S200000x32.Idx) (k : S1x32.Idx)
    (hk0 : (k 0).val = 0) (hk1 : (k 1).val = (i 1).val) :
    Cert.Stages.bcRows (F := Ideal) v i = v k := by
  unfold Cert.Stages.bcRows
  refine broadcastInDim_apply _ _ _ i k fun a => ?_
  match a with
  | ⟨0, _⟩ => exact hk0
  | ⟨1, _⟩ => exact hk1

/-- The body's normalisation read at an entry: max(0, g · (a − mean) · (var + ε)^(-1/2) + be) with the statistics' entries in the entry's column. -/
theorem pay8_apply (x0 : Vec Ideal S4000x32 .f32) (x1 x2 x3 x4 : Vec Ideal S1x32 .f32) (j : S4000x32.Idx) (k : S1x32.Idx)
    (hk0 : (k 0).val = 0) (hk1 : (k 1).val = (j 1).val) :
    k8_pay1 x0 x1 x2 x3 x4 j
      = max (x3 k * (x0 j - x1 k) * Ideal.rsqrt (x2 k + Ideal.ofBits .f32 0x3727C5AC#32) + x4 k) (Ideal.ofBits .f32 0x00000000#32) := by
  unfold k8_pay1
  simp only [shapeCast_self]
  rw [maximumf_apply, addf_apply, mulf_apply, mulf_apply, subf_apply,
    rowBlk8_apply x3 j k hk0 hk1, rowBlk8_apply x1 j k hk0 hk1, rowBlk8_apply x4 j k hk0 hk1, rowBlk8_apply _ j k hk0 hk1]
  rfl

/-- The whole-array normalisation read at an entry: the same expression of the arrays' entries. -/
theorem bnRows8_apply (a : FVec Ideal S200000x32 .f32) (mean2 var2 g2 be2 : FVec Ideal S1x32 .f32) (i : S200000x32.Idx) (k : S1x32.Idx)
    (hk0 : (k 0).val = 0) (hk1 : (k 1).val = (i 1).val) :
    Cert.Stages.bnRows (F := Ideal) a mean2 var2 g2 be2 i
      = max (g2 k * (a i - mean2 k) * Ideal.rsqrt (var2 k + Ideal.ofBits .f32 0x3727C5AC#32) + be2 k) (Ideal.ofBits .f32 0x00000000#32) := by
  unfold Cert.Stages.bnRows
  rw [maximumf_apply, addf_apply, mulf_apply, mulf_apply, subf_apply,
    bcRows8_apply g2 i k hk0 hk1, bcRows8_apply mean2 i k hk0 hk1, bcRows8_apply be2 i k hk0 hk1, bcRows8_apply _ i k hk0 hk1]
  rfl

variable (V : (c : Dev nD) → (b : Ref sig .tc) → Buf (Elt Ideal) ((c : Thread nD τ).loc b))

/-- What point `t` writes back is block `t` of the normalisation of the five arrays as the region finds them. -/
theorem flushed8_eq (c : Dev nD) (t : Fin cfg8.N) :
    (dat8 (F := Ideal) V c).flushed 5 t = ((cfg8.win 5).blk t).view.read (Elt Ideal)
      (Cert.Stages.bnRows (F := Ideal) (V c main_v82) (V c main_v87) (V c main_v88) (V c main_v89) (V c main_v90)) := by
  show (cfg8.win 5).cut (grid8.coords t) ((dat8 V c).after 5 t) = _
  rw [after8_5]
  unfold out8_5
  rw [View.canon_unit_zero hz8]
  simp only [View.ld_unit_zero (S := S4000x32) hz8, View.ld_unit_zero (S := S1x32) hz8]
  obtain ⟨e0, e1, e2, e3, e4, e5, e6, e7, e8, e9, e10, e11⟩ := idx8 t
  funext j
  show k8_pay1 (iblk8 V c 0 t : Vec Ideal S4000x32 .f32) (iblk8 V c 1 t : Vec Ideal S1x32 .f32) (iblk8 V c 2 t : Vec Ideal S1x32 .f32)
      (iblk8 V c 3 t : Vec Ideal S1x32 .f32) (iblk8 V c 4 t : Vec Ideal S1x32 .f32) j
    = Cert.Stages.bnRows (F := Ideal) (V c main_v82) (V c main_v87) (V c main_v88) (V c main_v89) (V c main_v90) (((cfg8.win 5).blk t).view.emb j)
  rw [pay8_apply (iblk8 V c 0 t : Vec Ideal S4000x32 .f32) (iblk8 V c 1 t : Vec Ideal S1x32 .f32) (iblk8 V c 2 t : Vec Ideal S1x32 .f32)
      (iblk8 V c 3 t : Vec Ideal S1x32 .f32) (iblk8 V c 4 t : Vec Ideal S1x32 .f32) j (ix2 (0 : Fin 1) (j 1)) rfl rfl]
  rw [bnRows8_apply (V c main_v82) (V c main_v87) (V c main_v88) (V c main_v89) (V c main_v90) (((cfg8.win 5).blk t).view.emb j) (ix2 (0 : Fin 1) (j 1)) rfl
    (by show (j 1).val = win8_5.index t (1 : Fin 2) * 32 + 1 * (j 1).val; omega)]
  have h0 : ((cfg8.win 0).blk t).view.emb j = ((cfg8.win 5).blk t).view.emb j := by
    funext a; apply Fin.ext
    match a with
    | ⟨0, _⟩ => show win8_0.index t (0 : Fin 2) * 4000 + 1 * (j 0).val = win8_5.index t (0 : Fin 2) * 4000 + 1 * (j 0).val; omega
    | ⟨1, _⟩ => show win8_0.index t (1 : Fin 2) * 32 + 1 * (j 1).val = win8_5.index t (1 : Fin 2) * 32 + 1 * (j 1).val; omega
  have h1 : ((cfg8.win 1).blk t).view.emb (ix2 (0 : Fin 1) (j 1)) = ix2 (0 : Fin 1) (j 1) := by
    funext a; apply Fin.ext
    match a with
    | ⟨0, _⟩ => show win8_1.index t (0 : Fin 2) * 1 + 1 * 0 = 0; omega
    | ⟨1, _⟩ => show win8_1.index t (1 : Fin 2) * 32 + 1 * (j 1).val = (j 1).val; omega
  have h2 : ((cfg8.win 2).blk t).view.emb (ix2 (0 : Fin 1) (j 1)) = ix2 (0 : Fin 1) (j 1) := by
    funext a; apply Fin.ext
    match a with
    | ⟨0, _⟩ => show win8_2.index t (0 : Fin 2) * 1 + 1 * 0 = 0; omega
    | ⟨1, _⟩ => show win8_2.index t (1 : Fin 2) * 32 + 1 * (j 1).val = (j 1).val; omega
  have h3 : ((cfg8.win 3).blk t).view.emb (ix2 (0 : Fin 1) (j 1)) = ix2 (0 : Fin 1) (j 1) := by
    funext a; apply Fin.ext
    match a with
    | ⟨0, _⟩ => show win8_3.index t (0 : Fin 2) * 1 + 1 * 0 = 0; omega
    | ⟨1, _⟩ => show win8_3.index t (1 : Fin 2) * 32 + 1 * (j 1).val = (j 1).val; omega
  have h4 : ((cfg8.win 4).blk t).view.emb (ix2 (0 : Fin 1) (j 1)) = ix2 (0 : Fin 1) (j 1) := by
    funext a; apply Fin.ext
    match a with
    | ⟨0, _⟩ => show win8_4.index t (0 : Fin 2) * 1 + 1 * 0 = 0; omega
    | ⟨1, _⟩ => show win8_4.index t (1 : Fin 2) * 32 + 1 * (j 1).val = (j 1).val; omega
  have a0 : iblk8 V c 0 t j = V c main_v82 (((cfg8.win 5).blk t).view.emb j) := congrArg (V c main_v82) h0
  have a1 : iblk8 V c 1 t (ix2 (0 : Fin 1) (j 1)) = V c main_v87 (ix2 (0 : Fin 1) (j 1)) := congrArg (V c main_v87) h1
  have a2 : iblk8 V c 2 t (ix2 (0 : Fin 1) (j 1)) = V c main_v88 (ix2 (0 : Fin 1) (j 1)) := congrArg (V c main_v88) h2
  have a3 : iblk8 V c 3 t (ix2 (0 : Fin 1) (j 1)) = V c main_v89 (ix2 (0 : Fin 1) (j 1)) := congrArg (V c main_v89) h3
  have a4 : iblk8 V c 4 t (ix2 (0 : Fin 1) (j 1)) = V c main_v90 (ix2 (0 : Fin 1) (j 1)) := congrArg (V c main_v90) h4
  rw [a0, a1, a2, a3, a4]

/-- An entry of the array is in point `t`'s block iff each coordinate is in the block's range on its axis. -/
theorem mem_blk8 (t : Fin cfg8.N) (i : S200000x32.Idx) :
    i ∈ ((cfg8.win 5).blk t).view.set ↔ ∀ a : Fin 2, win8_5.index t a * S4000x32.size a ≤ (i a).val ∧ (i a).val < win8_5.index t a * S4000x32.size a + S4000x32.size a := by
  show i ∈ ((View.whole main_v91).slice (win8_5.rect t)).set ↔ _
  rw [View.set_slice_whole, Rect.mem_set_unit]
  exact Iff.rfl

/-- Row `r` of the array is written back by point `r / 4000`. -/
theorem cover8 (i : S200000x32.Idx) : ∃ t : Fin cfg8.N, (cfg8.win 5).flush t = true ∧ i ∈ ((cfg8.win 5).blk t).view.set := by
  have hi0 : (i 0).val < 200000 := (i 0).isLt
  have hi1 : (i 1).val < 32 := (i 1).isLt
  obtain ⟨t, ht⟩ : ∃ t : Fin cfg8.N, t.val = (i 0).val / 4000 := ⟨⟨(i 0).val / 4000, by rw [show cfg8.N = 50 from N_8]; omega⟩, rfl⟩
  obtain ⟨-, -, -, -, -, -, -, -, -, -, e10, e11⟩ := idx8 t
  refine ⟨t, flush8_5 t, ?_⟩
  rw [mem_blk8]
  intro a
  match a with
  | ⟨0, _⟩ => show win8_5.index t (0 : Fin 2) * 4000 ≤ (i 0).val ∧ (i 0).val < win8_5.index t (0 : Fin 2) * 4000 + 4000; omega
  | ⟨1, _⟩ => show win8_5.index t (1 : Fin 2) * 32 ≤ (i 1).val ∧ (i 1).val < win8_5.index t (1 : Fin 2) * 32 + 32; omega

/-- The output array after the region: the normalisation, scale, shift and clip of the node rows by the four statistics rows as the region finds them. -/
theorem reg8_out (c : Dev nD) :
    (dat8 (F := Ideal) V c).arrAt 5 cfg8.N
      = Cert.Stages.bnRows (F := Ideal) (V c main_v82) (V c main_v87) (V c main_v88) (V c main_v89) (V c main_v90) :=
  (dat8 (F := Ideal) V c).arrAt_eq_of_cover 5
    (Cert.Stages.bnRows (F := Ideal) (V c main_v82) (V c main_v87) (V c main_v88) (V c main_v89) (V c main_v90))
    (fun t _ => flushed8_eq V c t) cover8

/-- The same between the run's contents at the region's entry and at its exit. -/
theorem reg8_val (m : (ℓ : Loc nD τ sig) → Buf (Elt Ideal) ℓ) (ρ : Dev nD → PrngReg) (c : Dev nD) :
    W22 (F := Ideal) m ρ c (Proc.devRef .tc main_v91)
      = Cert.Stages.bnRows (F := Ideal) (W21 m ρ c (Proc.devRef .tc main_v82)) (W21 m ρ c (Proc.devRef .tc main_v87))
          (W21 m ρ c (Proc.devRef .tc main_v88)) (W21 m ρ c (Proc.devRef .tc main_v89)) (W21 m ρ c (Proc.devRef .tc main_v90)) :=
  (W22_arr (F := Ideal) m ρ c 5).trans (reg8_out (V21 m ρ) c)

end Cert.KernelIdeal.RegVal

end
-- ==== Proof.AsmLayer3.lean ====
/- Layer 3 of the kernel program, read off the boundary contents: the rows of X · W taken at the edges' sources, the
  messages (region 7), their sum into the targets with the node's own features and the bias, the column statistics,
  and the normalised, clipped features (region 8): the reference's layer of X · W.
-/
import proofs.«417560_j33346126086480_1_alg».proof.Proof.AsmHead3
import proofs.«417560_j33346126086480_1_alg».proof.Proof.KHost3
import proofs.«417560_j33346126086480_1_alg».proof.Proof.RegScale7
import proofs.«417560_j33346126086480_1_alg».proof.Proof.RegBn8

set_option maxRecDepth 16384

noncomputable section

namespace Cert.KernelIdeal.KVal

open Cert.KernelIdeal Cert.KernelIdeal.Gen Cert.KernelIdeal.Keeps Idealize.ShloMosaic Idealize.ShloMosaic.TcCoe
open Cert.Stages Cert.KStages Cert.Bridges Cert.KernelIdeal.RegVal Cert.KernelIdeal.HostVal Cert.KernelIdeal.HostVal23

variable (m : (ℓ : Loc nD τ sig) → Buf (Elt Ideal) ℓ) (ρ : Dev nD → PrngReg) (c : Dev nD)

/-! ## Layer 3 -/

/-- Layer 3's convolution as the kernel program spells it. -/
def conv3 : FVec Ideal Cert.ReferenceIdeal.S200000x32 .f32 := (convOf (h3 m c) (msgOf (takeFill (h3 m c) (srcOf (m ((c : Thread nD τ).loc main_arg1)))) (kColE (coef (F := Ideal) (srcOf (m ((c : Thread nD τ).loc main_arg1))) (dstOf (m ((c : Thread nD τ).loc main_arg1)))))) (idxCol (dstOf (m ((c : Thread nD τ).loc main_arg1)))) (kColN (nsq (F := Ideal) (dstOf (m ((c : Thread nD τ).loc main_arg1))))) (kRow (m ((c : Thread nD τ).loc main_arg12))))

/-- The stretch after the matrix product takes its rows at the edges' sources. -/
theorem w17_v72 (hr : SrcInRange (srcOf (m ((c : Thread nD τ).loc main_arg1)))) : W17 m ρ c (Proc.devRef .tc main_v72) = takeFill (h3 m c) (srcOf (m ((c : Thread nD τ).loc main_arg1))) := by
  have e : W17 m ρ c (Proc.devRef .tc main_v72) = takeFill (F := Ideal) (W16 m ρ c (Proc.devRef .tc main_v71)) (W16 m ρ c (Proc.devRef .tc main_v1)) := h7_v72 (W16 m ρ c)
  rw [e, w16_v71 m ρ c hr, edge16 m ρ c main_v1 (by decide), w1_v1 m ρ c]

/-- The scale region multiplies each taken row by its edge's weight. -/
theorem w18_v73 (hr : SrcInRange (srcOf (m ((c : Thread nD τ).loc main_arg1)))) : W18 m ρ c (Proc.devRef .tc main_v73) = msgOf (takeFill (h3 m c) (srcOf (m ((c : Thread nD τ).loc main_arg1)))) (kColE (coef (F := Ideal) (srcOf (m ((c : Thread nD τ).loc main_arg1))) (dstOf (m ((c : Thread nD τ).loc main_arg1))))) := by
  rw [reg7_val m ρ c, w17_v72 m ρ c hr, v26_17 m ρ c]

/-- The next stretch sums the messages into their targets and adds the node's own features and the bias. -/
theorem w19_v82 (hr : SrcInRange (srcOf (m ((c : Thread nD τ).loc main_arg1)))) : W19 m ρ c (Proc.devRef .tc main_v82) = conv3 m c := by
  have e : W19 m ρ c (Proc.devRef .tc main_v82) = convOf (F := Ideal) (W18 m ρ c (Proc.devRef .tc main_v71)) (W18 m ρ c (Proc.devRef .tc main_v73)) (idxCol (W18 m ρ c (Proc.devRef .tc main_v3))) (W18 m ρ c (Proc.devRef .tc main_v28)) (kRow (W18 m ρ c (Proc.devRef .tc main_arg12))) := h8_v82 (W18 m ρ c)
  rw [e, ((step18 m ρ c main_v71 (by decide)).trans (step17 m ρ c main_v71 (by decide))), w16_v71 m ρ c hr, w18_v73 m ρ c hr, edge18 m ρ c main_v3 (by decide), w1_v3 m ρ c,
    edge18 m ρ c main_v28 (by decide), w1_v28 m ρ c, args18 m ρ c main_arg12 (by decide)]
  rfl

/-- The same stretch leaves the column means of the convolution. -/
theorem w19_v85 (hr : SrcInRange (srcOf (m ((c : Thread nD τ).loc main_arg1)))) : W19 m ρ c (Proc.devRef .tc main_v85) = meanOf (conv3 m c) := by
  have e : W19 m ρ c (Proc.devRef .tc main_v85) = meanOf (F := Ideal) (W19 m ρ c (Proc.devRef .tc main_v82)) := h8_v85 (W18 m ρ c)
  rw [e, w19_v82 m ρ c hr]

/-- The variance call leaves the column variances of the convolution. -/
theorem w20_v86 (hr : SrcInRange (srcOf (m ((c : Thread nD τ).loc main_arg1)))) : W20 m ρ c (Proc.devRef .tc main_v86) = varOf (conv3 m c) := by
  have e : W20 m ρ c (Proc.devRef .tc main_v86) = varOf (F := Ideal) (W19 m ρ c (Proc.devRef .tc main_v82)) := h81_v86 (W19 m ρ c) (h8_c16 (W18 m ρ c))
  rw [e, w19_v82 m ρ c hr]

/-- The normalisation region, fed the statistics and the scale and shift as rows, leaves the layer's output. -/
theorem w22_v91 (hr : SrcInRange (srcOf (m ((c : Thread nD τ).loc main_arg1)))) : W22 m ρ c (Proc.devRef .tc main_v91) = x4 m c := by
  have e45 : W21 m ρ c (Proc.devRef .tc main_v87) = kRow (F := Ideal) (W20 m ρ c (Proc.devRef .tc main_v85)) := h82_v87 (W20 m ρ c)
  have e46 : W21 m ρ c (Proc.devRef .tc main_v88) = kRow (F := Ideal) (W20 m ρ c (Proc.devRef .tc main_v86)) := h82_v88 (W20 m ρ c)
  have e47 : W21 m ρ c (Proc.devRef .tc main_v89) = kRow (F := Ideal) (W20 m ρ c (Proc.devRef .tc main_arg13)) := h82_v89 (W20 m ρ c)
  have e48 : W21 m ρ c (Proc.devRef .tc main_v90) = kRow (F := Ideal) (W20 m ρ c (Proc.devRef .tc main_arg14)) := h82_v90 (W20 m ρ c)
  rw [reg8_val m ρ c, ((step21 m ρ c main_v82 (by decide)).trans (step20 m ρ c main_v82 (by decide))), w19_v82 m ρ c hr,
    e45, step20 m ρ c main_v85 (by decide), w19_v85 m ρ c hr,
    e46, w20_v86 m ρ c hr,
    e47, args20 m ρ c main_arg13 (by decide),
    e48, args20 m ρ c main_arg14 (by decide)]
  exact layer_eq _ _ _ _ _ _ hr

end Cert.KernelIdeal.KVal

end
-- ==== Proof.RegLinear9.lean ====
/-
  The output layer X · W + b, as the tiled kernel computes it.

  X is N × 32 (N = 200000), W a 32 × 1 column and b a 1 × 1 block. The kernel walks the rows of X in 50 blocks of 4000
  rows; at each block it multiplies the 4000 × 32 block of X by W, adds b repeated down the 4000 rows, and writes the
  4000 × 1 result back as the same block of rows of the output. At the ideal values the casts to the narrow type are the
  identity and the product into a zero accumulator is the plain sum over the contracted coordinate, so entry (r, 0) of
  the output is  Σ_c X(r, c) · W(c, 0) + b(0, 0),  which is what the host's dot_general plus the bias broadcast down
  the rows is at that entry.
-/
import proofs.«417560_j33346126086480_1_alg».proof.Proof.Gen.KernelIdeal.Frame
import proofs.«417560_j33346126086480_1_alg».proof.Proof.Stages
import proofs.«417560_j33346126086480_1_alg».proof.Proof.LibMatmul
import Idealize.ShloMosaic.Lib.Pipeline.Value
import Idealize.ShloMosaic.Lib.ValueIdx
import Idealize.ShloMosaic.Lib.StackMember
import Idealize.ShloMosaic.PureOps.Ideal.Laws

set_option maxRecDepth 16384

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

namespace Matmul

/-! ## The result of a block, entry by entry -/

/-- The kernel's dimension numbers are the plain ones: rows × contraction times contraction × columns. -/
theorem dims_r9 : dot_S4000x32_S32x1_S4000x1_1_0_0_1_n_n = DotDims.plain 4000 32 1 := rfl

/-- The reference's too, over all the rows. -/
theorem dimsRef_r9 : Cert.ReferenceIdeal.dot_S200000x32_S32x1_S200000x1_1_0_0_1_n_n = DotDims.plain 200000 32 1 := rfl

/-- The kernel's payload at an entry of the block: row p of the X block against the column W, plus the bias. -/
theorem pay_r9 (x0 : Vec Ideal S4000x32 .f32) (x1 : Vec Ideal S32x1 .f32) (x2 : Vec Ideal S1x1 .f32) (p : Fin 4000) (q : Fin 1) :
    k9_pay1 x0 x1 x2 (ix2 p q) = (∑ c : Fin 32, x0 (ix2 p c) * x1 (ix2 c q)) + x2 (ix2 0 0) := by
  unfold k9_pay1
  rw [dims_r9]
  simp only [shapeCast_self]
  rw [addf_apply]
  congr 1
  · exact matmul_plain_zero_apply none _ _ p q
  · exact broadcastTo_apply _ _ _ (ix2 0 0) (fun a => by match a with | ⟨0, _⟩ => rfl | ⟨1, _⟩ => rfl)

/-- The whole-array output layer at an entry. -/
theorem lin_r9 (x : FVec Ideal S200000x32 .f32) (w : FVec Ideal S32x1 .f32) (b11 : FVec Ideal S1x1 .f32)
    (r : Fin 200000) (q : Fin 1) :
    Cert.Stages.outWith (F := Ideal) x w b11 (ix2 r q) = (∑ c : Fin 32, x (ix2 r c) * w (ix2 c q)) + b11 (ix2 0 0) := by
  unfold Cert.Stages.outWith
  rw [dimsRef_r9, addf_apply]
  congr 1
  · exact StackMember.dotGeneral_plain_apply none x w r q
  · exact broadcastInDim_apply _ _ _ _ (ix2 0 0) (fun a => by match a with | ⟨0, _⟩ => rfl | ⟨1, _⟩ => rfl)

/-- Entry (p, q) of the result of a block of rows of X, the block starting at row 4000 b, is entry (4000 b + p, q) of
    the whole output layer: the same sum over the contracted coordinate, the same bias. -/
theorem block_entry_r9 (x : FVec Ideal S200000x32 .f32) (w : FVec Ideal S32x1 .f32) (b11 : FVec Ideal S1x1 .f32)
    (x0 : Vec Ideal S4000x32 .f32) (x1 : Vec Ideal S32x1 .f32) (x2 : Vec Ideal S1x1 .f32) (b : Nat)
    (hx0 : ∀ (y : S4000x32.Idx) (k : S200000x32.Idx), (k 0).val = b * 4000 + (y 0).val → (k 1).val = (y 1).val → x0 y = x k)
    (hx1 : x1 = w) (hx2 : x2 = b11) (j : S4000x1.Idx) (i : S200000x1.Idx)
    (hi0 : (i 0).val = b * 4000 + (j 0).val) (hi1 : (i 1).val = (j 1).val) :
    k9_pay1 x0 x1 x2 j = Cert.Stages.outWith (F := Ideal) x w b11 i := by
  obtain ⟨p, q, rfl⟩ : ∃ (p : Fin 4000) (q : Fin 1), j = ix2 p q := ⟨j 0, j 1, eq_ix2 j⟩
  obtain ⟨r, q', rfl⟩ : ∃ (r : Fin 200000) (q' : Fin 1), i = ix2 r q' := ⟨i 0, i 1, eq_ix2 i⟩
  have hq : q' = q := Fin.ext hi1
  subst hq
  rw [pay_r9, lin_r9, hx1, hx2]
  congr 1
  refine Finset.sum_congr rfl fun c _ => ?_
  rw [hx0 (ix2 p c) (ix2 r c) hi0 rfl]

/-! ## From the blocks to the array -/

variable (V : (c : Dev nD) → (b : Ref sig .tc) → Buf (Elt Ideal) ((c : Thread nD τ).loc b))

/-- The grid has 50 points. -/
theorem points_r9 : cfg9.N = 50 := by decide +kernel

/-- The printed index maps, decided over the grid: at point t the X window and the output window sit at block row t,
    the W window and the bias window at their one block. -/
theorem idx_facts_r9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

/-- The X window's block at point t is rows 4000 t … 4000 t + 3999 of X. -/
theorem xblk_r9 (c : Dev nD) (t : Fin cfg9.N) (y : S4000x32.Idx) (k : S200000x32.Idx)
    (hk0 : (k 0).val = t.val * 4000 + (y 0).val) (hk1 : (k 1).val = (y 1).val) :
    (iblk9 V c 0 t : Vec Ideal S4000x32 .f32) y = (V c main_v91 : S200000x32.Idx → Elt Ideal .f32) k := by
  obtain ⟨e0, e1, -, -, -, -, -, -⟩ := idx_facts_r9 t
  unfold iblk9
  rw [View.read_apply]
  show V c main_v91 _ = V c main_v91 _
  congr 1
  funext a
  apply Fin.ext
  match a with
  | ⟨0, _⟩ => show win9_0.index t 0 * 4000 + 1 * (y 0).val = (k 0).val; rw [e0, hk0]; omega
  | ⟨1, _⟩ => show win9_0.index t 1 * 32 + 1 * (y 1).val = (k 1).val; rw [e1, hk1]; omega

/-- The W window's block at every point is the whole of W. -/
theorem wblk_r9 (c : Dev nD) (t : Fin cfg9.N) :
    (iblk9 V c 1 t : Vec Ideal S32x1 .f32) = (V c main_arg15 : S32x1.Idx → Elt Ideal .f32) := by
  obtain ⟨-, -, e2, e3, -, -, -, -⟩ := idx_facts_r9 t
  funext y
  unfold iblk9
  rw [View.read_apply]
  show V c main_arg15 _ = V c main_arg15 _
  congr 1
  funext a
  apply Fin.ext
  match a with
  | ⟨0, _⟩ => show win9_1.index t 0 * 32 + 1 * (y 0).val = (y 0).val; rw [e2]; omega
  | ⟨1, _⟩ => show win9_1.index t 1 * 1 + 1 * (y 1).val = (y 1).val; rw [e3]; omega

/-- The bias window's block at every point is the whole 1 × 1 block. -/
theorem bblk_r9 (c : Dev nD) (t : Fin cfg9.N) :
    (iblk9 V c 2 t : Vec Ideal S1x1 .f32) = (V c main_v92 : S1x1.Idx → Elt Ideal .f32) := by
  obtain ⟨-, -, -, -, e4, e5, -, -⟩ := idx_facts_r9 t
  funext y
  unfold iblk9
  rw [View.read_apply]
  show V c main_v92 _ = V c main_v92 _
  congr 1
  funext a
  apply Fin.ext
  match a with
  | ⟨0, _⟩ => show win9_2.index t 0 * 1 + 1 * (y 0).val = (y 0).val; rw [e4]; omega
  | ⟨1, _⟩ => show win9_2.index t 1 * 1 + 1 * (y 1).val = (y 1).val; rw [e5]; omega

/-- What point t writes back is block t of the whole-array output layer of the arrays the region finds. -/
theorem flushed_r9 (c : Dev nD) (t : Fin cfg9.N) :
    (dat9 V c).flushed 3 t = ((cfg9.win 3).blk t).view.read (Elt Ideal)
      (Cert.Stages.outWith (F := Ideal) (V c main_v91) (V c main_arg15) (V c main_v92)) := by
  show (cfg9.win 3).cut (grid9.coords t) ((dat9 V c).after 3 t) = _
  rw [after9_3]
  unfold out9_3
  rw [View.canon_unit_zero zero_offsets]
  simp only [View.ld_unit_zero (S := S4000x32) zero_offsets, View.ld_unit_zero (S := S32x1) zero_offsets,
    View.ld_unit_zero (S := S1x1) zero_offsets]
  obtain ⟨-, -, -, -, -, -, e6, e7⟩ := idx_facts_r9 t
  funext j
  show k9_pay1 (iblk9 V c 0 t) (iblk9 V c 1 t) (iblk9 V c 2 t) j
    = Cert.Stages.outWith (F := Ideal) (V c main_v91) (V c main_arg15) (V c main_v92) (((cfg9.win 3).blk t).view.emb j)
  refine block_entry_r9 _ _ _ _ _ _ t.val (fun y k h0 h1 => xblk_r9 V c t y k h0 h1) (wblk_r9 V c t) (bblk_r9 V c t) j _ ?_ ?_
  · show win9_3.index t 0 * 4000 + 1 * (j 0).val = t.val * 4000 + (j 0).val; rw [e6]; omega
  · show win9_3.index t 1 * 1 + 1 * (j 1).val = (j 1).val; rw [e7]; omega

/-- An index of the output is in point t's block iff each coordinate is in the block's range on its axis. -/
theorem mem_blk_r9 (t : Fin cfg9.N) (i : S200000x1.Idx) :
    i ∈ ((cfg9.win 3).blk t).view.set ↔ ∀ a : Fin 2, win9_3.index t a * S4000x1.size a ≤ (i a).val
      ∧ (i a).val < win9_3.index t a * S4000x1.size a + S4000x1.size a := by
  show i ∈ ((View.whole main_v93).slice (win9_3.rect t)).set ↔ _
  rw [View.set_slice_whole, Rect.mem_set_unit]
  exact Iff.rfl

/-- Every row r of the output is in the block of point r / 4000. -/
theorem cover_r9 (i : S200000x1.Idx) :
    ∃ t : Fin cfg9.N, (cfg9.win 3).flush t = true ∧ i ∈ ((cfg9.win 3).blk t).view.set := by
  have hi0 : (i 0).val < 200000 := (i 0).isLt
  have hi1 : (i 1).val < 1 := (i 1).isLt
  have ht : (i 0).val / 4000 < cfg9.N := by rw [points_r9]; omega
  obtain ⟨-, -, -, -, -, -, e6, e7⟩ := idx_facts_r9 ⟨(i 0).val / 4000, ht⟩
  refine ⟨⟨(i 0).val / 4000, ht⟩, flush9_3 _, ?_⟩
  rw [mem_blk_r9]
  intro a
  match a with
  | ⟨0, _⟩ =>
    show win9_3.index ⟨(i 0).val / 4000, ht⟩ 0 * 4000 ≤ (i 0).val ∧ (i 0).val < win9_3.index ⟨(i 0).val / 4000, ht⟩ 0 * 4000 + 4000
    rw [e6]; dsimp only; omega
  | ⟨1, _⟩ =>
    show win9_3.index ⟨(i 0).val / 4000, ht⟩ 1 * 1 ≤ (i 1).val ∧ (i 1).val < win9_3.index ⟨(i 0).val / 4000, ht⟩ 1 * 1 + 1
    rw [e7]; omega

end Matmul

open Matmul

variable (V : (c : Dev nD) → (b : Ref sig .tc) → Buf (Elt Ideal) ((c : Thread nD τ).loc b))

/-- THE OUTPUT ARRAY after the region: the whole-array output layer X · W + b of the arrays at entry. -/
theorem reg9_out (c : Dev nD) :
    (dat9 V c).arrAt 3 cfg9.N = Cert.Stages.outWith (F := Ideal) (V c main_v91) (V c main_arg15) (V c main_v92) :=
  (dat9 V c).arrAt_eq_of_cover 3 _ (fun t _ => flushed_r9 V c t) cover_r9

/-! ## At the run's boundary contents -/

variable (m : (ℓ : Loc nD τ sig) → Buf (Elt Ideal) ℓ) (ρ : Dev nD → PrngReg)

/-- The output buffer at the region's exit is the output layer of the three operand buffers at its entry. -/
theorem reg9_val (c : Dev nD) :
    W24 (F := Ideal) m ρ c (Proc.devRef .tc main_v93)
      = Cert.Stages.outWith (F := Ideal) (W23 m ρ c (Proc.devRef .tc main_v91)) (W23 m ρ c (Proc.devRef .tc main_arg15))
          (W23 m ρ c (Proc.devRef .tc main_v92)) :=
  (W24_arr m ρ c 3).trans (reg9_out (V23 m ρ) c)

end Cert.KernelIdeal.RegVal

end
-- ==== Proof.AsmFinal.lean ====
/-
  The last stretch reshapes the output bias to a 1 × 1 block and region 9 applies the output layer to the third layer's
  output: the kernel program's result buffer holds the network function of the arguments.
-/
import proofs.«417560_j33346126086480_1_alg».proof.Proof.AsmLayer3
import proofs.«417560_j33346126086480_1_alg».proof.Proof.RegLinear9
import proofs.«417560_j33346126086480_1_alg».proof.Proof.KHost3

set_option maxRecDepth 16384

noncomputable section

namespace Cert.KernelIdeal.KVal

open Cert.KernelIdeal Cert.KernelIdeal.Gen Cert.KernelIdeal.Keeps Idealize.ShloMosaic Idealize.ShloMosaic.TcCoe
open Cert.Stages Cert.KStages Cert.Bridges Cert.KernelIdeal.RegVal Cert.KernelIdeal.HostVal Cert.KernelIdeal.HostVal23

variable (m : (ℓ : Loc nD τ sig) → Buf (Elt Ideal) ℓ) (ρ : Dev nD → PrngReg) (c : Dev nD)

theorem w23_v92 : W23 m ρ c (Proc.devRef .tc main_v92) = kOne (F := Ideal) (m ((c : Thread nD τ).loc main_arg16)) := by
  have e : W23 m ρ c (Proc.devRef .tc main_v92) = kOne (F := Ideal) (W22 m ρ c (Proc.devRef .tc main_arg16)) := h9_v92 (W22 m ρ c)
  rw [e, args22 m ρ c main_arg16 (by decide)]

/-- The result buffer at the last boundary is the network function of the launch memory's arguments. -/
theorem result (hr : SrcInRange (srcOf (m ((c : Thread nD τ).loc main_arg1)))) : W24 m ρ c (Proc.devRef .tc main_v93) =
    net (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  rw [reg9_val m ρ c, step23 m ρ c main_v91 (by decide), w22_v91 m ρ c hr, args23 m ρ c main_arg15 (by decide), w23_v92 m ρ c,
    outWith_kOne, net_eq m c]

end Cert.KernelIdeal.KVal

end
-- ==== Proof.RefOps.lean ====
/-
  The reference program's host operations as lists: by printed window (ops_w0 … ops_w3, the calls of the
  outlined functions replaced by the callee's operations over the call's own buffers), and the same
  operations by stage of the network (the edge table and the normalisation; per layer the convolution,
  the column statistics, the normalisation with the clip; the output layer). With each list: that its
  operations touch TensorCore buffers only, and the buffers it writes. A table, made by the script above.
-/
import proofs.«417560_j33346126086480_1_alg».proof.Proof.Gen.ReferenceIdeal
import Idealize.ShloMosaic.Lib.StableHlo.Run

noncomputable section

namespace Cert.ReferenceIdeal.Value

open Cert.ReferenceIdeal Cert.ReferenceIdeal.Facts₀ Idealize.ShloMosaic Idealize.SL.Sem

variable {F : FTy → Type} [FloatOps F]

/-- Window 0 of @main: 60 operations. -/
abbrev ops_w0 : List (HloOp τ sig (Elt F)) :=
  [ StableHlo.unary main_arg1 main_v0 ((extractStridedSlice S1x2500000 ![0, 0] · slices_S2x2500000_S1x2500000_0_0) : (⟨S2x2500000, .i32⟩ : BufTy).Contents (Elt F) → (⟨S1x2500000, .i32⟩ : BufTy).Contents (Elt F)),
    StableHlo.reshape main_v0 main_v1 rfl shapeCasts_S1x2500000_S2500000,
    StableHlo.unary main_arg1 main_v2 ((extractStridedSlice S1x2500000 ![1, 0] · slices_S2x2500000_S1x2500000_1_0) : (⟨S2x2500000, .i32⟩ : BufTy).Contents (Elt F) → (⟨S1x2500000, .i32⟩ : BufTy).Contents (Elt F)),
    StableHlo.reshape main_v2 main_v3 rfl shapeCasts_S1x2500000_S2500000,
    StableHlo.nullary main_cst (constant S_ .f32 0x3F800000#32),
    StableHlo.unary main_cst main_v4 (broadcastInDim S2500000 ![] bcast_S_S2500000 : (⟨S_, .f32⟩ : BufTy).Contents (Elt F) → (⟨S2500000, .f32⟩ : BufTy).Contents (Elt F)),
    StableHlo.nullary main_cst_0 (constant S_ .f32 0x00000000#32),
    StableHlo.unary main_cst_0 main_v5 (broadcastInDim S200000 ![] bcast_S_S200000 : (⟨S_, .f32⟩ : BufTy).Contents (Elt F) → (⟨S200000, .f32⟩ : BufTy).Contents (Elt F)),
    StableHlo.unary main_v3 main_v6 (broadcastInDim S2500000x1 ![0] bcast_S2500000_S2500000x1_0 : (⟨S2500000, .i32⟩ : BufTy).Contents (Elt F) → (⟨S2500000x1, .i32⟩ : BufTy).Contents (Elt F)),
    StableHlo.ternary main_v5 main_v6 main_v4 main_v7 ((fun x i u => Host.scatterAdd scatter_S200000_S2500000x1_S2500000_n_0_0_1 x i u) : (⟨S200000, .f32⟩ : BufTy).Contents (Elt F) → (⟨S2500000x1, .i32⟩ : BufTy).Contents (Elt F) → (⟨S2500000, .f32⟩ : BufTy).Contents (Elt F) → (⟨S200000, .f32⟩ : BufTy).Contents (Elt F)),
    StableHlo.nullary main_cst_1 (constant S_ .f32 0x3F800000#32),
    StableHlo.unary main_cst_1 main_v8 (broadcastInDim S200000 ![] bcast_S_S200000 : (⟨S_, .f32⟩ : BufTy).Contents (Elt F) → (⟨S200000, .f32⟩ : BufTy).Contents (Elt F)),
    StableHlo.binary main_v7 main_v8 main_v9 (addf : (⟨S200000, .f32⟩ : BufTy).Contents (Elt F) → (⟨S200000, .f32⟩ : BufTy).Contents (Elt F) → (⟨S200000, .f32⟩ : BufTy).Contents (Elt F)),
    StableHlo.unary main_v9 main_v10 (Host.rsqrt : (⟨S200000, .f32⟩ : BufTy).Contents (Elt F) → (⟨S200000, .f32⟩ : BufTy).Contents (Elt F)),
    StableHlo.binary main_arg0 main_arg3 main_v11 ((fun l r => Host.dotGeneral dot_S200000x1_S1x32_S200000x32_1_0_0_1_n_n none l r) : (⟨S200000x1, .f32⟩ : BufTy).Contents (Elt F) → (⟨S1x32, .f32⟩ : BufTy).Contents (Elt F) → (⟨S200000x32, .f32⟩ : BufTy).Contents (Elt F)),
    StableHlo.nullary main_c (constantI S_ 32 0#32),
    StableHlo.unary main_c main_v12 (broadcastInDim S2500000 ![] bcast_S_S2500000 : (⟨S_, .i32⟩ : BufTy).Contents (Elt F) → (⟨S2500000, .i32⟩ : BufTy).Contents (Elt F)),
    StableHlo.binary main_v1 main_v12 main_v13 (cmpi .slt : (⟨S2500000, .i32⟩ : BufTy).Contents (Elt F) → (⟨S2500000, .i32⟩ : BufTy).Contents (Elt F) → (⟨S2500000, .i1⟩ : BufTy).Contents (Elt F)),
    StableHlo.nullary main_c_2 (constantI S_ 32 200000#32),
    StableHlo.unary main_c_2 main_v14 (broadcastInDim S2500000 ![] bcast_S_S2500000 : (⟨S_, .i32⟩ : BufTy).Contents (Elt F) → (⟨S2500000, .i32⟩ : BufTy).Contents (Elt F)),
    StableHlo.binary main_v1 main_v14 main_v15 (addi : (⟨S2500000, .i32⟩ : BufTy).Contents (Elt F) → (⟨S2500000, .i32⟩ : BufTy).Contents (Elt F) → (⟨S2500000, .i32⟩ : BufTy).Contents (Elt F)),
    StableHlo.ternary main_v13 main_v15 main_v1 main_v16 (select : (⟨S2500000, .i1⟩ : BufTy).Contents (Elt F) → (⟨S2500000, .i32⟩ : BufTy).Contents (Elt F) → (⟨S2500000, .i32⟩ : BufTy).Contents (Elt F) → (⟨S2500000, .i32⟩ : BufTy).Contents (Elt F)),
    StableHlo.unary main_v16 main_v17 (broadcastInDim S2500000x1 ![0] bcast_S2500000_S2500000x1_0 : (⟨S2500000, .i32⟩ : BufTy).Contents (Elt F) → (⟨S2500000x1, .i32⟩ : BufTy).Contents (Elt F)),
    StableHlo.binary main_v10 main_v17 main_v18 ((fun x i => Host.gather gather_S200000_S2500000x1_S2500000_n_0_n_n_0_1_1 x i) : (⟨S200000, .f32⟩ : BufTy).Contents (Elt F) → (⟨S2500000x1, .i32⟩ : BufTy).Contents (Elt F) → (⟨S2500000, .f32⟩ : BufTy).Contents (Elt F)),
    StableHlo.nullary main_c_3 (constantI S_ 32 0#32),
    StableHlo.unary main_c_3 main_v19 (broadcastInDim S2500000 ![] bcast_S_S2500000 : (⟨S_, .i32⟩ : BufTy).Contents (Elt F) → (⟨S2500000, .i32⟩ : BufTy).Contents (Elt F)),
    StableHlo.binary main_v3 main_v19 main_v20 (cmpi .slt : (⟨S2500000, .i32⟩ : BufTy).Contents (Elt F) → (⟨S2500000, .i32⟩ : BufTy).Contents (Elt F) → (⟨S2500000, .i1⟩ : BufTy).Contents (Elt F)),
    StableHlo.nullary main_c_4 (constantI S_ 32 200000#32),
    StableHlo.unary main_c_4 main_v21 (broadcastInDim S2500000 ![] bcast_S_S2500000 : (⟨S_, .i32⟩ : BufTy).Contents (Elt F) → (⟨S2500000, .i32⟩ : BufTy).Contents (Elt F)),
    StableHlo.binary main_v3 main_v21 main_v22 (addi : (⟨S2500000, .i32⟩ : BufTy).Contents (Elt F) → (⟨S2500000, .i32⟩ : BufTy).Contents (Elt F) → (⟨S2500000, .i32⟩ : BufTy).Contents (Elt F)),
    StableHlo.ternary main_v20 main_v22 main_v3 main_v23 (select : (⟨S2500000, .i1⟩ : BufTy).Contents (Elt F) → (⟨S2500000, .i32⟩ : BufTy).Contents (Elt F) → (⟨S2500000, .i32⟩ : BufTy).Contents (Elt F) → (⟨S2500000, .i32⟩ : BufTy).Contents (Elt F)),
    StableHlo.unary main_v23 main_v24 (broadcastInDim S2500000x1 ![0] bcast_S2500000_S2500000x1_0 : (⟨S2500000, .i32⟩ : BufTy).Contents (Elt F) → (⟨S2500000x1, .i32⟩ : BufTy).Contents (Elt F)),
    StableHlo.binary main_v10 main_v24 main_v25 ((fun x i => Host.gather gather_S200000_S2500000x1_S2500000_n_0_n_n_0_1_1 x i) : (⟨S200000, .f32⟩ : BufTy).Contents (Elt F) → (⟨S2500000x1, .i32⟩ : BufTy).Contents (Elt F) → (⟨S2500000, .f32⟩ : BufTy).Contents (Elt F)),
    StableHlo.binary main_v18 main_v25 main_v26 (mulf : (⟨S2500000, .f32⟩ : BufTy).Contents (Elt F) → (⟨S2500000, .f32⟩ : BufTy).Contents (Elt F) → (⟨S2500000, .f32⟩ : BufTy).Contents (Elt F)),
    StableHlo.nullary main_c_5 (constantI S_ 32 0#32),
    StableHlo.unary main_c_5 main_v27 (broadcastInDim S2500000 ![] bcast_S_S2500000 : (⟨S_, .i32⟩ : BufTy).Contents (Elt F) → (⟨S2500000, .i32⟩ : BufTy).Contents (Elt F)),
    StableHlo.binary main_v1 main_v27 main_v28 (cmpi .slt : (⟨S2500000, .i32⟩ : BufTy).Contents (Elt F) → (⟨S2500000, .i32⟩ : BufTy).Contents (Elt F) → (⟨S2500000, .i1⟩ : BufTy).Contents (Elt F)),
    StableHlo.nullary main_c_6 (constantI S_ 32 200000#32),
    StableHlo.unary main_c_6 main_v29 (broadcastInDim S2500000 ![] bcast_S_S2500000 : (⟨S_, .i32⟩ : BufTy).Contents (Elt F) → (⟨S2500000, .i32⟩ : BufTy).Contents (Elt F)),
    StableHlo.binary main_v1 main_v29 main_v30 (addi : (⟨S2500000, .i32⟩ : BufTy).Contents (Elt F) → (⟨S2500000, .i32⟩ : BufTy).Contents (Elt F) → (⟨S2500000, .i32⟩ : BufTy).Contents (Elt F)),
    StableHlo.ternary main_v28 main_v30 main_v1 main_v31 (select : (⟨S2500000, .i1⟩ : BufTy).Contents (Elt F) → (⟨S2500000, .i32⟩ : BufTy).Contents (Elt F) → (⟨S2500000, .i32⟩ : BufTy).Contents (Elt F) → (⟨S2500000, .i32⟩ : BufTy).Contents (Elt F)),
    StableHlo.unary main_v31 main_v32 (broadcastInDim S2500000x1 ![0] bcast_S2500000_S2500000x1_0 : (⟨S2500000, .i32⟩ : BufTy).Contents (Elt F) → (⟨S2500000x1, .i32⟩ : BufTy).Contents (Elt F)),
    StableHlo.binary main_v11 main_v32 main_v33 ((fun x i => Host.gather gather_S200000x32_S2500000x1_S2500000x32_1_0_n_n_0_1_132 x i) : (⟨S200000x32, .f32⟩ : BufTy).Contents (Elt F) → (⟨S2500000x1, .i32⟩ : BufTy).Contents (Elt F) → (⟨S2500000x32, .f32⟩ : BufTy).Contents (Elt F)),
    StableHlo.unary main_v26 main_v34 (broadcastInDim S2500000x1 ![0] bcast_S2500000_S2500000x1_0 : (⟨S2500000, .f32⟩ : BufTy).Contents (Elt F) → (⟨S2500000x1, .f32⟩ : BufTy).Contents (Elt F)),
    StableHlo.unary main_v34 main_v35 (broadcastInDim S2500000x32 ![0, 1] bcast_S2500000x1_S2500000x32_0_1 : (⟨S2500000x1, .f32⟩ : BufTy).Contents (Elt F) → (⟨S2500000x32, .f32⟩ : BufTy).Contents (Elt F)),
    StableHlo.binary main_v33 main_v35 main_v36 (mulf : (⟨S2500000x32, .f32⟩ : BufTy).Contents (Elt F) → (⟨S2500000x32, .f32⟩ : BufTy).Contents (Elt F) → (⟨S2500000x32, .f32⟩ : BufTy).Contents (Elt F)),
    StableHlo.nullary main_cst_7 (constant S_ .f32 0x00000000#32),
    StableHlo.unary main_cst_7 main_v37 (broadcastInDim S200000x32 ![] bcast_S_S200000x32 : (⟨S_, .f32⟩ : BufTy).Contents (Elt F) → (⟨S200000x32, .f32⟩ : BufTy).Contents (Elt F)),
    StableHlo.unary main_v3 main_v38 (broadcastInDim S2500000x1 ![0] bcast_S2500000_S2500000x1_0 : (⟨S2500000, .i32⟩ : BufTy).Contents (Elt F) → (⟨S2500000x1, .i32⟩ : BufTy).Contents (Elt F)),
    StableHlo.ternary main_v37 main_v38 main_v36 main_v39 ((fun x i u => Host.scatterAdd scatter_S200000x32_S2500000x1_S2500000x32_1_0_0_1 x i u) : (⟨S200000x32, .f32⟩ : BufTy).Contents (Elt F) → (⟨S2500000x1, .i32⟩ : BufTy).Contents (Elt F) → (⟨S2500000x32, .f32⟩ : BufTy).Contents (Elt F) → (⟨S200000x32, .f32⟩ : BufTy).Contents (Elt F)),
    StableHlo.binary main_v10 main_v10 main_v40 (mulf : (⟨S200000, .f32⟩ : BufTy).Contents (Elt F) → (⟨S200000, .f32⟩ : BufTy).Contents (Elt F) → (⟨S200000, .f32⟩ : BufTy).Contents (Elt F)),
    StableHlo.unary main_v40 main_v41 (broadcastInDim S200000x1 ![0] bcast_S200000_S200000x1_0 : (⟨S200000, .f32⟩ : BufTy).Contents (Elt F) → (⟨S200000x1, .f32⟩ : BufTy).Contents (Elt F)),
    StableHlo.unary main_v41 main_v42 (broadcastInDim S200000x32 ![0, 1] bcast_S200000x1_S200000x32_0_1 : (⟨S200000x1, .f32⟩ : BufTy).Contents (Elt F) → (⟨S200000x32, .f32⟩ : BufTy).Contents (Elt F)),
    StableHlo.binary main_v11 main_v42 main_v43 (mulf : (⟨S200000x32, .f32⟩ : BufTy).Contents (Elt F) → (⟨S200000x32, .f32⟩ : BufTy).Contents (Elt F) → (⟨S200000x32, .f32⟩ : BufTy).Contents (Elt F)),
    StableHlo.binary main_v39 main_v43 main_v44 (addf : (⟨S200000x32, .f32⟩ : BufTy).Contents (Elt F) → (⟨S200000x32, .f32⟩ : BufTy).Contents (Elt F) → (⟨S200000x32, .f32⟩ : BufTy).Contents (Elt F)),
    StableHlo.unary main_arg4 main_v45 (broadcastInDim S1x32 ![1] bcast_S32_S1x32_1 : (⟨S32, .f32⟩ : BufTy).Contents (Elt F) → (⟨S1x32, .f32⟩ : BufTy).Contents (Elt F)),
    StableHlo.unary main_v45 main_v46 (broadcastInDim S200000x32 ![0, 1] bcast_S1x32_S200000x32_0_1 : (⟨S1x32, .f32⟩ : BufTy).Contents (Elt F) → (⟨S200000x32, .f32⟩ : BufTy).Contents (Elt F)),
    StableHlo.binary main_v44 main_v46 main_v47 (addf : (⟨S200000x32, .f32⟩ : BufTy).Contents (Elt F) → (⟨S200000x32, .f32⟩ : BufTy).Contents (Elt F) → (⟨S200000x32, .f32⟩ : BufTy).Contents (Elt F)),
    StableHlo.nullary main_cst_8 (constant S_ .f32 0x00000000#32),
    StableHlo.binary main_v47 main_cst_8 main_v48 ((fun x v => Host.reduceAdd x v reducesTo_S200000x32_S32_d0 h_S_) : (⟨S200000x32, .f32⟩ : BufTy).Contents (Elt F) → (⟨S_, .f32⟩ : BufTy).Contents (Elt F) → (⟨S32, .f32⟩ : BufTy).Contents (Elt F)) ]

theorem ops_w0_sub : (ops_w0 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.binary_bufs_sub ..⟩

/-- Window 1 of @main: 83 operations. -/
abbrev ops_w1 : List (HloOp τ sig (Elt F)) :=
  [ StableHlo.nullary main_cst_9 (constant S_ .f32 0x48435000#32),
    StableHlo.unary main_cst_9 main_v49 (broadcastInDim S32 ![] bcast_S_S32 : (⟨S_, .f32⟩ : BufTy).Contents (Elt F) → (⟨S32, .f32⟩ : BufTy).Contents (Elt F)),
    StableHlo.binary main_v48 main_v49 main_v50 (Host.divf : (⟨S32, .f32⟩ : BufTy).Contents (Elt F) → (⟨S32, .f32⟩ : BufTy).Contents (Elt F) → (⟨S32, .f32⟩ : BufTy).Contents (Elt F)),
    StableHlo.nullary main_c_10 (constantI S_ 32 0#32),
    StableHlo.TRef.nullary (.of main_call0_cst : StableHlo.TRef sig ⟨S_, .f32⟩) (constant S_ .f32 0x00000000#32),
    StableHlo.TRef.binary (.of main_v47 : StableHlo.TRef sig ⟨S200000x32, .f32⟩) (.of main_call0_cst : StableHlo.TRef sig ⟨S_, .f32⟩) (.of main_call0_v0 : StableHlo.TRef sig ⟨S32, .f32⟩) (fun x v => Host.reduceAdd x v reducesTo_S200000x32_S32_d0 h_S_),
    StableHlo.TRef.unary (.of main_call0_v0 : StableHlo.TRef sig ⟨S32, .f32⟩) (.of main_call0_v1 : StableHlo.TRef sig ⟨S1x32, .f32⟩) (broadcastInDim S1x32 ![1] bcast_S32_S1x32_1),
    StableHlo.TRef.nullary (.of main_call0_cst_0 : StableHlo.TRef sig ⟨S_, .f32⟩) (constant S_ .f32 0x48435000#32),
    StableHlo.TRef.unary (.of main_call0_cst_0 : StableHlo.TRef sig ⟨S_, .f32⟩) (.of main_call0_v2 : StableHlo.TRef sig ⟨S1x32, .f32⟩) (broadcastInDim S1x32 ![] bcast_S_S1x32),
    StableHlo.TRef.binary (.of main_call0_v1 : StableHlo.TRef sig ⟨S1x32, .f32⟩) (.of main_call0_v2 : StableHlo.TRef sig ⟨S1x32, .f32⟩) (.of main_call0_v3 : StableHlo.TRef sig ⟨S1x32, .f32⟩) Host.divf,
    StableHlo.TRef.unary (.of main_call0_v3 : StableHlo.TRef sig ⟨S1x32, .f32⟩) (.of main_call0_v4 : StableHlo.TRef sig ⟨S200000x32, .f32⟩) (broadcastInDim S200000x32 ![0, 1] bcast_S1x32_S200000x32_0_1),
    StableHlo.TRef.binary (.of main_v47 : StableHlo.TRef sig ⟨S200000x32, .f32⟩) (.of main_call0_v4 : StableHlo.TRef sig ⟨S200000x32, .f32⟩) (.of main_call0_v5 : StableHlo.TRef sig ⟨S200000x32, .f32⟩) subf,
    StableHlo.TRef.binary (.of main_call0_v5 : StableHlo.TRef sig ⟨S200000x32, .f32⟩) (.of main_call0_v5 : StableHlo.TRef sig ⟨S200000x32, .f32⟩) (.of main_call0_v6 : StableHlo.TRef sig ⟨S200000x32, .f32⟩) mulf,
    StableHlo.TRef.unary (.of main_c_10 : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x48435000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S200000x32, .f32⟩) (.of main_call0_cst_2 : StableHlo.TRef sig ⟨S_, .f32⟩) (.of main_call0_v9 : StableHlo.TRef sig ⟨S32, .f32⟩) (fun x v => Host.reduceAdd x v reducesTo_S200000x32_S32_d0 h_S_),
    StableHlo.TRef.unary (.of main_call0_v8 : StableHlo.TRef sig ⟨S_, .f32⟩) (.of main_call0_v10 : StableHlo.TRef sig ⟨S32, .f32⟩) (broadcastInDim S32 ![] bcast_S_S32),
    StableHlo.TRef.binary (.of main_call0_v9 : StableHlo.TRef sig ⟨S32, .f32⟩) (.of main_call0_v10 : StableHlo.TRef sig ⟨S32, .f32⟩) (.of main_call0_v11 : StableHlo.TRef sig ⟨S32, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S32, .f32⟩) (broadcastInDim S32 ![] bcast_S_S32),
    StableHlo.TRef.ternary (.of main_call0_v12 : StableHlo.TRef sig ⟨S_, .i1⟩) (.of main_call0_v11 : StableHlo.TRef sig ⟨S32, .f32⟩) (.of main_call0_call0_v1 : StableHlo.TRef sig ⟨S32, .f32⟩) (.of main_v51 : StableHlo.TRef sig ⟨S32, .f32⟩) (fun p a b => select (broadcastInDim S32 ![] bcast_S_S32 p) a b),
    StableHlo.unary main_v50 main_v52 (broadcastInDim S1x32 ![1] bcast_S32_S1x32_1 : (⟨S32, .f32⟩ : BufTy).Contents (Elt F) → (⟨S1x32, .f32⟩ : BufTy).Contents (Elt F)),
    StableHlo.unary main_v52 main_v53 (broadcastInDim S200000x32 ![0, 1] bcast_S1x32_S200000x32_0_1 : (⟨S1x32, .f32⟩ : BufTy).Contents (Elt F) → (⟨S200000x32, .f32⟩ : BufTy).Contents (Elt F)),
    StableHlo.binary main_v47 main_v53 main_v54 (subf : (⟨S200000x32, .f32⟩ : BufTy).Contents (Elt F) → (⟨S200000x32, .f32⟩ : BufTy).Contents (Elt F) → (⟨S200000x32, .f32⟩ : BufTy).Contents (Elt F)),
    StableHlo.unary main_arg5 main_v55 (broadcastInDim S1x32 ![1] bcast_S32_S1x32_1 : (⟨S32, .f32⟩ : BufTy).Contents (Elt F) → (⟨S1x32, .f32⟩ : BufTy).Contents (Elt F)),
    StableHlo.unary main_v55 main_v56 (broadcastInDim S200000x32 ![0, 1] bcast_S1x32_S200000x32_0_1 : (⟨S1x32, .f32⟩ : BufTy).Contents (Elt F) → (⟨S200000x32, .f32⟩ : BufTy).Contents (Elt F)),
    StableHlo.binary main_v56 main_v54 main_v57 (mulf : (⟨S200000x32, .f32⟩ : BufTy).Contents (Elt F) → (⟨S200000x32, .f32⟩ : BufTy).Contents (Elt F) → (⟨S200000x32, .f32⟩ : BufTy).Contents (Elt F)),
    StableHlo.nullary main_cst_11 (constant S_ .f32 0x3727C5AC#32),
    StableHlo.unary main_cst_11 main_v58 (broadcastInDim S32 ![] bcast_S_S32 : (⟨S_, .f32⟩ : BufTy).Contents (Elt F) → (⟨S32, .f32⟩ : BufTy).Contents (Elt F)),
    StableHlo.binary main_v51 main_v58 main_v59 (addf : (⟨S32, .f32⟩ : BufTy).Contents (Elt F) → (⟨S32, .f32⟩ : BufTy).Contents (Elt F) → (⟨S32, .f32⟩ : BufTy).Contents (Elt F)),
    StableHlo.unary main_v59 main_v60 (Host.rsqrt : (⟨S32, .f32⟩ : BufTy).Contents (Elt F) → (⟨S32, .f32⟩ : BufTy).Contents (Elt F)),
    StableHlo.unary main_v60 main_v61 (broadcastInDim S1x32 ![1] bcast_S32_S1x32_1 : (⟨S32, .f32⟩ : BufTy).Contents (Elt F) → (⟨S1x32, .f32⟩ : BufTy).Contents (Elt F)),
    StableHlo.unary main_v61 main_v62 (broadcastInDim S200000x32 ![0, 1] bcast_S1x32_S200000x32_0_1 : (⟨S1x32, .f32⟩ : BufTy).Contents (Elt F) → (⟨S200000x32, .f32⟩ : BufTy).Contents (Elt F)),
    StableHlo.binary main_v57 main_v62 main_v63 (mulf : (⟨S200000x32, .f32⟩ : BufTy).Contents (Elt F) → (⟨S200000x32, .f32⟩ : BufTy).Contents (Elt F) → (⟨S200000x32, .f32⟩ : BufTy).Contents (Elt F)),
    StableHlo.unary main_arg6 main_v64 (broadcastInDim S1x32 ![1] bcast_S32_S1x32_1 : (⟨S32, .f32⟩ : BufTy).Contents (Elt F) → (⟨S1x32, .f32⟩ : BufTy).Contents (Elt F)),
    StableHlo.unary main_v64 main_v65 (broadcastInDim S200000x32 ![0, 1] bcast_S1x32_S200000x32_0_1 : (⟨S1x32, .f32⟩ : BufTy).Contents (Elt F) → (⟨S200000x32, .f32⟩ : BufTy).Contents (Elt F)),
    StableHlo.binary main_v63 main_v65 main_v66 (addf : (⟨S200000x32, .f32⟩ : BufTy).Contents (Elt F) → (⟨S200000x32, .f32⟩ : BufTy).Contents (Elt F) → (⟨S200000x32, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S200000x32, .f32⟩) (broadcastInDim S200000x32 ![] bcast_S_S200000x32),
    StableHlo.TRef.binary (.of main_v66 : StableHlo.TRef sig ⟨S200000x32, .f32⟩) (.of main_call1_v0 : StableHlo.TRef sig ⟨S200000x32, .f32⟩) (.of main_v67 : StableHlo.TRef sig ⟨S200000x32, .f32⟩) maximumf,
    StableHlo.binary main_v67 main_arg7 main_v68 ((fun l r => Host.dotGeneral dot_S200000x32_S32x32_S200000x32_1_0_0_1_n_n none l r) : (⟨S200000x32, .f32⟩ : BufTy).Contents (Elt F) → (⟨S32x32, .f32⟩ : BufTy).Contents (Elt F) → (⟨S200000x32, .f32⟩ : BufTy).Contents (Elt F)),
    StableHlo.nullary main_c_12 (constantI S_ 32 0#32),
    StableHlo.unary main_c_12 main_v69 (broadcastInDim S2500000 ![] bcast_S_S2500000 : (⟨S_, .i32⟩ : BufTy).Contents (Elt F) → (⟨S2500000, .i32⟩ : BufTy).Contents (Elt F)),
    StableHlo.binary main_v1 main_v69 main_v70 (cmpi .slt : (⟨S2500000, .i32⟩ : BufTy).Contents (Elt F) → (⟨S2500000, .i32⟩ : BufTy).Contents (Elt F) → (⟨S2500000, .i1⟩ : BufTy).Contents (Elt F)),
    StableHlo.nullary main_c_13 (constantI S_ 32 200000#32),
    StableHlo.unary main_c_13 main_v71 (broadcastInDim S2500000 ![] bcast_S_S2500000 : (⟨S_, .i32⟩ : BufTy).Contents (Elt F) → (⟨S2500000, .i32⟩ : BufTy).Contents (Elt F)),
    StableHlo.binary main_v1 main_v71 main_v72 (addi : (⟨S2500000, .i32⟩ : BufTy).Contents (Elt F) → (⟨S2500000, .i32⟩ : BufTy).Contents (Elt F) → (⟨S2500000, .i32⟩ : BufTy).Contents (Elt F)),
    StableHlo.ternary main_v70 main_v72 main_v1 main_v73 (select : (⟨S2500000, .i1⟩ : BufTy).Contents (Elt F) → (⟨S2500000, .i32⟩ : BufTy).Contents (Elt F) → (⟨S2500000, .i32⟩ : BufTy).Contents (Elt F) → (⟨S2500000, .i32⟩ : BufTy).Contents (Elt F)),
    StableHlo.unary main_v73 main_v74 (broadcastInDim S2500000x1 ![0] bcast_S2500000_S2500000x1_0 : (⟨S2500000, .i32⟩ : BufTy).Contents (Elt F) → (⟨S2500000x1, .i32⟩ : BufTy).Contents (Elt F)),
    StableHlo.binary main_v10 main_v74 main_v75 ((fun x i => Host.gather gather_S200000_S2500000x1_S2500000_n_0_n_n_0_1_1 x i) : (⟨S200000, .f32⟩ : BufTy).Contents (Elt F) → (⟨S2500000x1, .i32⟩ : BufTy).Contents (Elt F) → (⟨S2500000, .f32⟩ : BufTy).Contents (Elt F)),
    StableHlo.nullary main_c_14 (constantI S_ 32 0#32),
    StableHlo.unary main_c_14 main_v76 (broadcastInDim S2500000 ![] bcast_S_S2500000 : (⟨S_, .i32⟩ : BufTy).Contents (Elt F) → (⟨S2500000, .i32⟩ : BufTy).Contents (Elt F)),
    StableHlo.binary main_v3 main_v76 main_v77 (cmpi .slt : (⟨S2500000, .i32⟩ : BufTy).Contents (Elt F) → (⟨S2500000, .i32⟩ : BufTy).Contents (Elt F) → (⟨S2500000, .i1⟩ : BufTy).Contents (Elt F)),
    StableHlo.nullary main_c_15 (constantI S_ 32 200000#32),
    StableHlo.unary main_c_15 main_v78 (broadcastInDim S2500000 ![] bcast_S_S2500000 : (⟨S_, .i32⟩ : BufTy).Contents (Elt F) → (⟨S2500000, .i32⟩ : BufTy).Contents (Elt F)),
    StableHlo.binary main_v3 main_v78 main_v79 (addi : (⟨S2500000, .i32⟩ : BufTy).Contents (Elt F) → (⟨S2500000, .i32⟩ : BufTy).Contents (Elt F) → (⟨S2500000, .i32⟩ : BufTy).Contents (Elt F)),
    StableHlo.ternary main_v77 main_v79 main_v3 main_v80 (select : (⟨S2500000, .i1⟩ : BufTy).Contents (Elt F) → (⟨S2500000, .i32⟩ : BufTy).Contents (Elt F) → (⟨S2500000, .i32⟩ : BufTy).Contents (Elt F) → (⟨S2500000, .i32⟩ : BufTy).Contents (Elt F)),
    StableHlo.unary main_v80 main_v81 (broadcastInDim S2500000x1 ![0] bcast_S2500000_S2500000x1_0 : (⟨S2500000, .i32⟩ : BufTy).Contents (Elt F) → (⟨S2500000x1, .i32⟩ : BufTy).Contents (Elt F)),
    StableHlo.binary main_v10 main_v81 main_v82 ((fun x i => Host.gather gather_S200000_S2500000x1_S2500000_n_0_n_n_0_1_1 x i) : (⟨S200000, .f32⟩ : BufTy).Contents (Elt F) → (⟨S2500000x1, .i32⟩ : BufTy).Contents (Elt F) → (⟨S2500000, .f32⟩ : BufTy).Contents (Elt F)),
    StableHlo.binary main_v75 main_v82 main_v83 (mulf : (⟨S2500000, .f32⟩ : BufTy).Contents (Elt F) → (⟨S2500000, .f32⟩ : BufTy).Contents (Elt F) → (⟨S2500000, .f32⟩ : BufTy).Contents (Elt F)),
    StableHlo.nullary main_c_16 (constantI S_ 32 0#32),
    StableHlo.unary main_c_16 main_v84 (broadcastInDim S2500000 ![] bcast_S_S2500000 : (⟨S_, .i32⟩ : BufTy).Contents (Elt F) → (⟨S2500000, .i32⟩ : BufTy).Contents (Elt F)),
    StableHlo.binary main_v1 main_v84 main_v85 (cmpi .slt : (⟨S2500000, .i32⟩ : BufTy).Contents (Elt F) → (⟨S2500000, .i32⟩ : BufTy).Contents (Elt F) → (⟨S2500000, .i1⟩ : BufTy).Contents (Elt F)),
    StableHlo.nullary main_c_17 (constantI S_ 32 200000#32),
    StableHlo.unary main_c_17 main_v86 (broadcastInDim S2500000 ![] bcast_S_S2500000 : (⟨S_, .i32⟩ : BufTy).Contents (Elt F) → (⟨S2500000, .i32⟩ : BufTy).Contents (Elt F)),
    StableHlo.binary main_v1 main_v86 main_v87 (addi : (⟨S2500000, .i32⟩ : BufTy).Contents (Elt F) → (⟨S2500000, .i32⟩ : BufTy).Contents (Elt F) → (⟨S2500000, .i32⟩ : BufTy).Contents (Elt F)),
    StableHlo.ternary main_v85 main_v87 main_v1 main_v88 (select : (⟨S2500000, .i1⟩ : BufTy).Contents (Elt F) → (⟨S2500000, .i32⟩ : BufTy).Contents (Elt F) → (⟨S2500000, .i32⟩ : BufTy).Contents (Elt F) → (⟨S2500000, .i32⟩ : BufTy).Contents (Elt F)),
    StableHlo.unary main_v88 main_v89 (broadcastInDim S2500000x1 ![0] bcast_S2500000_S2500000x1_0 : (⟨S2500000, .i32⟩ : BufTy).Contents (Elt F) → (⟨S2500000x1, .i32⟩ : BufTy).Contents (Elt F)),
    StableHlo.binary main_v68 main_v89 main_v90 ((fun x i => Host.gather gather_S200000x32_S2500000x1_S2500000x32_1_0_n_n_0_1_132 x i) : (⟨S200000x32, .f32⟩ : BufTy).Contents (Elt F) → (⟨S2500000x1, .i32⟩ : BufTy).Contents (Elt F) → (⟨S2500000x32, .f32⟩ : BufTy).Contents (Elt F)),
    StableHlo.unary main_v83 main_v91 (broadcastInDim S2500000x1 ![0] bcast_S2500000_S2500000x1_0 : (⟨S2500000, .f32⟩ : BufTy).Contents (Elt F) → (⟨S2500000x1, .f32⟩ : BufTy).Contents (Elt F)),
    StableHlo.unary main_v91 main_v92 (broadcastInDim S2500000x32 ![0, 1] bcast_S2500000x1_S2500000x32_0_1 : (⟨S2500000x1, .f32⟩ : BufTy).Contents (Elt F) → (⟨S2500000x32, .f32⟩ : BufTy).Contents (Elt F)),
    StableHlo.binary main_v90 main_v92 main_v93 (mulf : (⟨S2500000x32, .f32⟩ : BufTy).Contents (Elt F) → (⟨S2500000x32, .f32⟩ : BufTy).Contents (Elt F) → (⟨S2500000x32, .f32⟩ : BufTy).Contents (Elt F)),
    StableHlo.nullary main_cst_18 (constant S_ .f32 0x00000000#32),
    StableHlo.unary main_cst_18 main_v94 (broadcastInDim S200000x32 ![] bcast_S_S200000x32 : (⟨S_, .f32⟩ : BufTy).Contents (Elt F) → (⟨S200000x32, .f32⟩ : BufTy).Contents (Elt F)),
    StableHlo.unary main_v3 main_v95 (broadcastInDim S2500000x1 ![0] bcast_S2500000_S2500000x1_0 : (⟨S2500000, .i32⟩ : BufTy).Contents (Elt F) → (⟨S2500000x1, .i32⟩ : BufTy).Contents (Elt F)),
    StableHlo.ternary main_v94 main_v95 main_v93 main_v96 ((fun x i u => Host.scatterAdd scatter_S200000x32_S2500000x1_S2500000x32_1_0_0_1 x i u) : (⟨S200000x32, .f32⟩ : BufTy).Contents (Elt F) → (⟨S2500000x1, .i32⟩ : BufTy).Contents (Elt F) → (⟨S2500000x32, .f32⟩ : BufTy).Contents (Elt F) → (⟨S200000x32, .f32⟩ : BufTy).Contents (Elt F)),
    StableHlo.binary main_v10 main_v10 main_v97 (mulf : (⟨S200000, .f32⟩ : BufTy).Contents (Elt F) → (⟨S200000, .f32⟩ : BufTy).Contents (Elt F) → (⟨S200000, .f32⟩ : BufTy).Contents (Elt F)),
    StableHlo.unary main_v97 main_v98 (broadcastInDim S200000x1 ![0] bcast_S200000_S200000x1_0 : (⟨S200000, .f32⟩ : BufTy).Contents (Elt F) → (⟨S200000x1, .f32⟩ : BufTy).Contents (Elt F)) ]

theorem ops_w1_sub : (ops_w1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.unary_bufs_sub ..⟩

/-- Window 2 of @main: 83 operations. -/
abbrev ops_w2 : List (HloOp τ sig (Elt F)) :=
  [ StableHlo.unary main_v98 main_v99 (broadcastInDim S200000x32 ![0, 1] bcast_S200000x1_S200000x32_0_1 : (⟨S200000x1, .f32⟩ : BufTy).Contents (Elt F) → (⟨S200000x32, .f32⟩ : BufTy).Contents (Elt F)),
    StableHlo.binary main_v68 main_v99 main_v100 (mulf : (⟨S200000x32, .f32⟩ : BufTy).Contents (Elt F) → (⟨S200000x32, .f32⟩ : BufTy).Contents (Elt F) → (⟨S200000x32, .f32⟩ : BufTy).Contents (Elt F)),
    StableHlo.binary main_v96 main_v100 main_v101 (addf : (⟨S200000x32, .f32⟩ : BufTy).Contents (Elt F) → (⟨S200000x32, .f32⟩ : BufTy).Contents (Elt F) → (⟨S200000x32, .f32⟩ : BufTy).Contents (Elt F)),
    StableHlo.unary main_arg8 main_v102 (broadcastInDim S1x32 ![1] bcast_S32_S1x32_1 : (⟨S32, .f32⟩ : BufTy).Contents (Elt F) → (⟨S1x32, .f32⟩ : BufTy).Contents (Elt F)),
    StableHlo.unary main_v102 main_v103 (broadcastInDim S200000x32 ![0, 1] bcast_S1x32_S200000x32_0_1 : (⟨S1x32, .f32⟩ : BufTy).Contents (Elt F) → (⟨S200000x32, .f32⟩ : BufTy).Contents (Elt F)),
    StableHlo.binary main_v101 main_v103 main_v104 (addf : (⟨S200000x32, .f32⟩ : BufTy).Contents (Elt F) → (⟨S200000x32, .f32⟩ : BufTy).Contents (Elt F) → (⟨S200000x32, .f32⟩ : BufTy).Contents (Elt F)),
    StableHlo.nullary main_cst_19 (constant S_ .f32 0x00000000#32),
    StableHlo.binary main_v104 main_cst_19 main_v105 ((fun x v => Host.reduceAdd x v reducesTo_S200000x32_S32_d0 h_S_) : (⟨S200000x32, .f32⟩ : BufTy).Contents (Elt F) → (⟨S_, .f32⟩ : BufTy).Contents (Elt F) → (⟨S32, .f32⟩ : BufTy).Contents (Elt F)),
    StableHlo.nullary main_cst_20 (constant S_ .f32 0x48435000#32),
    StableHlo.unary main_cst_20 main_v106 (broadcastInDim S32 ![] bcast_S_S32 : (⟨S_, .f32⟩ : BufTy).Contents (Elt F) → (⟨S32, .f32⟩ : BufTy).Contents (Elt F)),
    StableHlo.binary main_v105 main_v106 main_v107 (Host.divf : (⟨S32, .f32⟩ : BufTy).Contents (Elt F) → (⟨S32, .f32⟩ : BufTy).Contents (Elt F) → (⟨S32, .f32⟩ : BufTy).Contents (Elt F)),
    StableHlo.nullary main_c_21 (constantI S_ 32 0#32),
    StableHlo.TRef.nullary (.of main_call2_cst : StableHlo.TRef sig ⟨S_, .f32⟩) (constant S_ .f32 0x00000000#32),
    StableHlo.TRef.binary (.of main_v104 : StableHlo.TRef sig ⟨S200000x32, .f32⟩) (.of main_call2_cst : StableHlo.TRef sig ⟨S_, .f32⟩) (.of main_call2_v0 : StableHlo.TRef sig ⟨S32, .f32⟩) (fun x v => Host.reduceAdd x v reducesTo_S200000x32_S32_d0 h_S_),
    StableHlo.TRef.unary (.of main_call2_v0 : StableHlo.TRef sig ⟨S32, .f32⟩) (.of main_call2_v1 : StableHlo.TRef sig ⟨S1x32, .f32⟩) (broadcastInDim S1x32 ![1] bcast_S32_S1x32_1),
    StableHlo.TRef.nullary (.of main_call2_cst_0 : StableHlo.TRef sig ⟨S_, .f32⟩) (constant S_ .f32 0x48435000#32),
    StableHlo.TRef.unary (.of main_call2_cst_0 : StableHlo.TRef sig ⟨S_, .f32⟩) (.of main_call2_v2 : StableHlo.TRef sig ⟨S1x32, .f32⟩) (broadcastInDim S1x32 ![] bcast_S_S1x32),
    StableHlo.TRef.binary (.of main_call2_v1 : StableHlo.TRef sig ⟨S1x32, .f32⟩) (.of main_call2_v2 : StableHlo.TRef sig ⟨S1x32, .f32⟩) (.of main_call2_v3 : StableHlo.TRef sig ⟨S1x32, .f32⟩) Host.divf,
    StableHlo.TRef.unary (.of main_call2_v3 : StableHlo.TRef sig ⟨S1x32, .f32⟩) (.of main_call2_v4 : StableHlo.TRef sig ⟨S200000x32, .f32⟩) (broadcastInDim S200000x32 ![0, 1] bcast_S1x32_S200000x32_0_1),
    StableHlo.TRef.binary (.of main_v104 : StableHlo.TRef sig ⟨S200000x32, .f32⟩) (.of main_call2_v4 : StableHlo.TRef sig ⟨S200000x32, .f32⟩) (.of main_call2_v5 : StableHlo.TRef sig ⟨S200000x32, .f32⟩) subf,
    StableHlo.TRef.binary (.of main_call2_v5 : StableHlo.TRef sig ⟨S200000x32, .f32⟩) (.of main_call2_v5 : StableHlo.TRef sig ⟨S200000x32, .f32⟩) (.of main_call2_v6 : StableHlo.TRef sig ⟨S200000x32, .f32⟩) mulf,
    StableHlo.TRef.unary (.of main_c_21 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x48435000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S200000x32, .f32⟩) (.of main_call2_cst_2 : StableHlo.TRef sig ⟨S_, .f32⟩) (.of main_call2_v9 : StableHlo.TRef sig ⟨S32, .f32⟩) (fun x v => Host.reduceAdd x v reducesTo_S200000x32_S32_d0 h_S_),
    StableHlo.TRef.unary (.of main_call2_v8 : StableHlo.TRef sig ⟨S_, .f32⟩) (.of main_call2_v10 : StableHlo.TRef sig ⟨S32, .f32⟩) (broadcastInDim S32 ![] bcast_S_S32),
    StableHlo.TRef.binary (.of main_call2_v9 : StableHlo.TRef sig ⟨S32, .f32⟩) (.of main_call2_v10 : StableHlo.TRef sig ⟨S32, .f32⟩) (.of main_call2_v11 : StableHlo.TRef sig ⟨S32, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S32, .f32⟩) (broadcastInDim S32 ![] bcast_S_S32),
    StableHlo.TRef.ternary (.of main_call2_v12 : StableHlo.TRef sig ⟨S_, .i1⟩) (.of main_call2_v11 : StableHlo.TRef sig ⟨S32, .f32⟩) (.of main_call2_call0_v1 : StableHlo.TRef sig ⟨S32, .f32⟩) (.of main_v108 : StableHlo.TRef sig ⟨S32, .f32⟩) (fun p a b => select (broadcastInDim S32 ![] bcast_S_S32 p) a b),
    StableHlo.unary main_v107 main_v109 (broadcastInDim S1x32 ![1] bcast_S32_S1x32_1 : (⟨S32, .f32⟩ : BufTy).Contents (Elt F) → (⟨S1x32, .f32⟩ : BufTy).Contents (Elt F)),
    StableHlo.unary main_v109 main_v110 (broadcastInDim S200000x32 ![0, 1] bcast_S1x32_S200000x32_0_1 : (⟨S1x32, .f32⟩ : BufTy).Contents (Elt F) → (⟨S200000x32, .f32⟩ : BufTy).Contents (Elt F)),
    StableHlo.binary main_v104 main_v110 main_v111 (subf : (⟨S200000x32, .f32⟩ : BufTy).Contents (Elt F) → (⟨S200000x32, .f32⟩ : BufTy).Contents (Elt F) → (⟨S200000x32, .f32⟩ : BufTy).Contents (Elt F)),
    StableHlo.unary main_arg9 main_v112 (broadcastInDim S1x32 ![1] bcast_S32_S1x32_1 : (⟨S32, .f32⟩ : BufTy).Contents (Elt F) → (⟨S1x32, .f32⟩ : BufTy).Contents (Elt F)),
    StableHlo.unary main_v112 main_v113 (broadcastInDim S200000x32 ![0, 1] bcast_S1x32_S200000x32_0_1 : (⟨S1x32, .f32⟩ : BufTy).Contents (Elt F) → (⟨S200000x32, .f32⟩ : BufTy).Contents (Elt F)),
    StableHlo.binary main_v113 main_v111 main_v114 (mulf : (⟨S200000x32, .f32⟩ : BufTy).Contents (Elt F) → (⟨S200000x32, .f32⟩ : BufTy).Contents (Elt F) → (⟨S200000x32, .f32⟩ : BufTy).Contents (Elt F)),
    StableHlo.nullary main_cst_22 (constant S_ .f32 0x3727C5AC#32),
    StableHlo.unary main_cst_22 main_v115 (broadcastInDim S32 ![] bcast_S_S32 : (⟨S_, .f32⟩ : BufTy).Contents (Elt F) → (⟨S32, .f32⟩ : BufTy).Contents (Elt F)),
    StableHlo.binary main_v108 main_v115 main_v116 (addf : (⟨S32, .f32⟩ : BufTy).Contents (Elt F) → (⟨S32, .f32⟩ : BufTy).Contents (Elt F) → (⟨S32, .f32⟩ : BufTy).Contents (Elt F)),
    StableHlo.unary main_v116 main_v117 (Host.rsqrt : (⟨S32, .f32⟩ : BufTy).Contents (Elt F) → (⟨S32, .f32⟩ : BufTy).Contents (Elt F)),
    StableHlo.unary main_v117 main_v118 (broadcastInDim S1x32 ![1] bcast_S32_S1x32_1 : (⟨S32, .f32⟩ : BufTy).Contents (Elt F) → (⟨S1x32, .f32⟩ : BufTy).Contents (Elt F)),
    StableHlo.unary main_v118 main_v119 (broadcastInDim S200000x32 ![0, 1] bcast_S1x32_S200000x32_0_1 : (⟨S1x32, .f32⟩ : BufTy).Contents (Elt F) → (⟨S200000x32, .f32⟩ : BufTy).Contents (Elt F)),
    StableHlo.binary main_v114 main_v119 main_v120 (mulf : (⟨S200000x32, .f32⟩ : BufTy).Contents (Elt F) → (⟨S200000x32, .f32⟩ : BufTy).Contents (Elt F) → (⟨S200000x32, .f32⟩ : BufTy).Contents (Elt F)),
    StableHlo.unary main_arg10 main_v121 (broadcastInDim S1x32 ![1] bcast_S32_S1x32_1 : (⟨S32, .f32⟩ : BufTy).Contents (Elt F) → (⟨S1x32, .f32⟩ : BufTy).Contents (Elt F)),
    StableHlo.unary main_v121 main_v122 (broadcastInDim S200000x32 ![0, 1] bcast_S1x32_S200000x32_0_1 : (⟨S1x32, .f32⟩ : BufTy).Contents (Elt F) → (⟨S200000x32, .f32⟩ : BufTy).Contents (Elt F)),
    StableHlo.binary main_v120 main_v122 main_v123 (addf : (⟨S200000x32, .f32⟩ : BufTy).Contents (Elt F) → (⟨S200000x32, .f32⟩ : BufTy).Contents (Elt F) → (⟨S200000x32, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S200000x32, .f32⟩) (broadcastInDim S200000x32 ![] bcast_S_S200000x32),
    StableHlo.TRef.binary (.of main_v123 : StableHlo.TRef sig ⟨S200000x32, .f32⟩) (.of main_call3_v0 : StableHlo.TRef sig ⟨S200000x32, .f32⟩) (.of main_v124 : StableHlo.TRef sig ⟨S200000x32, .f32⟩) maximumf,
    StableHlo.binary main_v124 main_arg11 main_v125 ((fun l r => Host.dotGeneral dot_S200000x32_S32x32_S200000x32_1_0_0_1_n_n none l r) : (⟨S200000x32, .f32⟩ : BufTy).Contents (Elt F) → (⟨S32x32, .f32⟩ : BufTy).Contents (Elt F) → (⟨S200000x32, .f32⟩ : BufTy).Contents (Elt F)),
    StableHlo.nullary main_c_23 (constantI S_ 32 0#32),
    StableHlo.unary main_c_23 main_v126 (broadcastInDim S2500000 ![] bcast_S_S2500000 : (⟨S_, .i32⟩ : BufTy).Contents (Elt F) → (⟨S2500000, .i32⟩ : BufTy).Contents (Elt F)),
    StableHlo.binary main_v1 main_v126 main_v127 (cmpi .slt : (⟨S2500000, .i32⟩ : BufTy).Contents (Elt F) → (⟨S2500000, .i32⟩ : BufTy).Contents (Elt F) → (⟨S2500000, .i1⟩ : BufTy).Contents (Elt F)),
    StableHlo.nullary main_c_24 (constantI S_ 32 200000#32),
    StableHlo.unary main_c_24 main_v128 (broadcastInDim S2500000 ![] bcast_S_S2500000 : (⟨S_, .i32⟩ : BufTy).Contents (Elt F) → (⟨S2500000, .i32⟩ : BufTy).Contents (Elt F)),
    StableHlo.binary main_v1 main_v128 main_v129 (addi : (⟨S2500000, .i32⟩ : BufTy).Contents (Elt F) → (⟨S2500000, .i32⟩ : BufTy).Contents (Elt F) → (⟨S2500000, .i32⟩ : BufTy).Contents (Elt F)),
    StableHlo.ternary main_v127 main_v129 main_v1 main_v130 (select : (⟨S2500000, .i1⟩ : BufTy).Contents (Elt F) → (⟨S2500000, .i32⟩ : BufTy).Contents (Elt F) → (⟨S2500000, .i32⟩ : BufTy).Contents (Elt F) → (⟨S2500000, .i32⟩ : BufTy).Contents (Elt F)),
    StableHlo.unary main_v130 main_v131 (broadcastInDim S2500000x1 ![0] bcast_S2500000_S2500000x1_0 : (⟨S2500000, .i32⟩ : BufTy).Contents (Elt F) → (⟨S2500000x1, .i32⟩ : BufTy).Contents (Elt F)),
    StableHlo.binary main_v10 main_v131 main_v132 ((fun x i => Host.gather gather_S200000_S2500000x1_S2500000_n_0_n_n_0_1_1 x i) : (⟨S200000, .f32⟩ : BufTy).Contents (Elt F) → (⟨S2500000x1, .i32⟩ : BufTy).Contents (Elt F) → (⟨S2500000, .f32⟩ : BufTy).Contents (Elt F)),
    StableHlo.nullary main_c_25 (constantI S_ 32 0#32),
    StableHlo.unary main_c_25 main_v133 (broadcastInDim S2500000 ![] bcast_S_S2500000 : (⟨S_, .i32⟩ : BufTy).Contents (Elt F) → (⟨S2500000, .i32⟩ : BufTy).Contents (Elt F)),
    StableHlo.binary main_v3 main_v133 main_v134 (cmpi .slt : (⟨S2500000, .i32⟩ : BufTy).Contents (Elt F) → (⟨S2500000, .i32⟩ : BufTy).Contents (Elt F) → (⟨S2500000, .i1⟩ : BufTy).Contents (Elt F)),
    StableHlo.nullary main_c_26 (constantI S_ 32 200000#32),
    StableHlo.unary main_c_26 main_v135 (broadcastInDim S2500000 ![] bcast_S_S2500000 : (⟨S_, .i32⟩ : BufTy).Contents (Elt F) → (⟨S2500000, .i32⟩ : BufTy).Contents (Elt F)),
    StableHlo.binary main_v3 main_v135 main_v136 (addi : (⟨S2500000, .i32⟩ : BufTy).Contents (Elt F) → (⟨S2500000, .i32⟩ : BufTy).Contents (Elt F) → (⟨S2500000, .i32⟩ : BufTy).Contents (Elt F)),
    StableHlo.ternary main_v134 main_v136 main_v3 main_v137 (select : (⟨S2500000, .i1⟩ : BufTy).Contents (Elt F) → (⟨S2500000, .i32⟩ : BufTy).Contents (Elt F) → (⟨S2500000, .i32⟩ : BufTy).Contents (Elt F) → (⟨S2500000, .i32⟩ : BufTy).Contents (Elt F)),
    StableHlo.unary main_v137 main_v138 (broadcastInDim S2500000x1 ![0] bcast_S2500000_S2500000x1_0 : (⟨S2500000, .i32⟩ : BufTy).Contents (Elt F) → (⟨S2500000x1, .i32⟩ : BufTy).Contents (Elt F)),
    StableHlo.binary main_v10 main_v138 main_v139 ((fun x i => Host.gather gather_S200000_S2500000x1_S2500000_n_0_n_n_0_1_1 x i) : (⟨S200000, .f32⟩ : BufTy).Contents (Elt F) → (⟨S2500000x1, .i32⟩ : BufTy).Contents (Elt F) → (⟨S2500000, .f32⟩ : BufTy).Contents (Elt F)),
    StableHlo.binary main_v132 main_v139 main_v140 (mulf : (⟨S2500000, .f32⟩ : BufTy).Contents (Elt F) → (⟨S2500000, .f32⟩ : BufTy).Contents (Elt F) → (⟨S2500000, .f32⟩ : BufTy).Contents (Elt F)),
    StableHlo.nullary main_c_27 (constantI S_ 32 0#32),
    StableHlo.unary main_c_27 main_v141 (broadcastInDim S2500000 ![] bcast_S_S2500000 : (⟨S_, .i32⟩ : BufTy).Contents (Elt F) → (⟨S2500000, .i32⟩ : BufTy).Contents (Elt F)),
    StableHlo.binary main_v1 main_v141 main_v142 (cmpi .slt : (⟨S2500000, .i32⟩ : BufTy).Contents (Elt F) → (⟨S2500000, .i32⟩ : BufTy).Contents (Elt F) → (⟨S2500000, .i1⟩ : BufTy).Contents (Elt F)),
    StableHlo.nullary main_c_28 (constantI S_ 32 200000#32),
    StableHlo.unary main_c_28 main_v143 (broadcastInDim S2500000 ![] bcast_S_S2500000 : (⟨S_, .i32⟩ : BufTy).Contents (Elt F) → (⟨S2500000, .i32⟩ : BufTy).Contents (Elt F)),
    StableHlo.binary main_v1 main_v143 main_v144 (addi : (⟨S2500000, .i32⟩ : BufTy).Contents (Elt F) → (⟨S2500000, .i32⟩ : BufTy).Contents (Elt F) → (⟨S2500000, .i32⟩ : BufTy).Contents (Elt F)),
    StableHlo.ternary main_v142 main_v144 main_v1 main_v145 (select : (⟨S2500000, .i1⟩ : BufTy).Contents (Elt F) → (⟨S2500000, .i32⟩ : BufTy).Contents (Elt F) → (⟨S2500000, .i32⟩ : BufTy).Contents (Elt F) → (⟨S2500000, .i32⟩ : BufTy).Contents (Elt F)),
    StableHlo.unary main_v145 main_v146 (broadcastInDim S2500000x1 ![0] bcast_S2500000_S2500000x1_0 : (⟨S2500000, .i32⟩ : BufTy).Contents (Elt F) → (⟨S2500000x1, .i32⟩ : BufTy).Contents (Elt F)),
    StableHlo.binary main_v125 main_v146 main_v147 ((fun x i => Host.gather gather_S200000x32_S2500000x1_S2500000x32_1_0_n_n_0_1_132 x i) : (⟨S200000x32, .f32⟩ : BufTy).Contents (Elt F) → (⟨S2500000x1, .i32⟩ : BufTy).Contents (Elt F) → (⟨S2500000x32, .f32⟩ : BufTy).Contents (Elt F)),
    StableHlo.unary main_v140 main_v148 (broadcastInDim S2500000x1 ![0] bcast_S2500000_S2500000x1_0 : (⟨S2500000, .f32⟩ : BufTy).Contents (Elt F) → (⟨S2500000x1, .f32⟩ : BufTy).Contents (Elt F)) ]

theorem ops_w2_sub : (ops_w2 : List (HloOp τ sig (Elt F))).Forall fun op => op.bufs ⊆ StableHlo.tcRefs τ sig :=
  ⟨StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub ..⟩

/-- Window 3 of @main: 65 operations. -/
abbrev ops_w3 : List (HloOp τ sig (Elt F)) :=
  [ StableHlo.unary main_v148 main_v149 (broadcastInDim S2500000x32 ![0, 1] bcast_S2500000x1_S2500000x32_0_1 : (⟨S2500000x1, .f32⟩ : BufTy).Contents (Elt F) → (⟨S2500000x32, .f32⟩ : BufTy).Contents (Elt F)),
    StableHlo.binary main_v147 main_v149 main_v150 (mulf : (⟨S2500000x32, .f32⟩ : BufTy).Contents (Elt F) → (⟨S2500000x32, .f32⟩ : BufTy).Contents (Elt F) → (⟨S2500000x32, .f32⟩ : BufTy).Contents (Elt F)),
    StableHlo.nullary main_cst_29 (constant S_ .f32 0x00000000#32),
    StableHlo.unary main_cst_29 main_v151 (broadcastInDim S200000x32 ![] bcast_S_S200000x32 : (⟨S_, .f32⟩ : BufTy).Contents (Elt F) → (⟨S200000x32, .f32⟩ : BufTy).Contents (Elt F)),
    StableHlo.unary main_v3 main_v152 (broadcastInDim S2500000x1 ![0] bcast_S2500000_S2500000x1_0 : (⟨S2500000, .i32⟩ : BufTy).Contents (Elt F) → (⟨S2500000x1, .i32⟩ : BufTy).Contents (Elt F)),
    StableHlo.ternary main_v151 main_v152 main_v150 main_v153 ((fun x i u => Host.scatterAdd scatter_S200000x32_S2500000x1_S2500000x32_1_0_0_1 x i u) : (⟨S200000x32, .f32⟩ : BufTy).Contents (Elt F) → (⟨S2500000x1, .i32⟩ : BufTy).Contents (Elt F) → (⟨S2500000x32, .f32⟩ : BufTy).Contents (Elt F) → (⟨S200000x32, .f32⟩ : BufTy).Contents (Elt F)),
    StableHlo.binary main_v10 main_v10 main_v154 (mulf : (⟨S200000, .f32⟩ : BufTy).Contents (Elt F) → (⟨S200000, .f32⟩ : BufTy).Contents (Elt F) → (⟨S200000, .f32⟩ : BufTy).Contents (Elt F)),
    StableHlo.unary main_v154 main_v155 (broadcastInDim S200000x1 ![0] bcast_S200000_S200000x1_0 : (⟨S200000, .f32⟩ : BufTy).Contents (Elt F) → (⟨S200000x1, .f32⟩ : BufTy).Contents (Elt F)),
    StableHlo.unary main_v155 main_v156 (broadcastInDim S200000x32 ![0, 1] bcast_S200000x1_S200000x32_0_1 : (⟨S200000x1, .f32⟩ : BufTy).Contents (Elt F) → (⟨S200000x32, .f32⟩ : BufTy).Contents (Elt F)),
    StableHlo.binary main_v125 main_v156 main_v157 (mulf : (⟨S200000x32, .f32⟩ : BufTy).Contents (Elt F) → (⟨S200000x32, .f32⟩ : BufTy).Contents (Elt F) → (⟨S200000x32, .f32⟩ : BufTy).Contents (Elt F)),
    StableHlo.binary main_v153 main_v157 main_v158 (addf : (⟨S200000x32, .f32⟩ : BufTy).Contents (Elt F) → (⟨S200000x32, .f32⟩ : BufTy).Contents (Elt F) → (⟨S200000x32, .f32⟩ : BufTy).Contents (Elt F)),
    StableHlo.unary main_arg12 main_v159 (broadcastInDim S1x32 ![1] bcast_S32_S1x32_1 : (⟨S32, .f32⟩ : BufTy).Contents (Elt F) → (⟨S1x32, .f32⟩ : BufTy).Contents (Elt F)),
    StableHlo.unary main_v159 main_v160 (broadcastInDim S200000x32 ![0, 1] bcast_S1x32_S200000x32_0_1 : (⟨S1x32, .f32⟩ : BufTy).Contents (Elt F) → (⟨S200000x32, .f32⟩ : BufTy).Contents (Elt F)),
    StableHlo.binary main_v158 main_v160 main_v161 (addf : (⟨S200000x32, .f32⟩ : BufTy).Contents (Elt F) → (⟨S200000x32, .f32⟩ : BufTy).Contents (Elt F) → (⟨S200000x32, .f32⟩ : BufTy).Contents (Elt F)),
    StableHlo.nullary main_cst_30 (constant S_ .f32 0x00000000#32),
    StableHlo.binary main_v161 main_cst_30 main_v162 ((fun x v => Host.reduceAdd x v reducesTo_S200000x32_S32_d0 h_S_) : (⟨S200000x32, .f32⟩ : BufTy).Contents (Elt F) → (⟨S_, .f32⟩ : BufTy).Contents (Elt F) → (⟨S32, .f32⟩ : BufTy).Contents (Elt F)),
    StableHlo.nullary main_cst_31 (constant S_ .f32 0x48435000#32),
    StableHlo.unary main_cst_31 main_v163 (broadcastInDim S32 ![] bcast_S_S32 : (⟨S_, .f32⟩ : BufTy).Contents (Elt F) → (⟨S32, .f32⟩ : BufTy).Contents (Elt F)),
    StableHlo.binary main_v162 main_v163 main_v164 (Host.divf : (⟨S32, .f32⟩ : BufTy).Contents (Elt F) → (⟨S32, .f32⟩ : BufTy).Contents (Elt F) → (⟨S32, .f32⟩ : BufTy).Contents (Elt F)),
    StableHlo.nullary main_c_32 (constantI S_ 32 0#32),
    StableHlo.TRef.nullary (.of main_call4_cst : StableHlo.TRef sig ⟨S_, .f32⟩) (constant S_ .f32 0x00000000#32),
    StableHlo.TRef.binary (.of main_v161 : StableHlo.TRef sig ⟨S200000x32, .f32⟩) (.of main_call4_cst : StableHlo.TRef sig ⟨S_, .f32⟩) (.of main_call4_v0 : StableHlo.TRef sig ⟨S32, .f32⟩) (fun x v => Host.reduceAdd x v reducesTo_S200000x32_S32_d0 h_S_),
    StableHlo.TRef.unary (.of main_call4_v0 : StableHlo.TRef sig ⟨S32, .f32⟩) (.of main_call4_v1 : StableHlo.TRef sig ⟨S1x32, .f32⟩) (broadcastInDim S1x32 ![1] bcast_S32_S1x32_1),
    StableHlo.TRef.nullary (.of main_call4_cst_0 : StableHlo.TRef sig ⟨S_, .f32⟩) (constant S_ .f32 0x48435000#32),
    StableHlo.TRef.unary (.of main_call4_cst_0 : StableHlo.TRef sig ⟨S_, .f32⟩) (.of main_call4_v2 : StableHlo.TRef sig ⟨S1x32, .f32⟩) (broadcastInDim S1x32 ![] bcast_S_S1x32),
    StableHlo.TRef.binary (.of main_call4_v1 : StableHlo.TRef sig ⟨S1x32, .f32⟩) (.of main_call4_v2 : StableHlo.TRef sig ⟨S1x32, .f32⟩) (.of main_call4_v3 : StableHlo.TRef sig ⟨S1x32, .f32⟩) Host.divf,
    StableHlo.TRef.unary (.of main_call4_v3 : StableHlo.TRef sig ⟨S1x32, .f32⟩) (.of main_call4_v4 : StableHlo.TRef sig ⟨S200000x32, .f32⟩) (broadcastInDim S200000x32 ![0, 1] bcast_S1x32_S200000x32_0_1),
    StableHlo.TRef.binary (.of main_v161 : StableHlo.TRef sig ⟨S200000x32, .f32⟩) (.of main_call4_v4 : StableHlo.TRef sig ⟨S200000x32, .f32⟩) (.of main_call4_v5 : StableHlo.TRef sig ⟨S200000x32, .f32⟩) subf,
    StableHlo.TRef.binary (.of main_call4_v5 : StableHlo.TRef sig ⟨S200000x32, .f32⟩) (.of main_call4_v5 : StableHlo.TRef sig ⟨S200000x32, .f32⟩) (.of main_call4_v6 : StableHlo.TRef sig ⟨S200000x32, .f32⟩) mulf,
    StableHlo.TRef.unary (.of main_c_32 : StableHlo.TRef sig ⟨S_, .i32⟩) (.of main_call4_v7 : StableHlo.TRef sig ⟨S_, .f32⟩) (sitofp .f32),
    StableHlo.TRef.nullary (.of main_call4_cst_1 : StableHlo.TRef sig ⟨S_, .f32⟩) (constant S_ .f32 0x48435000#32),
    StableHlo.TRef.binary (.of main_call4_cst_1 : StableHlo.TRef sig ⟨S_, .f32⟩) (.of main_call4_v7 : StableHlo.TRef sig ⟨S_, .f32⟩) (.of main_call4_v8 : StableHlo.TRef sig ⟨S_, .f32⟩) subf,
    StableHlo.TRef.nullary (.of main_call4_cst_2 : StableHlo.TRef sig ⟨S_, .f32⟩) (constant S_ .f32 0x00000000#32),
    StableHlo.TRef.binary (.of main_call4_v6 : StableHlo.TRef sig ⟨S200000x32, .f32⟩) (.of main_call4_cst_2 : StableHlo.TRef sig ⟨S_, .f32⟩) (.of main_call4_v9 : StableHlo.TRef sig ⟨S32, .f32⟩) (fun x v => Host.reduceAdd x v reducesTo_S200000x32_S32_d0 h_S_),
    StableHlo.TRef.unary (.of main_call4_v8 : StableHlo.TRef sig ⟨S_, .f32⟩) (.of main_call4_v10 : StableHlo.TRef sig ⟨S32, .f32⟩) (broadcastInDim S32 ![] bcast_S_S32),
    StableHlo.TRef.binary (.of main_call4_v9 : StableHlo.TRef sig ⟨S32, .f32⟩) (.of main_call4_v10 : StableHlo.TRef sig ⟨S32, .f32⟩) (.of main_call4_v11 : StableHlo.TRef sig ⟨S32, .f32⟩) Host.divf,
    StableHlo.TRef.nullary (.of main_call4_cst_3 : StableHlo.TRef sig ⟨S_, .f32⟩) (constant S_ .f32 0x00000000#32),
    StableHlo.TRef.binary (.of main_call4_v8 : StableHlo.TRef sig ⟨S_, .f32⟩) (.of main_call4_cst_3 : StableHlo.TRef sig ⟨S_, .f32⟩) (.of main_call4_v12 : StableHlo.TRef sig ⟨S_, .i1⟩) (cmpf .ogt),
    StableHlo.TRef.nullary (.of main_call4_cst_4 : StableHlo.TRef sig ⟨S_, .f32⟩) (constant S_ .f32 0x7FC00000#32),
    StableHlo.TRef.unary (.of main_call4_cst_4 : StableHlo.TRef sig ⟨S_, .f32⟩) (.of main_call4_call0_v0 : StableHlo.TRef sig ⟨S_, .f32⟩) id,
    StableHlo.TRef.unary (.of main_call4_call0_v0 : StableHlo.TRef sig ⟨S_, .f32⟩) (.of main_call4_call0_v1 : StableHlo.TRef sig ⟨S32, .f32⟩) (broadcastInDim S32 ![] bcast_S_S32),
    StableHlo.TRef.ternary (.of main_call4_v12 : StableHlo.TRef sig ⟨S_, .i1⟩) (.of main_call4_v11 : StableHlo.TRef sig ⟨S32, .f32⟩) (.of main_call4_call0_v1 : StableHlo.TRef sig ⟨S32, .f32⟩) (.of main_v165 : StableHlo.TRef sig ⟨S32, .f32⟩) (fun p a b => select (broadcastInDim S32 ![] bcast_S_S32 p) a b),
    StableHlo.unary main_v164 main_v166 (broadcastInDim S1x32 ![1] bcast_S32_S1x32_1 : (⟨S32, .f32⟩ : BufTy).Contents (Elt F) → (⟨S1x32, .f32⟩ : BufTy).Contents (Elt F)),
    StableHlo.unary main_v166 main_v167 (broadcastInDim S200000x32 ![0, 1] bcast_S1x32_S200000x32_0_1 : (⟨S1x32, .f32⟩ : BufTy).Contents (Elt F) → (⟨S200000x32, .f32⟩ : BufTy).Contents (Elt F)),
    StableHlo.binary main_v161 main_v167 main_v168 (subf : (⟨S200000x32, .f32⟩ : BufTy).Contents (Elt F) → (⟨S200000x32, .f32⟩ : BufTy).Contents (Elt F) → (⟨S200000x32, .f32⟩ : BufTy).Contents (Elt F)),
    StableHlo.unary main_arg13 main_v169 (broadcastInDim S1x32 ![1] bcast_S32_S1x32_1 : (⟨S32, .f32⟩ : BufTy).Contents (Elt F) → (⟨S1x32, .f32⟩ : BufTy).Contents (Elt F)),
    StableHlo.unary main_v169 main_v170 (broadcastInDim S200000x32 ![0, 1] bcast_S1x32_S200000x32_0_1 : (⟨S1x32, .f32⟩ : BufTy).Contents (Elt F) → (⟨S200000x32, .f32⟩ : BufTy).Contents (Elt F)),
    StableHlo.binary main_v170 main_v168 main_v171 (mulf : (⟨S200000x32, .f32⟩ : BufTy).Contents (Elt F) → (⟨S200000x32, .f32⟩ : BufTy).Contents (Elt F) → (⟨S200000x32, .f32⟩ : BufTy).Contents (Elt F)),
    StableHlo.nullary main_cst_33 (constant S_ .f32 0x3727C5AC#32),
    StableHlo.unary main_cst_33 main_v172 (broadcastInDim S32 ![] bcast_S_S32 : (⟨S_, .f32⟩ : BufTy).Contents (Elt F) → (⟨S32, .f32⟩ : BufTy).Contents (Elt F)),
    StableHlo.binary main_v165 main_v172 main_v173 (addf : (⟨S32, .f32⟩ : BufTy).Contents (Elt F) → (⟨S32, .f32⟩ : BufTy).Contents (Elt F) → (⟨S32, .f32⟩ : BufTy).Contents (Elt F)),
    StableHlo.unary main_v173 main_v174 (Host.rsqrt : (⟨S32, .f32⟩ : BufTy).Contents (Elt F) → (⟨S32, .f32⟩ : BufTy).Contents (Elt F)),
    StableHlo.unary main_v174 main_v175 (broadcastInDim S1x32 ![1] bcast_S32_S1x32_1 : (⟨S32, .f32⟩ : BufTy).Contents (Elt F) → (⟨S1x32, .f32⟩ : BufTy).Contents (Elt F)),
    StableHlo.unary main_v175 main_v176 (broadcastInDim S200000x32 ![0, 1] bcast_S1x32_S200000x32_0_1 : (⟨S1x32, .f32⟩ : BufTy).Contents (Elt F) → (⟨S200000x32, .f32⟩ : BufTy).Contents (Elt F)),
    StableHlo.binary main_v171 main_v176 main_v177 (mulf : (⟨S200000x32, .f32⟩ : BufTy).Contents (Elt F) → (⟨S200000x32, .f32⟩ : BufTy).Contents (Elt F) → (⟨S200000x32, .f32⟩ : BufTy).Contents (Elt F)),
    StableHlo.unary main_arg14 main_v178 (broadcastInDim S1x32 ![1] bcast_S32_S1x32_1 : (⟨S32, .f32⟩ : BufTy).Contents (Elt F) → (⟨S1x32, .f32⟩ : BufTy).Contents (Elt F)),
    StableHlo.unary main_v178 main_v179 (broadcastInDim S200000x32 ![0, 1] bcast_S1x32_S200000x32_0_1 : (⟨S1x32, .f32⟩ : BufTy).Contents (Elt F) → (⟨S200000x32, .f32⟩ : BufTy).Contents (Elt F)),
    StableHlo.binary main_v177 main_v179 main_v180 (addf : (⟨S200000x32, .f32⟩ : BufTy).Contents (Elt F) → (⟨S200000x32, .f32⟩ : BufTy).Contents (Elt F) → (⟨S200000x32, .f32⟩ : BufTy).Contents (Elt F)),
    StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S200000x32, .f32⟩) (broadcastInDim S200000x32 ![] bcast_S_S200000x32),
    StableHlo.TRef.binary (.of main_v180 : StableHlo.TRef sig ⟨S200000x32, .f32⟩) (.of main_call5_v0 : StableHlo.TRef sig ⟨S200000x32, .f32⟩) (.of main_v181 : StableHlo.TRef sig ⟨S200000x32, .f32⟩) maximumf,
    StableHlo.binary main_v181 main_arg15 main_v182 ((fun l r => Host.dotGeneral dot_S200000x32_S32x1_S200000x1_1_0_0_1_n_n none l r) : (⟨S200000x32, .f32⟩ : BufTy).Contents (Elt F) → (⟨S32x1, .f32⟩ : BufTy).Contents (Elt F) → (⟨S200000x1, .f32⟩ : BufTy).Contents (Elt F)),
    StableHlo.unary main_arg16 main_v183 (broadcastInDim S1x1 ![1] bcast_S1_S1x1_1 : (⟨S1, .f32⟩ : BufTy).Contents (Elt F) → (⟨S1x1, .f32⟩ : BufTy).Contents (Elt F)),
    StableHlo.unary main_v183 main_v184 (broadcastInDim S200000x1 ![0, 1] bcast_S1x1_S200000x1_0_1 : (⟨S1x1, .f32⟩ : BufTy).Contents (Elt F) → (⟨S200000x1, .f32⟩ : BufTy).Contents (Elt F)),
    StableHlo.binary main_v182 main_v184 main_v185 (addf : (⟨S200000x1, .f32⟩ : BufTy).Contents (Elt F) → (⟨S200000x1, .f32⟩ : BufTy).Contents (Elt F) → (⟨S200000x1, .f32⟩ : BufTy).Contents (Elt F)) ]

theorem ops_w3_sub : (ops_w3 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub ..⟩

/-- The edge table's two rows and the normalisation: 14 operations. -/
abbrev ops_P : List (HloOp τ sig (Elt F)) :=
  [ StableHlo.unary main_arg1 main_v0 ((extractStridedSlice S1x2500000 ![0, 0] · slices_S2x2500000_S1x2500000_0_0) : (⟨S2x2500000, .i32⟩ : BufTy).Contents (Elt F) → (⟨S1x2500000, .i32⟩ : BufTy).Contents (Elt F)),
    StableHlo.reshape main_v0 main_v1 rfl shapeCasts_S1x2500000_S2500000,
    StableHlo.unary main_arg1 main_v2 ((extractStridedSlice S1x2500000 ![1, 0] · slices_S2x2500000_S1x2500000_1_0) : (⟨S2x2500000, .i32⟩ : BufTy).Contents (Elt F) → (⟨S1x2500000, .i32⟩ : BufTy).Contents (Elt F)),
    StableHlo.reshape main_v2 main_v3 rfl shapeCasts_S1x2500000_S2500000,
    StableHlo.nullary main_cst (constant S_ .f32 0x3F800000#32),
    StableHlo.unary main_cst main_v4 (broadcastInDim S2500000 ![] bcast_S_S2500000 : (⟨S_, .f32⟩ : BufTy).Contents (Elt F) → (⟨S2500000, .f32⟩ : BufTy).Contents (Elt F)),
    StableHlo.nullary main_cst_0 (constant S_ .f32 0x00000000#32),
    StableHlo.unary main_cst_0 main_v5 (broadcastInDim S200000 ![] bcast_S_S200000 : (⟨S_, .f32⟩ : BufTy).Contents (Elt F) → (⟨S200000, .f32⟩ : BufTy).Contents (Elt F)),
    StableHlo.unary main_v3 main_v6 (broadcastInDim S2500000x1 ![0] bcast_S2500000_S2500000x1_0 : (⟨S2500000, .i32⟩ : BufTy).Contents (Elt F) → (⟨S2500000x1, .i32⟩ : BufTy).Contents (Elt F)),
    StableHlo.ternary main_v5 main_v6 main_v4 main_v7 ((fun x i u => Host.scatterAdd scatter_S200000_S2500000x1_S2500000_n_0_0_1 x i u) : (⟨S200000, .f32⟩ : BufTy).Contents (Elt F) → (⟨S2500000x1, .i32⟩ : BufTy).Contents (Elt F) → (⟨S2500000, .f32⟩ : BufTy).Contents (Elt F) → (⟨S200000, .f32⟩ : BufTy).Contents (Elt F)),
    StableHlo.nullary main_cst_1 (constant S_ .f32 0x3F800000#32),
    StableHlo.unary main_cst_1 main_v8 (broadcastInDim S200000 ![] bcast_S_S200000 : (⟨S_, .f32⟩ : BufTy).Contents (Elt F) → (⟨S200000, .f32⟩ : BufTy).Contents (Elt F)),
    StableHlo.binary main_v7 main_v8 main_v9 (addf : (⟨S200000, .f32⟩ : BufTy).Contents (Elt F) → (⟨S200000, .f32⟩ : BufTy).Contents (Elt F) → (⟨S200000, .f32⟩ : BufTy).Contents (Elt F)),
    StableHlo.unary main_v9 main_v10 (Host.rsqrt : (⟨S200000, .f32⟩ : BufTy).Contents (Elt F) → (⟨S200000, .f32⟩ : BufTy).Contents (Elt F)) ]

theorem ops_P_sub : (ops_P : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub ..⟩

/-- The buffers ops_P writes, in order. -/
abbrev ops_P_w : List (Ref sig .tc) :=
  [main_v0, main_v1, main_v2, main_v3, main_cst, main_v4, main_cst_0, main_v5, main_v6, main_v7, main_cst_1, main_v8, main_v9, main_v10]

/-- Layer 1: the linear map and the convolution: 44 operations. -/
abbrev ops_L1a : List (HloOp τ sig (Elt F)) :=
  [ StableHlo.binary main_arg0 main_arg3 main_v11 ((fun l r => Host.dotGeneral dot_S200000x1_S1x32_S200000x32_1_0_0_1_n_n none l r) : (⟨S200000x1, .f32⟩ : BufTy).Contents (Elt F) → (⟨S1x32, .f32⟩ : BufTy).Contents (Elt F) → (⟨S200000x32, .f32⟩ : BufTy).Contents (Elt F)),
    StableHlo.nullary main_c (constantI S_ 32 0#32),
    StableHlo.unary main_c main_v12 (broadcastInDim S2500000 ![] bcast_S_S2500000 : (⟨S_, .i32⟩ : BufTy).Contents (Elt F) → (⟨S2500000, .i32⟩ : BufTy).Contents (Elt F)),
    StableHlo.binary main_v1 main_v12 main_v13 (cmpi .slt : (⟨S2500000, .i32⟩ : BufTy).Contents (Elt F) → (⟨S2500000, .i32⟩ : BufTy).Contents (Elt F) → (⟨S2500000, .i1⟩ : BufTy).Contents (Elt F)),
    StableHlo.nullary main_c_2 (constantI S_ 32 200000#32),
    StableHlo.unary main_c_2 main_v14 (broadcastInDim S2500000 ![] bcast_S_S2500000 : (⟨S_, .i32⟩ : BufTy).Contents (Elt F) → (⟨S2500000, .i32⟩ : BufTy).Contents (Elt F)),
    StableHlo.binary main_v1 main_v14 main_v15 (addi : (⟨S2500000, .i32⟩ : BufTy).Contents (Elt F) → (⟨S2500000, .i32⟩ : BufTy).Contents (Elt F) → (⟨S2500000, .i32⟩ : BufTy).Contents (Elt F)),
    StableHlo.ternary main_v13 main_v15 main_v1 main_v16 (select : (⟨S2500000, .i1⟩ : BufTy).Contents (Elt F) → (⟨S2500000, .i32⟩ : BufTy).Contents (Elt F) → (⟨S2500000, .i32⟩ : BufTy).Contents (Elt F) → (⟨S2500000, .i32⟩ : BufTy).Contents (Elt F)),
    StableHlo.unary main_v16 main_v17 (broadcastInDim S2500000x1 ![0] bcast_S2500000_S2500000x1_0 : (⟨S2500000, .i32⟩ : BufTy).Contents (Elt F) → (⟨S2500000x1, .i32⟩ : BufTy).Contents (Elt F)),
    StableHlo.binary main_v10 main_v17 main_v18 ((fun x i => Host.gather gather_S200000_S2500000x1_S2500000_n_0_n_n_0_1_1 x i) : (⟨S200000, .f32⟩ : BufTy).Contents (Elt F) → (⟨S2500000x1, .i32⟩ : BufTy).Contents (Elt F) → (⟨S2500000, .f32⟩ : BufTy).Contents (Elt F)),
    StableHlo.nullary main_c_3 (constantI S_ 32 0#32),
    StableHlo.unary main_c_3 main_v19 (broadcastInDim S2500000 ![] bcast_S_S2500000 : (⟨S_, .i32⟩ : BufTy).Contents (Elt F) → (⟨S2500000, .i32⟩ : BufTy).Contents (Elt F)),
    StableHlo.binary main_v3 main_v19 main_v20 (cmpi .slt : (⟨S2500000, .i32⟩ : BufTy).Contents (Elt F) → (⟨S2500000, .i32⟩ : BufTy).Contents (Elt F) → (⟨S2500000, .i1⟩ : BufTy).Contents (Elt F)),
    StableHlo.nullary main_c_4 (constantI S_ 32 200000#32),
    StableHlo.unary main_c_4 main_v21 (broadcastInDim S2500000 ![] bcast_S_S2500000 : (⟨S_, .i32⟩ : BufTy).Contents (Elt F) → (⟨S2500000, .i32⟩ : BufTy).Contents (Elt F)),
    StableHlo.binary main_v3 main_v21 main_v22 (addi : (⟨S2500000, .i32⟩ : BufTy).Contents (Elt F) → (⟨S2500000, .i32⟩ : BufTy).Contents (Elt F) → (⟨S2500000, .i32⟩ : BufTy).Contents (Elt F)),
    StableHlo.ternary main_v20 main_v22 main_v3 main_v23 (select : (⟨S2500000, .i1⟩ : BufTy).Contents (Elt F) → (⟨S2500000, .i32⟩ : BufTy).Contents (Elt F) → (⟨S2500000, .i32⟩ : BufTy).Contents (Elt F) → (⟨S2500000, .i32⟩ : BufTy).Contents (Elt F)),
    StableHlo.unary main_v23 main_v24 (broadcastInDim S2500000x1 ![0] bcast_S2500000_S2500000x1_0 : (⟨S2500000, .i32⟩ : BufTy).Contents (Elt F) → (⟨S2500000x1, .i32⟩ : BufTy).Contents (Elt F)),
    StableHlo.binary main_v10 main_v24 main_v25 ((fun x i => Host.gather gather_S200000_S2500000x1_S2500000_n_0_n_n_0_1_1 x i) : (⟨S200000, .f32⟩ : BufTy).Contents (Elt F) → (⟨S2500000x1, .i32⟩ : BufTy).Contents (Elt F) → (⟨S2500000, .f32⟩ : BufTy).Contents (Elt F)),
    StableHlo.binary main_v18 main_v25 main_v26 (mulf : (⟨S2500000, .f32⟩ : BufTy).Contents (Elt F) → (⟨S2500000, .f32⟩ : BufTy).Contents (Elt F) → (⟨S2500000, .f32⟩ : BufTy).Contents (Elt F)),
    StableHlo.nullary main_c_5 (constantI S_ 32 0#32),
    StableHlo.unary main_c_5 main_v27 (broadcastInDim S2500000 ![] bcast_S_S2500000 : (⟨S_, .i32⟩ : BufTy).Contents (Elt F) → (⟨S2500000, .i32⟩ : BufTy).Contents (Elt F)),
    StableHlo.binary main_v1 main_v27 main_v28 (cmpi .slt : (⟨S2500000, .i32⟩ : BufTy).Contents (Elt F) → (⟨S2500000, .i32⟩ : BufTy).Contents (Elt F) → (⟨S2500000, .i1⟩ : BufTy).Contents (Elt F)),
    StableHlo.nullary main_c_6 (constantI S_ 32 200000#32),
    StableHlo.unary main_c_6 main_v29 (broadcastInDim S2500000 ![] bcast_S_S2500000 : (⟨S_, .i32⟩ : BufTy).Contents (Elt F) → (⟨S2500000, .i32⟩ : BufTy).Contents (Elt F)),
    StableHlo.binary main_v1 main_v29 main_v30 (addi : (⟨S2500000, .i32⟩ : BufTy).Contents (Elt F) → (⟨S2500000, .i32⟩ : BufTy).Contents (Elt F) → (⟨S2500000, .i32⟩ : BufTy).Contents (Elt F)),
    StableHlo.ternary main_v28 main_v30 main_v1 main_v31 (select : (⟨S2500000, .i1⟩ : BufTy).Contents (Elt F) → (⟨S2500000, .i32⟩ : BufTy).Contents (Elt F) → (⟨S2500000, .i32⟩ : BufTy).Contents (Elt F) → (⟨S2500000, .i32⟩ : BufTy).Contents (Elt F)),
    StableHlo.unary main_v31 main_v32 (broadcastInDim S2500000x1 ![0] bcast_S2500000_S2500000x1_0 : (⟨S2500000, .i32⟩ : BufTy).Contents (Elt F) → (⟨S2500000x1, .i32⟩ : BufTy).Contents (Elt F)),
    StableHlo.binary main_v11 main_v32 main_v33 ((fun x i => Host.gather gather_S200000x32_S2500000x1_S2500000x32_1_0_n_n_0_1_132 x i) : (⟨S200000x32, .f32⟩ : BufTy).Contents (Elt F) → (⟨S2500000x1, .i32⟩ : BufTy).Contents (Elt F) → (⟨S2500000x32, .f32⟩ : BufTy).Contents (Elt F)),
    StableHlo.unary main_v26 main_v34 (broadcastInDim S2500000x1 ![0] bcast_S2500000_S2500000x1_0 : (⟨S2500000, .f32⟩ : BufTy).Contents (Elt F) → (⟨S2500000x1, .f32⟩ : BufTy).Contents (Elt F)),
    StableHlo.unary main_v34 main_v35 (broadcastInDim S2500000x32 ![0, 1] bcast_S2500000x1_S2500000x32_0_1 : (⟨S2500000x1, .f32⟩ : BufTy).Contents (Elt F) → (⟨S2500000x32, .f32⟩ : BufTy).Contents (Elt F)),
    StableHlo.binary main_v33 main_v35 main_v36 (mulf : (⟨S2500000x32, .f32⟩ : BufTy).Contents (Elt F) → (⟨S2500000x32, .f32⟩ : BufTy).Contents (Elt F) → (⟨S2500000x32, .f32⟩ : BufTy).Contents (Elt F)),
    StableHlo.nullary main_cst_7 (constant S_ .f32 0x00000000#32),
    StableHlo.unary main_cst_7 main_v37 (broadcastInDim S200000x32 ![] bcast_S_S200000x32 : (⟨S_, .f32⟩ : BufTy).Contents (Elt F) → (⟨S200000x32, .f32⟩ : BufTy).Contents (Elt F)),
    StableHlo.unary main_v3 main_v38 (broadcastInDim S2500000x1 ![0] bcast_S2500000_S2500000x1_0 : (⟨S2500000, .i32⟩ : BufTy).Contents (Elt F) → (⟨S2500000x1, .i32⟩ : BufTy).Contents (Elt F)),
    StableHlo.ternary main_v37 main_v38 main_v36 main_v39 ((fun x i u => Host.scatterAdd scatter_S200000x32_S2500000x1_S2500000x32_1_0_0_1 x i u) : (⟨S200000x32, .f32⟩ : BufTy).Contents (Elt F) → (⟨S2500000x1, .i32⟩ : BufTy).Contents (Elt F) → (⟨S2500000x32, .f32⟩ : BufTy).Contents (Elt F) → (⟨S200000x32, .f32⟩ : BufTy).Contents (Elt F)),
    StableHlo.binary main_v10 main_v10 main_v40 (mulf : (⟨S200000, .f32⟩ : BufTy).Contents (Elt F) → (⟨S200000, .f32⟩ : BufTy).Contents (Elt F) → (⟨S200000, .f32⟩ : BufTy).Contents (Elt F)),
    StableHlo.unary main_v40 main_v41 (broadcastInDim S200000x1 ![0] bcast_S200000_S200000x1_0 : (⟨S200000, .f32⟩ : BufTy).Contents (Elt F) → (⟨S200000x1, .f32⟩ : BufTy).Contents (Elt F)),
    StableHlo.unary main_v41 main_v42 (broadcastInDim S200000x32 ![0, 1] bcast_S200000x1_S200000x32_0_1 : (⟨S200000x1, .f32⟩ : BufTy).Contents (Elt F) → (⟨S200000x32, .f32⟩ : BufTy).Contents (Elt F)),
    StableHlo.binary main_v11 main_v42 main_v43 (mulf : (⟨S200000x32, .f32⟩ : BufTy).Contents (Elt F) → (⟨S200000x32, .f32⟩ : BufTy).Contents (Elt F) → (⟨S200000x32, .f32⟩ : BufTy).Contents (Elt F)),
    StableHlo.binary main_v39 main_v43 main_v44 (addf : (⟨S200000x32, .f32⟩ : BufTy).Contents (Elt F) → (⟨S200000x32, .f32⟩ : BufTy).Contents (Elt F) → (⟨S200000x32, .f32⟩ : BufTy).Contents (Elt F)),
    StableHlo.unary main_arg4 main_v45 (broadcastInDim S1x32 ![1] bcast_S32_S1x32_1 : (⟨S32, .f32⟩ : BufTy).Contents (Elt F) → (⟨S1x32, .f32⟩ : BufTy).Contents (Elt F)),
    StableHlo.unary main_v45 main_v46 (broadcastInDim S200000x32 ![0, 1] bcast_S1x32_S200000x32_0_1 : (⟨S1x32, .f32⟩ : BufTy).Contents (Elt F) → (⟨S200000x32, .f32⟩ : BufTy).Contents (Elt F)),
    StableHlo.binary main_v44 main_v46 main_v47 (addf : (⟨S200000x32, .f32⟩ : BufTy).Contents (Elt F) → (⟨S200000x32, .f32⟩ : BufTy).Contents (Elt F) → (⟨S200000x32, .f32⟩ : BufTy).Contents (Elt F)) ]

theorem ops_L1a_sub : (ops_L1a : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub ..⟩

/-- The buffers ops_L1a writes, in order. -/
abbrev ops_L1a_w : List (Ref sig .tc) :=
  [main_v11, main_c, main_v12, main_v13, main_c_2, main_v14, main_v15, main_v16, main_v17, main_v18, main_c_3, main_v19, main_v20, main_c_4, main_v21, main_v22, main_v23, main_v24, main_v25, main_v26, main_c_5, main_v27, main_v28, main_c_6, main_v29, main_v30, main_v31, main_v32, main_v33, main_v34, main_v35, main_v36, main_cst_7, main_v37, main_v38, main_v39, main_v40, main_v41, main_v42, main_v43, main_v44, main_v45, main_v46, main_v47]

/-- Layer 1: the column statistics: 28 operations. -/
abbrev ops_L1b : List (HloOp τ sig (Elt F)) :=
  [ StableHlo.nullary main_cst_8 (constant S_ .f32 0x00000000#32),
    StableHlo.binary main_v47 main_cst_8 main_v48 ((fun x v => Host.reduceAdd x v reducesTo_S200000x32_S32_d0 h_S_) : (⟨S200000x32, .f32⟩ : BufTy).Contents (Elt F) → (⟨S_, .f32⟩ : BufTy).Contents (Elt F) → (⟨S32, .f32⟩ : BufTy).Contents (Elt F)),
    StableHlo.nullary main_cst_9 (constant S_ .f32 0x48435000#32),
    StableHlo.unary main_cst_9 main_v49 (broadcastInDim S32 ![] bcast_S_S32 : (⟨S_, .f32⟩ : BufTy).Contents (Elt F) → (⟨S32, .f32⟩ : BufTy).Contents (Elt F)),
    StableHlo.binary main_v48 main_v49 main_v50 (Host.divf : (⟨S32, .f32⟩ : BufTy).Contents (Elt F) → (⟨S32, .f32⟩ : BufTy).Contents (Elt F) → (⟨S32, .f32⟩ : BufTy).Contents (Elt F)),
    StableHlo.nullary main_c_10 (constantI S_ 32 0#32),
    StableHlo.TRef.nullary (.of main_call0_cst : StableHlo.TRef sig ⟨S_, .f32⟩) (constant S_ .f32 0x00000000#32),
    StableHlo.TRef.binary (.of main_v47 : StableHlo.TRef sig ⟨S200000x32, .f32⟩) (.of main_call0_cst : StableHlo.TRef sig ⟨S_, .f32⟩) (.of main_call0_v0 : StableHlo.TRef sig ⟨S32, .f32⟩) (fun x v => Host.reduceAdd x v reducesTo_S200000x32_S32_d0 h_S_),
    StableHlo.TRef.unary (.of main_call0_v0 : StableHlo.TRef sig ⟨S32, .f32⟩) (.of main_call0_v1 : StableHlo.TRef sig ⟨S1x32, .f32⟩) (broadcastInDim S1x32 ![1] bcast_S32_S1x32_1),
    StableHlo.TRef.nullary (.of main_call0_cst_0 : StableHlo.TRef sig ⟨S_, .f32⟩) (constant S_ .f32 0x48435000#32),
    StableHlo.TRef.unary (.of main_call0_cst_0 : StableHlo.TRef sig ⟨S_, .f32⟩) (.of main_call0_v2 : StableHlo.TRef sig ⟨S1x32, .f32⟩) (broadcastInDim S1x32 ![] bcast_S_S1x32),
    StableHlo.TRef.binary (.of main_call0_v1 : StableHlo.TRef sig ⟨S1x32, .f32⟩) (.of main_call0_v2 : StableHlo.TRef sig ⟨S1x32, .f32⟩) (.of main_call0_v3 : StableHlo.TRef sig ⟨S1x32, .f32⟩) Host.divf,
    StableHlo.TRef.unary (.of main_call0_v3 : StableHlo.TRef sig ⟨S1x32, .f32⟩) (.of main_call0_v4 : StableHlo.TRef sig ⟨S200000x32, .f32⟩) (broadcastInDim S200000x32 ![0, 1] bcast_S1x32_S200000x32_0_1),
    StableHlo.TRef.binary (.of main_v47 : StableHlo.TRef sig ⟨S200000x32, .f32⟩) (.of main_call0_v4 : StableHlo.TRef sig ⟨S200000x32, .f32⟩) (.of main_call0_v5 : StableHlo.TRef sig ⟨S200000x32, .f32⟩) subf,
    StableHlo.TRef.binary (.of main_call0_v5 : StableHlo.TRef sig ⟨S200000x32, .f32⟩) (.of main_call0_v5 : StableHlo.TRef sig ⟨S200000x32, .f32⟩) (.of main_call0_v6 : StableHlo.TRef sig ⟨S200000x32, .f32⟩) mulf,
    StableHlo.TRef.unary (.of main_c_10 : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x48435000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S200000x32, .f32⟩) (.of main_call0_cst_2 : StableHlo.TRef sig ⟨S_, .f32⟩) (.of main_call0_v9 : StableHlo.TRef sig ⟨S32, .f32⟩) (fun x v => Host.reduceAdd x v reducesTo_S200000x32_S32_d0 h_S_),
    StableHlo.TRef.unary (.of main_call0_v8 : StableHlo.TRef sig ⟨S_, .f32⟩) (.of main_call0_v10 : StableHlo.TRef sig ⟨S32, .f32⟩) (broadcastInDim S32 ![] bcast_S_S32),
    StableHlo.TRef.binary (.of main_call0_v9 : StableHlo.TRef sig ⟨S32, .f32⟩) (.of main_call0_v10 : StableHlo.TRef sig ⟨S32, .f32⟩) (.of main_call0_v11 : StableHlo.TRef sig ⟨S32, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S32, .f32⟩) (broadcastInDim S32 ![] bcast_S_S32),
    StableHlo.TRef.ternary (.of main_call0_v12 : StableHlo.TRef sig ⟨S_, .i1⟩) (.of main_call0_v11 : StableHlo.TRef sig ⟨S32, .f32⟩) (.of main_call0_call0_v1 : StableHlo.TRef sig ⟨S32, .f32⟩) (.of main_v51 : StableHlo.TRef sig ⟨S32, .f32⟩) (fun p a b => select (broadcastInDim S32 ![] bcast_S_S32 p) a b) ]

theorem ops_L1b_sub : (ops_L1b : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩

/-- The buffers ops_L1b writes, in order. -/
abbrev ops_L1b_w : List (Ref sig .tc) :=
  [main_cst_8, main_v48, main_cst_9, main_v49, main_v50, main_c_10, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v51]

/-- Layer 1: the normalisation by them and the clip: 19 operations. -/
abbrev ops_L1c : List (HloOp τ sig (Elt F)) :=
  [ StableHlo.unary main_v50 main_v52 (broadcastInDim S1x32 ![1] bcast_S32_S1x32_1 : (⟨S32, .f32⟩ : BufTy).Contents (Elt F) → (⟨S1x32, .f32⟩ : BufTy).Contents (Elt F)),
    StableHlo.unary main_v52 main_v53 (broadcastInDim S200000x32 ![0, 1] bcast_S1x32_S200000x32_0_1 : (⟨S1x32, .f32⟩ : BufTy).Contents (Elt F) → (⟨S200000x32, .f32⟩ : BufTy).Contents (Elt F)),
    StableHlo.binary main_v47 main_v53 main_v54 (subf : (⟨S200000x32, .f32⟩ : BufTy).Contents (Elt F) → (⟨S200000x32, .f32⟩ : BufTy).Contents (Elt F) → (⟨S200000x32, .f32⟩ : BufTy).Contents (Elt F)),
    StableHlo.unary main_arg5 main_v55 (broadcastInDim S1x32 ![1] bcast_S32_S1x32_1 : (⟨S32, .f32⟩ : BufTy).Contents (Elt F) → (⟨S1x32, .f32⟩ : BufTy).Contents (Elt F)),
    StableHlo.unary main_v55 main_v56 (broadcastInDim S200000x32 ![0, 1] bcast_S1x32_S200000x32_0_1 : (⟨S1x32, .f32⟩ : BufTy).Contents (Elt F) → (⟨S200000x32, .f32⟩ : BufTy).Contents (Elt F)),
    StableHlo.binary main_v56 main_v54 main_v57 (mulf : (⟨S200000x32, .f32⟩ : BufTy).Contents (Elt F) → (⟨S200000x32, .f32⟩ : BufTy).Contents (Elt F) → (⟨S200000x32, .f32⟩ : BufTy).Contents (Elt F)),
    StableHlo.nullary main_cst_11 (constant S_ .f32 0x3727C5AC#32),
    StableHlo.unary main_cst_11 main_v58 (broadcastInDim S32 ![] bcast_S_S32 : (⟨S_, .f32⟩ : BufTy).Contents (Elt F) → (⟨S32, .f32⟩ : BufTy).Contents (Elt F)),
    StableHlo.binary main_v51 main_v58 main_v59 (addf : (⟨S32, .f32⟩ : BufTy).Contents (Elt F) → (⟨S32, .f32⟩ : BufTy).Contents (Elt F) → (⟨S32, .f32⟩ : BufTy).Contents (Elt F)),
    StableHlo.unary main_v59 main_v60 (Host.rsqrt : (⟨S32, .f32⟩ : BufTy).Contents (Elt F) → (⟨S32, .f32⟩ : BufTy).Contents (Elt F)),
    StableHlo.unary main_v60 main_v61 (broadcastInDim S1x32 ![1] bcast_S32_S1x32_1 : (⟨S32, .f32⟩ : BufTy).Contents (Elt F) → (⟨S1x32, .f32⟩ : BufTy).Contents (Elt F)),
    StableHlo.unary main_v61 main_v62 (broadcastInDim S200000x32 ![0, 1] bcast_S1x32_S200000x32_0_1 : (⟨S1x32, .f32⟩ : BufTy).Contents (Elt F) → (⟨S200000x32, .f32⟩ : BufTy).Contents (Elt F)),
    StableHlo.binary main_v57 main_v62 main_v63 (mulf : (⟨S200000x32, .f32⟩ : BufTy).Contents (Elt F) → (⟨S200000x32, .f32⟩ : BufTy).Contents (Elt F) → (⟨S200000x32, .f32⟩ : BufTy).Contents (Elt F)),
    StableHlo.unary main_arg6 main_v64 (broadcastInDim S1x32 ![1] bcast_S32_S1x32_1 : (⟨S32, .f32⟩ : BufTy).Contents (Elt F) → (⟨S1x32, .f32⟩ : BufTy).Contents (Elt F)),
    StableHlo.unary main_v64 main_v65 (broadcastInDim S200000x32 ![0, 1] bcast_S1x32_S200000x32_0_1 : (⟨S1x32, .f32⟩ : BufTy).Contents (Elt F) → (⟨S200000x32, .f32⟩ : BufTy).Contents (Elt F)),
    StableHlo.binary main_v63 main_v65 main_v66 (addf : (⟨S200000x32, .f32⟩ : BufTy).Contents (Elt F) → (⟨S200000x32, .f32⟩ : BufTy).Contents (Elt F) → (⟨S200000x32, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S200000x32, .f32⟩) (broadcastInDim S200000x32 ![] bcast_S_S200000x32),
    StableHlo.TRef.binary (.of main_v66 : StableHlo.TRef sig ⟨S200000x32, .f32⟩) (.of main_call1_v0 : StableHlo.TRef sig ⟨S200000x32, .f32⟩) (.of main_v67 : StableHlo.TRef sig ⟨S200000x32, .f32⟩) maximumf ]

theorem ops_L1c_sub : (ops_L1c : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

/-- The buffers ops_L1c writes, in order. -/
abbrev ops_L1c_w : List (Ref sig .tc) :=
  [main_v52, main_v53, main_v54, main_v55, main_v56, main_v57, main_cst_11, main_v58, main_v59, main_v60, main_v61, main_v62, main_v63, main_v64, main_v65, main_v66, main_call1_cst, main_call1_v0, main_v67]

/-- Layer 2: the linear map and the convolution: 44 operations. -/
abbrev ops_L2a : List (HloOp τ sig (Elt F)) :=
  [ StableHlo.binary main_v67 main_arg7 main_v68 ((fun l r => Host.dotGeneral dot_S200000x32_S32x32_S200000x32_1_0_0_1_n_n none l r) : (⟨S200000x32, .f32⟩ : BufTy).Contents (Elt F) → (⟨S32x32, .f32⟩ : BufTy).Contents (Elt F) → (⟨S200000x32, .f32⟩ : BufTy).Contents (Elt F)),
    StableHlo.nullary main_c_12 (constantI S_ 32 0#32),
    StableHlo.unary main_c_12 main_v69 (broadcastInDim S2500000 ![] bcast_S_S2500000 : (⟨S_, .i32⟩ : BufTy).Contents (Elt F) → (⟨S2500000, .i32⟩ : BufTy).Contents (Elt F)),
    StableHlo.binary main_v1 main_v69 main_v70 (cmpi .slt : (⟨S2500000, .i32⟩ : BufTy).Contents (Elt F) → (⟨S2500000, .i32⟩ : BufTy).Contents (Elt F) → (⟨S2500000, .i1⟩ : BufTy).Contents (Elt F)),
    StableHlo.nullary main_c_13 (constantI S_ 32 200000#32),
    StableHlo.unary main_c_13 main_v71 (broadcastInDim S2500000 ![] bcast_S_S2500000 : (⟨S_, .i32⟩ : BufTy).Contents (Elt F) → (⟨S2500000, .i32⟩ : BufTy).Contents (Elt F)),
    StableHlo.binary main_v1 main_v71 main_v72 (addi : (⟨S2500000, .i32⟩ : BufTy).Contents (Elt F) → (⟨S2500000, .i32⟩ : BufTy).Contents (Elt F) → (⟨S2500000, .i32⟩ : BufTy).Contents (Elt F)),
    StableHlo.ternary main_v70 main_v72 main_v1 main_v73 (select : (⟨S2500000, .i1⟩ : BufTy).Contents (Elt F) → (⟨S2500000, .i32⟩ : BufTy).Contents (Elt F) → (⟨S2500000, .i32⟩ : BufTy).Contents (Elt F) → (⟨S2500000, .i32⟩ : BufTy).Contents (Elt F)),
    StableHlo.unary main_v73 main_v74 (broadcastInDim S2500000x1 ![0] bcast_S2500000_S2500000x1_0 : (⟨S2500000, .i32⟩ : BufTy).Contents (Elt F) → (⟨S2500000x1, .i32⟩ : BufTy).Contents (Elt F)),
    StableHlo.binary main_v10 main_v74 main_v75 ((fun x i => Host.gather gather_S200000_S2500000x1_S2500000_n_0_n_n_0_1_1 x i) : (⟨S200000, .f32⟩ : BufTy).Contents (Elt F) → (⟨S2500000x1, .i32⟩ : BufTy).Contents (Elt F) → (⟨S2500000, .f32⟩ : BufTy).Contents (Elt F)),
    StableHlo.nullary main_c_14 (constantI S_ 32 0#32),
    StableHlo.unary main_c_14 main_v76 (broadcastInDim S2500000 ![] bcast_S_S2500000 : (⟨S_, .i32⟩ : BufTy).Contents (Elt F) → (⟨S2500000, .i32⟩ : BufTy).Contents (Elt F)),
    StableHlo.binary main_v3 main_v76 main_v77 (cmpi .slt : (⟨S2500000, .i32⟩ : BufTy).Contents (Elt F) → (⟨S2500000, .i32⟩ : BufTy).Contents (Elt F) → (⟨S2500000, .i1⟩ : BufTy).Contents (Elt F)),
    StableHlo.nullary main_c_15 (constantI S_ 32 200000#32),
    StableHlo.unary main_c_15 main_v78 (broadcastInDim S2500000 ![] bcast_S_S2500000 : (⟨S_, .i32⟩ : BufTy).Contents (Elt F) → (⟨S2500000, .i32⟩ : BufTy).Contents (Elt F)),
    StableHlo.binary main_v3 main_v78 main_v79 (addi : (⟨S2500000, .i32⟩ : BufTy).Contents (Elt F) → (⟨S2500000, .i32⟩ : BufTy).Contents (Elt F) → (⟨S2500000, .i32⟩ : BufTy).Contents (Elt F)),
    StableHlo.ternary main_v77 main_v79 main_v3 main_v80 (select : (⟨S2500000, .i1⟩ : BufTy).Contents (Elt F) → (⟨S2500000, .i32⟩ : BufTy).Contents (Elt F) → (⟨S2500000, .i32⟩ : BufTy).Contents (Elt F) → (⟨S2500000, .i32⟩ : BufTy).Contents (Elt F)),
    StableHlo.unary main_v80 main_v81 (broadcastInDim S2500000x1 ![0] bcast_S2500000_S2500000x1_0 : (⟨S2500000, .i32⟩ : BufTy).Contents (Elt F) → (⟨S2500000x1, .i32⟩ : BufTy).Contents (Elt F)),
    StableHlo.binary main_v10 main_v81 main_v82 ((fun x i => Host.gather gather_S200000_S2500000x1_S2500000_n_0_n_n_0_1_1 x i) : (⟨S200000, .f32⟩ : BufTy).Contents (Elt F) → (⟨S2500000x1, .i32⟩ : BufTy).Contents (Elt F) → (⟨S2500000, .f32⟩ : BufTy).Contents (Elt F)),
    StableHlo.binary main_v75 main_v82 main_v83 (mulf : (⟨S2500000, .f32⟩ : BufTy).Contents (Elt F) → (⟨S2500000, .f32⟩ : BufTy).Contents (Elt F) → (⟨S2500000, .f32⟩ : BufTy).Contents (Elt F)),
    StableHlo.nullary main_c_16 (constantI S_ 32 0#32),
    StableHlo.unary main_c_16 main_v84 (broadcastInDim S2500000 ![] bcast_S_S2500000 : (⟨S_, .i32⟩ : BufTy).Contents (Elt F) → (⟨S2500000, .i32⟩ : BufTy).Contents (Elt F)),
    StableHlo.binary main_v1 main_v84 main_v85 (cmpi .slt : (⟨S2500000, .i32⟩ : BufTy).Contents (Elt F) → (⟨S2500000, .i32⟩ : BufTy).Contents (Elt F) → (⟨S2500000, .i1⟩ : BufTy).Contents (Elt F)),
    StableHlo.nullary main_c_17 (constantI S_ 32 200000#32),
    StableHlo.unary main_c_17 main_v86 (broadcastInDim S2500000 ![] bcast_S_S2500000 : (⟨S_, .i32⟩ : BufTy).Contents (Elt F) → (⟨S2500000, .i32⟩ : BufTy).Contents (Elt F)),
    StableHlo.binary main_v1 main_v86 main_v87 (addi : (⟨S2500000, .i32⟩ : BufTy).Contents (Elt F) → (⟨S2500000, .i32⟩ : BufTy).Contents (Elt F) → (⟨S2500000, .i32⟩ : BufTy).Contents (Elt F)),
    StableHlo.ternary main_v85 main_v87 main_v1 main_v88 (select : (⟨S2500000, .i1⟩ : BufTy).Contents (Elt F) → (⟨S2500000, .i32⟩ : BufTy).Contents (Elt F) → (⟨S2500000, .i32⟩ : BufTy).Contents (Elt F) → (⟨S2500000, .i32⟩ : BufTy).Contents (Elt F)),
    StableHlo.unary main_v88 main_v89 (broadcastInDim S2500000x1 ![0] bcast_S2500000_S2500000x1_0 : (⟨S2500000, .i32⟩ : BufTy).Contents (Elt F) → (⟨S2500000x1, .i32⟩ : BufTy).Contents (Elt F)),
    StableHlo.binary main_v68 main_v89 main_v90 ((fun x i => Host.gather gather_S200000x32_S2500000x1_S2500000x32_1_0_n_n_0_1_132 x i) : (⟨S200000x32, .f32⟩ : BufTy).Contents (Elt F) → (⟨S2500000x1, .i32⟩ : BufTy).Contents (Elt F) → (⟨S2500000x32, .f32⟩ : BufTy).Contents (Elt F)),
    StableHlo.unary main_v83 main_v91 (broadcastInDim S2500000x1 ![0] bcast_S2500000_S2500000x1_0 : (⟨S2500000, .f32⟩ : BufTy).Contents (Elt F) → (⟨S2500000x1, .f32⟩ : BufTy).Contents (Elt F)),
    StableHlo.unary main_v91 main_v92 (broadcastInDim S2500000x32 ![0, 1] bcast_S2500000x1_S2500000x32_0_1 : (⟨S2500000x1, .f32⟩ : BufTy).Contents (Elt F) → (⟨S2500000x32, .f32⟩ : BufTy).Contents (Elt F)),
    StableHlo.binary main_v90 main_v92 main_v93 (mulf : (⟨S2500000x32, .f32⟩ : BufTy).Contents (Elt F) → (⟨S2500000x32, .f32⟩ : BufTy).Contents (Elt F) → (⟨S2500000x32, .f32⟩ : BufTy).Contents (Elt F)),
    StableHlo.nullary main_cst_18 (constant S_ .f32 0x00000000#32),
    StableHlo.unary main_cst_18 main_v94 (broadcastInDim S200000x32 ![] bcast_S_S200000x32 : (⟨S_, .f32⟩ : BufTy).Contents (Elt F) → (⟨S200000x32, .f32⟩ : BufTy).Contents (Elt F)),
    StableHlo.unary main_v3 main_v95 (broadcastInDim S2500000x1 ![0] bcast_S2500000_S2500000x1_0 : (⟨S2500000, .i32⟩ : BufTy).Contents (Elt F) → (⟨S2500000x1, .i32⟩ : BufTy).Contents (Elt F)),
    StableHlo.ternary main_v94 main_v95 main_v93 main_v96 ((fun x i u => Host.scatterAdd scatter_S200000x32_S2500000x1_S2500000x32_1_0_0_1 x i u) : (⟨S200000x32, .f32⟩ : BufTy).Contents (Elt F) → (⟨S2500000x1, .i32⟩ : BufTy).Contents (Elt F) → (⟨S2500000x32, .f32⟩ : BufTy).Contents (Elt F) → (⟨S200000x32, .f32⟩ : BufTy).Contents (Elt F)),
    StableHlo.binary main_v10 main_v10 main_v97 (mulf : (⟨S200000, .f32⟩ : BufTy).Contents (Elt F) → (⟨S200000, .f32⟩ : BufTy).Contents (Elt F) → (⟨S200000, .f32⟩ : BufTy).Contents (Elt F)),
    StableHlo.unary main_v97 main_v98 (broadcastInDim S200000x1 ![0] bcast_S200000_S200000x1_0 : (⟨S200000, .f32⟩ : BufTy).Contents (Elt F) → (⟨S200000x1, .f32⟩ : BufTy).Contents (Elt F)),
    StableHlo.unary main_v98 main_v99 (broadcastInDim S200000x32 ![0, 1] bcast_S200000x1_S200000x32_0_1 : (⟨S200000x1, .f32⟩ : BufTy).Contents (Elt F) → (⟨S200000x32, .f32⟩ : BufTy).Contents (Elt F)),
    StableHlo.binary main_v68 main_v99 main_v100 (mulf : (⟨S200000x32, .f32⟩ : BufTy).Contents (Elt F) → (⟨S200000x32, .f32⟩ : BufTy).Contents (Elt F) → (⟨S200000x32, .f32⟩ : BufTy).Contents (Elt F)),
    StableHlo.binary main_v96 main_v100 main_v101 (addf : (⟨S200000x32, .f32⟩ : BufTy).Contents (Elt F) → (⟨S200000x32, .f32⟩ : BufTy).Contents (Elt F) → (⟨S200000x32, .f32⟩ : BufTy).Contents (Elt F)),
    StableHlo.unary main_arg8 main_v102 (broadcastInDim S1x32 ![1] bcast_S32_S1x32_1 : (⟨S32, .f32⟩ : BufTy).Contents (Elt F) → (⟨S1x32, .f32⟩ : BufTy).Contents (Elt F)),
    StableHlo.unary main_v102 main_v103 (broadcastInDim S200000x32 ![0, 1] bcast_S1x32_S200000x32_0_1 : (⟨S1x32, .f32⟩ : BufTy).Contents (Elt F) → (⟨S200000x32, .f32⟩ : BufTy).Contents (Elt F)),
    StableHlo.binary main_v101 main_v103 main_v104 (addf : (⟨S200000x32, .f32⟩ : BufTy).Contents (Elt F) → (⟨S200000x32, .f32⟩ : BufTy).Contents (Elt F) → (⟨S200000x32, .f32⟩ : BufTy).Contents (Elt F)) ]

theorem ops_L2a_sub : (ops_L2a : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub ..⟩

/-- The buffers ops_L2a writes, in order. -/
abbrev ops_L2a_w : List (Ref sig .tc) :=
  [main_v68, main_c_12, main_v69, main_v70, main_c_13, main_v71, main_v72, main_v73, main_v74, main_v75, main_c_14, main_v76, main_v77, main_c_15, main_v78, main_v79, main_v80, main_v81, main_v82, main_v83, main_c_16, main_v84, main_v85, main_c_17, main_v86, main_v87, main_v88, main_v89, main_v90, main_v91, main_v92, main_v93, main_cst_18, main_v94, main_v95, main_v96, main_v97, main_v98, main_v99, main_v100, main_v101, main_v102, main_v103, main_v104]

/-- Layer 2: the column statistics: 28 operations. -/
abbrev ops_L2b : List (HloOp τ sig (Elt F)) :=
  [ StableHlo.nullary main_cst_19 (constant S_ .f32 0x00000000#32),
    StableHlo.binary main_v104 main_cst_19 main_v105 ((fun x v => Host.reduceAdd x v reducesTo_S200000x32_S32_d0 h_S_) : (⟨S200000x32, .f32⟩ : BufTy).Contents (Elt F) → (⟨S_, .f32⟩ : BufTy).Contents (Elt F) → (⟨S32, .f32⟩ : BufTy).Contents (Elt F)),
    StableHlo.nullary main_cst_20 (constant S_ .f32 0x48435000#32),
    StableHlo.unary main_cst_20 main_v106 (broadcastInDim S32 ![] bcast_S_S32 : (⟨S_, .f32⟩ : BufTy).Contents (Elt F) → (⟨S32, .f32⟩ : BufTy).Contents (Elt F)),
    StableHlo.binary main_v105 main_v106 main_v107 (Host.divf : (⟨S32, .f32⟩ : BufTy).Contents (Elt F) → (⟨S32, .f32⟩ : BufTy).Contents (Elt F) → (⟨S32, .f32⟩ : BufTy).Contents (Elt F)),
    StableHlo.nullary main_c_21 (constantI S_ 32 0#32),
    StableHlo.TRef.nullary (.of main_call2_cst : StableHlo.TRef sig ⟨S_, .f32⟩) (constant S_ .f32 0x00000000#32),
    StableHlo.TRef.binary (.of main_v104 : StableHlo.TRef sig ⟨S200000x32, .f32⟩) (.of main_call2_cst : StableHlo.TRef sig ⟨S_, .f32⟩) (.of main_call2_v0 : StableHlo.TRef sig ⟨S32, .f32⟩) (fun x v => Host.reduceAdd x v reducesTo_S200000x32_S32_d0 h_S_),
    StableHlo.TRef.unary (.of main_call2_v0 : StableHlo.TRef sig ⟨S32, .f32⟩) (.of main_call2_v1 : StableHlo.TRef sig ⟨S1x32, .f32⟩) (broadcastInDim S1x32 ![1] bcast_S32_S1x32_1),
    StableHlo.TRef.nullary (.of main_call2_cst_0 : StableHlo.TRef sig ⟨S_, .f32⟩) (constant S_ .f32 0x48435000#32),
    StableHlo.TRef.unary (.of main_call2_cst_0 : StableHlo.TRef sig ⟨S_, .f32⟩) (.of main_call2_v2 : StableHlo.TRef sig ⟨S1x32, .f32⟩) (broadcastInDim S1x32 ![] bcast_S_S1x32),
    StableHlo.TRef.binary (.of main_call2_v1 : StableHlo.TRef sig ⟨S1x32, .f32⟩) (.of main_call2_v2 : StableHlo.TRef sig ⟨S1x32, .f32⟩) (.of main_call2_v3 : StableHlo.TRef sig ⟨S1x32, .f32⟩) Host.divf,
    StableHlo.TRef.unary (.of main_call2_v3 : StableHlo.TRef sig ⟨S1x32, .f32⟩) (.of main_call2_v4 : StableHlo.TRef sig ⟨S200000x32, .f32⟩) (broadcastInDim S200000x32 ![0, 1] bcast_S1x32_S200000x32_0_1),
    StableHlo.TRef.binary (.of main_v104 : StableHlo.TRef sig ⟨S200000x32, .f32⟩) (.of main_call2_v4 : StableHlo.TRef sig ⟨S200000x32, .f32⟩) (.of main_call2_v5 : StableHlo.TRef sig ⟨S200000x32, .f32⟩) subf,
    StableHlo.TRef.binary (.of main_call2_v5 : StableHlo.TRef sig ⟨S200000x32, .f32⟩) (.of main_call2_v5 : StableHlo.TRef sig ⟨S200000x32, .f32⟩) (.of main_call2_v6 : StableHlo.TRef sig ⟨S200000x32, .f32⟩) mulf,
    StableHlo.TRef.unary (.of main_c_21 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x48435000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S200000x32, .f32⟩) (.of main_call2_cst_2 : StableHlo.TRef sig ⟨S_, .f32⟩) (.of main_call2_v9 : StableHlo.TRef sig ⟨S32, .f32⟩) (fun x v => Host.reduceAdd x v reducesTo_S200000x32_S32_d0 h_S_),
    StableHlo.TRef.unary (.of main_call2_v8 : StableHlo.TRef sig ⟨S_, .f32⟩) (.of main_call2_v10 : StableHlo.TRef sig ⟨S32, .f32⟩) (broadcastInDim S32 ![] bcast_S_S32),
    StableHlo.TRef.binary (.of main_call2_v9 : StableHlo.TRef sig ⟨S32, .f32⟩) (.of main_call2_v10 : StableHlo.TRef sig ⟨S32, .f32⟩) (.of main_call2_v11 : StableHlo.TRef sig ⟨S32, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S32, .f32⟩) (broadcastInDim S32 ![] bcast_S_S32),
    StableHlo.TRef.ternary (.of main_call2_v12 : StableHlo.TRef sig ⟨S_, .i1⟩) (.of main_call2_v11 : StableHlo.TRef sig ⟨S32, .f32⟩) (.of main_call2_call0_v1 : StableHlo.TRef sig ⟨S32, .f32⟩) (.of main_v108 : StableHlo.TRef sig ⟨S32, .f32⟩) (fun p a b => select (broadcastInDim S32 ![] bcast_S_S32 p) a b) ]

theorem ops_L2b_sub : (ops_L2b : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩

/-- The buffers ops_L2b writes, in order. -/
abbrev ops_L2b_w : List (Ref sig .tc) :=
  [main_cst_19, main_v105, main_cst_20, main_v106, main_v107, main_c_21, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v108]

/-- Layer 2: the normalisation by them and the clip: 19 operations. -/
abbrev ops_L2c : List (HloOp τ sig (Elt F)) :=
  [ StableHlo.unary main_v107 main_v109 (broadcastInDim S1x32 ![1] bcast_S32_S1x32_1 : (⟨S32, .f32⟩ : BufTy).Contents (Elt F) → (⟨S1x32, .f32⟩ : BufTy).Contents (Elt F)),
    StableHlo.unary main_v109 main_v110 (broadcastInDim S200000x32 ![0, 1] bcast_S1x32_S200000x32_0_1 : (⟨S1x32, .f32⟩ : BufTy).Contents (Elt F) → (⟨S200000x32, .f32⟩ : BufTy).Contents (Elt F)),
    StableHlo.binary main_v104 main_v110 main_v111 (subf : (⟨S200000x32, .f32⟩ : BufTy).Contents (Elt F) → (⟨S200000x32, .f32⟩ : BufTy).Contents (Elt F) → (⟨S200000x32, .f32⟩ : BufTy).Contents (Elt F)),
    StableHlo.unary main_arg9 main_v112 (broadcastInDim S1x32 ![1] bcast_S32_S1x32_1 : (⟨S32, .f32⟩ : BufTy).Contents (Elt F) → (⟨S1x32, .f32⟩ : BufTy).Contents (Elt F)),
    StableHlo.unary main_v112 main_v113 (broadcastInDim S200000x32 ![0, 1] bcast_S1x32_S200000x32_0_1 : (⟨S1x32, .f32⟩ : BufTy).Contents (Elt F) → (⟨S200000x32, .f32⟩ : BufTy).Contents (Elt F)),
    StableHlo.binary main_v113 main_v111 main_v114 (mulf : (⟨S200000x32, .f32⟩ : BufTy).Contents (Elt F) → (⟨S200000x32, .f32⟩ : BufTy).Contents (Elt F) → (⟨S200000x32, .f32⟩ : BufTy).Contents (Elt F)),
    StableHlo.nullary main_cst_22 (constant S_ .f32 0x3727C5AC#32),
    StableHlo.unary main_cst_22 main_v115 (broadcastInDim S32 ![] bcast_S_S32 : (⟨S_, .f32⟩ : BufTy).Contents (Elt F) → (⟨S32, .f32⟩ : BufTy).Contents (Elt F)),
    StableHlo.binary main_v108 main_v115 main_v116 (addf : (⟨S32, .f32⟩ : BufTy).Contents (Elt F) → (⟨S32, .f32⟩ : BufTy).Contents (Elt F) → (⟨S32, .f32⟩ : BufTy).Contents (Elt F)),
    StableHlo.unary main_v116 main_v117 (Host.rsqrt : (⟨S32, .f32⟩ : BufTy).Contents (Elt F) → (⟨S32, .f32⟩ : BufTy).Contents (Elt F)),
    StableHlo.unary main_v117 main_v118 (broadcastInDim S1x32 ![1] bcast_S32_S1x32_1 : (⟨S32, .f32⟩ : BufTy).Contents (Elt F) → (⟨S1x32, .f32⟩ : BufTy).Contents (Elt F)),
    StableHlo.unary main_v118 main_v119 (broadcastInDim S200000x32 ![0, 1] bcast_S1x32_S200000x32_0_1 : (⟨S1x32, .f32⟩ : BufTy).Contents (Elt F) → (⟨S200000x32, .f32⟩ : BufTy).Contents (Elt F)),
    StableHlo.binary main_v114 main_v119 main_v120 (mulf : (⟨S200000x32, .f32⟩ : BufTy).Contents (Elt F) → (⟨S200000x32, .f32⟩ : BufTy).Contents (Elt F) → (⟨S200000x32, .f32⟩ : BufTy).Contents (Elt F)),
    StableHlo.unary main_arg10 main_v121 (broadcastInDim S1x32 ![1] bcast_S32_S1x32_1 : (⟨S32, .f32⟩ : BufTy).Contents (Elt F) → (⟨S1x32, .f32⟩ : BufTy).Contents (Elt F)),
    StableHlo.unary main_v121 main_v122 (broadcastInDim S200000x32 ![0, 1] bcast_S1x32_S200000x32_0_1 : (⟨S1x32, .f32⟩ : BufTy).Contents (Elt F) → (⟨S200000x32, .f32⟩ : BufTy).Contents (Elt F)),
    StableHlo.binary main_v120 main_v122 main_v123 (addf : (⟨S200000x32, .f32⟩ : BufTy).Contents (Elt F) → (⟨S200000x32, .f32⟩ : BufTy).Contents (Elt F) → (⟨S200000x32, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S200000x32, .f32⟩) (broadcastInDim S200000x32 ![] bcast_S_S200000x32),
    StableHlo.TRef.binary (.of main_v123 : StableHlo.TRef sig ⟨S200000x32, .f32⟩) (.of main_call3_v0 : StableHlo.TRef sig ⟨S200000x32, .f32⟩) (.of main_v124 : StableHlo.TRef sig ⟨S200000x32, .f32⟩) maximumf ]

theorem ops_L2c_sub : (ops_L2c : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

/-- The buffers ops_L2c writes, in order. -/
abbrev ops_L2c_w : List (Ref sig .tc) :=
  [main_v109, main_v110, main_v111, main_v112, main_v113, main_v114, main_cst_22, main_v115, main_v116, main_v117, main_v118, main_v119, main_v120, main_v121, main_v122, main_v123, main_call3_cst, main_call3_v0, main_v124]

/-- Layer 3: the linear map and the convolution: 44 operations. -/
abbrev ops_L3a : List (HloOp τ sig (Elt F)) :=
  [ StableHlo.binary main_v124 main_arg11 main_v125 ((fun l r => Host.dotGeneral dot_S200000x32_S32x32_S200000x32_1_0_0_1_n_n none l r) : (⟨S200000x32, .f32⟩ : BufTy).Contents (Elt F) → (⟨S32x32, .f32⟩ : BufTy).Contents (Elt F) → (⟨S200000x32, .f32⟩ : BufTy).Contents (Elt F)),
    StableHlo.nullary main_c_23 (constantI S_ 32 0#32),
    StableHlo.unary main_c_23 main_v126 (broadcastInDim S2500000 ![] bcast_S_S2500000 : (⟨S_, .i32⟩ : BufTy).Contents (Elt F) → (⟨S2500000, .i32⟩ : BufTy).Contents (Elt F)),
    StableHlo.binary main_v1 main_v126 main_v127 (cmpi .slt : (⟨S2500000, .i32⟩ : BufTy).Contents (Elt F) → (⟨S2500000, .i32⟩ : BufTy).Contents (Elt F) → (⟨S2500000, .i1⟩ : BufTy).Contents (Elt F)),
    StableHlo.nullary main_c_24 (constantI S_ 32 200000#32),
    StableHlo.unary main_c_24 main_v128 (broadcastInDim S2500000 ![] bcast_S_S2500000 : (⟨S_, .i32⟩ : BufTy).Contents (Elt F) → (⟨S2500000, .i32⟩ : BufTy).Contents (Elt F)),
    StableHlo.binary main_v1 main_v128 main_v129 (addi : (⟨S2500000, .i32⟩ : BufTy).Contents (Elt F) → (⟨S2500000, .i32⟩ : BufTy).Contents (Elt F) → (⟨S2500000, .i32⟩ : BufTy).Contents (Elt F)),
    StableHlo.ternary main_v127 main_v129 main_v1 main_v130 (select : (⟨S2500000, .i1⟩ : BufTy).Contents (Elt F) → (⟨S2500000, .i32⟩ : BufTy).Contents (Elt F) → (⟨S2500000, .i32⟩ : BufTy).Contents (Elt F) → (⟨S2500000, .i32⟩ : BufTy).Contents (Elt F)),
    StableHlo.unary main_v130 main_v131 (broadcastInDim S2500000x1 ![0] bcast_S2500000_S2500000x1_0 : (⟨S2500000, .i32⟩ : BufTy).Contents (Elt F) → (⟨S2500000x1, .i32⟩ : BufTy).Contents (Elt F)),
    StableHlo.binary main_v10 main_v131 main_v132 ((fun x i => Host.gather gather_S200000_S2500000x1_S2500000_n_0_n_n_0_1_1 x i) : (⟨S200000, .f32⟩ : BufTy).Contents (Elt F) → (⟨S2500000x1, .i32⟩ : BufTy).Contents (Elt F) → (⟨S2500000, .f32⟩ : BufTy).Contents (Elt F)),
    StableHlo.nullary main_c_25 (constantI S_ 32 0#32),
    StableHlo.unary main_c_25 main_v133 (broadcastInDim S2500000 ![] bcast_S_S2500000 : (⟨S_, .i32⟩ : BufTy).Contents (Elt F) → (⟨S2500000, .i32⟩ : BufTy).Contents (Elt F)),
    StableHlo.binary main_v3 main_v133 main_v134 (cmpi .slt : (⟨S2500000, .i32⟩ : BufTy).Contents (Elt F) → (⟨S2500000, .i32⟩ : BufTy).Contents (Elt F) → (⟨S2500000, .i1⟩ : BufTy).Contents (Elt F)),
    StableHlo.nullary main_c_26 (constantI S_ 32 200000#32),
    StableHlo.unary main_c_26 main_v135 (broadcastInDim S2500000 ![] bcast_S_S2500000 : (⟨S_, .i32⟩ : BufTy).Contents (Elt F) → (⟨S2500000, .i32⟩ : BufTy).Contents (Elt F)),
    StableHlo.binary main_v3 main_v135 main_v136 (addi : (⟨S2500000, .i32⟩ : BufTy).Contents (Elt F) → (⟨S2500000, .i32⟩ : BufTy).Contents (Elt F) → (⟨S2500000, .i32⟩ : BufTy).Contents (Elt F)),
    StableHlo.ternary main_v134 main_v136 main_v3 main_v137 (select : (⟨S2500000, .i1⟩ : BufTy).Contents (Elt F) → (⟨S2500000, .i32⟩ : BufTy).Contents (Elt F) → (⟨S2500000, .i32⟩ : BufTy).Contents (Elt F) → (⟨S2500000, .i32⟩ : BufTy).Contents (Elt F)),
    StableHlo.unary main_v137 main_v138 (broadcastInDim S2500000x1 ![0] bcast_S2500000_S2500000x1_0 : (⟨S2500000, .i32⟩ : BufTy).Contents (Elt F) → (⟨S2500000x1, .i32⟩ : BufTy).Contents (Elt F)),
    StableHlo.binary main_v10 main_v138 main_v139 ((fun x i => Host.gather gather_S200000_S2500000x1_S2500000_n_0_n_n_0_1_1 x i) : (⟨S200000, .f32⟩ : BufTy).Contents (Elt F) → (⟨S2500000x1, .i32⟩ : BufTy).Contents (Elt F) → (⟨S2500000, .f32⟩ : BufTy).Contents (Elt F)),
    StableHlo.binary main_v132 main_v139 main_v140 (mulf : (⟨S2500000, .f32⟩ : BufTy).Contents (Elt F) → (⟨S2500000, .f32⟩ : BufTy).Contents (Elt F) → (⟨S2500000, .f32⟩ : BufTy).Contents (Elt F)),
    StableHlo.nullary main_c_27 (constantI S_ 32 0#32),
    StableHlo.unary main_c_27 main_v141 (broadcastInDim S2500000 ![] bcast_S_S2500000 : (⟨S_, .i32⟩ : BufTy).Contents (Elt F) → (⟨S2500000, .i32⟩ : BufTy).Contents (Elt F)),
    StableHlo.binary main_v1 main_v141 main_v142 (cmpi .slt : (⟨S2500000, .i32⟩ : BufTy).Contents (Elt F) → (⟨S2500000, .i32⟩ : BufTy).Contents (Elt F) → (⟨S2500000, .i1⟩ : BufTy).Contents (Elt F)),
    StableHlo.nullary main_c_28 (constantI S_ 32 200000#32),
    StableHlo.unary main_c_28 main_v143 (broadcastInDim S2500000 ![] bcast_S_S2500000 : (⟨S_, .i32⟩ : BufTy).Contents (Elt F) → (⟨S2500000, .i32⟩ : BufTy).Contents (Elt F)),
    StableHlo.binary main_v1 main_v143 main_v144 (addi : (⟨S2500000, .i32⟩ : BufTy).Contents (Elt F) → (⟨S2500000, .i32⟩ : BufTy).Contents (Elt F) → (⟨S2500000, .i32⟩ : BufTy).Contents (Elt F)),
    StableHlo.ternary main_v142 main_v144 main_v1 main_v145 (select : (⟨S2500000, .i1⟩ : BufTy).Contents (Elt F) → (⟨S2500000, .i32⟩ : BufTy).Contents (Elt F) → (⟨S2500000, .i32⟩ : BufTy).Contents (Elt F) → (⟨S2500000, .i32⟩ : BufTy).Contents (Elt F)),
    StableHlo.unary main_v145 main_v146 (broadcastInDim S2500000x1 ![0] bcast_S2500000_S2500000x1_0 : (⟨S2500000, .i32⟩ : BufTy).Contents (Elt F) → (⟨S2500000x1, .i32⟩ : BufTy).Contents (Elt F)),
    StableHlo.binary main_v125 main_v146 main_v147 ((fun x i => Host.gather gather_S200000x32_S2500000x1_S2500000x32_1_0_n_n_0_1_132 x i) : (⟨S200000x32, .f32⟩ : BufTy).Contents (Elt F) → (⟨S2500000x1, .i32⟩ : BufTy).Contents (Elt F) → (⟨S2500000x32, .f32⟩ : BufTy).Contents (Elt F)),
    StableHlo.unary main_v140 main_v148 (broadcastInDim S2500000x1 ![0] bcast_S2500000_S2500000x1_0 : (⟨S2500000, .f32⟩ : BufTy).Contents (Elt F) → (⟨S2500000x1, .f32⟩ : BufTy).Contents (Elt F)),
    StableHlo.unary main_v148 main_v149 (broadcastInDim S2500000x32 ![0, 1] bcast_S2500000x1_S2500000x32_0_1 : (⟨S2500000x1, .f32⟩ : BufTy).Contents (Elt F) → (⟨S2500000x32, .f32⟩ : BufTy).Contents (Elt F)),
    StableHlo.binary main_v147 main_v149 main_v150 (mulf : (⟨S2500000x32, .f32⟩ : BufTy).Contents (Elt F) → (⟨S2500000x32, .f32⟩ : BufTy).Contents (Elt F) → (⟨S2500000x32, .f32⟩ : BufTy).Contents (Elt F)),
    StableHlo.nullary main_cst_29 (constant S_ .f32 0x00000000#32),
    StableHlo.unary main_cst_29 main_v151 (broadcastInDim S200000x32 ![] bcast_S_S200000x32 : (⟨S_, .f32⟩ : BufTy).Contents (Elt F) → (⟨S200000x32, .f32⟩ : BufTy).Contents (Elt F)),
    StableHlo.unary main_v3 main_v152 (broadcastInDim S2500000x1 ![0] bcast_S2500000_S2500000x1_0 : (⟨S2500000, .i32⟩ : BufTy).Contents (Elt F) → (⟨S2500000x1, .i32⟩ : BufTy).Contents (Elt F)),
    StableHlo.ternary main_v151 main_v152 main_v150 main_v153 ((fun x i u => Host.scatterAdd scatter_S200000x32_S2500000x1_S2500000x32_1_0_0_1 x i u) : (⟨S200000x32, .f32⟩ : BufTy).Contents (Elt F) → (⟨S2500000x1, .i32⟩ : BufTy).Contents (Elt F) → (⟨S2500000x32, .f32⟩ : BufTy).Contents (Elt F) → (⟨S200000x32, .f32⟩ : BufTy).Contents (Elt F)),
    StableHlo.binary main_v10 main_v10 main_v154 (mulf : (⟨S200000, .f32⟩ : BufTy).Contents (Elt F) → (⟨S200000, .f32⟩ : BufTy).Contents (Elt F) → (⟨S200000, .f32⟩ : BufTy).Contents (Elt F)),
    StableHlo.unary main_v154 main_v155 (broadcastInDim S200000x1 ![0] bcast_S200000_S200000x1_0 : (⟨S200000, .f32⟩ : BufTy).Contents (Elt F) → (⟨S200000x1, .f32⟩ : BufTy).Contents (Elt F)),
    StableHlo.unary main_v155 main_v156 (broadcastInDim S200000x32 ![0, 1] bcast_S200000x1_S200000x32_0_1 : (⟨S200000x1, .f32⟩ : BufTy).Contents (Elt F) → (⟨S200000x32, .f32⟩ : BufTy).Contents (Elt F)),
    StableHlo.binary main_v125 main_v156 main_v157 (mulf : (⟨S200000x32, .f32⟩ : BufTy).Contents (Elt F) → (⟨S200000x32, .f32⟩ : BufTy).Contents (Elt F) → (⟨S200000x32, .f32⟩ : BufTy).Contents (Elt F)),
    StableHlo.binary main_v153 main_v157 main_v158 (addf : (⟨S200000x32, .f32⟩ : BufTy).Contents (Elt F) → (⟨S200000x32, .f32⟩ : BufTy).Contents (Elt F) → (⟨S200000x32, .f32⟩ : BufTy).Contents (Elt F)),
    StableHlo.unary main_arg12 main_v159 (broadcastInDim S1x32 ![1] bcast_S32_S1x32_1 : (⟨S32, .f32⟩ : BufTy).Contents (Elt F) → (⟨S1x32, .f32⟩ : BufTy).Contents (Elt F)),
    StableHlo.unary main_v159 main_v160 (broadcastInDim S200000x32 ![0, 1] bcast_S1x32_S200000x32_0_1 : (⟨S1x32, .f32⟩ : BufTy).Contents (Elt F) → (⟨S200000x32, .f32⟩ : BufTy).Contents (Elt F)),
    StableHlo.binary main_v158 main_v160 main_v161 (addf : (⟨S200000x32, .f32⟩ : BufTy).Contents (Elt F) → (⟨S200000x32, .f32⟩ : BufTy).Contents (Elt F) → (⟨S200000x32, .f32⟩ : BufTy).Contents (Elt F)) ]

theorem ops_L3a_sub : (ops_L3a : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub ..⟩

/-- The buffers ops_L3a writes, in order. -/
abbrev ops_L3a_w : List (Ref sig .tc) :=
  [main_v125, main_c_23, main_v126, main_v127, main_c_24, main_v128, main_v129, main_v130, main_v131, main_v132, main_c_25, main_v133, main_v134, main_c_26, main_v135, main_v136, main_v137, main_v138, main_v139, main_v140, main_c_27, main_v141, main_v142, main_c_28, main_v143, main_v144, main_v145, main_v146, main_v147, main_v148, main_v149, main_v150, main_cst_29, main_v151, main_v152, main_v153, main_v154, main_v155, main_v156, main_v157, main_v158, main_v159, main_v160, main_v161]

/-- Layer 3: the column statistics: 28 operations. -/
abbrev ops_L3b : List (HloOp τ sig (Elt F)) :=
  [ StableHlo.nullary main_cst_30 (constant S_ .f32 0x00000000#32),
    StableHlo.binary main_v161 main_cst_30 main_v162 ((fun x v => Host.reduceAdd x v reducesTo_S200000x32_S32_d0 h_S_) : (⟨S200000x32, .f32⟩ : BufTy).Contents (Elt F) → (⟨S_, .f32⟩ : BufTy).Contents (Elt F) → (⟨S32, .f32⟩ : BufTy).Contents (Elt F)),
    StableHlo.nullary main_cst_31 (constant S_ .f32 0x48435000#32),
    StableHlo.unary main_cst_31 main_v163 (broadcastInDim S32 ![] bcast_S_S32 : (⟨S_, .f32⟩ : BufTy).Contents (Elt F) → (⟨S32, .f32⟩ : BufTy).Contents (Elt F)),
    StableHlo.binary main_v162 main_v163 main_v164 (Host.divf : (⟨S32, .f32⟩ : BufTy).Contents (Elt F) → (⟨S32, .f32⟩ : BufTy).Contents (Elt F) → (⟨S32, .f32⟩ : BufTy).Contents (Elt F)),
    StableHlo.nullary main_c_32 (constantI S_ 32 0#32),
    StableHlo.TRef.nullary (.of main_call4_cst : StableHlo.TRef sig ⟨S_, .f32⟩) (constant S_ .f32 0x00000000#32),
    StableHlo.TRef.binary (.of main_v161 : StableHlo.TRef sig ⟨S200000x32, .f32⟩) (.of main_call4_cst : StableHlo.TRef sig ⟨S_, .f32⟩) (.of main_call4_v0 : StableHlo.TRef sig ⟨S32, .f32⟩) (fun x v => Host.reduceAdd x v reducesTo_S200000x32_S32_d0 h_S_),
    StableHlo.TRef.unary (.of main_call4_v0 : StableHlo.TRef sig ⟨S32, .f32⟩) (.of main_call4_v1 : StableHlo.TRef sig ⟨S1x32, .f32⟩) (broadcastInDim S1x32 ![1] bcast_S32_S1x32_1),
    StableHlo.TRef.nullary (.of main_call4_cst_0 : StableHlo.TRef sig ⟨S_, .f32⟩) (constant S_ .f32 0x48435000#32),
    StableHlo.TRef.unary (.of main_call4_cst_0 : StableHlo.TRef sig ⟨S_, .f32⟩) (.of main_call4_v2 : StableHlo.TRef sig ⟨S1x32, .f32⟩) (broadcastInDim S1x32 ![] bcast_S_S1x32),
    StableHlo.TRef.binary (.of main_call4_v1 : StableHlo.TRef sig ⟨S1x32, .f32⟩) (.of main_call4_v2 : StableHlo.TRef sig ⟨S1x32, .f32⟩) (.of main_call4_v3 : StableHlo.TRef sig ⟨S1x32, .f32⟩) Host.divf,
    StableHlo.TRef.unary (.of main_call4_v3 : StableHlo.TRef sig ⟨S1x32, .f32⟩) (.of main_call4_v4 : StableHlo.TRef sig ⟨S200000x32, .f32⟩) (broadcastInDim S200000x32 ![0, 1] bcast_S1x32_S200000x32_0_1),
    StableHlo.TRef.binary (.of main_v161 : StableHlo.TRef sig ⟨S200000x32, .f32⟩) (.of main_call4_v4 : StableHlo.TRef sig ⟨S200000x32, .f32⟩) (.of main_call4_v5 : StableHlo.TRef sig ⟨S200000x32, .f32⟩) subf,
    StableHlo.TRef.binary (.of main_call4_v5 : StableHlo.TRef sig ⟨S200000x32, .f32⟩) (.of main_call4_v5 : StableHlo.TRef sig ⟨S200000x32, .f32⟩) (.of main_call4_v6 : StableHlo.TRef sig ⟨S200000x32, .f32⟩) mulf,
    StableHlo.TRef.unary (.of main_c_32 : StableHlo.TRef sig ⟨S_, .i32⟩) (.of main_call4_v7 : StableHlo.TRef sig ⟨S_, .f32⟩) (sitofp .f32),
    StableHlo.TRef.nullary (.of main_call4_cst_1 : StableHlo.TRef sig ⟨S_, .f32⟩) (constant S_ .f32 0x48435000#32),
    StableHlo.TRef.binary (.of main_call4_cst_1 : StableHlo.TRef sig ⟨S_, .f32⟩) (.of main_call4_v7 : StableHlo.TRef sig ⟨S_, .f32⟩) (.of main_call4_v8 : StableHlo.TRef sig ⟨S_, .f32⟩) subf,
    StableHlo.TRef.nullary (.of main_call4_cst_2 : StableHlo.TRef sig ⟨S_, .f32⟩) (constant S_ .f32 0x00000000#32),
    StableHlo.TRef.binary (.of main_call4_v6 : StableHlo.TRef sig ⟨S200000x32, .f32⟩) (.of main_call4_cst_2 : StableHlo.TRef sig ⟨S_, .f32⟩) (.of main_call4_v9 : StableHlo.TRef sig ⟨S32, .f32⟩) (fun x v => Host.reduceAdd x v reducesTo_S200000x32_S32_d0 h_S_),
    StableHlo.TRef.unary (.of main_call4_v8 : StableHlo.TRef sig ⟨S_, .f32⟩) (.of main_call4_v10 : StableHlo.TRef sig ⟨S32, .f32⟩) (broadcastInDim S32 ![] bcast_S_S32),
    StableHlo.TRef.binary (.of main_call4_v9 : StableHlo.TRef sig ⟨S32, .f32⟩) (.of main_call4_v10 : StableHlo.TRef sig ⟨S32, .f32⟩) (.of main_call4_v11 : StableHlo.TRef sig ⟨S32, .f32⟩) Host.divf,
    StableHlo.TRef.nullary (.of main_call4_cst_3 : StableHlo.TRef sig ⟨S_, .f32⟩) (constant S_ .f32 0x00000000#32),
    StableHlo.TRef.binary (.of main_call4_v8 : StableHlo.TRef sig ⟨S_, .f32⟩) (.of main_call4_cst_3 : StableHlo.TRef sig ⟨S_, .f32⟩) (.of main_call4_v12 : StableHlo.TRef sig ⟨S_, .i1⟩) (cmpf .ogt),
    StableHlo.TRef.nullary (.of main_call4_cst_4 : StableHlo.TRef sig ⟨S_, .f32⟩) (constant S_ .f32 0x7FC00000#32),
    StableHlo.TRef.unary (.of main_call4_cst_4 : StableHlo.TRef sig ⟨S_, .f32⟩) (.of main_call4_call0_v0 : StableHlo.TRef sig ⟨S_, .f32⟩) id,
    StableHlo.TRef.unary (.of main_call4_call0_v0 : StableHlo.TRef sig ⟨S_, .f32⟩) (.of main_call4_call0_v1 : StableHlo.TRef sig ⟨S32, .f32⟩) (broadcastInDim S32 ![] bcast_S_S32),
    StableHlo.TRef.ternary (.of main_call4_v12 : StableHlo.TRef sig ⟨S_, .i1⟩) (.of main_call4_v11 : StableHlo.TRef sig ⟨S32, .f32⟩) (.of main_call4_call0_v1 : StableHlo.TRef sig ⟨S32, .f32⟩) (.of main_v165 : StableHlo.TRef sig ⟨S32, .f32⟩) (fun p a b => select (broadcastInDim S32 ![] bcast_S_S32 p) a b) ]

theorem ops_L3b_sub : (ops_L3b : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩

/-- The buffers ops_L3b writes, in order. -/
abbrev ops_L3b_w : List (Ref sig .tc) :=
  [main_cst_30, main_v162, main_cst_31, main_v163, main_v164, main_c_32, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v165]

/-- Layer 3: the normalisation by them and the clip: 19 operations. -/
abbrev ops_L3c : List (HloOp τ sig (Elt F)) :=
  [ StableHlo.unary main_v164 main_v166 (broadcastInDim S1x32 ![1] bcast_S32_S1x32_1 : (⟨S32, .f32⟩ : BufTy).Contents (Elt F) → (⟨S1x32, .f32⟩ : BufTy).Contents (Elt F)),
    StableHlo.unary main_v166 main_v167 (broadcastInDim S200000x32 ![0, 1] bcast_S1x32_S200000x32_0_1 : (⟨S1x32, .f32⟩ : BufTy).Contents (Elt F) → (⟨S200000x32, .f32⟩ : BufTy).Contents (Elt F)),
    StableHlo.binary main_v161 main_v167 main_v168 (subf : (⟨S200000x32, .f32⟩ : BufTy).Contents (Elt F) → (⟨S200000x32, .f32⟩ : BufTy).Contents (Elt F) → (⟨S200000x32, .f32⟩ : BufTy).Contents (Elt F)),
    StableHlo.unary main_arg13 main_v169 (broadcastInDim S1x32 ![1] bcast_S32_S1x32_1 : (⟨S32, .f32⟩ : BufTy).Contents (Elt F) → (⟨S1x32, .f32⟩ : BufTy).Contents (Elt F)),
    StableHlo.unary main_v169 main_v170 (broadcastInDim S200000x32 ![0, 1] bcast_S1x32_S200000x32_0_1 : (⟨S1x32, .f32⟩ : BufTy).Contents (Elt F) → (⟨S200000x32, .f32⟩ : BufTy).Contents (Elt F)),
    StableHlo.binary main_v170 main_v168 main_v171 (mulf : (⟨S200000x32, .f32⟩ : BufTy).Contents (Elt F) → (⟨S200000x32, .f32⟩ : BufTy).Contents (Elt F) → (⟨S200000x32, .f32⟩ : BufTy).Contents (Elt F)),
    StableHlo.nullary main_cst_33 (constant S_ .f32 0x3727C5AC#32),
    StableHlo.unary main_cst_33 main_v172 (broadcastInDim S32 ![] bcast_S_S32 : (⟨S_, .f32⟩ : BufTy).Contents (Elt F) → (⟨S32, .f32⟩ : BufTy).Contents (Elt F)),
    StableHlo.binary main_v165 main_v172 main_v173 (addf : (⟨S32, .f32⟩ : BufTy).Contents (Elt F) → (⟨S32, .f32⟩ : BufTy).Contents (Elt F) → (⟨S32, .f32⟩ : BufTy).Contents (Elt F)),
    StableHlo.unary main_v173 main_v174 (Host.rsqrt : (⟨S32, .f32⟩ : BufTy).Contents (Elt F) → (⟨S32, .f32⟩ : BufTy).Contents (Elt F)),
    StableHlo.unary main_v174 main_v175 (broadcastInDim S1x32 ![1] bcast_S32_S1x32_1 : (⟨S32, .f32⟩ : BufTy).Contents (Elt F) → (⟨S1x32, .f32⟩ : BufTy).Contents (Elt F)),
    StableHlo.unary main_v175 main_v176 (broadcastInDim S200000x32 ![0, 1] bcast_S1x32_S200000x32_0_1 : (⟨S1x32, .f32⟩ : BufTy).Contents (Elt F) → (⟨S200000x32, .f32⟩ : BufTy).Contents (Elt F)),
    StableHlo.binary main_v171 main_v176 main_v177 (mulf : (⟨S200000x32, .f32⟩ : BufTy).Contents (Elt F) → (⟨S200000x32, .f32⟩ : BufTy).Contents (Elt F) → (⟨S200000x32, .f32⟩ : BufTy).Contents (Elt F)),
    StableHlo.unary main_arg14 main_v178 (broadcastInDim S1x32 ![1] bcast_S32_S1x32_1 : (⟨S32, .f32⟩ : BufTy).Contents (Elt F) → (⟨S1x32, .f32⟩ : BufTy).Contents (Elt F)),
    StableHlo.unary main_v178 main_v179 (broadcastInDim S200000x32 ![0, 1] bcast_S1x32_S200000x32_0_1 : (⟨S1x32, .f32⟩ : BufTy).Contents (Elt F) → (⟨S200000x32, .f32⟩ : BufTy).Contents (Elt F)),
    StableHlo.binary main_v177 main_v179 main_v180 (addf : (⟨S200000x32, .f32⟩ : BufTy).Contents (Elt F) → (⟨S200000x32, .f32⟩ : BufTy).Contents (Elt F) → (⟨S200000x32, .f32⟩ : BufTy).Contents (Elt F)),
    StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S200000x32, .f32⟩) (broadcastInDim S200000x32 ![] bcast_S_S200000x32),
    StableHlo.TRef.binary (.of main_v180 : StableHlo.TRef sig ⟨S200000x32, .f32⟩) (.of main_call5_v0 : StableHlo.TRef sig ⟨S200000x32, .f32⟩) (.of main_v181 : StableHlo.TRef sig ⟨S200000x32, .f32⟩) maximumf ]

theorem ops_L3c_sub : (ops_L3c : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

/-- The buffers ops_L3c writes, in order. -/
abbrev ops_L3c_w : List (Ref sig .tc) :=
  [main_v166, main_v167, main_v168, main_v169, main_v170, main_v171, main_cst_33, main_v172, main_v173, main_v174, main_v175, main_v176, main_v177, main_v178, main_v179, main_v180, main_call5_cst, main_call5_v0, main_v181]

/-- The output layer: 4 operations. -/
abbrev ops_Fin : List (HloOp τ sig (Elt F)) :=
  [ StableHlo.binary main_v181 main_arg15 main_v182 ((fun l r => Host.dotGeneral dot_S200000x32_S32x1_S200000x1_1_0_0_1_n_n none l r) : (⟨S200000x32, .f32⟩ : BufTy).Contents (Elt F) → (⟨S32x1, .f32⟩ : BufTy).Contents (Elt F) → (⟨S200000x1, .f32⟩ : BufTy).Contents (Elt F)),
    StableHlo.unary main_arg16 main_v183 (broadcastInDim S1x1 ![1] bcast_S1_S1x1_1 : (⟨S1, .f32⟩ : BufTy).Contents (Elt F) → (⟨S1x1, .f32⟩ : BufTy).Contents (Elt F)),
    StableHlo.unary main_v183 main_v184 (broadcastInDim S200000x1 ![0, 1] bcast_S1x1_S200000x1_0_1 : (⟨S1x1, .f32⟩ : BufTy).Contents (Elt F) → (⟨S200000x1, .f32⟩ : BufTy).Contents (Elt F)),
    StableHlo.binary main_v182 main_v184 main_v185 (addf : (⟨S200000x1, .f32⟩ : BufTy).Contents (Elt F) → (⟨S200000x1, .f32⟩ : BufTy).Contents (Elt F) → (⟨S200000x1, .f32⟩ : BufTy).Contents (Elt F)) ]

theorem ops_Fin_sub : (ops_Fin : List (HloOp τ sig (Elt F))).Forall fun op => op.bufs ⊆ StableHlo.tcRefs τ sig :=
  ⟨StableHlo.binary_bufs_sub .., StableHlo.unary_bufs_sub .., StableHlo.unary_bufs_sub .., StableHlo.binary_bufs_sub ..⟩

/-- The buffers ops_Fin writes, in order. -/
abbrev ops_Fin_w : List (Ref sig .tc) :=
  [main_v182, main_v183, main_v184, main_v185]

/-- The windows in order are the stages in order: the same operations, cut differently. -/
theorem windows_eq_stages :
    (ops_w0 ++ ops_w1 ++ ops_w2 ++ ops_w3 : List (HloOp τ sig (Elt F)))
      = ops_P ++ ops_L1a ++ ops_L1b ++ ops_L1c ++ ops_L2a ++ ops_L2b ++ ops_L2c ++ ops_L3a ++ ops_L3b ++ ops_L3c ++ ops_Fin := rfl

end Cert.ReferenceIdeal.Value

end
-- ==== Proof.RefVals.lean ====
/-
  What the reference program's operations, taken stage by stage, leave in the buffer each stage ends in: the stage
  function of Stages.lean applied to the contents the stage starts from. Each stage function is the stage's
  operations composed, so each equation holds by reading the operations' results off in order.
-/
import proofs.«417560_j33346126086480_1_alg».proof.Proof.RefOps
import proofs.«417560_j33346126086480_1_alg».proof.Proof.Stages
import Idealize.ShloMosaic.Lib.StableHlo.Run

noncomputable section

namespace Cert.ReferenceIdeal.Value

open Cert.ReferenceIdeal Cert.ReferenceIdeal.Facts₀ Idealize.ShloMosaic Idealize.SL.Sem Idealize.ShloMosaic.StableHlo

variable {F : FTy → Type} [FloatOps F]

/-! ## The edge table's rows and the normalisation -/

/-- Row 0 of the edge table. -/
theorem P_src (V : Valuation τ sig (Elt F)) :
    after ops_P V (Proc.devRef .tc main_v1) = Cert.Stages.srcOf (V (Proc.devRef .tc main_arg1)) := by
  after_results_simp
  rfl

/-- Row 1 of the edge table. -/
theorem P_dst (V : Valuation τ sig (Elt F)) :
    after ops_P V (Proc.devRef .tc main_v3) = Cert.Stages.dstOf (V (Proc.devRef .tc main_arg1)) := by
  after_results_simp
  rfl

/-- deg^(-1/2) of the edges' targets. -/
theorem P_norm (V : Valuation τ sig (Elt F)) :
    after ops_P V (Proc.devRef .tc main_v10) = Cert.Stages.norm (Cert.Stages.dstOf (V (Proc.devRef .tc main_arg1))) := by
  after_results_simp
  rfl

/-! ## Layer 1 -/

/-- Layer 1's convolution of X · W, from the normalisation and the two rows of the edge table. -/
theorem L1a_conv (V : Valuation τ sig (Elt F)) :
    after ops_L1a V (Proc.devRef .tc main_v47) = Cert.Stages.convN (Cert.Stages.lin1 (V (Proc.devRef .tc main_arg0)) (V (Proc.devRef .tc main_arg3))) (V (Proc.devRef .tc main_v10)) (V (Proc.devRef .tc main_v1)) (V (Proc.devRef .tc main_v3)) (V (Proc.devRef .tc main_arg4)) := by
  after_results_simp
  rfl

/-- The column means of layer 1's convolution. -/
theorem L1b_mean (V : Valuation τ sig (Elt F)) :
    after ops_L1b V (Proc.devRef .tc main_v50) = Cert.Stages.meanOf (V (Proc.devRef .tc main_v47)) := by
  after_results_simp
  rfl

/-- The column variances of layer 1's convolution. -/
theorem L1b_var (V : Valuation τ sig (Elt F)) :
    after ops_L1b V (Proc.devRef .tc main_v51) = Cert.Stages.varOf (V (Proc.devRef .tc main_v47)) := by
  after_results_simp
  rfl

/-- Layer 1's result: the convolution normalised by its statistics, scaled, shifted and clipped at zero. -/
theorem L1c_out (V : Valuation τ sig (Elt F)) :
    after ops_L1c V (Proc.devRef .tc main_v67) = Cert.Stages.bnWith (V (Proc.devRef .tc main_v47)) (V (Proc.devRef .tc main_v50)) (V (Proc.devRef .tc main_v51)) (V (Proc.devRef .tc main_arg5)) (V (Proc.devRef .tc main_arg6)) := by
  after_results_simp
  rfl

/-! ## Layer 2 -/

/-- Layer 2's convolution of X · W, from the normalisation and the two rows of the edge table. -/
theorem L2a_conv (V : Valuation τ sig (Elt F)) :
    after ops_L2a V (Proc.devRef .tc main_v104) = Cert.Stages.convN (Cert.Stages.lin32 (V (Proc.devRef .tc main_v67)) (V (Proc.devRef .tc main_arg7))) (V (Proc.devRef .tc main_v10)) (V (Proc.devRef .tc main_v1)) (V (Proc.devRef .tc main_v3)) (V (Proc.devRef .tc main_arg8)) := by
  after_results_simp
  rfl

/-- The column means of layer 2's convolution. -/
theorem L2b_mean (V : Valuation τ sig (Elt F)) :
    after ops_L2b V (Proc.devRef .tc main_v107) = Cert.Stages.meanOf (V (Proc.devRef .tc main_v104)) := by
  after_results_simp
  rfl

/-- The column variances of layer 2's convolution. -/
theorem L2b_var (V : Valuation τ sig (Elt F)) :
    after ops_L2b V (Proc.devRef .tc main_v108) = Cert.Stages.varOf (V (Proc.devRef .tc main_v104)) := by
  after_results_simp
  rfl

/-- Layer 2's result: the convolution normalised by its statistics, scaled, shifted and clipped at zero. -/
theorem L2c_out (V : Valuation τ sig (Elt F)) :
    after ops_L2c V (Proc.devRef .tc main_v124) = Cert.Stages.bnWith (V (Proc.devRef .tc main_v104)) (V (Proc.devRef .tc main_v107)) (V (Proc.devRef .tc main_v108)) (V (Proc.devRef .tc main_arg9)) (V (Proc.devRef .tc main_arg10)) := by
  after_results_simp
  rfl

/-! ## Layer 3 -/

/-- Layer 3's convolution of X · W, from the normalisation and the two rows of the edge table. -/
theorem L3a_conv (V : Valuation τ sig (Elt F)) :
    after ops_L3a V (Proc.devRef .tc main_v161) = Cert.Stages.convN (Cert.Stages.lin32 (V (Proc.devRef .tc main_v124)) (V (Proc.devRef .tc main_arg11))) (V (Proc.devRef .tc main_v10)) (V (Proc.devRef .tc main_v1)) (V (Proc.devRef .tc main_v3)) (V (Proc.devRef .tc main_arg12)) := by
  after_results_simp
  rfl

/-- The column means of layer 3's convolution. -/
theorem L3b_mean (V : Valuation τ sig (Elt F)) :
    after ops_L3b V (Proc.devRef .tc main_v164) = Cert.Stages.meanOf (V (Proc.devRef .tc main_v161)) := by
  after_results_simp
  rfl

/-- The column variances of layer 3's convolution. -/
theorem L3b_var (V : Valuation τ sig (Elt F)) :
    after ops_L3b V (Proc.devRef .tc main_v165) = Cert.Stages.varOf (V (Proc.devRef .tc main_v161)) := by
  after_results_simp
  rfl

/-- Layer 3's result: the convolution normalised by its statistics, scaled, shifted and clipped at zero. -/
theorem L3c_out (V : Valuation τ sig (Elt F)) :
    after ops_L3c V (Proc.devRef .tc main_v181) = Cert.Stages.bnWith (V (Proc.devRef .tc main_v161)) (V (Proc.devRef .tc main_v164)) (V (Proc.devRef .tc main_v165)) (V (Proc.devRef .tc main_arg13)) (V (Proc.devRef .tc main_arg14)) := by
  after_results_simp
  rfl

/-! ## The output layer -/

/-- The output layer X · fcW + fcb. -/
theorem Fin_out (V : Valuation τ sig (Elt F)) :
    after ops_Fin V (Proc.devRef .tc main_v185) = Cert.Stages.outOf (V (Proc.devRef .tc main_v181)) (V (Proc.devRef .tc main_arg15)) (V (Proc.devRef .tc main_arg16)) := by
  after_results_simp
  rfl

end Cert.ReferenceIdeal.Value

end
-- ==== Proof.RefRun.lean ====
/-
  The reference program's run, read stage by stage.

  The reference is a straight line of 291 host operations: the two rows of the edge table and the
  normalisation deg^(-1/2); three times a linear map, the graph convolution, the column statistics of
  its result and the normalisation by them with the clip at zero; the output layer. Its outlined
  functions (the variance with its guarded divisor, the clip) are the callee's operations run over the
  call's own buffers, so the whole program is one line of operations, and from any memory every weakly
  fair execution ends with each buffer at the fold of the operations' results over the launch contents.

  The fold is read one stage at a time, for an arbitrary valuation of the buffers: a stage's result
  buffer holds that stage's function of the buffers the stage reads, and a buffer the stage does not
  write holds what it held. Chaining the stages gives the network as a function of the argument arrays,
  which are never written.
-/
import proofs.«417560_j33346126086480_1_alg».proof.Proof.Gen.ReferenceIdeal
import proofs.«417560_j33346126086480_1_alg».proof.Proof.Stages
import proofs.«417560_j33346126086480_1_alg».proof.Proof.RefOps
import proofs.«417560_j33346126086480_1_alg».proof.Proof.RefVals
import Idealize.ShloMosaic.Lib.StableHlo.Run

-- deciding a property of all 308 buffers of the signature recurses past the default depth
set_option maxRecDepth 4096

noncomputable section

namespace Cert.ReferenceIdeal.Value

open Cert.ReferenceIdeal Idealize.ShloMosaic Idealize.ShloMosaic.TcCoe Idealize.SL.Sem Idealize.ShloMosaic.StableHlo

variable {F : FTy → Type} [FloatOps F]

/-! ## The program is the line of its operations -/

/-- A window that calls no function is its operations by unfolding. -/
theorem main_part0_eq (c : Dev nD) : main_part0 (F := F) c = seq ops_w0 := rfl

/-- A window with calls: the callee's body in place of the call, sequencing reassociated. -/
theorem main_part1_eq (c : Dev nD) : main_part1 (F := F) c = seq ops_w1 := by
  simp only [main_part1, fn_var.body, fn_where.body, fn_relu.body, seq, bind_assoc, pure_bind] <;> rfl

theorem main_part2_eq (c : Dev nD) : main_part2 (F := F) c = seq ops_w2 := by
  simp only [main_part2, fn_var.body, fn_where.body, fn_relu.body, seq, bind_assoc, pure_bind] <;> rfl

theorem main_part3_eq (c : Dev nD) : main_part3 (F := F) c = seq ops_w3 := by
  simp only [main_part3, fn_var.body, fn_where.body, fn_relu.body, seq, bind_assoc, pure_bind] <;> rfl

/-- @main runs its four windows in order. -/
theorem main_eq (c : Dev nD) : main (F := F) c = seq (ops_w0 ++ ops_w1 ++ ops_w2 ++ ops_w3) := by
  rw [seq_append, seq_append, seq_append, ← main_part0_eq c, ← main_part1_eq c, ← main_part2_eq c, ← main_part3_eq c]
  simp only [main, bind_assoc]

/-- The whole line, cut by stage. -/
abbrev ops : List (HloOp τ sig (Elt F)) :=
  ops_P ++ ops_L1a ++ ops_L1b ++ ops_L1c ++ ops_L2a ++ ops_L2b ++ ops_L2c ++ ops_L3a ++ ops_L3b ++ ops_L3c ++ ops_Fin

theorem main_eq_ops (c : Dev nD) : main (F := F) c = seq ops := (main_eq c).trans (congrArg seq windows_eq_stages)

/-- The signature scopes no buffer and no semaphore: every buffer is a tensor value's. -/
theorem scopedRefs_eq : (Finset.univ.filter fun b : Ref sig .tc => b.isScoped) = ∅ := by decide
theorem scopedSems_eq : (Finset.univ.filter fun sm : SemLoc sig => sm.isScoped .tc) = ∅ := by decide

/-! ## Folding over a concatenation -/

/-- The fold over two lines in turn is the fold over the second from the fold over the first. -/
theorem after_append (A B : List (HloOp τ sig (Elt F))) (V : Valuation τ sig (Elt F)) :
    after (A ++ B) V = after B (after A V) := by
  induction A generalizing V with
  | nil => rfl
  | cons op A ih => exact ih (op.result V)

theorem sub_append {A B : List (HloOp τ sig (Elt F))}
    (hA : A.Forall fun op => op.bufs ⊆ tcRefs τ sig) (hB : B.Forall fun op => op.bufs ⊆ tcRefs τ sig) :
    (A ++ B).Forall fun op => op.bufs ⊆ tcRefs τ sig := List.forall_append.mpr ⟨hA, hB⟩

theorem fresh_append {A B : List (HloOp τ sig (Elt F))}
    (hA : ∀ op ∈ A, op.fresh = ∅) (hB : ∀ op ∈ B, op.fresh = ∅) : ∀ op ∈ A ++ B, op.fresh = ∅ :=
  fun op h => (List.mem_append.mp h).elim (hA op) (hB op)

theorem ops_sub : (ops : List (HloOp τ sig (Elt F))).Forall fun op => op.bufs ⊆ tcRefs τ sig :=
  sub_append (sub_append (sub_append (sub_append (sub_append (sub_append (sub_append (sub_append (sub_append (sub_append
    ops_P_sub ops_L1a_sub) ops_L1b_sub) ops_L1c_sub) ops_L2a_sub) ops_L2b_sub) ops_L2c_sub) ops_L3a_sub) ops_L3b_sub)
    ops_L3c_sub) ops_Fin_sub

/-! ## What a stage does not write, it keeps

Each stage writes exactly the buffers listed beside it (one per operation, its result); a buffer outside
the list is told apart from each as a reference, and holds after the stage what it held before. -/

/-- An operation whose one written buffer is on a list of references writes inside the list. -/
theorem writes_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

theorem ops_P_writes : (ops_P : List (HloOp τ sig (Elt F))).Forall fun op =>
    op.writes ⊆ (ops_P_w.map (Proc.devRef (τ := τ) .tc)).toFinset := by
  simp only [ops_P, List.Forall, nullary_writes, unary_writes, binary_writes, ternary_writes, reshape_writes]
  repeat' apply And.intro
  all_goals exact writes_sub_of_mem (by decide)

theorem P_keep (V : Valuation τ sig (Elt F)) {r : Ref sig .tc} (hr : r ∉ ops_P_w) :
    after ops_P V (Proc.devRef .tc r) = V (Proc.devRef .tc r) :=
  after_of_writes_sub ops_P V ops_P_writes hr

theorem ops_P_fresh : ∀ op ∈ (ops_P : List (HloOp τ sig (Elt F))), op.fresh = ∅ := by
  intro _ h; (repeat (cases h with | head => rfl | tail _ h => ?_)); exact nomatch h

theorem ops_L1a_writes : (ops_L1a : List (HloOp τ sig (Elt F))).Forall fun op =>
    op.writes ⊆ (ops_L1a_w.map (Proc.devRef (τ := τ) .tc)).toFinset := by
  simp only [ops_L1a, List.Forall, nullary_writes, unary_writes, binary_writes, ternary_writes, reshape_writes]
  repeat' apply And.intro
  all_goals exact writes_sub_of_mem (by decide)

theorem L1a_keep (V : Valuation τ sig (Elt F)) {r : Ref sig .tc} (hr : r ∉ ops_L1a_w) :
    after ops_L1a V (Proc.devRef .tc r) = V (Proc.devRef .tc r) :=
  after_of_writes_sub ops_L1a V ops_L1a_writes hr

theorem ops_L1a_fresh : ∀ op ∈ (ops_L1a : List (HloOp τ sig (Elt F))), op.fresh = ∅ := by
  intro _ h; (repeat (cases h with | head => rfl | tail _ h => ?_)); exact nomatch h

theorem ops_L1b_writes : (ops_L1b : List (HloOp τ sig (Elt F))).Forall fun op =>
    op.writes ⊆ (ops_L1b_w.map (Proc.devRef (τ := τ) .tc)).toFinset := by
  simp only [ops_L1b, List.Forall, nullary_writes, unary_writes, binary_writes, ternary_writes, reshape_writes]
  repeat' apply And.intro
  all_goals exact writes_sub_of_mem (by decide)

theorem L1b_keep (V : Valuation τ sig (Elt F)) {r : Ref sig .tc} (hr : r ∉ ops_L1b_w) :
    after ops_L1b V (Proc.devRef .tc r) = V (Proc.devRef .tc r) :=
  after_of_writes_sub ops_L1b V ops_L1b_writes hr

theorem ops_L1b_fresh : ∀ op ∈ (ops_L1b : List (HloOp τ sig (Elt F))), op.fresh = ∅ := by
  intro _ h; (repeat (cases h with | head => rfl | tail _ h => ?_)); exact nomatch h

theorem ops_L1c_writes : (ops_L1c : List (HloOp τ sig (Elt F))).Forall fun op =>
    op.writes ⊆ (ops_L1c_w.map (Proc.devRef (τ := τ) .tc)).toFinset := by
  simp only [ops_L1c, List.Forall, nullary_writes, unary_writes, binary_writes, ternary_writes, reshape_writes]
  repeat' apply And.intro
  all_goals exact writes_sub_of_mem (by decide)

theorem L1c_keep (V : Valuation τ sig (Elt F)) {r : Ref sig .tc} (hr : r ∉ ops_L1c_w) :
    after ops_L1c V (Proc.devRef .tc r) = V (Proc.devRef .tc r) :=
  after_of_writes_sub ops_L1c V ops_L1c_writes hr

theorem ops_L1c_fresh : ∀ op ∈ (ops_L1c : List (HloOp τ sig (Elt F))), op.fresh = ∅ := by
  intro _ h; (repeat (cases h with | head => rfl | tail _ h => ?_)); exact nomatch h

theorem ops_L2a_writes : (ops_L2a : List (HloOp τ sig (Elt F))).Forall fun op =>
    op.writes ⊆ (ops_L2a_w.map (Proc.devRef (τ := τ) .tc)).toFinset := by
  simp only [ops_L2a, List.Forall, nullary_writes, unary_writes, binary_writes, ternary_writes, reshape_writes]
  repeat' apply And.intro
  all_goals exact writes_sub_of_mem (by decide)

theorem L2a_keep (V : Valuation τ sig (Elt F)) {r : Ref sig .tc} (hr : r ∉ ops_L2a_w) :
    after ops_L2a V (Proc.devRef .tc r) = V (Proc.devRef .tc r) :=
  after_of_writes_sub ops_L2a V ops_L2a_writes hr

theorem ops_L2a_fresh : ∀ op ∈ (ops_L2a : List (HloOp τ sig (Elt F))), op.fresh = ∅ := by
  intro _ h; (repeat (cases h with | head => rfl | tail _ h => ?_)); exact nomatch h

theorem ops_L2b_writes : (ops_L2b : List (HloOp τ sig (Elt F))).Forall fun op =>
    op.writes ⊆ (ops_L2b_w.map (Proc.devRef (τ := τ) .tc)).toFinset := by
  simp only [ops_L2b, List.Forall, nullary_writes, unary_writes, binary_writes, ternary_writes, reshape_writes]
  repeat' apply And.intro
  all_goals exact writes_sub_of_mem (by decide)

theorem L2b_keep (V : Valuation τ sig (Elt F)) {r : Ref sig .tc} (hr : r ∉ ops_L2b_w) :
    after ops_L2b V (Proc.devRef .tc r) = V (Proc.devRef .tc r) :=
  after_of_writes_sub ops_L2b V ops_L2b_writes hr

theorem ops_L2b_fresh : ∀ op ∈ (ops_L2b : List (HloOp τ sig (Elt F))), op.fresh = ∅ := by
  intro _ h; (repeat (cases h with | head => rfl | tail _ h => ?_)); exact nomatch h

theorem ops_L2c_writes : (ops_L2c : List (HloOp τ sig (Elt F))).Forall fun op =>
    op.writes ⊆ (ops_L2c_w.map (Proc.devRef (τ := τ) .tc)).toFinset := by
  simp only [ops_L2c, List.Forall, nullary_writes, unary_writes, binary_writes, ternary_writes, reshape_writes]
  repeat' apply And.intro
  all_goals exact writes_sub_of_mem (by decide)

theorem L2c_keep (V : Valuation τ sig (Elt F)) {r : Ref sig .tc} (hr : r ∉ ops_L2c_w) :
    after ops_L2c V (Proc.devRef .tc r) = V (Proc.devRef .tc r) :=
  after_of_writes_sub ops_L2c V ops_L2c_writes hr

theorem ops_L2c_fresh : ∀ op ∈ (ops_L2c : List (HloOp τ sig (Elt F))), op.fresh = ∅ := by
  intro _ h; (repeat (cases h with | head => rfl | tail _ h => ?_)); exact nomatch h

theorem ops_L3a_writes : (ops_L3a : List (HloOp τ sig (Elt F))).Forall fun op =>
    op.writes ⊆ (ops_L3a_w.map (Proc.devRef (τ := τ) .tc)).toFinset := by
  simp only [ops_L3a, List.Forall, nullary_writes, unary_writes, binary_writes, ternary_writes, reshape_writes]
  repeat' apply And.intro
  all_goals exact writes_sub_of_mem (by decide)

theorem L3a_keep (V : Valuation τ sig (Elt F)) {r : Ref sig .tc} (hr : r ∉ ops_L3a_w) :
    after ops_L3a V (Proc.devRef .tc r) = V (Proc.devRef .tc r) :=
  after_of_writes_sub ops_L3a V ops_L3a_writes hr

theorem ops_L3a_fresh : ∀ op ∈ (ops_L3a : List (HloOp τ sig (Elt F))), op.fresh = ∅ := by
  intro _ h; (repeat (cases h with | head => rfl | tail _ h => ?_)); exact nomatch h

theorem ops_L3b_writes : (ops_L3b : List (HloOp τ sig (Elt F))).Forall fun op =>
    op.writes ⊆ (ops_L3b_w.map (Proc.devRef (τ := τ) .tc)).toFinset := by
  simp only [ops_L3b, List.Forall, nullary_writes, unary_writes, binary_writes, ternary_writes, reshape_writes]
  repeat' apply And.intro
  all_goals exact writes_sub_of_mem (by decide)

theorem L3b_keep (V : Valuation τ sig (Elt F)) {r : Ref sig .tc} (hr : r ∉ ops_L3b_w) :
    after ops_L3b V (Proc.devRef .tc r) = V (Proc.devRef .tc r) :=
  after_of_writes_sub ops_L3b V ops_L3b_writes hr

theorem ops_L3b_fresh : ∀ op ∈ (ops_L3b : List (HloOp τ sig (Elt F))), op.fresh = ∅ := by
  intro _ h; (repeat (cases h with | head => rfl | tail _ h => ?_)); exact nomatch h

theorem ops_L3c_writes : (ops_L3c : List (HloOp τ sig (Elt F))).Forall fun op =>
    op.writes ⊆ (ops_L3c_w.map (Proc.devRef (τ := τ) .tc)).toFinset := by
  simp only [ops_L3c, List.Forall, nullary_writes, unary_writes, binary_writes, ternary_writes, reshape_writes]
  repeat' apply And.intro
  all_goals exact writes_sub_of_mem (by decide)

theorem L3c_keep (V : Valuation τ sig (Elt F)) {r : Ref sig .tc} (hr : r ∉ ops_L3c_w) :
    after ops_L3c V (Proc.devRef .tc r) = V (Proc.devRef .tc r) :=
  after_of_writes_sub ops_L3c V ops_L3c_writes hr

theorem ops_L3c_fresh : ∀ op ∈ (ops_L3c : List (HloOp τ sig (Elt F))), op.fresh = ∅ := by
  intro _ h; (repeat (cases h with | head => rfl | tail _ h => ?_)); exact nomatch h

theorem ops_Fin_writes : (ops_Fin : List (HloOp τ sig (Elt F))).Forall fun op =>
    op.writes ⊆ (ops_Fin_w.map (Proc.devRef (τ := τ) .tc)).toFinset := by
  simp only [ops_Fin, List.Forall, nullary_writes, unary_writes, binary_writes, ternary_writes, reshape_writes]
  repeat' apply And.intro
  all_goals exact writes_sub_of_mem (by decide)

theorem Fin_keep (V : Valuation τ sig (Elt F)) {r : Ref sig .tc} (hr : r ∉ ops_Fin_w) :
    after ops_Fin V (Proc.devRef .tc r) = V (Proc.devRef .tc r) :=
  after_of_writes_sub ops_Fin V ops_Fin_writes hr

theorem ops_Fin_fresh : ∀ op ∈ (ops_Fin : List (HloOp τ sig (Elt F))), op.fresh = ∅ := by
  intro _ h; (repeat (cases h with | head => rfl | tail _ h => ?_)); exact nomatch h

/-! ## A layer, from the buffers it reads

A layer is three stages in turn: the linear map with the convolution, the column statistics of the
convolution's result, the normalisation by them with the clip. The statistics stage keeps the
convolution's result and the scale and shift; the convolution stage keeps the scale and shift. -/

theorem L1_out (V : Valuation τ sig (Elt F)) :
    after ops_L1c (after ops_L1b (after ops_L1a V)) (Proc.devRef .tc main_v67)
      = Cert.Stages.layerN (Cert.Stages.lin1 (V (Proc.devRef .tc main_arg0)) (V (Proc.devRef .tc main_arg3))) (V (Proc.devRef .tc main_v10)) (V (Proc.devRef .tc main_v1)) (V (Proc.devRef .tc main_v3))
          (V (Proc.devRef .tc main_arg4)) (V (Proc.devRef .tc main_arg5)) (V (Proc.devRef .tc main_arg6)) := by
  rw [L1c_out, L1b_mean, L1b_var,
    L1b_keep _ (r := main_v47) (by decide), L1b_keep _ (r := main_arg5) (by decide), L1b_keep _ (r := main_arg6) (by decide),
    L1a_conv, L1a_keep _ (r := main_arg5) (by decide), L1a_keep _ (r := main_arg6) (by decide)]
  rfl

theorem L1_keep (V : Valuation τ sig (Elt F)) {r : Ref sig .tc}
    (ha : r ∉ ops_L1a_w) (hb : r ∉ ops_L1b_w) (hc : r ∉ ops_L1c_w) :
    after ops_L1c (after ops_L1b (after ops_L1a V)) (Proc.devRef .tc r) = V (Proc.devRef .tc r) := by
  rw [L1c_keep _ hc, L1b_keep _ hb, L1a_keep _ ha]

theorem L2_out (V : Valuation τ sig (Elt F)) :
    after ops_L2c (after ops_L2b (after ops_L2a V)) (Proc.devRef .tc main_v124)
      = Cert.Stages.layerN (Cert.Stages.lin32 (V (Proc.devRef .tc main_v67)) (V (Proc.devRef .tc main_arg7))) (V (Proc.devRef .tc main_v10)) (V (Proc.devRef .tc main_v1)) (V (Proc.devRef .tc main_v3))
          (V (Proc.devRef .tc main_arg8)) (V (Proc.devRef .tc main_arg9)) (V (Proc.devRef .tc main_arg10)) := by
  rw [L2c_out, L2b_mean, L2b_var,
    L2b_keep _ (r := main_v104) (by decide), L2b_keep _ (r := main_arg9) (by decide), L2b_keep _ (r := main_arg10) (by decide),
    L2a_conv, L2a_keep _ (r := main_arg9) (by decide), L2a_keep _ (r := main_arg10) (by decide)]
  rfl

theorem L2_keep (V : Valuation τ sig (Elt F)) {r : Ref sig .tc}
    (ha : r ∉ ops_L2a_w) (hb : r ∉ ops_L2b_w) (hc : r ∉ ops_L2c_w) :
    after ops_L2c (after ops_L2b (after ops_L2a V)) (Proc.devRef .tc r) = V (Proc.devRef .tc r) := by
  rw [L2c_keep _ hc, L2b_keep _ hb, L2a_keep _ ha]

theorem L3_out (V : Valuation τ sig (Elt F)) :
    after ops_L3c (after ops_L3b (after ops_L3a V)) (Proc.devRef .tc main_v181)
      = Cert.Stages.layerN (Cert.Stages.lin32 (V (Proc.devRef .tc main_v124)) (V (Proc.devRef .tc main_arg11))) (V (Proc.devRef .tc main_v10)) (V (Proc.devRef .tc main_v1)) (V (Proc.devRef .tc main_v3))
          (V (Proc.devRef .tc main_arg12)) (V (Proc.devRef .tc main_arg13)) (V (Proc.devRef .tc main_arg14)) := by
  rw [L3c_out, L3b_mean, L3b_var,
    L3b_keep _ (r := main_v161) (by decide), L3b_keep _ (r := main_arg13) (by decide), L3b_keep _ (r := main_arg14) (by decide),
    L3a_conv, L3a_keep _ (r := main_arg13) (by decide), L3a_keep _ (r := main_arg14) (by decide)]
  rfl

theorem L3_keep (V : Valuation τ sig (Elt F)) {r : Ref sig .tc}
    (ha : r ∉ ops_L3a_w) (hb : r ∉ ops_L3b_w) (hc : r ∉ ops_L3c_w) :
    after ops_L3c (after ops_L3b (after ops_L3a V)) (Proc.devRef .tc r) = V (Proc.devRef .tc r) := by
  rw [L3c_keep _ hc, L3b_keep _ hb, L3a_keep _ ha]

/-! ## The whole line -/

/-- The fold over the whole line is the stages' folds in turn. -/
theorem ops_after (V : Valuation τ sig (Elt F)) :
    after ops V = after ops_Fin (after ops_L3c (after ops_L3b (after ops_L3a (after ops_L2c (after ops_L2b (after ops_L2a
      (after ops_L1c (after ops_L1b (after ops_L1a (after ops_P V)))))))))) := by
  simp only [ops, after_append]

/-- The result buffer ends at the network of the argument arrays: the output layer of the third layer's
    result, each layer of the one before, the first of the input features; every stage reads the edge
    table's rows and the normalisation where the first stage left them, and the weights where they were
    launched. -/
theorem out_val (V : Valuation τ sig (Elt F)) :
    after ops V (Proc.devRef .tc main_v185)
      = Cert.Stages.net (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) := by
  rw [ops_after, Fin_out, L3_out,
    L3_keep _ (r := main_arg15) (by decide) (by decide) (by decide),
    L3_keep _ (r := main_arg16) (by decide) (by decide) (by decide),
    L2_out,
    L2_keep _ (r := main_arg11) (by decide) (by decide) (by decide),
    L2_keep _ (r := main_v10) (by decide) (by decide) (by decide),
    L2_keep _ (r := main_v1) (by decide) (by decide) (by decide),
    L2_keep _ (r := main_v3) (by decide) (by decide) (by decide),
    L2_keep _ (r := main_arg12) (by decide) (by decide) (by decide),
    L2_keep _ (r := main_arg13) (by decide) (by decide) (by decide),
    L2_keep _ (r := main_arg14) (by decide) (by decide) (by decide),
    L2_keep _ (r := main_arg15) (by decide) (by decide) (by decide),
    L2_keep _ (r := main_arg16) (by decide) (by decide) (by decide),
    L1_out,
    L1_keep _ (r := main_arg7) (by decide) (by decide) (by decide),
    L1_keep _ (r := main_v10) (by decide) (by decide) (by decide),
    L1_keep _ (r := main_v1) (by decide) (by decide) (by decide),
    L1_keep _ (r := main_v3) (by decide) (by decide) (by decide),
    L1_keep _ (r := main_arg8) (by decide) (by decide) (by decide),
    L1_keep _ (r := main_arg9) (by decide) (by decide) (by decide),
    L1_keep _ (r := main_arg10) (by decide) (by decide) (by decide),
    L1_keep _ (r := main_arg11) (by decide) (by decide) (by decide),
    L1_keep _ (r := main_arg12) (by decide) (by decide) (by decide),
    L1_keep _ (r := main_arg13) (by decide) (by decide) (by decide),
    L1_keep _ (r := main_arg14) (by decide) (by decide) (by decide),
    L1_keep _ (r := main_arg15) (by decide) (by decide) (by decide),
    L1_keep _ (r := main_arg16) (by decide) (by decide) (by decide),
    P_src, P_dst, P_norm,
    P_keep _ (r := main_arg0) (by decide),
    P_keep _ (r := main_arg3) (by decide),
    P_keep _ (r := main_arg4) (by decide),
    P_keep _ (r := main_arg5) (by decide),
    P_keep _ (r := main_arg6) (by decide),
    P_keep _ (r := main_arg7) (by decide),
    P_keep _ (r := main_arg8) (by decide),
    P_keep _ (r := main_arg9) (by decide),
    P_keep _ (r := main_arg10) (by decide),
    P_keep _ (r := main_arg11) (by decide),
    P_keep _ (r := main_arg12) (by decide),
    P_keep _ (r := main_arg13) (by decide),
    P_keep _ (r := main_arg14) (by decide),
    P_keep _ (r := main_arg15) (by decide),
    P_keep _ (r := main_arg16) (by decide)]
  rfl

/-- No stage writes an argument array. -/
theorem arg_keep (V : Valuation τ sig (Elt F)) {r : Ref sig .tc} (hP : r ∉ ops_P_w)
    (h1a : r ∉ ops_L1a_w) (h1b : r ∉ ops_L1b_w) (h1c : r ∉ ops_L1c_w)
    (h2a : r ∉ ops_L2a_w) (h2b : r ∉ ops_L2b_w) (h2c : r ∉ ops_L2c_w)
    (h3a : r ∉ ops_L3a_w) (h3b : r ∉ ops_L3b_w) (h3c : r ∉ ops_L3c_w) (hF : r ∉ ops_Fin_w) :
    after ops V (Proc.devRef .tc r) = V (Proc.devRef .tc r) := by
  rw [ops_after, Fin_keep _ hF, L3_keep _ h3a h3b h3c, L2_keep _ h2a h2b h2c, L1_keep _ h1a h1b h1c, P_keep _ hP]

theorem ops_fresh : ∀ op ∈ (ops : List (HloOp τ sig (Elt F))), op.fresh = ∅ :=
  fresh_append (fresh_append (fresh_append (fresh_append (fresh_append (fresh_append (fresh_append (fresh_append (fresh_append
    (fresh_append ops_P_fresh ops_L1a_fresh) ops_L1b_fresh) ops_L1c_fresh) ops_L2a_fresh) ops_L2b_fresh) ops_L2c_fresh)
    ops_L3a_fresh) ops_L3b_fresh) ops_L3c_fresh) ops_Fin_fresh

/-! ## The run -/

/-- On every device, for any float values, from any memory with zero counters: every weakly fair execution
    of @main terminates with the result buffer at the network of the launched argument arrays, and the
    argument arrays as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v185)
        = Cert.Stages.net (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v185).trans (out_val _),
      (h c main_arg0).trans (arg_keep _ (by decide) (by decide) (by decide) (by decide) (by decide) (by decide) (by decide) (by decide) (by decide) (by decide) (by decide)),
      (h c main_arg1).trans (arg_keep _ (by decide) (by decide) (by decide) (by decide) (by decide) (by decide) (by decide) (by decide) (by decide) (by decide) (by decide)),
      (h c main_arg2).trans (arg_keep _ (by decide) (by decide) (by decide) (by decide) (by decide) (by decide) (by decide) (by decide) (by decide) (by decide) (by decide)),
      (h c main_arg3).trans (arg_keep _ (by decide) (by decide) (by decide) (by decide) (by decide) (by decide) (by decide) (by decide) (by decide) (by decide) (by decide)),
      (h c main_arg4).trans (arg_keep _ (by decide) (by decide) (by decide) (by decide) (by decide) (by decide) (by decide) (by decide) (by decide) (by decide) (by decide)),
      (h c main_arg5).trans (arg_keep _ (by decide) (by decide) (by decide) (by decide) (by decide) (by decide) (by decide) (by decide) (by decide) (by decide) (by decide)),
      (h c main_arg6).trans (arg_keep _ (by decide) (by decide) (by decide) (by decide) (by decide) (by decide) (by decide) (by decide) (by decide) (by decide) (by decide)),
      (h c main_arg7).trans (arg_keep _ (by decide) (by decide) (by decide) (by decide) (by decide) (by decide) (by decide) (by decide) (by decide) (by decide) (by decide)),
      (h c main_arg8).trans (arg_keep _ (by decide) (by decide) (by decide) (by decide) (by decide) (by decide) (by decide) (by decide) (by decide) (by decide) (by decide)),
      (h c main_arg9).trans (arg_keep _ (by decide) (by decide) (by decide) (by decide) (by decide) (by decide) (by decide) (by decide) (by decide) (by decide) (by decide)),
      (h c main_arg10).trans (arg_keep _ (by decide) (by decide) (by decide) (by decide) (by decide) (by decide) (by decide) (by decide) (by decide) (by decide) (by decide)),
      (h c main_arg11).trans (arg_keep _ (by decide) (by decide) (by decide) (by decide) (by decide) (by decide) (by decide) (by decide) (by decide) (by decide) (by decide)),
      (h c main_arg12).trans (arg_keep _ (by decide) (by decide) (by decide) (by decide) (by decide) (by decide) (by decide) (by decide) (by decide) (by decide) (by decide)),
      (h c main_arg13).trans (arg_keep _ (by decide) (by decide) (by decide) (by decide) (by decide) (by decide) (by decide) (by decide) (by decide) (by decide) (by decide)),
      (h c main_arg14).trans (arg_keep _ (by decide) (by decide) (by decide) (by decide) (by decide) (by decide) (by decide) (by decide) (by decide) (by decide) (by decide)),
      (h c main_arg15).trans (arg_keep _ (by decide) (by decide) (by decide) (by decide) (by decide) (by decide) (by decide) (by decide) (by decide) (by decide) (by decide)),
      (h c main_arg16).trans (arg_keep _ (by decide) (by decide) (by decide) (by decide) (by decide) (by decide) (by decide) (by decide) (by decide) (by decide) (by decide))⟩)
    (run_seq scopedRefs_eq scopedSems_eq defs main (fun _ => ops) main_eq_ops (fun _ => ops_sub) m ρ (fun _ => ops_fresh))

end Cert.ReferenceIdeal.Value

end
-- ==== Proof.lean ====
/-
  The certificate of `Cert.Claim`: the kernel program (three graph-convolution layers with batch normalisation and an output
  layer, its dense and pointwise parts in ten tiled regions) against the plain reference, over the extended reals.

  Frames: the kernel program's two frames are the generated ones; the reference's is its run with the result dropped.
  Nothing was rewritten by the idealization, so `preserves` holds trivially. The value claim: both programs end with the
  result array at `Cert.Stages.net` of the argument arrays — the reference by running its operations stage by stage, the
  kernel program by reading the generated fold of its stretches and regions (`Cert.KernelIdeal.KVal.result`), which needs
  every source index of the edge table to be a node number (the precondition's last conjunct): outside that range the
  kernel program's gather in its default mode fills a row where the reference reads a clamped one.
-/
import proofs.«417560_j33346126086480_1_alg».proof.Defs
import proofs.«417560_j33346126086480_1_alg».proof.Proof.Gen.Kernel
import proofs.«417560_j33346126086480_1_alg».proof.Proof.Gen.Kernel.Frame
import proofs.«417560_j33346126086480_1_alg».proof.Proof.Gen.KernelIdeal
import proofs.«417560_j33346126086480_1_alg».proof.Proof.Gen.KernelIdeal.Frame
import proofs.«417560_j33346126086480_1_alg».proof.Proof.Gen.ReferenceIdeal
import proofs.«417560_j33346126086480_1_alg».proof.Proof.Gen.Pre_finite_inputs
import proofs.«417560_j33346126086480_1_alg».proof.Proof.KRun
import proofs.«417560_j33346126086480_1_alg».proof.Proof.AsmFinal
import proofs.«417560_j33346126086480_1_alg».proof.Proof.RefRun
import Idealize.ShloMosaic.Adequacy
import Idealize.ShloMosaic.Init

noncomputable section

namespace Cert.Proof

open Idealize.ShloMosaic Idealize.SL.Sem

/-- Both programs end with the result at the network function of the arguments; the arguments agree, so the results do. -/
theorem algebraic : Cert.algebraic_KernelIdeal_ReferenceIdeal := by
  intro m ρ m' ρ' hpre hagree
  refine ⟨fun c => Cert.Stages.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · exact (θ_run Cert.KernelIdeal.defs _ _).mono
      (fun r h c => ⟨(h c).1.trans (Cert.KernelIdeal.KVal.result m ρ c (Cert.Bridges.srcInRange_of_pre m hpre c)), (h c).2⟩)
      (Cert.KernelIdeal.GenRun.run m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15, e16⟩ := hagree c
    rw [e0, e1, e3, e4, e5, e6, e7, e8, e9, e10, e11, e12, e13, e14, e15, e16]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
